-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S100000x3 : Shape := ⟨2, ![100000, 3]⟩
abbrev S3200000x8 : Shape := ⟨2, ![3200000, 8]⟩
abbrev S3200000 : Shape := ⟨1, ![3200000]⟩
abbrev S73x32 : Shape := ⟨2, ![73, 32]⟩
abbrev S32 : Shape := ⟨1, ![32]⟩
abbrev S32x32 : Shape := ⟨2, ![32, 32]⟩
abbrev S64x32 : Shape := ⟨2, ![64, 32]⟩
abbrev S32x1 : Shape := ⟨2, ![32, 1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S3200000x8 : S_.BroadcastsInDim S3200000x8 (![] : Fin 0 → Fin S3200000x8.rank)
  reducesTo_S3200000x8_S_d0_1 : S3200000x8.ReducesTo [0, 1] S_
  bcast_S_S73x32 : S_.BroadcastsInDim S73x32 (![] : Fin 0 → Fin S73x32.rank)
  reducesTo_S73x32_S_d0_1 : S73x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S64x32 : S_.BroadcastsInDim S64x32 (![] : Fin 0 → Fin S64x32.rank)
  reducesTo_S64x32_S_d0_1 : S64x32.ReducesTo [0, 1] S_
  bcast_S_S32x1 : S_.BroadcastsInDim S32x1 (![] : Fin 0 → Fin S32x1.rank)
  reducesTo_S32x1_S_d0_1 : S32x1.ReducesTo [0, 1] S_
  bcast_S_S3200000 : S_.BroadcastsInDim S3200000 (![] : Fin 0 → Fin S3200000.rank)
  reducesTo_S3200000_S_d0 : S3200000.ReducesTo [0] S_

variable [Facts]

def fn_part4 {F : FTy → Type} [FloatOps F] (main_arg3 : IVec S3200000 32) (main_v63 : IVec S_ 1) (main_v67 : IVec S_ 1) : IVec S_ 1 :=
  let main_v68 : IVec S_ 1 := andi main_v63 main_v67
  let main_c_26 : IVec S_ 32 := constantI S_ 32 4294867296#32
  let main_v69 : IVec S3200000 32 := broadcastInDim S3200000 ![] bcast_S_S3200000 main_c_26
  let main_v70 : IVec S3200000 1 := cmpi .sge main_arg3 main_v69
  let main_c_27 : IVec S_ 1 := constantI S_ 1 1#1
  let main_v71 : IVec S_ 1 := (fun x v => Host.reduce IntOp.andi x v reducesTo_S3200000_S_d0 h_S_) main_v70 main_c_27
  let main_v72 : IVec S_ 1 := andi main_v68 main_v71
  let main_c_28 : IVec S_ 32 := constantI S_ 32 100000#32
  let main_v73 : IVec S3200000 32 := broadcastInDim S3200000 ![] bcast_S_S3200000 main_c_28
  let main_v74 : IVec S3200000 1 := cmpi .slt main_arg3 main_v73
  let main_c_29 : IVec S_ 1 := constantI S_ 1 1#1
  let main_v75 : IVec S_ 1 := (fun x v => Host.reduce IntOp.andi x v reducesTo_S3200000_S_d0 h_S_) main_v74 main_c_29
  let main_v76 : IVec S_ 1 := andi main_v72 main_v75
  main_v76

def fn_part3 {F : FTy → Type} [FloatOps F] (main_arg3 : IVec S3200000 32) (main_arg13 : FVec F S32x32 .f32) (main_arg14 : FVec F S32 .f32) (main_arg15 : FVec F S32x1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x1 .f32 := Host.absf main_arg15
  let main_cst_24 : FVec F S_ .f32 := constant S_ .f32 0x7F800000#32
  let main_v65 : FVec F S32x1 .f32 := broadcastInDim S32x1 ![] bcast_S_S32x1 main_cst_24
  let main_v66 : IVec S32x1 1 := cmpf .olt main_v64 main_v65
  let main_c_25 : IVec S_ 1 := constantI S_ 1 1#1
  let main_v67 : IVec S_ 1 := (fun x v => Host.reduce IntOp.andi x v reducesTo_S32x1_S_d0_1 h_S_) main_v66 main_c_25
  fn_part4 (F := F) main_arg3 main_v63 main_v67

def fn_part2 {F : FTy → Type} [FloatOps F] (main_arg3 : IVec S3200000 32) (main_arg9 : FVec F S64x32 .f32) (main_arg10 : FVec F S32 .f32) (main_arg11 : FVec F S32x32 .f32) (main_arg12 : FVec F S32 .f32) (main_arg13 : FVec F S32x32 .f32) (main_arg14 : FVec F S32 .f32) (main_arg15 : FVec F S32x1 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg3 main_arg13 main_arg14 main_arg15 main_v48 main_v49 main_v50

def fn_part1 {F : FTy → Type} [FloatOps F] (main_arg3 : IVec S3200000 32) (main_arg6 : FVec F S32 .f32) (main_arg7 : FVec F S32x32 .f32) (main_arg8 : FVec F S32 .f32) (main_arg9 : FVec F S64x32 .f32) (main_arg10 : FVec F S32 .f32) (main_arg11 : FVec F S32x32 .f32) (main_arg12 : FVec F S32 .f32) (main_arg13 : FVec F S32x32 .f32) (main_arg14 : FVec F S32 .f32) (main_arg15 : FVec F S32x1 .f32) (main_v13 : IVec S_ 1) (main_v16 : IVec S73x32 1) : IVec S_ 1 :=
  let main_c_5 : IVec S_ 1 := constantI S_ 1 1#1
  let main_v17 : IVec S_ 1 := (fun x v => Host.reduce IntOp.andi x v reducesTo_S73x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg3 main_arg9 main_arg10 main_arg11 main_arg12 main_arg13 main_arg14 main_arg15 main_v33

def fn {F : FTy → Type} [FloatOps F] (main_arg0 : FVec F S100000x32 .f32) (main_arg1 : FVec F S100000x3 .f32) (main_arg2 : FVec F S3200000x8 .f32) (main_arg3 : IVec S3200000 32) (main_arg4 : IVec S3200000 32) (main_arg5 : FVec F S73x32 .f32) (main_arg6 : FVec F S32 .f32) (main_arg7 : FVec F S32x32 .f32) (main_arg8 : FVec F S32 .f32) (main_arg9 : FVec F S64x32 .f32) (main_arg10 : FVec F S32 .f32) (main_arg11 : FVec F S32x32 .f32) (main_arg12 : FVec F S32 .f32) (main_arg13 : FVec F S32x32 .f32) (main_arg14 : FVec F S32 .f32) (main_arg15 : FVec F S32x1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S3200000x8 .f32 := Host.absf main_arg2
  let main_cst_2 : FVec F S_ .f32 := constant S_ .f32 0x7F800000#32
  let main_v10 : FVec F S3200000x8 .f32 := broadcastInDim S3200000x8 ![] bcast_S_S3200000x8 main_cst_2
  let main_v11 : IVec S3200000x8 1 := cmpf .olt main_v9 main_v10
  let main_c_3 : IVec S_ 1 := constantI S_ 1 1#1
  let main_v12 : IVec S_ 1 := (fun x v => Host.reduce IntOp.andi x v reducesTo_S3200000x8_S_d0_1 h_S_) main_v11 main_c_3
  let main_v13 : IVec S_ 1 := andi main_v8 main_v12
  let main_v14 : FVec F S73x32 .f32 := Host.absf main_arg5
  let main_cst_4 : FVec F S_ .f32 := constant S_ .f32 0x7F800000#32
  let main_v15 : FVec F S73x32 .f32 := broadcastInDim S73x32 ![] bcast_S_S73x32 main_cst_4
  let main_v16 : IVec S73x32 1 := cmpf .olt main_v14 main_v15
  fn_part1 (F := F) main_arg3 main_arg6 main_arg7 main_arg8 main_arg9 main_arg10 main_arg11 main_arg12 main_arg13 main_arg14 main_arg15 main_v13 main_v16
-- ==== Kernel.lean ====
abbrev S100000x32 : Shape := ⟨2, ![100000, 32]⟩
abbrev S100000x3 : Shape := ⟨2, ![100000, 3]⟩
abbrev S3200000x8 : Shape := ⟨2, ![3200000, 8]⟩
abbrev S3200000 : Shape := ⟨1, ![3200000]⟩
abbrev S73x32 : Shape := ⟨2, ![73, 32]⟩
abbrev S32 : Shape := ⟨1, ![32]⟩
abbrev S32x32 : Shape := ⟨2, ![32, 32]⟩
abbrev S64x32 : Shape := ⟨2, ![64, 32]⟩
abbrev S32x1 : Shape := ⟨2, ![32, 1]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3200000x32 : Shape := ⟨2, ![3200000, 32]⟩
abbrev S3200000x3 : Shape := ⟨2, ![3200000, 3]⟩
abbrev S3200000x14 : Shape := ⟨2, ![3200000, 14]⟩
abbrev S1x32 : Shape := ⟨2, ![1, 32]⟩
abbrev S8x32 : Shape := ⟨2, ![8, 32]⟩
abbrev S6400x32 : Shape := ⟨2, ![6400, 32]⟩
abbrev S6400x14 : Shape := ⟨2, ![6400, 14]⟩
abbrev S6400x3 : Shape := ⟨2, ![6400, 3]⟩
abbrev S6400x8 : Shape := ⟨2, ![6400, 8]⟩
abbrev S6400 : Shape := ⟨1, ![6400]⟩
abbrev S6400x1 : Shape := ⟨2, ![6400, 1]⟩
abbrev S100000 : Shape := ⟨1, ![100000]⟩
abbrev S100000x1 : Shape := ⟨2, ![100000, 1]⟩
abbrev S100000x7 : Shape := ⟨2, ![100000, 7]⟩
abbrev S5000x32 : Shape := ⟨2, ![5000, 32]⟩
abbrev S5000x7 : Shape := ⟨2, ![5000, 7]⟩
abbrev S5000x3 : Shape := ⟨2, ![5000, 3]⟩
abbrev S5000x1 : Shape := ⟨2, ![5000, 1]⟩

abbrev nBuf : Space → Nat
  | .hbm => 142
  | .vmem => 35
  | .smem => 0
  | _ => 0

abbrev hbmTy0_0 (i : Nat) : BufTy := match i % 128 with
  | 0 => ⟨S100000x32, .f32⟩
  | 1 => ⟨S100000x3, .f32⟩
  | 2 => ⟨S3200000x8, .f32⟩
  | 3 => ⟨S3200000, .i32⟩
  | 4 => ⟨S3200000, .i32⟩
  | 5 => ⟨S73x32, .f32⟩
  | 6 => ⟨S32, .f32⟩
  | 7 => ⟨S32x32, .f32⟩
  | 8 => ⟨S32, .f32⟩
  | 9 => ⟨S64x32, .f32⟩
  | 10 => ⟨S32, .f32⟩
  | 11 => ⟨S32x32, .f32⟩
  | 12 => ⟨S32, .f32⟩
  | 13 => ⟨S32x32, .f32⟩
  | 14 => ⟨S32, .f32⟩
  | 15 => ⟨S32x1, .f32⟩
  | 16 => ⟨S_, .i32⟩
  | 17 => ⟨S3200000, .i32⟩
  | 18 => ⟨S3200000, .i1⟩
  | 19 => ⟨S_, .i32⟩
  | 20 => ⟨S3200000, .i32⟩
  | 21 => ⟨S3200000, .i32⟩
  | 22 => ⟨S3200000, .i32⟩
  | 23 => ⟨S3200000x1, .i32⟩
  | 24 => ⟨S1, .i32⟩
  | 25 => ⟨S_, .i32⟩
  | 26 => ⟨S3200000x1, .i32⟩
  | 27 => ⟨S3200000x1, .i1⟩
  | 28 => ⟨S1x1, .i32⟩
  | 29 => ⟨S3200000x1, .i32⟩
  | 30 => ⟨S3200000x1, .i1⟩
  | 31 => ⟨S3200000x1, .i1⟩
  | 32 => ⟨S_, .i1⟩
  | 33 => ⟨S3200000, .i1⟩
  | 34 => ⟨S3200000x32, .f32⟩
  | 35 => ⟨S3200000x32, .i1⟩
  | 36 => ⟨S_, .f32⟩
  | 37 => ⟨S3200000x32, .f32⟩
  | 38 => ⟨S3200000x32, .f32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S1, .i32⟩
  | 48 => ⟨S_, .i32⟩
  | 49 => ⟨S3200000x1, .i32⟩
  | 50 => ⟨S3200000x1, .i1⟩
  | 51 => ⟨S1x1, .i32⟩
  | 52 => ⟨S3200000x1, .i32⟩
  | 53 => ⟨S3200000x1, .i1⟩
  | 54 => ⟨S3200000x1, .i1⟩
  | 55 => ⟨S_, .i1⟩
  | 56 => ⟨S3200000, .i1⟩
  | 57 => ⟨S3200000x32, .f32⟩
  | 58 => ⟨S3200000x32, .i1⟩
  | 59 => ⟨S_, .f32⟩
  | 60 => ⟨S3200000x32, .f32⟩
  | 61 => ⟨S3200000x32, .f32⟩
  | 62 => ⟨S_, .i32⟩
  | 63 => ⟨S3200000, .i32⟩
  | 64 => ⟨S3200000, .i1⟩
  | 65 => ⟨S_, .i32⟩
  | 66 => ⟨S3200000, .i32⟩
  | 67 => ⟨S3200000, .i32⟩
  | 68 => ⟨S3200000, .i32⟩
  | 69 => ⟨S3200000x1, .i32⟩
  | 70 => ⟨S1, .i32⟩
  | 71 => ⟨S_, .i32⟩
  | 72 => ⟨S3200000x1, .i32⟩
  | 73 => ⟨S3200000x1, .i1⟩
  | 74 => ⟨S1x1, .i32⟩
  | 75 => ⟨S3200000x1, .i32⟩
  | 76 => ⟨S3200000x1, .i1⟩
  | 77 => ⟨S3200000x1, .i1⟩
  | 78 => ⟨S_, .i1⟩
  | 79 => ⟨S3200000, .i1⟩
  | 80 => ⟨S3200000x3, .f32⟩
  | 81 => ⟨S3200000x3, .i1⟩
  | 82 => ⟨S_, .f32⟩
  | 83 => ⟨S3200000x3, .f32⟩
  | 84 => ⟨S3200000x3, .f32⟩
  | 85 => ⟨S_, .i32⟩
  | 86 => ⟨S3200000, .i32⟩
  | 87 => ⟨S3200000, .i1⟩
  | 88 => ⟨S_, .i32⟩
  | 89 => ⟨S3200000, .i32⟩
  | 90 => ⟨S3200000, .i32⟩
  | 91 => ⟨S3200000, .i32⟩
  | 92 => ⟨S3200000x1, .i32⟩
  | 93 => ⟨S1, .i32⟩
  | 94 => ⟨S_, .i32⟩
  | 95 => ⟨S3200000x1, .i32⟩
  | 96 => ⟨S3200000x1, .i1⟩
  | 97 => ⟨S1x1, .i32⟩
  | 98 => ⟨S3200000x1, .i32⟩
  | 99 => ⟨S3200000x1, .i1⟩
  | 100 => ⟨S3200000x1, .i1⟩
  | 101 => ⟨S_, .i1⟩
  | 102 => ⟨S3200000, .i1⟩
  | 103 => ⟨S3200000x3, .f32⟩
  | 104 => ⟨S3200000x3, .i1⟩
  | 105 => ⟨S_, .f32⟩
  | 106 => ⟨S3200000x3, .f32⟩
  | 107 => ⟨S3200000x3, .f32⟩
  | 108 => ⟨S3200000x14, .f32⟩
  | 109 => ⟨S32x32, .f32⟩
  | 110 => ⟨S32x32, .f32⟩
  | 111 => ⟨S1x32, .f32⟩
  | 112 => ⟨S8x32, .f32⟩
  | 113 => ⟨S1x32, .f32⟩
  | 114 => ⟨S1x32, .f32⟩
  | 115 => ⟨S1x32, .f32⟩
  | 116 => ⟨S1x32, .f32⟩
  | 117 => ⟨S3200000x32, .bf16⟩
  | 118 => ⟨S3200000x3, .f32⟩
  | 119 => ⟨S3200000x32, .f32⟩
  | 120 => ⟨S_, .f32⟩
  | 121 => ⟨S100000x32, .f32⟩
  | 122 => ⟨S3200000x1, .i32⟩
  | 123 => ⟨S100000x32, .f32⟩
  | 124 => ⟨S_, .f32⟩
  | 125 => ⟨S100000x3, .f32⟩
  | 126 => ⟨S3200000x1, .i32⟩
  | 127 => ⟨S100000x3, .f32⟩
  | _ => ⟨S100000x32, .f32⟩

abbrev hbmTy0_1 (i : Nat) : BufTy := match i % 128 with
  | 0 => ⟨S_, .f32⟩
  | 1 => ⟨S3200000, .f32⟩
  | 2 => ⟨S_, .f32⟩
  | 3 => ⟨S100000, .f32⟩
  | 4 => ⟨S3200000x1, .i32⟩
  | 5 => ⟨S100000, .f32⟩
  | 6 => ⟨S100000x1, .f32⟩
  | 7 => ⟨S100000x7, .f32⟩
  | 8 => ⟨S32x32, .f32⟩
  | 9 => ⟨S32x32, .f32⟩
  | 10 => ⟨S1x32, .f32⟩
  | 11 => ⟨S1x32, .f32⟩
  | 12 => ⟨S100000x32, .f32⟩
  | 13 => ⟨S100000x3, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S6400x32, .f32⟩
  | .local _ .vmem, ⟨1, _⟩ => ⟨S6400x32, .f32⟩
  | .local _ .vmem, ⟨2, _⟩ => ⟨S6400x32, .f32⟩
  | .local _ .vmem, ⟨3, _⟩ => ⟨S6400x32, .f32⟩
  | .local _ .vmem, ⟨4, _⟩ => ⟨S6400x14, .f32⟩
  | .local _ .vmem, ⟨5, _⟩ => ⟨S6400x14, .f32⟩
  | .local _ .vmem, ⟨6, _⟩ => ⟨S32x32, .f32⟩
  | .local _ .vmem, ⟨7, _⟩ => ⟨S32x32, .f32⟩
  | .local _ .vmem, ⟨8, _⟩ => ⟨S1x32, .f32⟩
  | .local _ .vmem, ⟨9, _⟩ => ⟨S8x32, .f32⟩
  | .local _ .vmem, ⟨10, _⟩ => ⟨S1x32, .f32⟩
  | .local _ .vmem, ⟨11, _⟩ => ⟨S32x32, .f32⟩
  | .local _ .vmem, ⟨12, _⟩ => ⟨S1x32, .f32⟩
  | .local _ .vmem, ⟨13, _⟩ => ⟨S32x32, .f32⟩
  | .local _ .vmem, ⟨14, _⟩ => ⟨S1x32, .f32⟩
  | .local _ .vmem, ⟨15, _⟩ => ⟨S1x32, .f32⟩
  | .local _ .vmem, ⟨16, _⟩ => ⟨S6400x32, .bf16⟩
  | .local _ .vmem, ⟨17, _⟩ => ⟨S6400x32, .bf16⟩
  | .local _ .vmem, ⟨18, _⟩ => ⟨S6400x3, .f32⟩
  | .local _ .vmem, ⟨19, _⟩ => ⟨S6400x3, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x7, .f32⟩
  | .local _ .vmem, ⟨25, _⟩ => ⟨S5000x7, .f32⟩
  | .local _ .vmem, ⟨26, _⟩ => ⟨S32x32, .f32⟩
  | .local _ .vmem, ⟨27, _⟩ => ⟨S32x32, .f32⟩
  | .local _ .vmem, ⟨28, _⟩ => ⟨S1x32, .f32⟩
  | .local _ .vmem, ⟨29, _⟩ => ⟨S32x32, .f32⟩
  | .local _ .vmem, ⟨30, _⟩ => ⟨S1x32, .f32⟩
  | .local _ .vmem, ⟨31, _⟩ => ⟨S5000x32, .f32⟩
  | .local _ .vmem, ⟨32, _⟩ => ⟨S5000x32, .f32⟩
  | .local _ .vmem, ⟨33, _⟩ => ⟨S5000x3, .f32⟩
  | .local _ .vmem, ⟨34, _⟩ => ⟨S5000x3, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v1 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v2 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_call3_cst : Ref sig .tc := ⟨.hbm, 105, rfl⟩
abbrev main_call3_v15 : Ref sig .tc := ⟨.hbm, 106, rfl⟩
abbrev main_v3 : Ref sig .tc := ⟨.hbm, 107, rfl⟩
abbrev main_v4 : Ref sig .tc := ⟨.hbm, 108, rfl⟩
abbrev main_v5 : Ref sig .tc := ⟨.hbm, 109, rfl⟩
abbrev main_v6 : Ref sig .tc := ⟨.hbm, 110, rfl⟩
abbrev main_v7 : Ref sig .tc := ⟨.hbm, 111, rfl⟩
abbrev main_v8 : Ref sig .tc := ⟨.hbm, 112, rfl⟩
abbrev main_v9 : Ref sig .tc := ⟨.hbm, 113, rfl⟩
abbrev main_v10 : Ref sig .tc := ⟨.hbm, 114, rfl⟩
abbrev main_v11 : Ref sig .tc := ⟨.hbm, 115, rfl⟩
abbrev main_v12 : Ref sig .tc := ⟨.hbm, 116, rfl⟩
abbrev main_v13_0 : Ref sig .tc := ⟨.hbm, 117, rfl⟩
abbrev main_v13_1 : Ref sig .tc := ⟨.hbm, 118, rfl⟩
abbrev main_v14 : Ref sig .tc := ⟨.hbm, 119, rfl⟩
abbrev main_cst : Ref sig .tc := ⟨.hbm, 120, rfl⟩
abbrev main_v15 : Ref sig .tc := ⟨.hbm, 121, rfl⟩
abbrev main_v16 : Ref sig .tc := ⟨.hbm, 122, rfl⟩
abbrev main_v17 : Ref sig .tc := ⟨.hbm, 123, rfl⟩
abbrev main_cst_0 : Ref sig .tc := ⟨.hbm, 124, rfl⟩
abbrev main_v18 : Ref sig .tc := ⟨.hbm, 125, rfl⟩
abbrev main_v19 : Ref sig .tc := ⟨.hbm, 126, rfl⟩
abbrev main_v20 : Ref sig .tc := ⟨.hbm, 127, rfl⟩
abbrev main_cst_1 : Ref sig .tc := ⟨.hbm, 128, rfl⟩
abbrev main_v21 : Ref sig .tc := ⟨.hbm, 129, rfl⟩
abbrev main_cst_2 : Ref sig .tc := ⟨.hbm, 130, rfl⟩
abbrev main_v22 : Ref sig .tc := ⟨.hbm, 131, rfl⟩
abbrev main_v23 : Ref sig .tc := ⟨.hbm, 132, rfl⟩
abbrev main_v24 : Ref sig .tc := ⟨.hbm, 133, rfl⟩
abbrev main_v25 : Ref sig .tc := ⟨.hbm, 134, rfl⟩
abbrev main_v26 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_v31_0 : Ref sig .tc := ⟨.hbm, 140, rfl⟩
abbrev main_v31_1 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem8_1 : DmaSem sig := 32
abbrev cc1_sem9_0 : DmaSem sig := 33
abbrev cc1_sem9_1 : DmaSem sig := 34

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x14 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S6400x32 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S6400x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x3 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x32_0 : S3200000.BroadcastsInDim S3200000x32 (![0] : Fin 1 → Fin S3200000x32.rank)
  bcast_S_S3200000x32 : S_.BroadcastsInDim S3200000x32 (![] : Fin 0 → Fin S3200000x32.rank)
  bcast_S3200000_S3200000x3_0 : S3200000.BroadcastsInDim S3200000x3 (![0] : Fin 1 → Fin S3200000x3.rank)
  bcast_S_S3200000x3 : S_.BroadcastsInDim S3200000x3 (![] : Fin 0 → Fin S3200000x3.rank)
  concatenates_S3200000x3_S3200000x3_S3200000x8_S3200000x14_d1 : Shape.Concatenates [S3200000x3, S3200000x3, S3200000x8] S3200000x14 1
  slices_S73x32_S32x32_0_0 : S73x32.Slices ![0, 0] S32x32
  slices_S73x32_S32x32_32_0 : S73x32.Slices ![32, 0] S32x32
  slices_S73x32_S1x32_64_0 : S73x32.Slices ![64, 0] S1x32
  slices_S73x32_S8x32_65_0 : S73x32.Slices ![65, 0] S8x32
  shapeCasts_S32_S1x32 : S32.ShapeCasts S1x32
  transposes_S32x1_S1x32_1_0 : S32x1.Transposes [1, 0] S1x32
  inb_S6400x32_S6400x32_0_0 : ∀ a, (![0, 0] : Fin 2 → Nat) a + S6400x32.size a ≤ S6400x32.size a
  h_S6400x32 : 0 < S6400x32.numel
  shapeCasts_S6400x32_S6400x32 : S6400x32.ShapeCasts S6400x32
  inb_S6400x14_S6400x14_0_0 : ∀ a, (![0, 0] : Fin 2 → Nat) a + S6400x14.size a ≤ S6400x14.size a
  h_S6400x14 : 0 < S6400x14.numel
  shapeCasts_S6400x14_S6400x14 : S6400x14.ShapeCasts S6400x14
  slices_S6400x14_o0_0_S6400x3 : S6400x14.Slices ![0, 0] S6400x3
  slices_S6400x14_o0_3_S6400x3 : S6400x14.Slices ![0, 3] S6400x3
  slices_S6400x14_o0_6_S6400x8 : S6400x14.Slices ![0, 6] S6400x8
  reduces_S6400x3_S6400 : S6400x3.Reduces [1] S6400
  shapeCasts_S6400_S6400x1 : S6400.ShapeCasts S6400x1
  broadcasts_S6400x1_S6400x3 : S6400x1.Broadcasts S6400x3
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S6400x1_S6400x32 : S6400x1.Broadcasts S6400x32
  broadcasts_S1x32_S6400x32 : S1x32.Broadcasts S6400x32
  inb_S8x32_S8x32_0_0 : ∀ a, (![0, 0] : Fin 2 → Nat) a + S8x32.size a ≤ S8x32.size a
  h_S8x32 : 0 < S8x32.numel
  shapeCasts_S8x32_S8x32 : S8x32.ShapeCasts S8x32
  reduces_S6400x32_S6400 : S6400x32.Reduces [1] S6400
  bitsLt_bf16_f32 : FTy.bits .bf16 < FTy.bits .f32
  packedbf16_S6400x32_S6400x32_0_0 : (Rect.unit (s := S6400x32) ![0, 0] S6400x32.size inb_S6400x32_S6400x32_0_0).PackedRows (EltTy.packing .bf16)
  inb_S6400x3_S6400x3_0_0 : ∀ a, (![0, 0] : Fin 2 → Nat) a + S6400x3.size a ≤ S6400x3.size a
  h_S6400x3 : 0 < S6400x3.numel
  bcast_S_S100000x32 : S_.BroadcastsInDim S100000x32 (![] : Fin 0 → Fin S100000x32.rank)
  bcast_S_S100000x3 : S_.BroadcastsInDim S100000x3 (![] : Fin 0 → Fin S100000x3.rank)
  bcast_S_S100000 : S_.BroadcastsInDim S100000 (![] : Fin 0 → Fin S100000.rank)
  shapeCasts_S100000_S100000x1 : S100000.ShapeCasts S100000x1
  concatenates_S100000x3_S100000x3_S100000x1_S100000x7_d1 : Shape.Concatenates [S100000x3, S100000x3, S100000x1] S100000x7 1
  slices_S64x32_S32x32_0_0 : S64x32.Slices ![0, 0] S32x32
  slices_S64x32_S32x32_32_0 : S64x32.Slices ![32, 0] S32x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x7_S5000x7_0_0 : ∀ a, (![0, 0] : Fin 2 → Nat) a + S5000x7.size a ≤ S5000x7.size a
  h_S5000x7 : 0 < S5000x7.numel
  shapeCasts_S5000x7_S5000x7 : S5000x7.ShapeCasts S5000x7
  slices_S5000x7_o0_0_S5000x3 : S5000x7.Slices ![0, 0] S5000x3
  slices_S5000x7_o0_3_S5000x3 : S5000x7.Slices ![0, 3] S5000x3
  slices_S5000x7_o0_6_S5000x1 : S5000x7.Slices ![0, 6] S5000x1
  broadcasts_S5000x1_S5000x3 : S5000x1.Broadcasts S5000x3
  broadcasts_S1x32_S5000x32 : S1x32.Broadcasts S5000x32
  inb_S5000x3_S5000x3_0_0 : ∀ a, (![0, 0] : Fin 2 → Nat) a + S5000x3.size a ≤ S5000x3.size a
  h_S5000x3 : 0 < S5000x3.numel
  gather_S100000x32_S3200000x1_S3200000x32_1_0_n_n_0_1_132_wf : GatherDims.WF S100000x32 S3200000x1 S3200000x32 [1] [0] [] [0] [] 1 ![1, 32]
  gather_S100000x3_S3200000x1_S3200000x3_1_0_n_n_0_1_13_wf : GatherDims.WF S100000x3 S3200000x1 S3200000x3 [1] [0] [] [0] [] 1 ![1, 3]
  dot_S6400x32_S32x32_S6400x32_1_0_0_1_n_n_wf : DotDims.WF S6400x32 S32x32 S6400x32 [1] [0] [0] [1] [] []
  dot_S6400x8_S8x32_S6400x32_1_0_0_1_n_n_wf : DotDims.WF S6400x8 S8x32 S6400x32 [1] [0] [0] [1] [] []
  scatter_S100000x32_S3200000x1_S3200000x32_1_0_0_1_wf : ScatterDims.WF S100000x32 S3200000x1 S3200000x32 [1] [0] [0] 1
  scatter_S100000x3_S3200000x1_S3200000x3_1_0_0_1_wf : ScatterDims.WF S100000x3 S3200000x1 S3200000x3 [1] [0] [0] 1
  scatter_S100000_S3200000x1_S3200000_n_0_0_1_wf : ScatterDims.WF S100000 S3200000x1 S3200000 [] [0] [0] 1
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x32.size a ≤ S3200000x32.size a
  hwx0_0 : ∀ i : grid0.Coords, EltTy.bits .f32 = 32 ∨ (Rect.block (s := S3200000x32) S6400x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x32.size a ≤ S3200000x32.size a
  hwx0_1 : ∀ i : grid0.Coords, EltTy.bits .f32 = 32 ∨ (Rect.block (s := S3200000x32) S6400x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x14.size a ≤ S3200000x14.size a
  hwx0_2 : ∀ i : grid0.Coords, EltTy.bits .f32 = 32 ∨ (Rect.block (s := S3200000x14) S6400x14.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x32.size a ≤ S8x32.size a
  hwx0_6 : ∀ i : grid0.Coords, EltTy.bits .f32 = 32 ∨ (Rect.block (s := S8x32) S8x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S32x32.size a
  hwx0_8 : ∀ i : grid0.Coords, EltTy.bits .f32 = 32 ∨ (Rect.block (s := S32x32) S32x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x32.size a ≤ S32x32.size a
  hwx0_10 : ∀ i : grid0.Coords, EltTy.bits .f32 = 32 ∨ (Rect.block (s := S32x32) S32x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S6400x32.size a ≤ S3200000x32.size a
  hwx0_13 : ∀ i : grid0.Coords, EltTy.bits .bf16 = 32 ∨ (Rect.block (s := S3200000x32) S6400x32.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S6400x3.size a ≤ S3200000x3.size a
  hwx0_14 : ∀ i : grid0.Coords, EltTy.bits .f32 = 32 ∨ (Rect.block (s := S3200000x3) S6400x3.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x7.size a ≤ S100000x7.size a
  hwx1_2 : ∀ i : grid1.Coords, EltTy.bits .f32 = 32 ∨ (Rect.block (s := S100000x7) S5000x7.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x32.size a ≤ S32x32.size a
  hwx1_6 : ∀ i : grid1.Coords, EltTy.bits .f32 = 32 ∨ (Rect.block (s := S32x32) S32x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x32.size a ≤ S100000x32.size a
  hwx1_8 : ∀ i : grid1.Coords, EltTy.bits .f32 = 32 ∨ (Rect.block (s := S100000x32) S5000x32.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x3.size a ≤ S100000x3.size a
  hwx1_9 : ∀ i : grid1.Coords, EltTy.bits .f32 = 32 ∨ (Rect.block (s := S100000x3) S5000x3.size (cc1_transform_9 i) (hinb1_9 i)).WholeWords (EltTy.packing .f32)

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def dot_S6400x32_S32x32_S6400x32_1_0_0_1_n_n : DotDims S6400x32 S32x32 S6400x32 where
  lhsContracting := [1]
  rhsContracting := [0]
  lhsNonContracting := [0]
  rhsNonContracting := [1]
  lhsBatch := []
  rhsBatch := []
  wf := dot_S6400x32_S32x32_S6400x32_1_0_0_1_n_n_wf
def dot_S6400x8_S8x32_S6400x32_1_0_0_1_n_n : DotDims S6400x8 S8x32 S6400x32 where
  lhsContracting := [1]
  rhsContracting := [0]
  lhsNonContracting := [0]
  rhsNonContracting := [1]
  lhsBatch := []
  rhsBatch := []
  wf := dot_S6400x8_S8x32_S6400x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_v0) S6400x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S6400x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S6400x14.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S8x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S32x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13_0) S6400x32.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v13_1) S6400x3.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x7.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S32x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v31_0) S5000x32.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v31_1) S5000x3.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x32 : Shape := ⟨2, ![100000, 32]⟩
abbrev S100000x3 : Shape := ⟨2, ![100000, 3]⟩
abbrev S3200000x8 : Shape := ⟨2, ![3200000, 8]⟩
abbrev S3200000 : Shape := ⟨1, ![3200000]⟩
abbrev S73x32 : Shape := ⟨2, ![73, 32]⟩
abbrev S32 : Shape := ⟨1, ![32]⟩
abbrev S32x32 : Shape := ⟨2, ![32, 32]⟩
abbrev S64x32 : Shape := ⟨2, ![64, 32]⟩
abbrev S32x1 : Shape := ⟨2, ![32, 1]⟩
abbrev S_ : Shape := ⟨0, ![]⟩
abbrev S3200000x1 : Shape := ⟨2, ![3200000, 1]⟩
abbrev S3200000x3 : Shape := ⟨2, ![3200000, 3]⟩
abbrev S3200000x32 : Shape := ⟨2, ![3200000, 32]⟩
abbrev S3200000x73 : Shape := ⟨2, ![3200000, 73]⟩
abbrev S1x32 : Shape := ⟨2, ![1, 32]⟩
abbrev S100000x1 : Shape := ⟨2, ![100000, 1]⟩
abbrev S100000x64 : Shape := ⟨2, ![100000, 64]⟩

abbrev nBuf : Space → Nat
  | .hbm => 144
  | .vmem => 0
  | .smem => 0
  | _ => 0

abbrev hbmTy0_0 (i : Nat) : BufTy := match i % 128 with
  | 0 => ⟨S100000x32, .f32⟩
  | 1 => ⟨S100000x3, .f32⟩
  | 2 => ⟨S3200000x8, .f32⟩
  | 3 => ⟨S3200000, .i32⟩
  | 4 => ⟨S3200000, .i32⟩
  | 5 => ⟨S73x32, .f32⟩
  | 6 => ⟨S32, .f32⟩
  | 7 => ⟨S32x32, .f32⟩
  | 8 => ⟨S32, .f32⟩
  | 9 => ⟨S64x32, .f32⟩
  | 10 => ⟨S32, .f32⟩
  | 11 => ⟨S32x32, .f32⟩
  | 12 => ⟨S32, .f32⟩
  | 13 => ⟨S32x32, .f32⟩
  | 14 => ⟨S32, .f32⟩
  | 15 => ⟨S32x1, .f32⟩
  | 16 => ⟨S_, .i32⟩
  | 17 => ⟨S3200000, .i32⟩
  | 18 => ⟨S3200000, .i1⟩
  | 19 => ⟨S_, .i32⟩
  | 20 => ⟨S3200000, .i32⟩
  | 21 => ⟨S3200000, .i32⟩
  | 22 => ⟨S3200000, .i32⟩
  | 23 => ⟨S3200000x1, .i32⟩
  | 24 => ⟨S3200000x3, .f32⟩
  | 25 => ⟨S_, .i32⟩
  | 26 => ⟨S3200000, .i32⟩
  | 27 => ⟨S3200000, .i1⟩
  | 28 => ⟨S_, .i32⟩
  | 29 => ⟨S3200000, .i32⟩
  | 30 => ⟨S3200000, .i32⟩
  | 31 => ⟨S3200000, .i32⟩
  | 32 => ⟨S3200000x1, .i32⟩
  | 33 => ⟨S3200000x3, .f32⟩
  | 34 => ⟨S3200000x3, .f32⟩
  | 35 => ⟨S3200000x3, .f32⟩
  | 36 => ⟨S_, .f32⟩
  | 37 => ⟨S3200000, .f32⟩
  | 38 => ⟨S3200000x1, .f32⟩
  | 39 => ⟨S3200000x1, .f32⟩
  | 40 => ⟨S_, .f32⟩
  | 41 => ⟨S3200000x1, .f32⟩
  | 42 => ⟨S3200000x1, .f32⟩
  | 43 => ⟨S3200000x3, .f32⟩
  | 44 => ⟨S3200000x3, .f32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000x32, .f32⟩
  | 54 => ⟨S_, .i32⟩
  | 55 => ⟨S3200000, .i32⟩
  | 56 => ⟨S3200000, .i1⟩
  | 57 => ⟨S_, .i32⟩
  | 58 => ⟨S3200000, .i32⟩
  | 59 => ⟨S3200000, .i32⟩
  | 60 => ⟨S3200000, .i32⟩
  | 61 => ⟨S3200000x1, .i32⟩
  | 62 => ⟨S3200000x32, .f32⟩
  | 63 => ⟨S3200000x73, .f32⟩
  | 64 => ⟨S3200000x32, .f32⟩
  | 65 => ⟨S1x32, .f32⟩
  | 66 => ⟨S3200000x32, .f32⟩
  | 67 => ⟨S3200000x32, .f32⟩
  | 68 => ⟨S3200000x32, .f32⟩
  | 69 => ⟨S3200000x32, .f32⟩
  | 70 => ⟨S_, .f32⟩
  | 71 => ⟨S3200000x32, .f32⟩
  | 72 => ⟨S3200000x32, .f32⟩
  | 73 => ⟨S_, .f32⟩
  | 74 => ⟨S3200000x32, .f32⟩
  | 75 => ⟨S3200000x32, .f32⟩
  | 76 => ⟨S3200000x32, .f32⟩
  | 77 => ⟨S3200000x32, .f32⟩
  | 78 => ⟨S1x32, .f32⟩
  | 79 => ⟨S3200000x32, .f32⟩
  | 80 => ⟨S3200000x32, .f32⟩
  | 81 => ⟨S3200000x32, .f32⟩
  | 82 => ⟨S3200000x32, .f32⟩
  | 83 => ⟨S_, .f32⟩
  | 84 => ⟨S3200000x32, .f32⟩
  | 85 => ⟨S3200000x32, .f32⟩
  | 86 => ⟨S_, .f32⟩
  | 87 => ⟨S3200000x32, .f32⟩
  | 88 => ⟨S3200000x32, .f32⟩
  | 89 => ⟨S3200000x32, .f32⟩
  | 90 => ⟨S3200000x32, .f32⟩
  | 91 => ⟨S1x32, .f32⟩
  | 92 => ⟨S3200000x32, .f32⟩
  | 93 => ⟨S3200000x32, .f32⟩
  | 94 => ⟨S3200000x32, .f32⟩
  | 95 => ⟨S3200000x32, .f32⟩
  | 96 => ⟨S_, .f32⟩
  | 97 => ⟨S3200000x32, .f32⟩
  | 98 => ⟨S3200000x32, .f32⟩
  | 99 => ⟨S_, .f32⟩
  | 100 => ⟨S3200000x32, .f32⟩
  | 101 => ⟨S3200000x32, .f32⟩
  | 102 => ⟨S3200000x32, .f32⟩
  | 103 => ⟨S3200000x1, .f32⟩
  | 104 => ⟨S3200000x3, .f32⟩
  | 105 => ⟨S3200000x3, .f32⟩
  | 106 => ⟨S_, .f32⟩
  | 107 => ⟨S100000x32, .f32⟩
  | 108 => ⟨S3200000x1, .i32⟩
  | 109 => ⟨S100000x32, .f32⟩
  | 110 => ⟨S_, .f32⟩
  | 111 => ⟨S3200000x1, .f32⟩
  | 112 => ⟨S_, .f32⟩
  | 113 => ⟨S100000x1, .f32⟩
  | 114 => ⟨S3200000x1, .i32⟩
  | 115 => ⟨S100000x1, .f32⟩
  | 116 => ⟨S_, .f32⟩
  | 117 => ⟨S100000x3, .f32⟩
  | 118 => ⟨S3200000x1, .i32⟩
  | 119 => ⟨S100000x3, .f32⟩
  | 120 => ⟨S_, .f32⟩
  | 121 => ⟨S100000x1, .f32⟩
  | 122 => ⟨S100000x1, .f32⟩
  | 123 => ⟨S100000x3, .f32⟩
  | 124 => ⟨S100000x3, .f32⟩
  | 125 => ⟨S100000x64, .f32⟩
  | 126 => ⟨S100000x32, .f32⟩
  | 127 => ⟨S1x32, .f32⟩
  | _ => ⟨S100000x32, .f32⟩

abbrev hbmTy0_1 (i : Nat) : BufTy := match i % 128 with
  | 0 => ⟨S100000x32, .f32⟩
  | 1 => ⟨S100000x32, .f32⟩
  | 2 => ⟨S100000x32, .f32⟩
  | 3 => ⟨S100000x32, .f32⟩
  | 4 => ⟨S_, .f32⟩
  | 5 => ⟨S100000x32, .f32⟩
  | 6 => ⟨S100000x32, .f32⟩
  | 7 => ⟨S_, .f32⟩
  | 8 => ⟨S100000x32, .f32⟩
  | 9 => ⟨S100000x32, .f32⟩
  | 10 => ⟨S100000x32, .f32⟩
  | 11 => ⟨S100000x32, .f32⟩
  | 12 => ⟨S1x32, .f32⟩
  | 13 => ⟨S100000x32, .f32⟩
  | 14 => ⟨S100000x32, .f32⟩
  | 15 => ⟨S100000x3, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_call2_v5 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_8 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_cst_9 : Ref sig .tc := ⟨.hbm, 110, rfl⟩
abbrev main_v59 : Ref sig .tc := ⟨.hbm, 111, rfl⟩
abbrev main_cst_10 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_11 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_12 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_call3_v0 : Ref sig .tc := ⟨.hbm, 130, rfl⟩
abbrev main_call3_v1 : Ref sig .tc := ⟨.hbm, 131, rfl⟩
abbrev main_call3_cst : Ref sig .tc := ⟨.hbm, 132, rfl⟩
abbrev main_call3_v2 : Ref sig .tc := ⟨.hbm, 133, rfl⟩
abbrev main_call3_v3 : Ref sig .tc := ⟨.hbm, 134, rfl⟩
abbrev main_call3_cst_0 : Ref sig .tc := ⟨.hbm, 135, rfl⟩
abbrev main_call3_v4 : Ref sig .tc := ⟨.hbm, 136, rfl⟩
abbrev main_call3_v5 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x3_S3200000_d1 : S3200000x3.ReducesTo [1] S3200000
  h_S_ : 0 < S_.numel
  bcast_S_S3200000x1 : S_.BroadcastsInDim S3200000x1 (![] : Fin 0 → Fin S3200000x1.rank)
  bcast_S3200000x1_S3200000x3_0_1 : S3200000x1.BroadcastsInDim S3200000x3 (![0, 1] : Fin 2 → Fin S3200000x3.rank)
  concatenates_S3200000x32_S3200000x32_S3200000x1_S3200000x8_S3200000x73_d1 : Shape.Concatenates [S3200000x32, S3200000x32, S3200000x1, S3200000x8] S3200000x73 1
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  bcast_S_S100000x32 : S_.BroadcastsInDim S100000x32 (![] : Fin 0 → Fin S100000x32.rank)
  bcast_S_S100000x1 : S_.BroadcastsInDim S100000x1 (![] : Fin 0 → Fin S100000x1.rank)
  bcast_S_S100000x3 : S_.BroadcastsInDim S100000x3 (![] : Fin 0 → Fin S100000x3.rank)
  bcast_S100000x1_S100000x3_0_1 : S100000x1.BroadcastsInDim S100000x3 (![0, 1] : Fin 2 → Fin S100000x3.rank)
  concatenates_S100000x32_S100000x32_S100000x64_d1 : Shape.Concatenates [S100000x32, S100000x32] S100000x64 1
  bcast_S1x32_S100000x32_0_1 : S1x32.BroadcastsInDim S100000x32 (![0, 1] : Fin 2 → Fin S100000x32.rank)
  gather_S100000x3_S3200000x1_S3200000x3_1_0_n_n_0_1_13_wf : GatherDims.WF S100000x3 S3200000x1 S3200000x3 [1] [0] [] [0] [] 1 ![1, 3]
  gather_S100000x32_S3200000x1_S3200000x32_1_0_n_n_0_1_132_wf : GatherDims.WF S100000x32 S3200000x1 S3200000x32 [1] [0] [] [0] [] 1 ![1, 32]
  dot_S3200000x73_S73x32_S3200000x32_1_0_0_1_n_n_wf : DotDims.WF S3200000x73 S73x32 S3200000x32 [1] [0] [0] [1] [] []
  dot_S3200000x32_S32x32_S3200000x32_1_0_0_1_n_n_wf : DotDims.WF S3200000x32 S32x32 S3200000x32 [1] [0] [0] [1] [] []
  dot_S3200000x32_S32x1_S3200000x1_1_0_0_1_n_n_wf : DotDims.WF S3200000x32 S32x1 S3200000x1 [1] [0] [0] [1] [] []
  scatter_S100000x32_S3200000x1_S3200000x32_1_0_0_1_wf : ScatterDims.WF S100000x32 S3200000x1 S3200000x32 [1] [0] [0] 1
  scatter_S100000x1_S3200000x1_S3200000x1_1_0_0_1_wf : ScatterDims.WF S100000x1 S3200000x1 S3200000x1 [1] [0] [0] 1
  scatter_S100000x3_S3200000x1_S3200000x3_1_0_0_1_wf : ScatterDims.WF S100000x3 S3200000x1 S3200000x3 [1] [0] [0] 1
  dot_S100000x64_S64x32_S100000x32_1_0_0_1_n_n_wf : DotDims.WF S100000x64 S64x32 S100000x32 [1] [0] [0] [1] [] []
  dot_S100000x32_S32x32_S100000x32_1_0_0_1_n_n_wf : DotDims.WF S100000x32 S32x32 S100000x32 [1] [0] [0] [1] [] []

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S3200000x73_S73x32_S3200000x32_1_0_0_1_n_n : DotDims S3200000x73 S73x32 S3200000x32 where
  lhsContracting := [1]
  rhsContracting := [0]
  lhsNonContracting := [0]
  rhsNonContracting := [1]
  lhsBatch := []
  rhsBatch := []
  wf := dot_S3200000x73_S73x32_S3200000x32_1_0_0_1_n_n_wf
def dot_S3200000x32_S32x32_S3200000x32_1_0_0_1_n_n : DotDims S3200000x32 S32x32 S3200000x32 where
  lhsContracting := [1]
  rhsContracting := [0]
  lhsNonContracting := [0]
  rhsNonContracting := [1]
  lhsBatch := []
  rhsBatch := []
  wf := dot_S3200000x32_S32x32_S3200000x32_1_0_0_1_n_n_wf
def dot_S3200000x32_S32x1_S3200000x1_1_0_0_1_n_n : DotDims S3200000x32 S32x1 S3200000x1 where
  lhsContracting := [1]
  rhsContracting := [0]
  lhsNonContracting := [0]
  rhsNonContracting := [1]
  lhsBatch := []
  rhsBatch := []
  wf := dot_S3200000x32_S32x1_S3200000x1_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.EdgeRegionB.lean ====
/-
  The edge kernel's region of the program, at any float instance.

  The region has fifteen windows over a grid of five hundred points. Windows 0, 1, 2 walk the rows of the source
  features, the target features and the packed narrow table, 6400 rows a point; windows 3 to 12 are the weight
  matrices and bias rows, whose block is the whole array at every point; windows 13 and 14 are the two results, the
  messages (in the narrower float format) and the coordinate messages, 6400 rows a point. At a point the body reads
  each input block whole and writes each result block whole: the messages are one pure function of the blocks of
  windows 0 to 9 and the coordinate messages one pure function of the blocks of windows 0 to 12. So after the body
  each input's staging buffer still holds its block and each result's buffer holds that function of the input blocks.
  This module states those contents as the pipeline's proof data and proves the body's triple and the pipeline's
  obligation at a generic point, for ANY contents `V` of the arrays at the region's entry.
-/
import proofs.«405486_j56169582297514_2_alg».proof.Proof.Gen.Kernel.Launch
import proofs.«405486_j56169582297514_2_alg».proof.Proof.Gen.Kernel.Skeleton
import proofs.«405486_j56169582297514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.EdgeRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where no fetch happens the
    block index has not moved since the last one. One lemma per input window. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V c (Pipeline.arrRef spec0 10))
    (hafter : ∀ t, dat.after 10 t = iblk V c 10 t) (t : Fin cfg0.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V c (Pipeline.arrRef spec0 11))
    (hafter : ∀ t, dat.after 11 t = iblk V c 11 t) (t : Fin cfg0.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg0 c) (hA : dat.A 12 = V c (Pipeline.arrRef spec0 12))
    (hafter : ∀ t, dat.after 12 t = iblk V c 12 t) (t : Fin cfg0.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store takes its buffer whole -/

abbrev rRows : Rect S6400x32 := Rect.unit (s := S6400x32) ![0, 0] S6400x32.size inb_S6400x32_S6400x32_0_0
abbrev rNar : Rect S6400x14 := Rect.unit (s := S6400x14) ![0, 0] S6400x14.size inb_S6400x14_S6400x14_0_0
abbrev rW : Rect S32x32 := Rect.unit (s := S32x32) ![0, 0] S32x32.size inb_S32x32_S32x32_0_0
abbrev rB : Rect S1x32 := Rect.unit (s := S1x32) ![0, 0] S1x32.size inb_S1x32_S1x32_0_0
abbrev rE : Rect S8x32 := Rect.unit (s := S8x32) ![0, 0] S8x32.size inb_S8x32_S8x32_0_0
abbrev rX : Rect S6400x3 := Rect.unit (s := S6400x3) ![0, 0] S6400x3.size inb_S6400x3_S6400x3_0_0

/-! ## What the body leaves in each result window's buffer -/

/-- The messages' block: the body's one store into window 13, its value the messages' pure term of the blocks of the
    source features, the target features, the packed narrow table, the two halves of the first weight matrix, the
    first bias row, the edge-attribute weights, the row broadcast down the block, the second weight matrix and the
    second bias row. -/
def outMsg (x0 x1 : Vec F S6400x32 .f32) (x2 : Vec F S6400x14 .f32) (x3 x4 : Vec F S32x32 .f32) (x5 : Vec F S1x32 .f32) (x6 : Vec F S8x32 .f32)
    (x7 : Vec F S1x32 .f32) (x8 : Vec F S32x32 .f32) (x9 : Vec F S1x32 .f32) : Vec F S6400x32 .bf16 :=
  View.canon [⟨rRows, k0_pay3 (k0_pay8 (View.ld x0 rRows) (View.ld x1 rRows) (View.ld x2 rNar) (View.ld x3 rW) (View.ld x4 rW) (View.ld x5 rB) (View.ld x6 rE))
    (k0_pay9 (View.ld x7 rB)) (View.ld x8 rW) (View.ld x9 rB)⟩]

/-- The coordinate messages' block: the body's one store into window 14, a pure term of the same blocks and of the
    third weight matrix and the last two rows. -/
def outCoord (x0 x1 : Vec F S6400x32 .f32) (x2 : Vec F S6400x14 .f32) (x3 x4 : Vec F S32x32 .f32) (x5 : Vec F S1x32 .f32) (x6 : Vec F S8x32 .f32)
    (x7 : Vec F S1x32 .f32) (x8 : Vec F S32x32 .f32) (x9 : Vec F S1x32 .f32) (x10 : Vec F S32x32 .f32) (x11 x12 : Vec F S1x32 .f32) : Vec F S6400x3 .f32 :=
  View.canon [⟨rX, k0_pay2 (k0_pay7 (View.ld x2 rNar))
    (k0_pay8 (View.ld x0 rRows) (View.ld x1 rRows) (View.ld x2 rNar) (View.ld x3 rW) (View.ld x4 rW) (View.ld x5 rB) (View.ld x6 rE))
    (k0_pay9 (View.ld x7 rB)) (View.ld x8 rW) (View.ld x9 rB) (View.ld x10 rW) (View.ld x11 rB) (View.ld x12 rB)⟩]

/-- The one store covers its buffer. -/
theorem coverMsg (p0 : Vec F S6400x32 .bf16) (y : S6400x32.Idx) :
    ∃ pc ∈ ([⟨rRows, p0⟩] : List (View.Piece (Elt F) S6400x32 .bf16)), y ∈ pc.1.set :=
  View.cover_of_tiled [⟨rRows, p0⟩] S6400x32.size (by rfl) y
theorem coverCoord (p0 : Vec F S6400x3 .f32) (y : S6400x3.Idx) :
    ∃ pc ∈ ([⟨rX, p0⟩] : List (View.Piece (Elt F) S6400x3 .f32)), y ∈ pc.1.set :=
  View.cover_of_tiled [⟨rX, p0⟩] S6400x3.size (by rfl) y

/-! ## The body's triple -/

set_option maxHeartbeats 4000000 in
/-- The body on whole staging memrefs, the inputs' at contents `xW` and the results' at anything, runs to the
    continuation with the inputs' as they were and each result's at its function of the inputs'. -/
theorem sound_kernel (c : Dev nD) (E : Set ℕ) (i : grid0.Coords)
    (arg1 : Memref sig .tc .vmem S6400x32 .f32) (harg1 : arg1.IsWhole) (arg2 : Memref sig .tc .vmem S6400x32 .f32) (harg2 : arg2.IsWhole)
    (arg3 : Memref sig .tc .vmem S6400x14 .f32) (harg3 : arg3.IsWhole) (arg4 : Memref sig .tc .vmem S32x32 .f32) (harg4 : arg4.IsWhole)
    (arg5 : Memref sig .tc .vmem S32x32 .f32) (harg5 : arg5.IsWhole) (arg6 : Memref sig .tc .vmem S1x32 .f32) (harg6 : arg6.IsWhole)
    (arg7 : Memref sig .tc .vmem S8x32 .f32) (harg7 : arg7.IsWhole) (arg8 : Memref sig .tc .vmem S1x32 .f32) (harg8 : arg8.IsWhole)
    (arg9 : Memref sig .tc .vmem S32x32 .f32) (harg9 : arg9.IsWhole) (arg10 : Memref sig .tc .vmem S1x32 .f32) (harg10 : arg10.IsWhole)
    (arg11 : Memref sig .tc .vmem S32x32 .f32) (harg11 : arg11.IsWhole) (arg12 : Memref sig .tc .vmem S1x32 .f32) (harg12 : arg12.IsWhole)
    (arg13 : Memref sig .tc .vmem S1x32 .f32) (harg13 : arg13.IsWhole)
    (arg14 : Memref sig .tc .vmem S6400x32 .bf16) (harg14 : arg14.IsWhole) (arg15 : Memref sig .tc .vmem S6400x3 .f32) (harg15 : arg15.IsWhole)
    (x0 x1 : Vec F S6400x32 .f32) (x2 : Vec F S6400x14 .f32) (x3 x4 : Vec F S32x32 .f32) (x5 : Vec F S1x32 .f32) (x6 : Vec F S8x32 .f32)
    (x7 : Vec F S1x32 .f32) (x8 : Vec F S32x32 .f32) (x9 : Vec F S1x32 .f32) (x10 : Vec F S32x32 .f32) (x11 x12 : Vec F S1x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12
        ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12
            ∗ owns (c : Thread nD τ) arg14 fullShare (outMsg x0 x1 x2 x3 x4 x5 x6 x7 x8 x9)
            ∗ owns (c : Thread nD τ) arg15 fullShare (outCoord x0 x1 x2 x3 x4 x5 x6 x7 x8 x9 x10 x11 x12)) -∗ K ⟨⟩))
      ⊢ wp frame (wpE (defs₀ (F := F)) Variants.none c none) E
          (cc0__edge_kernel i arg1 harg1 arg2 harg2 arg3 harg3 arg4 harg4 arg5 harg5 arg6 harg6 arg7 harg7 arg8 harg8 arg9 harg9 arg10 harg10
            arg11 harg11 arg12 harg12 arg13 harg13 arg14 harg14 arg15 harg15) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩,
    ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (coverMsg _)
  iexists _; isplitr
  swap; · iexact H14
  ipureintro
  exact View.read_writes_eq_canon _ _ _ (coverCoord _)

/-! ## The pipeline's proof data -/

/-- The region's proof data on core `c`: the arrays as the region finds them; after the body at point `t` each
    input's buffer at its block, the messages' buffer and the coordinate messages' buffer at their functions of the
    input blocks; the rest of the core's state passes through untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => outMsg (iblk V c 0 t) (iblk V c 1 t) (iblk V c 2 t) (iblk V c 3 t) (iblk V c 4 t) (iblk V c 5 t) (iblk V c 6 t) (iblk V c 7 t)
        (iblk V c 8 t) (iblk V c 9 t)
    | ⟨14, _⟩ => outCoord (iblk V c 0 t) (iblk V c 1 t) (iblk V c 2 t) (iblk V c 3 t) (iblk V c 4 t) (iblk V c 5 t) (iblk V c 6 t) (iblk V c 7 t)
        (iblk V c 8 t) (iblk V c 9 t) (iblk V c 10 t) (iblk V c 11 t) (iblk V c 12 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = iblk V c 10 t := by dsimp only [dat]
theorem after_11 (c : Dev nD) (t : Fin cfg0.N) : (dat V c).after 11 t = iblk V c 11 t := by dsimp only [dat]
theorem after_12 (c : Dev nD) (t : Fin cfg0.N) : (dat V c).after 12 t = iblk V c 12 t := by dsimp only [dat]
theorem after_13 (c : Dev nD) (t : Fin cfg0.N) : (dat V c).after 13 t
    = outMsg (iblk V c 0 t) (iblk V c 1 t) (iblk V c 2 t) (iblk V c 3 t) (iblk V c 4 t) (iblk V c 5 t) (iblk V c 6 t) (iblk V c 7 t)
        (iblk V c 8 t) (iblk V c 9 t) := by dsimp only [dat]
theorem after_14 (c : Dev nD) (t : Fin cfg0.N) : (dat V c).after 14 t
    = outCoord (iblk V c 0 t) (iblk V c 1 t) (iblk V c 2 t) (iblk V c 3 t) (iblk V c 4 t) (iblk V c 5 t) (iblk V c 6 t) (iblk V c 7 t)
        (iblk V c 8 t) (iblk V c 9 t) (iblk V c 10 t) (iblk V c 11 t) (iblk V c 12 t) := by dsimp only [dat]

theorem before_0 (c : Dev nD) (t : Fin cfg0.N) (d) : (dat V c).before 0 t d = iblk V c 0 t := before_0_of V (dat V c) (A_eq V c 0) (after_0 V c) t d
theorem before_1 (c : Dev nD) (t : Fin cfg0.N) (d) : (dat V c).before 1 t d = iblk V c 1 t := before_1_of V (dat V c) (A_eq V c 1) (after_1 V c) t d
theorem before_2 (c : Dev nD) (t : Fin cfg0.N) (d) : (dat V c).before 2 t d = iblk V c 2 t := before_2_of V (dat V c) (A_eq V c 2) (after_2 V c) t d
theorem before_3 (c : Dev nD) (t : Fin cfg0.N) (d) : (dat V c).before 3 t d = iblk V c 3 t := before_3_of V (dat V c) (A_eq V c 3) (after_3 V c) t d
theorem before_4 (c : Dev nD) (t : Fin cfg0.N) (d) : (dat V c).before 4 t d = iblk V c 4 t := before_4_of V (dat V c) (A_eq V c 4) (after_4 V c) t d
theorem before_5 (c : Dev nD) (t : Fin cfg0.N) (d) : (dat V c).before 5 t d = iblk V c 5 t := before_5_of V (dat V c) (A_eq V c 5) (after_5 V c) t d
theorem before_6 (c : Dev nD) (t : Fin cfg0.N) (d) : (dat V c).before 6 t d = iblk V c 6 t := before_6_of V (dat V c) (A_eq V c 6) (after_6 V c) t d
theorem before_7 (c : Dev nD) (t : Fin cfg0.N) (d) : (dat V c).before 7 t d = iblk V c 7 t := before_7_of V (dat V c) (A_eq V c 7) (after_7 V c) t d
theorem before_8 (c : Dev nD) (t : Fin cfg0.N) (d) : (dat V c).before 8 t d = iblk V c 8 t := before_8_of V (dat V c) (A_eq V c 8) (after_8 V c) t d
theorem before_9 (c : Dev nD) (t : Fin cfg0.N) (d) : (dat V c).before 9 t d = iblk V c 9 t := before_9_of V (dat V c) (A_eq V c 9) (after_9 V c) t d
theorem before_10 (c : Dev nD) (t : Fin cfg0.N) (d) : (dat V c).before 10 t d = iblk V c 10 t := before_10_of V (dat V c) (A_eq V c 10) (after_10 V c) t d
theorem before_11 (c : Dev nD) (t : Fin cfg0.N) (d) : (dat V c).before 11 t d = iblk V c 11 t := before_11_of V (dat V c) (A_eq V c 11) (after_11 V c) t d
theorem before_12 (c : Dev nD) (t : Fin cfg0.N) (d) : (dat V c).before 12 t d = iblk V c 12 t := before_12_of V (dat V c) (A_eq V c 12) (after_12 V c) t d

/-! ## The body obligation, at a generic point -/

/-- What the body is called with at point `t`: the windows one by one. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d))
    ∗ (∃ d, owns (c : Thread nD τ) (st0_12 t) fullShare ((dat V c).before 12 t d))
    ∗ (∃ d, owns (c : Thread nD τ) (st0_13 t) fullShare ((dat V c).before 13 t d))
    ∗ (∃ d, owns (c : Thread nD τ) (st0_14 t) fullShare ((dat V c).before 14 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t)
    ∗ owns (c : Thread nD τ) (st0_12 t) fullShare ((dat V c).after 12 t)
    ∗ owns (c : Thread nD τ) (st0_13 t) fullShare ((dat V c).after 13 t)
    ∗ owns (c : Thread nD τ) (st0_14 t) fullShare ((dat V c).after 14 t))

set_option maxHeartbeats 1000000 in
/-- The body at any point: the inputs' memrefs hold their blocks, so the triple applies; the rest of the core's state
    and what it owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9, before_10, before_11, before_12]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩⟩
  iapply (sound_kernel c Set.univ _ _ _ _ _ _ _ _ _ _ _ _ _ _ _ _ _ _ _ _ _ _ _ _ _ _ _ _ _ _ _
    (iblk V c 0 t) (iblk V c 1 t) (iblk V c 2 t) (iblk V c 3 t) (iblk V c 4 t) (iblk V c 5 t) (iblk V c 6 t) (iblk V c 7 t)
    (iblk V c 8 t) (iblk V c 9 t) (iblk V c 10 t) (iblk V c 11 t) (iblk V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The pipeline's body obligation, at every point. -/
theorem body_obligation (c : Dev nD) : BodyObligation (dat (F := F) V c) (defs₀ (F := F)) Variants.none () Set.univ := fun t => by
  rw [bigSep_W0, bigSep_W0]
  exact sound_body V c t

end Cert.Kernel.EdgeRegion

end
-- ==== Proof.NodeRegionB.lean ====
/-
  The node-update kernel's region of the program, at any float instance.

  The region has ten windows over a grid of twenty points. Windows 0, 1, 2 walk the rows of the node features, the
  aggregated messages and the packed coordinate table, 5000 rows a point; windows 3 to 7 are the weight matrices and
  bias rows, whose block is the whole array at every point; windows 8 and 9 are the two results, 5000 rows a point.
  At a point the body reads each input block whole and writes each result block whole: the new features are one pure
  function of the blocks of windows 0, 1, 3, 4, 5, 6, 7 and the new coordinates one pure function of window 2's block.
  So after the body each input's staging buffer still holds its block and each result's buffer holds that function of
  the input blocks. This module states those contents as the pipeline's proof data and proves the body's triple and
  the pipeline's obligation at a generic point, for ANY contents `V` of the arrays at the region's entry.
-/
import proofs.«405486_j56169582297514_2_alg».proof.Proof.Gen.Kernel.Launch
import proofs.«405486_j56169582297514_2_alg».proof.Proof.Gen.Kernel.Skeleton
import proofs.«405486_j56169582297514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.NodeRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where no fetch happens the
    block index has not moved since the last one. One lemma per input window. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store takes its buffer whole -/

abbrev rNF : Rect S5000x32 := Rect.unit (s := S5000x32) ![0, 0] S5000x32.size inb_S5000x32_S5000x32_0_0
abbrev rNar : Rect S5000x7 := Rect.unit (s := S5000x7) ![0, 0] S5000x7.size inb_S5000x7_S5000x7_0_0
abbrev rW : Rect S32x32 := Rect.unit (s := S32x32) ![0, 0] S32x32.size inb_S32x32_S32x32_0_0
abbrev rB : Rect S1x32 := Rect.unit (s := S1x32) ![0, 0] S1x32.size inb_S1x32_S1x32_0_0
abbrev rX : Rect S5000x3 := Rect.unit (s := S5000x3) ![0, 0] S5000x3.size inb_S5000x3_S5000x3_0_0

/-! ## What the body leaves in each result window's buffer -/

/-- The new node features' block: the body's one store into window 8, its value the features' pure term of the blocks
    of the node features, the aggregated messages, the two halves of the first weight matrix, the first bias row, the
    second weight matrix and the second bias row. -/
def outH (x0 x1 : Vec F S5000x32 .f32) (x3 x4 : Vec F S32x32 .f32) (x5 : Vec F S1x32 .f32) (x6 : Vec F S32x32 .f32) (x7 : Vec F S1x32 .f32) :
    Vec F S5000x32 .f32 :=
  View.canon [⟨rNF, k1_pay1 (View.ld x0 rNF) (View.ld x1 rNF) (View.ld x3 rW) (View.ld x4 rW) (View.ld x5 rB) (View.ld x6 rW) (View.ld x7 rB)⟩]

/-- The new coordinates' block: the body's one store into window 9, a pure term of the packed coordinate table's block. -/
def outX (x2 : Vec F S5000x7 .f32) : Vec F S5000x3 .f32 :=
  View.canon [⟨rX, k1_pay2 (View.ld x2 rNar)⟩]

/-- The one store covers its buffer. -/
theorem coverH (p0 : Vec F S5000x32 .f32) (y : S5000x32.Idx) :
    ∃ pc ∈ ([⟨rNF, p0⟩] : List (View.Piece (Elt F) S5000x32 .f32)), y ∈ pc.1.set :=
  View.cover_of_tiled [⟨rNF, p0⟩] S5000x32.size (by rfl) y
theorem coverX (p0 : Vec F S5000x3 .f32) (y : S5000x3.Idx) :
    ∃ pc ∈ ([⟨rX, p0⟩] : List (View.Piece (Elt F) S5000x3 .f32)), y ∈ pc.1.set :=
  View.cover_of_tiled [⟨rX, p0⟩] S5000x3.size (by rfl) y

/-! ## The body's triple -/

set_option maxHeartbeats 4000000 in
/-- The body on whole staging memrefs, the inputs' at contents `xW` and the results' at anything, runs to the
    continuation with the inputs' as they were and each result's at its function of the inputs'. -/
theorem sound_kernel (c : Dev nD) (E : Set ℕ) (i : grid1.Coords)
    (arg1 : Memref sig .tc .vmem S5000x32 .f32) (harg1 : arg1.IsWhole) (arg2 : Memref sig .tc .vmem S5000x32 .f32) (harg2 : arg2.IsWhole)
    (arg3 : Memref sig .tc .vmem S5000x7 .f32) (harg3 : arg3.IsWhole) (arg4 : Memref sig .tc .vmem S32x32 .f32) (harg4 : arg4.IsWhole)
    (arg5 : Memref sig .tc .vmem S32x32 .f32) (harg5 : arg5.IsWhole) (arg6 : Memref sig .tc .vmem S1x32 .f32) (harg6 : arg6.IsWhole)
    (arg7 : Memref sig .tc .vmem S32x32 .f32) (harg7 : arg7.IsWhole) (arg8 : Memref sig .tc .vmem S1x32 .f32) (harg8 : arg8.IsWhole)
    (arg9 : Memref sig .tc .vmem S5000x32 .f32) (harg9 : arg9.IsWhole) (arg10 : Memref sig .tc .vmem S5000x3 .f32) (harg10 : arg10.IsWhole)
    (x0 x1 : Vec F S5000x32 .f32) (x2 : Vec F S5000x7 .f32) (x3 x4 : Vec F S32x32 .f32) (x5 : Vec F S1x32 .f32) (x6 : Vec F S32x32 .f32) (x7 : Vec F S1x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (outH x0 x1 x3 x4 x5 x6 x7) ∗ owns (c : Thread nD τ) arg10 fullShare (outX x2)) -∗ K ⟨⟩))
      ⊢ wp frame (wpE (defs₀ (F := F)) Variants.none c none) E
          (cc1__node_kernel i arg1 harg1 arg2 harg2 arg3 harg3 arg4 harg4 arg5 harg5 arg6 harg6 arg7 harg7 arg8 harg8 arg9 harg9 arg10 harg10) K := by
  simp only [cc1__node_kernel_eq_skeleton]; unfold cc1__node_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverH _)
  iexists _; isplitr
  swap; · iexact H9
  ipureintro
  exact View.read_writes_eq_canon _ _ _ (coverX _)

/-! ## The pipeline's proof data -/

/-- The region's proof data on core `c`: the arrays as the region finds them; after the body at point `t` each
    input's buffer at its block, the new features' buffer and the new coordinates' buffer at their functions of the
    input blocks; the rest of the core's state passes through untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => outH (iblk V c 0 t) (iblk V c 1 t) (iblk V c 3 t) (iblk V c 4 t) (iblk V c 5 t) (iblk V c 6 t) (iblk V c 7 t)
    | ⟨9, _⟩ => outX (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t
    = outH (iblk V c 0 t) (iblk V c 1 t) (iblk V c 3 t) (iblk V c 4 t) (iblk V c 5 t) (iblk V c 6 t) (iblk V c 7 t) := by dsimp only [dat]
theorem after_9 (c : Dev nD) (t : Fin cfg1.N) : (dat V c).after 9 t = outX (iblk V c 2 t) := by dsimp only [dat]

theorem before_0 (c : Dev nD) (t : Fin cfg1.N) (d) : (dat V c).before 0 t d = iblk V c 0 t := before_0_of V (dat V c) (A_eq V c 0) (after_0 V c) t d
theorem before_1 (c : Dev nD) (t : Fin cfg1.N) (d) : (dat V c).before 1 t d = iblk V c 1 t := before_1_of V (dat V c) (A_eq V c 1) (after_1 V c) t d
theorem before_2 (c : Dev nD) (t : Fin cfg1.N) (d) : (dat V c).before 2 t d = iblk V c 2 t := before_2_of V (dat V c) (A_eq V c 2) (after_2 V c) t d
theorem before_3 (c : Dev nD) (t : Fin cfg1.N) (d) : (dat V c).before 3 t d = iblk V c 3 t := before_3_of V (dat V c) (A_eq V c 3) (after_3 V c) t d
theorem before_4 (c : Dev nD) (t : Fin cfg1.N) (d) : (dat V c).before 4 t d = iblk V c 4 t := before_4_of V (dat V c) (A_eq V c 4) (after_4 V c) t d
theorem before_5 (c : Dev nD) (t : Fin cfg1.N) (d) : (dat V c).before 5 t d = iblk V c 5 t := before_5_of V (dat V c) (A_eq V c 5) (after_5 V c) t d
theorem before_6 (c : Dev nD) (t : Fin cfg1.N) (d) : (dat V c).before 6 t d = iblk V c 6 t := before_6_of V (dat V c) (A_eq V c 6) (after_6 V c) t d
theorem before_7 (c : Dev nD) (t : Fin cfg1.N) (d) : (dat V c).before 7 t d = iblk V c 7 t := before_7_of V (dat V c) (A_eq V c 7) (after_7 V c) t d

/-! ## The body obligation, at a generic point -/

/-- What the body is called with at point `t`: the windows one by one. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t))

set_option maxHeartbeats 1000000 in
/-- The body at any point: the inputs' memrefs hold their blocks, so the triple applies; the rest of the core's state
    and what it owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _
    (iblk V c 0 t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation (c : Dev nD) : BodyObligation (dat (F := F) V c) (defs₀ (F := F)) Variants.none () Set.univ := fun t => by
  rw [bigSep_W1, bigSep_W1]
  exact sound_body V c t

end Cert.Kernel.NodeRegion

end
-- ==== Proof.KernelRunB.lean ====
/-
  The whole program's run, at any float instance: what every buffer holds at each boundary between two items of
  the program, and that every weakly fair execution ends with exactly those contents.

  The program is: five stretches of host operations (four gathers-with-fill of node rows and coordinates at the edges'
  end points, then the packing of the narrow per-edge rows and the slicing of the weights), the edge kernel's region,
  one stretch of host operations (the three sums of per-edge values at the edges' target nodes and the packing of the
  per-node rows), the node kernel's region. The contents fold through the items: a host stretch applies its operations
  to the contents before it; a region leaves each of its arrays at what its pipeline's write-backs leave — an input
  array as entered, a result array at the blocks the body produced, point by point — and every other buffer as entered.
  No item writes an argument, so each argument's buffer folds back to its launch contents.
-/
import proofs.«405486_j56169582297514_2_alg».proof.Proof.Gen.Kernel.Regions
import proofs.«405486_j56169582297514_2_alg».proof.Proof.EdgeRegionB
import proofs.«405486_j56169582297514_2_alg».proof.Proof.NodeRegionB

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary

`Gen.V0 m c` … `Gen.V5 m c` are the launch contents and the contents after each of the five leading host stretches. -/

/-- The edge region's entry contents, read at the core's references. -/
abbrev E5 : (c : Dev nD) → (b : Ref sig .tc) → Buf (Elt F) ((c : Thread nD τ).loc b) := fun c b => Gen.V5 m c b

/-- At the edge region's exit: its arrays at what the pipeline leaves, every other buffer as entered. -/
def W6 (c : Dev nD) : Valuation τ sig (Elt F) :=
  Pipeline.withArrays spec0 c (Gen.V5 m c) fun w => (EdgeRegion.dat (E5 m) c).arrAt w cfg0.N
theorem W6_arr (c : Dev nD) (w : Fin cfg0.W) :
    W6 m c (Proc.devRef .tc (Pipeline.arrRef spec0 w)) = (EdgeRegion.dat (E5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = Gen.V5 m c (Proc.devRef .tc b) := by
  unfold W6; exact Pipeline.withArrays_of_ne spec0 c _ _ b hb
abbrev E6 : (c : Dev nD) → (b : Ref sig .tc) → Buf (Elt F) ((c : Thread nD τ).loc b) := fun c b => W6 m c b
theorem hF0 (c : Dev nD) (w : Fin cfg0.W) : (EdgeRegion.dat (E5 m) c).arrAt w cfg0.N = E6 m c (Pipeline.arrRef spec0 w) :=
  (W6_arr m c w).symm
theorem hrest0 (c : Dev nD) : ∀ b, b ∉ Finset.univ.image (Pipeline.arrRef spec0) → E6 m c b = E5 m c b :=
  fun b hb => W6_of_ne m c b fun w e => hb (Finset.mem_image.mpr ⟨w, Finset.mem_univ _, e⟩)

/-- After the host stretch between the regions: the node region's entry contents. -/
abbrev W7 : Dev nD → Valuation τ sig (Elt F) := fun c => StableHlo.after hostOps1 (W6 m c)
abbrev E7 : (c : Dev nD) → (b : Ref sig .tc) → Buf (Elt F) ((c : Thread nD τ).loc b) := fun c b => W7 m c b

/-- At the node region's exit, which is the program's end. -/
def W8 (c : Dev nD) : Valuation τ sig (Elt F) :=
  Pipeline.withArrays spec1 c (W7 m c) fun w => (NodeRegion.dat (E7 m) c).arrAt w cfg1.N
theorem W8_arr (c : Dev nD) (w : Fin cfg1.W) :
    W8 m c (Proc.devRef .tc (Pipeline.arrRef spec1 w)) = (NodeRegion.dat (E7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev E8 : (c : Dev nD) → (b : Ref sig .tc) → Buf (Elt F) ((c : Thread nD τ).loc b) := fun c b => W8 m c b
theorem hF1 (c : Dev nD) (w : Fin cfg1.W) : (NodeRegion.dat (E7 m) c).arrAt w cfg1.N = E8 m c (Pipeline.arrRef spec1 w) :=
  (W8_arr m c w).symm
theorem hrest1 (c : Dev nD) : ∀ b, b ∉ Finset.univ.image (Pipeline.arrRef spec1) → E8 m c b = E7 m c b :=
  fun b hb => W8_of_ne m c b fun w e => hb (Finset.mem_image.mpr ⟨w, Finset.mem_univ _, e⟩)

/-! ## The proof data family and what rides beside the buffers -/

abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => EdgeRegion.dat (E5 m) c
  | ⟨1, _⟩ => fun c => NodeRegion.dat (E7 m) c
abbrev 𝒱₀ : Variants := Variants.none
abbrev L : GSem nD τ sig → Finset Unit := fun _ => ∅
abbrev lv : GSem nD τ sig → Unit → ℕ := fun _ _ => 0
/-- Beside the buffers: the core's generator register at some state, and that the core owes nothing. -/
abbrev R (c : Dev nD) : sProp 𝕄 := iprop((∃ r, prngReg c r) ∗ ∃ W, owes (c : Thread nD τ) (0 : CellTallies nD τ sig Unit) W)
/-- A host stretch as a segment of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the owing clause. -/
abbrev Tₙ (c : Dev nD) : sProp 𝕄 := iprop(StableHlo.held (c : Thread nD τ) (Pipeline.ucRefs τ sig) (W8 m c) ∗ ∃ r, prngReg c r)

/-! ## The two regions as segments -/

set_option backward.isDefEq.respectTransparency.types false in
/-- The edge region: entered with every unscoped buffer at `Gen.V5`, left with them at `W6`. Its arrays are split out of
    the buffers at entry and put back at their exit contents; the generator register passes through the region's
    invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (EdgeRegion.body_obligation (E5 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node region: entered with every unscoped buffer at `W7`, left with them at `W8`, which is the program's end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (NodeRegion.body_obligation (E7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (E8 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eight segments in order. -/
abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .region (reg0 m),
    .host (hseg hostOps1 hostOps1_sub hostOps1_fresh (W6 m)),
    .region (reg1 m) ]

/-- The program IS the run of the segments. -/
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and in every final state each unscoped buffer of each core holds the contents `W8` names. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

end Cert.Kernel.Run

end
-- ==== Proof.KernelArgsB.lean ====
import proofs.«405486_j56169582297514_2_alg».proof.Proof.KernelRunB

/-! Each argument's buffer ends as launched: an argument that is an input array of a region is left by that region as
    entered, any other is not among the region's arrays; no host operation writes an argument. -/

set_option maxRecDepth 16384

noncomputable section

namespace Cert.Kernel.Run

open Cert.Kernel Cert.Kernel.Gen
open Idealize.ShloMosaic Idealize.ShloMosaic.TcCoe Idealize.SL.Sem

variable {F : FTy → Type} [FloatOps F]
variable (m : (ℓ : Loc nD τ sig) → Buf (Elt F) ℓ)

theorem W8_main_arg0 (c : Dev nD) : W8 m c (Proc.devRef .tc main_arg0) = m ((c : Thread nD τ).loc main_arg0) :=
  calc W8 m c (Proc.devRef .tc main_arg0)
    _ = W7 m c (Proc.devRef .tc main_arg0) := (W8_arr m c 0).trans (((NodeRegion.dat (E7 m) c).arrAt_in 0 rfl _).trans (NodeRegion.A_eq (E7 m) c 0))
    _ = W6 m c (Proc.devRef .tc main_arg0) := StableHlo.after_of_writes_sub hostOps1 _ hostOps1_writes (by decide)
    _ = Gen.V5 m c (Proc.devRef .tc main_arg0) := W6_of_ne m c main_arg0 (by decide)
    _ = m ((c : Thread nD τ).loc main_arg0) := (V5_of m c main_arg0 (by decide)).trans <| (V4_of m c main_arg0 (by decide)).trans <| (V3_of m c main_arg0 (by decide)).trans <| (V2_of m c main_arg0 (by decide)).trans <| (V1_of m c main_arg0 (by decide)).trans rfl
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := StableHlo.after_of_writes_sub hostOps1 _ hostOps1_writes (by decide)
    _ = Gen.V5 m c (Proc.devRef .tc main_arg1) := W6_of_ne m c main_arg1 (by decide)
    _ = m ((c : Thread nD τ).loc main_arg1) := (V5_of m c main_arg1 (by decide)).trans <| (V4_of m c main_arg1 (by decide)).trans <| (V3_of m c main_arg1 (by decide)).trans <| (V2_of m c main_arg1 (by decide)).trans <| (V1_of m c main_arg1 (by decide)).trans rfl
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := StableHlo.after_of_writes_sub hostOps1 _ hostOps1_writes (by decide)
    _ = Gen.V5 m c (Proc.devRef .tc main_arg2) := W6_of_ne m c main_arg2 (by decide)
    _ = m ((c : Thread nD τ).loc main_arg2) := (V5_of m c main_arg2 (by decide)).trans <| (V4_of m c main_arg2 (by decide)).trans <| (V3_of m c main_arg2 (by decide)).trans <| (V2_of m c main_arg2 (by decide)).trans <| (V1_of m c main_arg2 (by decide)).trans rfl
theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := StableHlo.after_of_writes_sub hostOps1 _ hostOps1_writes (by decide)
    _ = Gen.V5 m c (Proc.devRef .tc main_arg3) := W6_of_ne m c main_arg3 (by decide)
    _ = m ((c : Thread nD τ).loc main_arg3) := (V5_of m c main_arg3 (by decide)).trans <| (V4_of m c main_arg3 (by decide)).trans <| (V3_of m c main_arg3 (by decide)).trans <| (V2_of m c main_arg3 (by decide)).trans <| (V1_of m c main_arg3 (by decide)).trans rfl
theorem W8_main_arg4 (c : Dev nD) : W8 m c (Proc.devRef .tc main_arg4) = m ((c : Thread nD τ).loc main_arg4) :=
  calc W8 m c (Proc.devRef .tc main_arg4)
    _ = W7 m c (Proc.devRef .tc main_arg4) := W8_of_ne m c main_arg4 (by decide)
    _ = W6 m c (Proc.devRef .tc main_arg4) := StableHlo.after_of_writes_sub hostOps1 _ hostOps1_writes (by decide)
    _ = Gen.V5 m c (Proc.devRef .tc main_arg4) := W6_of_ne m c main_arg4 (by decide)
    _ = m ((c : Thread nD τ).loc main_arg4) := (V5_of m c main_arg4 (by decide)).trans <| (V4_of m c main_arg4 (by decide)).trans <| (V3_of m c main_arg4 (by decide)).trans <| (V2_of m c main_arg4 (by decide)).trans <| (V1_of m c main_arg4 (by decide)).trans rfl
theorem W8_main_arg5 (c : Dev nD) : W8 m c (Proc.devRef .tc main_arg5) = m ((c : Thread nD τ).loc main_arg5) :=
  calc W8 m c (Proc.devRef .tc main_arg5)
    _ = W7 m c (Proc.devRef .tc main_arg5) := W8_of_ne m c main_arg5 (by decide)
    _ = W6 m c (Proc.devRef .tc main_arg5) := StableHlo.after_of_writes_sub hostOps1 _ hostOps1_writes (by decide)
    _ = Gen.V5 m c (Proc.devRef .tc main_arg5) := W6_of_ne m c main_arg5 (by decide)
    _ = m ((c : Thread nD τ).loc main_arg5) := (V5_of m c main_arg5 (by decide)).trans <| (V4_of m c main_arg5 (by decide)).trans <| (V3_of m c main_arg5 (by decide)).trans <| (V2_of m c main_arg5 (by decide)).trans <| (V1_of m c main_arg5 (by decide)).trans rfl
theorem W8_main_arg6 (c : Dev nD) : W8 m c (Proc.devRef .tc main_arg6) = m ((c : Thread nD τ).loc main_arg6) :=
  calc W8 m c (Proc.devRef .tc main_arg6)
    _ = W7 m c (Proc.devRef .tc main_arg6) := W8_of_ne m c main_arg6 (by decide)
    _ = W6 m c (Proc.devRef .tc main_arg6) := StableHlo.after_of_writes_sub hostOps1 _ hostOps1_writes (by decide)
    _ = Gen.V5 m c (Proc.devRef .tc main_arg6) := W6_of_ne m c main_arg6 (by decide)
    _ = m ((c : Thread nD τ).loc main_arg6) := (V5_of m c main_arg6 (by decide)).trans <| (V4_of m c main_arg6 (by decide)).trans <| (V3_of m c main_arg6 (by decide)).trans <| (V2_of m c main_arg6 (by decide)).trans <| (V1_of m c main_arg6 (by decide)).trans rfl
theorem W8_main_arg7 (c : Dev nD) : W8 m c (Proc.devRef .tc main_arg7) = m ((c : Thread nD τ).loc main_arg7) :=
  calc W8 m c (Proc.devRef .tc main_arg7)
    _ = W7 m c (Proc.devRef .tc main_arg7) := W8_of_ne m c main_arg7 (by decide)
    _ = W6 m c (Proc.devRef .tc main_arg7) := StableHlo.after_of_writes_sub hostOps1 _ hostOps1_writes (by decide)
    _ = Gen.V5 m c (Proc.devRef .tc main_arg7) := (W6_arr m c 8).trans (((EdgeRegion.dat (E5 m) c).arrAt_in 8 rfl _).trans (EdgeRegion.A_eq (E5 m) c 8))
    _ = m ((c : Thread nD τ).loc main_arg7) := (V5_of m c main_arg7 (by decide)).trans <| (V4_of m c main_arg7 (by decide)).trans <| (V3_of m c main_arg7 (by decide)).trans <| (V2_of m c main_arg7 (by decide)).trans <| (V1_of m c main_arg7 (by decide)).trans rfl
theorem W8_main_arg8 (c : Dev nD) : W8 m c (Proc.devRef .tc main_arg8) = m ((c : Thread nD τ).loc main_arg8) :=
  calc W8 m c (Proc.devRef .tc main_arg8)
    _ = W7 m c (Proc.devRef .tc main_arg8) := W8_of_ne m c main_arg8 (by decide)
    _ = W6 m c (Proc.devRef .tc main_arg8) := StableHlo.after_of_writes_sub hostOps1 _ hostOps1_writes (by decide)
    _ = Gen.V5 m c (Proc.devRef .tc main_arg8) := W6_of_ne m c main_arg8 (by decide)
    _ = m ((c : Thread nD τ).loc main_arg8) := (V5_of m c main_arg8 (by decide)).trans <| (V4_of m c main_arg8 (by decide)).trans <| (V3_of m c main_arg8 (by decide)).trans <| (V2_of m c main_arg8 (by decide)).trans <| (V1_of m c main_arg8 (by decide)).trans rfl
theorem W8_main_arg9 (c : Dev nD) : W8 m c (Proc.devRef .tc main_arg9) = m ((c : Thread nD τ).loc main_arg9) :=
  calc W8 m c (Proc.devRef .tc main_arg9)
    _ = W7 m c (Proc.devRef .tc main_arg9) := W8_of_ne m c main_arg9 (by decide)
    _ = W6 m c (Proc.devRef .tc main_arg9) := StableHlo.after_of_writes_sub hostOps1 _ hostOps1_writes (by decide)
    _ = Gen.V5 m c (Proc.devRef .tc main_arg9) := W6_of_ne m c main_arg9 (by decide)
    _ = m ((c : Thread nD τ).loc main_arg9) := (V5_of m c main_arg9 (by decide)).trans <| (V4_of m c main_arg9 (by decide)).trans <| (V3_of m c main_arg9 (by decide)).trans <| (V2_of m c main_arg9 (by decide)).trans <| (V1_of m c main_arg9 (by decide)).trans rfl
theorem W8_main_arg10 (c : Dev nD) : W8 m c (Proc.devRef .tc main_arg10) = m ((c : Thread nD τ).loc main_arg10) :=
  calc W8 m c (Proc.devRef .tc main_arg10)
    _ = W7 m c (Proc.devRef .tc main_arg10) := W8_of_ne m c main_arg10 (by decide)
    _ = W6 m c (Proc.devRef .tc main_arg10) := StableHlo.after_of_writes_sub hostOps1 _ hostOps1_writes (by decide)
    _ = Gen.V5 m c (Proc.devRef .tc main_arg10) := W6_of_ne m c main_arg10 (by decide)
    _ = m ((c : Thread nD τ).loc main_arg10) := (V5_of m c main_arg10 (by decide)).trans <| (V4_of m c main_arg10 (by decide)).trans <| (V3_of m c main_arg10 (by decide)).trans <| (V2_of m c main_arg10 (by decide)).trans <| (V1_of m c main_arg10 (by decide)).trans rfl
theorem W8_main_arg11 (c : Dev nD) : W8 m c (Proc.devRef .tc main_arg11) = m ((c : Thread nD τ).loc main_arg11) :=
  calc W8 m c (Proc.devRef .tc main_arg11)
    _ = W7 m c (Proc.devRef .tc main_arg11) := (W8_arr m c 6).trans (((NodeRegion.dat (E7 m) c).arrAt_in 6 rfl _).trans (NodeRegion.A_eq (E7 m) c 6))
    _ = W6 m c (Proc.devRef .tc main_arg11) := StableHlo.after_of_writes_sub hostOps1 _ hostOps1_writes (by decide)
    _ = Gen.V5 m c (Proc.devRef .tc main_arg11) := W6_of_ne m c main_arg11 (by decide)
    _ = m ((c : Thread nD τ).loc main_arg11) := (V5_of m c main_arg11 (by decide)).trans <| (V4_of m c main_arg11 (by decide)).trans <| (V3_of m c main_arg11 (by decide)).trans <| (V2_of m c main_arg11 (by decide)).trans <| (V1_of m c main_arg11 (by decide)).trans rfl
theorem W8_main_arg12 (c : Dev nD) : W8 m c (Proc.devRef .tc main_arg12) = m ((c : Thread nD τ).loc main_arg12) :=
  calc W8 m c (Proc.devRef .tc main_arg12)
    _ = W7 m c (Proc.devRef .tc main_arg12) := W8_of_ne m c main_arg12 (by decide)
    _ = W6 m c (Proc.devRef .tc main_arg12) := StableHlo.after_of_writes_sub hostOps1 _ hostOps1_writes (by decide)
    _ = Gen.V5 m c (Proc.devRef .tc main_arg12) := W6_of_ne m c main_arg12 (by decide)
    _ = m ((c : Thread nD τ).loc main_arg12) := (V5_of m c main_arg12 (by decide)).trans <| (V4_of m c main_arg12 (by decide)).trans <| (V3_of m c main_arg12 (by decide)).trans <| (V2_of m c main_arg12 (by decide)).trans <| (V1_of m c main_arg12 (by decide)).trans rfl
theorem W8_main_arg13 (c : Dev nD) : W8 m c (Proc.devRef .tc main_arg13) = m ((c : Thread nD τ).loc main_arg13) :=
  calc W8 m c (Proc.devRef .tc main_arg13)
    _ = W7 m c (Proc.devRef .tc main_arg13) := W8_of_ne m c main_arg13 (by decide)
    _ = W6 m c (Proc.devRef .tc main_arg13) := StableHlo.after_of_writes_sub hostOps1 _ hostOps1_writes (by decide)
    _ = Gen.V5 m c (Proc.devRef .tc main_arg13) := (W6_arr m c 10).trans (((EdgeRegion.dat (E5 m) c).arrAt_in 10 rfl _).trans (EdgeRegion.A_eq (E5 m) c 10))
    _ = m ((c : Thread nD τ).loc main_arg13) := (V5_of m c main_arg13 (by decide)).trans <| (V4_of m c main_arg13 (by decide)).trans <| (V3_of m c main_arg13 (by decide)).trans <| (V2_of m c main_arg13 (by decide)).trans <| (V1_of m c main_arg13 (by decide)).trans rfl
theorem W8_main_arg14 (c : Dev nD) : W8 m c (Proc.devRef .tc main_arg14) = m ((c : Thread nD τ).loc main_arg14) :=
  calc W8 m c (Proc.devRef .tc main_arg14)
    _ = W7 m c (Proc.devRef .tc main_arg14) := W8_of_ne m c main_arg14 (by decide)
    _ = W6 m c (Proc.devRef .tc main_arg14) := StableHlo.after_of_writes_sub hostOps1 _ hostOps1_writes (by decide)
    _ = Gen.V5 m c (Proc.devRef .tc main_arg14) := W6_of_ne m c main_arg14 (by decide)
    _ = m ((c : Thread nD τ).loc main_arg14) := (V5_of m c main_arg14 (by decide)).trans <| (V4_of m c main_arg14 (by decide)).trans <| (V3_of m c main_arg14 (by decide)).trans <| (V2_of m c main_arg14 (by decide)).trans <| (V1_of m c main_arg14 (by decide)).trans rfl
theorem W8_main_arg15 (c : Dev nD) : W8 m c (Proc.devRef .tc main_arg15) = m ((c : Thread nD τ).loc main_arg15) :=
  calc W8 m c (Proc.devRef .tc main_arg15)
    _ = W7 m c (Proc.devRef .tc main_arg15) := W8_of_ne m c main_arg15 (by decide)
    _ = W6 m c (Proc.devRef .tc main_arg15) := StableHlo.after_of_writes_sub hostOps1 _ hostOps1_writes (by decide)
    _ = Gen.V5 m c (Proc.devRef .tc main_arg15) := W6_of_ne m c main_arg15 (by decide)
    _ = m ((c : Thread nD τ).loc main_arg15) := (V5_of m c main_arg15 (by decide)).trans <| (V4_of m c main_arg15 (by decide)).trans <| (V3_of m c main_arg15 (by decide)).trans <| (V2_of m c main_arg15 (by decide)).trans <| (V1_of m c main_arg15 (by decide)).trans rfl

end Cert.Kernel.Run

end
-- ==== Proof.KernelFrameB.lean ====
/-
  What the program's run gives beyond the final contents by name: every argument's buffer ends as launched.
-/
import proofs.«405486_j56169582297514_2_alg».proof.Proof.KernelArgsB

set_option maxRecDepth 16384

noncomputable section

namespace Cert.Kernel.Run

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- Every argument's buffer ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c),
     (h c _ (mem_uc main_arg9 (by decide))).trans (W8_main_arg9 m c),
     (h c _ (mem_uc main_arg10 (by decide))).trans (W8_main_arg10 m c),
     (h c _ (mem_uc main_arg11 (by decide))).trans (W8_main_arg11 m c),
     (h c _ (mem_uc main_arg12 (by decide))).trans (W8_main_arg12 m c),
     (h c _ (mem_uc main_arg13 (by decide))).trans (W8_main_arg13 m c),
     (h c _ (mem_uc main_arg14 (by decide))).trans (W8_main_arg14 m c),
     (h c _ (mem_uc main_arg15 (by decide))).trans (W8_main_arg15 m c)⟩) (run m ρ)

/-- The same run with both results named: the new node features end at `W8 m c main_v31_0`, the new coordinates at
    `W8 m c main_v31_1`, and every argument's buffer ends as launched. -/
theorem results (ρ : Dev nD → PrngReg) : θ_run defs (onTc (τ := τ) (main (F := F))) ⟨m, fun _ => 0, ρ⟩ (fun r => ∀ c : Dev nD,
      r.2.mem ((c.tc : Thread nD τ).loc main_v31_0) = W8 m c (Proc.devRef .tc main_v31_0)
      ∧ r.2.mem ((c.tc : Thread nD τ).loc main_v31_1) = W8 m c (Proc.devRef .tc main_v31_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v31_0 (by decide)),
     h c _ (mem_uc main_v31_1 (by decide)),
     (h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c),
     (h c _ (mem_uc main_arg9 (by decide))).trans (W8_main_arg9 m c),
     (h c _ (mem_uc main_arg10 (by decide))).trans (W8_main_arg10 m c),
     (h c _ (mem_uc main_arg11 (by decide))).trans (W8_main_arg11 m c),
     (h c _ (mem_uc main_arg12 (by decide))).trans (W8_main_arg12 m c),
     (h c _ (mem_uc main_arg13 (by decide))).trans (W8_main_arg13 m c),
     (h c _ (mem_uc main_arg14 (by decide))).trans (W8_main_arg14 m c),
     (h c _ (mem_uc main_arg15 (by decide))).trans (W8_main_arg15 m c)⟩) (run m ρ)

end Cert.Kernel.Run

end
-- ==== Proof.EdgeRegionI.lean ====
/-
  The edge kernel's region of the program, at any float instance.

  The region has fifteen windows over a grid of five hundred points. Windows 0, 1, 2 walk the rows of the source
  features, the target features and the packed narrow table, 6400 rows a point; windows 3 to 12 are the weight
  matrices and bias rows, whose block is the whole array at every point; windows 13 and 14 are the two results, the
  messages (in the narrower float format) and the coordinate messages, 6400 rows a point. At a point the body reads
  each input block whole and writes each result block whole: the messages are one pure function of the blocks of
  windows 0 to 9 and the coordinate messages one pure function of the blocks of windows 0 to 12. So after the body
  each input's staging buffer still holds its block and each result's buffer holds that function of the input blocks.
  This module states those contents as the pipeline's proof data and proves the body's triple and the pipeline's
  obligation at a generic point, for ANY contents `V` of the arrays at the region's entry.
-/
import proofs.«405486_j56169582297514_2_alg».proof.Proof.Gen.KernelIdeal.Launch
import proofs.«405486_j56169582297514_2_alg».proof.Proof.Gen.KernelIdeal.Skeleton
import proofs.«405486_j56169582297514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.EdgeRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where no fetch happens the
    block index has not moved since the last one. One lemma per input window. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V c (Pipeline.arrRef spec0 10))
    (hafter : ∀ t, dat.after 10 t = iblk V c 10 t) (t : Fin cfg0.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V c (Pipeline.arrRef spec0 11))
    (hafter : ∀ t, dat.after 11 t = iblk V c 11 t) (t : Fin cfg0.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg0 c) (hA : dat.A 12 = V c (Pipeline.arrRef spec0 12))
    (hafter : ∀ t, dat.after 12 t = iblk V c 12 t) (t : Fin cfg0.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store takes its buffer whole -/

abbrev rRows : Rect S6400x32 := Rect.unit (s := S6400x32) ![0, 0] S6400x32.size inb_S6400x32_S6400x32_0_0
abbrev rNar : Rect S6400x14 := Rect.unit (s := S6400x14) ![0, 0] S6400x14.size inb_S6400x14_S6400x14_0_0
abbrev rW : Rect S32x32 := Rect.unit (s := S32x32) ![0, 0] S32x32.size inb_S32x32_S32x32_0_0
abbrev rB : Rect S1x32 := Rect.unit (s := S1x32) ![0, 0] S1x32.size inb_S1x32_S1x32_0_0
abbrev rE : Rect S8x32 := Rect.unit (s := S8x32) ![0, 0] S8x32.size inb_S8x32_S8x32_0_0
abbrev rX : Rect S6400x3 := Rect.unit (s := S6400x3) ![0, 0] S6400x3.size inb_S6400x3_S6400x3_0_0

/-! ## What the body leaves in each result window's buffer -/

/-- The messages' block: the body's one store into window 13, its value the messages' pure term of the blocks of the
    source features, the target features, the packed narrow table, the two halves of the first weight matrix, the
    first bias row, the edge-attribute weights, the row broadcast down the block, the second weight matrix and the
    second bias row. -/
def outMsg (x0 x1 : Vec F S6400x32 .f32) (x2 : Vec F S6400x14 .f32) (x3 x4 : Vec F S32x32 .f32) (x5 : Vec F S1x32 .f32) (x6 : Vec F S8x32 .f32)
    (x7 : Vec F S1x32 .f32) (x8 : Vec F S32x32 .f32) (x9 : Vec F S1x32 .f32) : Vec F S6400x32 .bf16 :=
  View.canon [⟨rRows, k0_pay3 (k0_pay8 (View.ld x0 rRows) (View.ld x1 rRows) (View.ld x2 rNar) (View.ld x3 rW) (View.ld x4 rW) (View.ld x5 rB) (View.ld x6 rE))
    (k0_pay9 (View.ld x7 rB)) (View.ld x8 rW) (View.ld x9 rB)⟩]

/-- The coordinate messages' block: the body's one store into window 14, a pure term of the same blocks and of the
    third weight matrix and the last two rows. -/
def outCoord (x0 x1 : Vec F S6400x32 .f32) (x2 : Vec F S6400x14 .f32) (x3 x4 : Vec F S32x32 .f32) (x5 : Vec F S1x32 .f32) (x6 : Vec F S8x32 .f32)
    (x7 : Vec F S1x32 .f32) (x8 : Vec F S32x32 .f32) (x9 : Vec F S1x32 .f32) (x10 : Vec F S32x32 .f32) (x11 x12 : Vec F S1x32 .f32) : Vec F S6400x3 .f32 :=
  View.canon [⟨rX, k0_pay2 (k0_pay7 (View.ld x2 rNar))
    (k0_pay8 (View.ld x0 rRows) (View.ld x1 rRows) (View.ld x2 rNar) (View.ld x3 rW) (View.ld x4 rW) (View.ld x5 rB) (View.ld x6 rE))
    (k0_pay9 (View.ld x7 rB)) (View.ld x8 rW) (View.ld x9 rB) (View.ld x10 rW) (View.ld x11 rB) (View.ld x12 rB)⟩]

/-- The one store covers its buffer. -/
theorem coverMsg (p0 : Vec F S6400x32 .bf16) (y : S6400x32.Idx) :
    ∃ pc ∈ ([⟨rRows, p0⟩] : List (View.Piece (Elt F) S6400x32 .bf16)), y ∈ pc.1.set :=
  View.cover_of_tiled [⟨rRows, p0⟩] S6400x32.size (by rfl) y
theorem coverCoord (p0 : Vec F S6400x3 .f32) (y : S6400x3.Idx) :
    ∃ pc ∈ ([⟨rX, p0⟩] : List (View.Piece (Elt F) S6400x3 .f32)), y ∈ pc.1.set :=
  View.cover_of_tiled [⟨rX, p0⟩] S6400x3.size (by rfl) y

/-! ## The body's triple -/

set_option maxHeartbeats 4000000 in
/-- The body on whole staging memrefs, the inputs' at contents `xW` and the results' at anything, runs to the
    continuation with the inputs' as they were and each result's at its function of the inputs'. -/
theorem sound_kernel (c : Dev nD) (E : Set ℕ) (i : grid0.Coords)
    (arg1 : Memref sig .tc .vmem S6400x32 .f32) (harg1 : arg1.IsWhole) (arg2 : Memref sig .tc .vmem S6400x32 .f32) (harg2 : arg2.IsWhole)
    (arg3 : Memref sig .tc .vmem S6400x14 .f32) (harg3 : arg3.IsWhole) (arg4 : Memref sig .tc .vmem S32x32 .f32) (harg4 : arg4.IsWhole)
    (arg5 : Memref sig .tc .vmem S32x32 .f32) (harg5 : arg5.IsWhole) (arg6 : Memref sig .tc .vmem S1x32 .f32) (harg6 : arg6.IsWhole)
    (arg7 : Memref sig .tc .vmem S8x32 .f32) (harg7 : arg7.IsWhole) (arg8 : Memref sig .tc .vmem S1x32 .f32) (harg8 : arg8.IsWhole)
    (arg9 : Memref sig .tc .vmem S32x32 .f32) (harg9 : arg9.IsWhole) (arg10 : Memref sig .tc .vmem S1x32 .f32) (harg10 : arg10.IsWhole)
    (arg11 : Memref sig .tc .vmem S32x32 .f32) (harg11 : arg11.IsWhole) (arg12 : Memref sig .tc .vmem S1x32 .f32) (harg12 : arg12.IsWhole)
    (arg13 : Memref sig .tc .vmem S1x32 .f32) (harg13 : arg13.IsWhole)
    (arg14 : Memref sig .tc .vmem S6400x32 .bf16) (harg14 : arg14.IsWhole) (arg15 : Memref sig .tc .vmem S6400x3 .f32) (harg15 : arg15.IsWhole)
    (x0 x1 : Vec F S6400x32 .f32) (x2 : Vec F S6400x14 .f32) (x3 x4 : Vec F S32x32 .f32) (x5 : Vec F S1x32 .f32) (x6 : Vec F S8x32 .f32)
    (x7 : Vec F S1x32 .f32) (x8 : Vec F S32x32 .f32) (x9 : Vec F S1x32 .f32) (x10 : Vec F S32x32 .f32) (x11 x12 : Vec F S1x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12
        ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12
            ∗ owns (c : Thread nD τ) arg14 fullShare (outMsg x0 x1 x2 x3 x4 x5 x6 x7 x8 x9)
            ∗ owns (c : Thread nD τ) arg15 fullShare (outCoord x0 x1 x2 x3 x4 x5 x6 x7 x8 x9 x10 x11 x12)) -∗ K ⟨⟩))
      ⊢ wp frame (wpE (defs₀ (F := F)) Variants.none c none) E
          (cc0__edge_kernel i arg1 harg1 arg2 harg2 arg3 harg3 arg4 harg4 arg5 harg5 arg6 harg6 arg7 harg7 arg8 harg8 arg9 harg9 arg10 harg10
            arg11 harg11 arg12 harg12 arg13 harg13 arg14 harg14 arg15 harg15) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩,
    ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (coverMsg _)
  iexists _; isplitr
  swap; · iexact H14
  ipureintro
  exact View.read_writes_eq_canon _ _ _ (coverCoord _)

/-! ## The pipeline's proof data -/

/-- The region's proof data on core `c`: the arrays as the region finds them; after the body at point `t` each
    input's buffer at its block, the messages' buffer and the coordinate messages' buffer at their functions of the
    input blocks; the rest of the core's state passes through untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => outMsg (iblk V c 0 t) (iblk V c 1 t) (iblk V c 2 t) (iblk V c 3 t) (iblk V c 4 t) (iblk V c 5 t) (iblk V c 6 t) (iblk V c 7 t)
        (iblk V c 8 t) (iblk V c 9 t)
    | ⟨14, _⟩ => outCoord (iblk V c 0 t) (iblk V c 1 t) (iblk V c 2 t) (iblk V c 3 t) (iblk V c 4 t) (iblk V c 5 t) (iblk V c 6 t) (iblk V c 7 t)
        (iblk V c 8 t) (iblk V c 9 t) (iblk V c 10 t) (iblk V c 11 t) (iblk V c 12 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = iblk V c 10 t := by dsimp only [dat]
theorem after_11 (c : Dev nD) (t : Fin cfg0.N) : (dat V c).after 11 t = iblk V c 11 t := by dsimp only [dat]
theorem after_12 (c : Dev nD) (t : Fin cfg0.N) : (dat V c).after 12 t = iblk V c 12 t := by dsimp only [dat]
theorem after_13 (c : Dev nD) (t : Fin cfg0.N) : (dat V c).after 13 t
    = outMsg (iblk V c 0 t) (iblk V c 1 t) (iblk V c 2 t) (iblk V c 3 t) (iblk V c 4 t) (iblk V c 5 t) (iblk V c 6 t) (iblk V c 7 t)
        (iblk V c 8 t) (iblk V c 9 t) := by dsimp only [dat]
theorem after_14 (c : Dev nD) (t : Fin cfg0.N) : (dat V c).after 14 t
    = outCoord (iblk V c 0 t) (iblk V c 1 t) (iblk V c 2 t) (iblk V c 3 t) (iblk V c 4 t) (iblk V c 5 t) (iblk V c 6 t) (iblk V c 7 t)
        (iblk V c 8 t) (iblk V c 9 t) (iblk V c 10 t) (iblk V c 11 t) (iblk V c 12 t) := by dsimp only [dat]

theorem before_0 (c : Dev nD) (t : Fin cfg0.N) (d) : (dat V c).before 0 t d = iblk V c 0 t := before_0_of V (dat V c) (A_eq V c 0) (after_0 V c) t d
theorem before_1 (c : Dev nD) (t : Fin cfg0.N) (d) : (dat V c).before 1 t d = iblk V c 1 t := before_1_of V (dat V c) (A_eq V c 1) (after_1 V c) t d
theorem before_2 (c : Dev nD) (t : Fin cfg0.N) (d) : (dat V c).before 2 t d = iblk V c 2 t := before_2_of V (dat V c) (A_eq V c 2) (after_2 V c) t d
theorem before_3 (c : Dev nD) (t : Fin cfg0.N) (d) : (dat V c).before 3 t d = iblk V c 3 t := before_3_of V (dat V c) (A_eq V c 3) (after_3 V c) t d
theorem before_4 (c : Dev nD) (t : Fin cfg0.N) (d) : (dat V c).before 4 t d = iblk V c 4 t := before_4_of V (dat V c) (A_eq V c 4) (after_4 V c) t d
theorem before_5 (c : Dev nD) (t : Fin cfg0.N) (d) : (dat V c).before 5 t d = iblk V c 5 t := before_5_of V (dat V c) (A_eq V c 5) (after_5 V c) t d
theorem before_6 (c : Dev nD) (t : Fin cfg0.N) (d) : (dat V c).before 6 t d = iblk V c 6 t := before_6_of V (dat V c) (A_eq V c 6) (after_6 V c) t d
theorem before_7 (c : Dev nD) (t : Fin cfg0.N) (d) : (dat V c).before 7 t d = iblk V c 7 t := before_7_of V (dat V c) (A_eq V c 7) (after_7 V c) t d
theorem before_8 (c : Dev nD) (t : Fin cfg0.N) (d) : (dat V c).before 8 t d = iblk V c 8 t := before_8_of V (dat V c) (A_eq V c 8) (after_8 V c) t d
theorem before_9 (c : Dev nD) (t : Fin cfg0.N) (d) : (dat V c).before 9 t d = iblk V c 9 t := before_9_of V (dat V c) (A_eq V c 9) (after_9 V c) t d
theorem before_10 (c : Dev nD) (t : Fin cfg0.N) (d) : (dat V c).before 10 t d = iblk V c 10 t := before_10_of V (dat V c) (A_eq V c 10) (after_10 V c) t d
theorem before_11 (c : Dev nD) (t : Fin cfg0.N) (d) : (dat V c).before 11 t d = iblk V c 11 t := before_11_of V (dat V c) (A_eq V c 11) (after_11 V c) t d
theorem before_12 (c : Dev nD) (t : Fin cfg0.N) (d) : (dat V c).before 12 t d = iblk V c 12 t := before_12_of V (dat V c) (A_eq V c 12) (after_12 V c) t d

/-! ## The body obligation, at a generic point -/

/-- What the body is called with at point `t`: the windows one by one. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d))
    ∗ (∃ d, owns (c : Thread nD τ) (st0_12 t) fullShare ((dat V c).before 12 t d))
    ∗ (∃ d, owns (c : Thread nD τ) (st0_13 t) fullShare ((dat V c).before 13 t d))
    ∗ (∃ d, owns (c : Thread nD τ) (st0_14 t) fullShare ((dat V c).before 14 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t)
    ∗ owns (c : Thread nD τ) (st0_12 t) fullShare ((dat V c).after 12 t)
    ∗ owns (c : Thread nD τ) (st0_13 t) fullShare ((dat V c).after 13 t)
    ∗ owns (c : Thread nD τ) (st0_14 t) fullShare ((dat V c).after 14 t))

set_option maxHeartbeats 1000000 in
/-- The body at any point: the inputs' memrefs hold their blocks, so the triple applies; the rest of the core's state
    and what it owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9, before_10, before_11, before_12]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩⟩
  iapply (sound_kernel c Set.univ _ _ _ _ _ _ _ _ _ _ _ _ _ _ _ _ _ _ _ _ _ _ _ _ _ _ _ _ _ _ _
    (iblk V c 0 t) (iblk V c 1 t) (iblk V c 2 t) (iblk V c 3 t) (iblk V c 4 t) (iblk V c 5 t) (iblk V c 6 t) (iblk V c 7 t)
    (iblk V c 8 t) (iblk V c 9 t) (iblk V c 10 t) (iblk V c 11 t) (iblk V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The pipeline's body obligation, at every point. -/
theorem body_obligation (c : Dev nD) : BodyObligation (dat (F := F) V c) (defs₀ (F := F)) Variants.none () Set.univ := fun t => by
  rw [bigSep_W0, bigSep_W0]
  exact sound_body V c t

end Cert.KernelIdeal.EdgeRegion

end
-- ==== Proof.NodeRegionI.lean ====
/-
  The node-update kernel's region of the program, at any float instance.

  The region has ten windows over a grid of twenty points. Windows 0, 1, 2 walk the rows of the node features, the
  aggregated messages and the packed coordinate table, 5000 rows a point; windows 3 to 7 are the weight matrices and
  bias rows, whose block is the whole array at every point; windows 8 and 9 are the two results, 5000 rows a point.
  At a point the body reads each input block whole and writes each result block whole: the new features are one pure
  function of the blocks of windows 0, 1, 3, 4, 5, 6, 7 and the new coordinates one pure function of window 2's block.
  So after the body each input's staging buffer still holds its block and each result's buffer holds that function of
  the input blocks. This module states those contents as the pipeline's proof data and proves the body's triple and
  the pipeline's obligation at a generic point, for ANY contents `V` of the arrays at the region's entry.
-/
import proofs.«405486_j56169582297514_2_alg».proof.Proof.Gen.KernelIdeal.Launch
import proofs.«405486_j56169582297514_2_alg».proof.Proof.Gen.KernelIdeal.Skeleton
import proofs.«405486_j56169582297514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.NodeRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where no fetch happens the
    block index has not moved since the last one. One lemma per input window. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store takes its buffer whole -/

abbrev rNF : Rect S5000x32 := Rect.unit (s := S5000x32) ![0, 0] S5000x32.size inb_S5000x32_S5000x32_0_0
abbrev rNar : Rect S5000x7 := Rect.unit (s := S5000x7) ![0, 0] S5000x7.size inb_S5000x7_S5000x7_0_0
abbrev rW : Rect S32x32 := Rect.unit (s := S32x32) ![0, 0] S32x32.size inb_S32x32_S32x32_0_0
abbrev rB : Rect S1x32 := Rect.unit (s := S1x32) ![0, 0] S1x32.size inb_S1x32_S1x32_0_0
abbrev rX : Rect S5000x3 := Rect.unit (s := S5000x3) ![0, 0] S5000x3.size inb_S5000x3_S5000x3_0_0

/-! ## What the body leaves in each result window's buffer -/

/-- The new node features' block: the body's one store into window 8, its value the features' pure term of the blocks
    of the node features, the aggregated messages, the two halves of the first weight matrix, the first bias row, the
    second weight matrix and the second bias row. -/
def outH (x0 x1 : Vec F S5000x32 .f32) (x3 x4 : Vec F S32x32 .f32) (x5 : Vec F S1x32 .f32) (x6 : Vec F S32x32 .f32) (x7 : Vec F S1x32 .f32) :
    Vec F S5000x32 .f32 :=
  View.canon [⟨rNF, k1_pay1 (View.ld x0 rNF) (View.ld x1 rNF) (View.ld x3 rW) (View.ld x4 rW) (View.ld x5 rB) (View.ld x6 rW) (View.ld x7 rB)⟩]

/-- The new coordinates' block: the body's one store into window 9, a pure term of the packed coordinate table's block. -/
def outX (x2 : Vec F S5000x7 .f32) : Vec F S5000x3 .f32 :=
  View.canon [⟨rX, k1_pay2 (View.ld x2 rNar)⟩]

/-- The one store covers its buffer. -/
theorem coverH (p0 : Vec F S5000x32 .f32) (y : S5000x32.Idx) :
    ∃ pc ∈ ([⟨rNF, p0⟩] : List (View.Piece (Elt F) S5000x32 .f32)), y ∈ pc.1.set :=
  View.cover_of_tiled [⟨rNF, p0⟩] S5000x32.size (by rfl) y
theorem coverX (p0 : Vec F S5000x3 .f32) (y : S5000x3.Idx) :
    ∃ pc ∈ ([⟨rX, p0⟩] : List (View.Piece (Elt F) S5000x3 .f32)), y ∈ pc.1.set :=
  View.cover_of_tiled [⟨rX, p0⟩] S5000x3.size (by rfl) y

/-! ## The body's triple -/

set_option maxHeartbeats 4000000 in
/-- The body on whole staging memrefs, the inputs' at contents `xW` and the results' at anything, runs to the
    continuation with the inputs' as they were and each result's at its function of the inputs'. -/
theorem sound_kernel (c : Dev nD) (E : Set ℕ) (i : grid1.Coords)
    (arg1 : Memref sig .tc .vmem S5000x32 .f32) (harg1 : arg1.IsWhole) (arg2 : Memref sig .tc .vmem S5000x32 .f32) (harg2 : arg2.IsWhole)
    (arg3 : Memref sig .tc .vmem S5000x7 .f32) (harg3 : arg3.IsWhole) (arg4 : Memref sig .tc .vmem S32x32 .f32) (harg4 : arg4.IsWhole)
    (arg5 : Memref sig .tc .vmem S32x32 .f32) (harg5 : arg5.IsWhole) (arg6 : Memref sig .tc .vmem S1x32 .f32) (harg6 : arg6.IsWhole)
    (arg7 : Memref sig .tc .vmem S32x32 .f32) (harg7 : arg7.IsWhole) (arg8 : Memref sig .tc .vmem S1x32 .f32) (harg8 : arg8.IsWhole)
    (arg9 : Memref sig .tc .vmem S5000x32 .f32) (harg9 : arg9.IsWhole) (arg10 : Memref sig .tc .vmem S5000x3 .f32) (harg10 : arg10.IsWhole)
    (x0 x1 : Vec F S5000x32 .f32) (x2 : Vec F S5000x7 .f32) (x3 x4 : Vec F S32x32 .f32) (x5 : Vec F S1x32 .f32) (x6 : Vec F S32x32 .f32) (x7 : Vec F S1x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (outH x0 x1 x3 x4 x5 x6 x7) ∗ owns (c : Thread nD τ) arg10 fullShare (outX x2)) -∗ K ⟨⟩))
      ⊢ wp frame (wpE (defs₀ (F := F)) Variants.none c none) E
          (cc1__node_kernel i arg1 harg1 arg2 harg2 arg3 harg3 arg4 harg4 arg5 harg5 arg6 harg6 arg7 harg7 arg8 harg8 arg9 harg9 arg10 harg10) K := by
  simp only [cc1__node_kernel_eq_skeleton]; unfold cc1__node_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverH _)
  iexists _; isplitr
  swap; · iexact H9
  ipureintro
  exact View.read_writes_eq_canon _ _ _ (coverX _)

/-! ## The pipeline's proof data -/

/-- The region's proof data on core `c`: the arrays as the region finds them; after the body at point `t` each
    input's buffer at its block, the new features' buffer and the new coordinates' buffer at their functions of the
    input blocks; the rest of the core's state passes through untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => outH (iblk V c 0 t) (iblk V c 1 t) (iblk V c 3 t) (iblk V c 4 t) (iblk V c 5 t) (iblk V c 6 t) (iblk V c 7 t)
    | ⟨9, _⟩ => outX (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t
    = outH (iblk V c 0 t) (iblk V c 1 t) (iblk V c 3 t) (iblk V c 4 t) (iblk V c 5 t) (iblk V c 6 t) (iblk V c 7 t) := by dsimp only [dat]
theorem after_9 (c : Dev nD) (t : Fin cfg1.N) : (dat V c).after 9 t = outX (iblk V c 2 t) := by dsimp only [dat]

theorem before_0 (c : Dev nD) (t : Fin cfg1.N) (d) : (dat V c).before 0 t d = iblk V c 0 t := before_0_of V (dat V c) (A_eq V c 0) (after_0 V c) t d
theorem before_1 (c : Dev nD) (t : Fin cfg1.N) (d) : (dat V c).before 1 t d = iblk V c 1 t := before_1_of V (dat V c) (A_eq V c 1) (after_1 V c) t d
theorem before_2 (c : Dev nD) (t : Fin cfg1.N) (d) : (dat V c).before 2 t d = iblk V c 2 t := before_2_of V (dat V c) (A_eq V c 2) (after_2 V c) t d
theorem before_3 (c : Dev nD) (t : Fin cfg1.N) (d) : (dat V c).before 3 t d = iblk V c 3 t := before_3_of V (dat V c) (A_eq V c 3) (after_3 V c) t d
theorem before_4 (c : Dev nD) (t : Fin cfg1.N) (d) : (dat V c).before 4 t d = iblk V c 4 t := before_4_of V (dat V c) (A_eq V c 4) (after_4 V c) t d
theorem before_5 (c : Dev nD) (t : Fin cfg1.N) (d) : (dat V c).before 5 t d = iblk V c 5 t := before_5_of V (dat V c) (A_eq V c 5) (after_5 V c) t d
theorem before_6 (c : Dev nD) (t : Fin cfg1.N) (d) : (dat V c).before 6 t d = iblk V c 6 t := before_6_of V (dat V c) (A_eq V c 6) (after_6 V c) t d
theorem before_7 (c : Dev nD) (t : Fin cfg1.N) (d) : (dat V c).before 7 t d = iblk V c 7 t := before_7_of V (dat V c) (A_eq V c 7) (after_7 V c) t d

/-! ## The body obligation, at a generic point -/

/-- What the body is called with at point `t`: the windows one by one. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t))

set_option maxHeartbeats 1000000 in
/-- The body at any point: the inputs' memrefs hold their blocks, so the triple applies; the rest of the core's state
    and what it owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _
    (iblk V c 0 t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation (c : Dev nD) : BodyObligation (dat (F := F) V c) (defs₀ (F := F)) Variants.none () Set.univ := fun t => by
  rw [bigSep_W1, bigSep_W1]
  exact sound_body V c t

end Cert.KernelIdeal.NodeRegion

end
-- ==== Proof.KernelRunI.lean ====
/-
  The whole program's run, at any float instance: what every buffer holds at each boundary between two items of
  the program, and that every weakly fair execution ends with exactly those contents.

  The program is: five stretches of host operations (four gathers-with-fill of node rows and coordinates at the edges'
  end points, then the packing of the narrow per-edge rows and the slicing of the weights), the edge kernel's region,
  one stretch of host operations (the three sums of per-edge values at the edges' target nodes and the packing of the
  per-node rows), the node kernel's region. The contents fold through the items: a host stretch applies its operations
  to the contents before it; a region leaves each of its arrays at what its pipeline's write-backs leave — an input
  array as entered, a result array at the blocks the body produced, point by point — and every other buffer as entered.
  No item writes an argument, so each argument's buffer folds back to its launch contents.
-/
import proofs.«405486_j56169582297514_2_alg».proof.Proof.Gen.KernelIdeal.Regions
import proofs.«405486_j56169582297514_2_alg».proof.Proof.EdgeRegionI
import proofs.«405486_j56169582297514_2_alg».proof.Proof.NodeRegionI

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary

`Gen.V0 m c` … `Gen.V5 m c` are the launch contents and the contents after each of the five leading host stretches. -/

/-- The edge region's entry contents, read at the core's references. -/
abbrev E5 : (c : Dev nD) → (b : Ref sig .tc) → Buf (Elt F) ((c : Thread nD τ).loc b) := fun c b => Gen.V5 m c b

/-- At the edge region's exit: its arrays at what the pipeline leaves, every other buffer as entered. -/
def W6 (c : Dev nD) : Valuation τ sig (Elt F) :=
  Pipeline.withArrays spec0 c (Gen.V5 m c) fun w => (EdgeRegion.dat (E5 m) c).arrAt w cfg0.N
theorem W6_arr (c : Dev nD) (w : Fin cfg0.W) :
    W6 m c (Proc.devRef .tc (Pipeline.arrRef spec0 w)) = (EdgeRegion.dat (E5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = Gen.V5 m c (Proc.devRef .tc b) := by
  unfold W6; exact Pipeline.withArrays_of_ne spec0 c _ _ b hb
abbrev E6 : (c : Dev nD) → (b : Ref sig .tc) → Buf (Elt F) ((c : Thread nD τ).loc b) := fun c b => W6 m c b
theorem hF0 (c : Dev nD) (w : Fin cfg0.W) : (EdgeRegion.dat (E5 m) c).arrAt w cfg0.N = E6 m c (Pipeline.arrRef spec0 w) :=
  (W6_arr m c w).symm
theorem hrest0 (c : Dev nD) : ∀ b, b ∉ Finset.univ.image (Pipeline.arrRef spec0) → E6 m c b = E5 m c b :=
  fun b hb => W6_of_ne m c b fun w e => hb (Finset.mem_image.mpr ⟨w, Finset.mem_univ _, e⟩)

/-- After the host stretch between the regions: the node region's entry contents. -/
abbrev W7 : Dev nD → Valuation τ sig (Elt F) := fun c => StableHlo.after hostOps1 (W6 m c)
abbrev E7 : (c : Dev nD) → (b : Ref sig .tc) → Buf (Elt F) ((c : Thread nD τ).loc b) := fun c b => W7 m c b

/-- At the node region's exit, which is the program's end. -/
def W8 (c : Dev nD) : Valuation τ sig (Elt F) :=
  Pipeline.withArrays spec1 c (W7 m c) fun w => (NodeRegion.dat (E7 m) c).arrAt w cfg1.N
theorem W8_arr (c : Dev nD) (w : Fin cfg1.W) :
    W8 m c (Proc.devRef .tc (Pipeline.arrRef spec1 w)) = (NodeRegion.dat (E7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev E8 : (c : Dev nD) → (b : Ref sig .tc) → Buf (Elt F) ((c : Thread nD τ).loc b) := fun c b => W8 m c b
theorem hF1 (c : Dev nD) (w : Fin cfg1.W) : (NodeRegion.dat (E7 m) c).arrAt w cfg1.N = E8 m c (Pipeline.arrRef spec1 w) :=
  (W8_arr m c w).symm
theorem hrest1 (c : Dev nD) : ∀ b, b ∉ Finset.univ.image (Pipeline.arrRef spec1) → E8 m c b = E7 m c b :=
  fun b hb => W8_of_ne m c b fun w e => hb (Finset.mem_image.mpr ⟨w, Finset.mem_univ _, e⟩)

/-! ## The proof data family and what rides beside the buffers -/

abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => EdgeRegion.dat (E5 m) c
  | ⟨1, _⟩ => fun c => NodeRegion.dat (E7 m) c
abbrev 𝒱₀ : Variants := Variants.none
abbrev L : GSem nD τ sig → Finset Unit := fun _ => ∅
abbrev lv : GSem nD τ sig → Unit → ℕ := fun _ _ => 0
/-- Beside the buffers: the core's generator register at some state, and that the core owes nothing. -/
abbrev R (c : Dev nD) : sProp 𝕄 := iprop((∃ r, prngReg c r) ∗ ∃ W, owes (c : Thread nD τ) (0 : CellTallies nD τ sig Unit) W)
/-- A host stretch as a segment of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the owing clause. -/
abbrev Tₙ (c : Dev nD) : sProp 𝕄 := iprop(StableHlo.held (c : Thread nD τ) (Pipeline.ucRefs τ sig) (W8 m c) ∗ ∃ r, prngReg c r)

/-! ## The two regions as segments -/

set_option backward.isDefEq.respectTransparency.types false in
/-- The edge region: entered with every unscoped buffer at `Gen.V5`, left with them at `W6`. Its arrays are split out of
    the buffers at entry and put back at their exit contents; the generator register passes through the region's
    invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (EdgeRegion.body_obligation (E5 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node region: entered with every unscoped buffer at `W7`, left with them at `W8`, which is the program's end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (NodeRegion.body_obligation (E7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (E8 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eight segments in order. -/
abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .region (reg0 m),
    .host (hseg hostOps1 hostOps1_sub hostOps1_fresh (W6 m)),
    .region (reg1 m) ]

/-- The program IS the run of the segments. -/
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and in every final state each unscoped buffer of each core holds the contents `W8` names. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

end Cert.KernelIdeal.Run

end
-- ==== Proof.KernelArgsI.lean ====
import proofs.«405486_j56169582297514_2_alg».proof.Proof.KernelRunI

/-! Each argument's buffer ends as launched: an argument that is an input array of a region is left by that region as
    entered, any other is not among the region's arrays; no host operation writes an argument. -/

set_option maxRecDepth 16384

noncomputable section

namespace Cert.KernelIdeal.Run

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem W8_main_arg0 (c : Dev nD) : W8 m c (Proc.devRef .tc main_arg0) = m ((c : Thread nD τ).loc main_arg0) :=
  calc W8 m c (Proc.devRef .tc main_arg0)
    _ = W7 m c (Proc.devRef .tc main_arg0) := (W8_arr m c 0).trans (((NodeRegion.dat (E7 m) c).arrAt_in 0 rfl _).trans (NodeRegion.A_eq (E7 m) c 0))
    _ = W6 m c (Proc.devRef .tc main_arg0) := StableHlo.after_of_writes_sub hostOps1 _ hostOps1_writes (by decide)
    _ = Gen.V5 m c (Proc.devRef .tc main_arg0) := W6_of_ne m c main_arg0 (by decide)
    _ = m ((c : Thread nD τ).loc main_arg0) := (V5_of m c main_arg0 (by decide)).trans <| (V4_of m c main_arg0 (by decide)).trans <| (V3_of m c main_arg0 (by decide)).trans <| (V2_of m c main_arg0 (by decide)).trans <| (V1_of m c main_arg0 (by decide)).trans rfl
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := StableHlo.after_of_writes_sub hostOps1 _ hostOps1_writes (by decide)
    _ = Gen.V5 m c (Proc.devRef .tc main_arg1) := W6_of_ne m c main_arg1 (by decide)
    _ = m ((c : Thread nD τ).loc main_arg1) := (V5_of m c main_arg1 (by decide)).trans <| (V4_of m c main_arg1 (by decide)).trans <| (V3_of m c main_arg1 (by decide)).trans <| (V2_of m c main_arg1 (by decide)).trans <| (V1_of m c main_arg1 (by decide)).trans rfl
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := StableHlo.after_of_writes_sub hostOps1 _ hostOps1_writes (by decide)
    _ = Gen.V5 m c (Proc.devRef .tc main_arg2) := W6_of_ne m c main_arg2 (by decide)
    _ = m ((c : Thread nD τ).loc main_arg2) := (V5_of m c main_arg2 (by decide)).trans <| (V4_of m c main_arg2 (by decide)).trans <| (V3_of m c main_arg2 (by decide)).trans <| (V2_of m c main_arg2 (by decide)).trans <| (V1_of m c main_arg2 (by decide)).trans rfl
theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := StableHlo.after_of_writes_sub hostOps1 _ hostOps1_writes (by decide)
    _ = Gen.V5 m c (Proc.devRef .tc main_arg3) := W6_of_ne m c main_arg3 (by decide)
    _ = m ((c : Thread nD τ).loc main_arg3) := (V5_of m c main_arg3 (by decide)).trans <| (V4_of m c main_arg3 (by decide)).trans <| (V3_of m c main_arg3 (by decide)).trans <| (V2_of m c main_arg3 (by decide)).trans <| (V1_of m c main_arg3 (by decide)).trans rfl
theorem W8_main_arg4 (c : Dev nD) : W8 m c (Proc.devRef .tc main_arg4) = m ((c : Thread nD τ).loc main_arg4) :=
  calc W8 m c (Proc.devRef .tc main_arg4)
    _ = W7 m c (Proc.devRef .tc main_arg4) := W8_of_ne m c main_arg4 (by decide)
    _ = W6 m c (Proc.devRef .tc main_arg4) := StableHlo.after_of_writes_sub hostOps1 _ hostOps1_writes (by decide)
    _ = Gen.V5 m c (Proc.devRef .tc main_arg4) := W6_of_ne m c main_arg4 (by decide)
    _ = m ((c : Thread nD τ).loc main_arg4) := (V5_of m c main_arg4 (by decide)).trans <| (V4_of m c main_arg4 (by decide)).trans <| (V3_of m c main_arg4 (by decide)).trans <| (V2_of m c main_arg4 (by decide)).trans <| (V1_of m c main_arg4 (by decide)).trans rfl
theorem W8_main_arg5 (c : Dev nD) : W8 m c (Proc.devRef .tc main_arg5) = m ((c : Thread nD τ).loc main_arg5) :=
  calc W8 m c (Proc.devRef .tc main_arg5)
    _ = W7 m c (Proc.devRef .tc main_arg5) := W8_of_ne m c main_arg5 (by decide)
    _ = W6 m c (Proc.devRef .tc main_arg5) := StableHlo.after_of_writes_sub hostOps1 _ hostOps1_writes (by decide)
    _ = Gen.V5 m c (Proc.devRef .tc main_arg5) := W6_of_ne m c main_arg5 (by decide)
    _ = m ((c : Thread nD τ).loc main_arg5) := (V5_of m c main_arg5 (by decide)).trans <| (V4_of m c main_arg5 (by decide)).trans <| (V3_of m c main_arg5 (by decide)).trans <| (V2_of m c main_arg5 (by decide)).trans <| (V1_of m c main_arg5 (by decide)).trans rfl
theorem W8_main_arg6 (c : Dev nD) : W8 m c (Proc.devRef .tc main_arg6) = m ((c : Thread nD τ).loc main_arg6) :=
  calc W8 m c (Proc.devRef .tc main_arg6)
    _ = W7 m c (Proc.devRef .tc main_arg6) := W8_of_ne m c main_arg6 (by decide)
    _ = W6 m c (Proc.devRef .tc main_arg6) := StableHlo.after_of_writes_sub hostOps1 _ hostOps1_writes (by decide)
    _ = Gen.V5 m c (Proc.devRef .tc main_arg6) := W6_of_ne m c main_arg6 (by decide)
    _ = m ((c : Thread nD τ).loc main_arg6) := (V5_of m c main_arg6 (by decide)).trans <| (V4_of m c main_arg6 (by decide)).trans <| (V3_of m c main_arg6 (by decide)).trans <| (V2_of m c main_arg6 (by decide)).trans <| (V1_of m c main_arg6 (by decide)).trans rfl
theorem W8_main_arg7 (c : Dev nD) : W8 m c (Proc.devRef .tc main_arg7) = m ((c : Thread nD τ).loc main_arg7) :=
  calc W8 m c (Proc.devRef .tc main_arg7)
    _ = W7 m c (Proc.devRef .tc main_arg7) := W8_of_ne m c main_arg7 (by decide)
    _ = W6 m c (Proc.devRef .tc main_arg7) := StableHlo.after_of_writes_sub hostOps1 _ hostOps1_writes (by decide)
    _ = Gen.V5 m c (Proc.devRef .tc main_arg7) := (W6_arr m c 8).trans (((EdgeRegion.dat (E5 m) c).arrAt_in 8 rfl _).trans (EdgeRegion.A_eq (E5 m) c 8))
    _ = m ((c : Thread nD τ).loc main_arg7) := (V5_of m c main_arg7 (by decide)).trans <| (V4_of m c main_arg7 (by decide)).trans <| (V3_of m c main_arg7 (by decide)).trans <| (V2_of m c main_arg7 (by decide)).trans <| (V1_of m c main_arg7 (by decide)).trans rfl
theorem W8_main_arg8 (c : Dev nD) : W8 m c (Proc.devRef .tc main_arg8) = m ((c : Thread nD τ).loc main_arg8) :=
  calc W8 m c (Proc.devRef .tc main_arg8)
    _ = W7 m c (Proc.devRef .tc main_arg8) := W8_of_ne m c main_arg8 (by decide)
    _ = W6 m c (Proc.devRef .tc main_arg8) := StableHlo.after_of_writes_sub hostOps1 _ hostOps1_writes (by decide)
    _ = Gen.V5 m c (Proc.devRef .tc main_arg8) := W6_of_ne m c main_arg8 (by decide)
    _ = m ((c : Thread nD τ).loc main_arg8) := (V5_of m c main_arg8 (by decide)).trans <| (V4_of m c main_arg8 (by decide)).trans <| (V3_of m c main_arg8 (by decide)).trans <| (V2_of m c main_arg8 (by decide)).trans <| (V1_of m c main_arg8 (by decide)).trans rfl
theorem W8_main_arg9 (c : Dev nD) : W8 m c (Proc.devRef .tc main_arg9) = m ((c : Thread nD τ).loc main_arg9) :=
  calc W8 m c (Proc.devRef .tc main_arg9)
    _ = W7 m c (Proc.devRef .tc main_arg9) := W8_of_ne m c main_arg9 (by decide)
    _ = W6 m c (Proc.devRef .tc main_arg9) := StableHlo.after_of_writes_sub hostOps1 _ hostOps1_writes (by decide)
    _ = Gen.V5 m c (Proc.devRef .tc main_arg9) := W6_of_ne m c main_arg9 (by decide)
    _ = m ((c : Thread nD τ).loc main_arg9) := (V5_of m c main_arg9 (by decide)).trans <| (V4_of m c main_arg9 (by decide)).trans <| (V3_of m c main_arg9 (by decide)).trans <| (V2_of m c main_arg9 (by decide)).trans <| (V1_of m c main_arg9 (by decide)).trans rfl
theorem W8_main_arg10 (c : Dev nD) : W8 m c (Proc.devRef .tc main_arg10) = m ((c : Thread nD τ).loc main_arg10) :=
  calc W8 m c (Proc.devRef .tc main_arg10)
    _ = W7 m c (Proc.devRef .tc main_arg10) := W8_of_ne m c main_arg10 (by decide)
    _ = W6 m c (Proc.devRef .tc main_arg10) := StableHlo.after_of_writes_sub hostOps1 _ hostOps1_writes (by decide)
    _ = Gen.V5 m c (Proc.devRef .tc main_arg10) := W6_of_ne m c main_arg10 (by decide)
    _ = m ((c : Thread nD τ).loc main_arg10) := (V5_of m c main_arg10 (by decide)).trans <| (V4_of m c main_arg10 (by decide)).trans <| (V3_of m c main_arg10 (by decide)).trans <| (V2_of m c main_arg10 (by decide)).trans <| (V1_of m c main_arg10 (by decide)).trans rfl
theorem W8_main_arg11 (c : Dev nD) : W8 m c (Proc.devRef .tc main_arg11) = m ((c : Thread nD τ).loc main_arg11) :=
  calc W8 m c (Proc.devRef .tc main_arg11)
    _ = W7 m c (Proc.devRef .tc main_arg11) := (W8_arr m c 6).trans (((NodeRegion.dat (E7 m) c).arrAt_in 6 rfl _).trans (NodeRegion.A_eq (E7 m) c 6))
    _ = W6 m c (Proc.devRef .tc main_arg11) := StableHlo.after_of_writes_sub hostOps1 _ hostOps1_writes (by decide)
    _ = Gen.V5 m c (Proc.devRef .tc main_arg11) := W6_of_ne m c main_arg11 (by decide)
    _ = m ((c : Thread nD τ).loc main_arg11) := (V5_of m c main_arg11 (by decide)).trans <| (V4_of m c main_arg11 (by decide)).trans <| (V3_of m c main_arg11 (by decide)).trans <| (V2_of m c main_arg11 (by decide)).trans <| (V1_of m c main_arg11 (by decide)).trans rfl
theorem W8_main_arg12 (c : Dev nD) : W8 m c (Proc.devRef .tc main_arg12) = m ((c : Thread nD τ).loc main_arg12) :=
  calc W8 m c (Proc.devRef .tc main_arg12)
    _ = W7 m c (Proc.devRef .tc main_arg12) := W8_of_ne m c main_arg12 (by decide)
    _ = W6 m c (Proc.devRef .tc main_arg12) := StableHlo.after_of_writes_sub hostOps1 _ hostOps1_writes (by decide)
    _ = Gen.V5 m c (Proc.devRef .tc main_arg12) := W6_of_ne m c main_arg12 (by decide)
    _ = m ((c : Thread nD τ).loc main_arg12) := (V5_of m c main_arg12 (by decide)).trans <| (V4_of m c main_arg12 (by decide)).trans <| (V3_of m c main_arg12 (by decide)).trans <| (V2_of m c main_arg12 (by decide)).trans <| (V1_of m c main_arg12 (by decide)).trans rfl
theorem W8_main_arg13 (c : Dev nD) : W8 m c (Proc.devRef .tc main_arg13) = m ((c : Thread nD τ).loc main_arg13) :=
  calc W8 m c (Proc.devRef .tc main_arg13)
    _ = W7 m c (Proc.devRef .tc main_arg13) := W8_of_ne m c main_arg13 (by decide)
    _ = W6 m c (Proc.devRef .tc main_arg13) := StableHlo.after_of_writes_sub hostOps1 _ hostOps1_writes (by decide)
    _ = Gen.V5 m c (Proc.devRef .tc main_arg13) := (W6_arr m c 10).trans (((EdgeRegion.dat (E5 m) c).arrAt_in 10 rfl _).trans (EdgeRegion.A_eq (E5 m) c 10))
    _ = m ((c : Thread nD τ).loc main_arg13) := (V5_of m c main_arg13 (by decide)).trans <| (V4_of m c main_arg13 (by decide)).trans <| (V3_of m c main_arg13 (by decide)).trans <| (V2_of m c main_arg13 (by decide)).trans <| (V1_of m c main_arg13 (by decide)).trans rfl
theorem W8_main_arg14 (c : Dev nD) : W8 m c (Proc.devRef .tc main_arg14) = m ((c : Thread nD τ).loc main_arg14) :=
  calc W8 m c (Proc.devRef .tc main_arg14)
    _ = W7 m c (Proc.devRef .tc main_arg14) := W8_of_ne m c main_arg14 (by decide)
    _ = W6 m c (Proc.devRef .tc main_arg14) := StableHlo.after_of_writes_sub hostOps1 _ hostOps1_writes (by decide)
    _ = Gen.V5 m c (Proc.devRef .tc main_arg14) := W6_of_ne m c main_arg14 (by decide)
    _ = m ((c : Thread nD τ).loc main_arg14) := (V5_of m c main_arg14 (by decide)).trans <| (V4_of m c main_arg14 (by decide)).trans <| (V3_of m c main_arg14 (by decide)).trans <| (V2_of m c main_arg14 (by decide)).trans <| (V1_of m c main_arg14 (by decide)).trans rfl
theorem W8_main_arg15 (c : Dev nD) : W8 m c (Proc.devRef .tc main_arg15) = m ((c : Thread nD τ).loc main_arg15) :=
  calc W8 m c (Proc.devRef .tc main_arg15)
    _ = W7 m c (Proc.devRef .tc main_arg15) := W8_of_ne m c main_arg15 (by decide)
    _ = W6 m c (Proc.devRef .tc main_arg15) := StableHlo.after_of_writes_sub hostOps1 _ hostOps1_writes (by decide)
    _ = Gen.V5 m c (Proc.devRef .tc main_arg15) := W6_of_ne m c main_arg15 (by decide)
    _ = m ((c : Thread nD τ).loc main_arg15) := (V5_of m c main_arg15 (by decide)).trans <| (V4_of m c main_arg15 (by decide)).trans <| (V3_of m c main_arg15 (by decide)).trans <| (V2_of m c main_arg15 (by decide)).trans <| (V1_of m c main_arg15 (by decide)).trans rfl

end Cert.KernelIdeal.Run

end
-- ==== Proof.KernelFrameI.lean ====
/-
  What the program's run gives beyond the final contents by name: every argument's buffer ends as launched.
-/
import proofs.«405486_j56169582297514_2_alg».proof.Proof.KernelArgsI

set_option maxRecDepth 16384

noncomputable section

namespace Cert.KernelIdeal.Run

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Every argument's buffer ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c),
     (h c _ (mem_uc main_arg9 (by decide))).trans (W8_main_arg9 m c),
     (h c _ (mem_uc main_arg10 (by decide))).trans (W8_main_arg10 m c),
     (h c _ (mem_uc main_arg11 (by decide))).trans (W8_main_arg11 m c),
     (h c _ (mem_uc main_arg12 (by decide))).trans (W8_main_arg12 m c),
     (h c _ (mem_uc main_arg13 (by decide))).trans (W8_main_arg13 m c),
     (h c _ (mem_uc main_arg14 (by decide))).trans (W8_main_arg14 m c),
     (h c _ (mem_uc main_arg15 (by decide))).trans (W8_main_arg15 m c)⟩) (run m ρ)

/-- The same run with both results named: the new node features end at `W8 m c main_v31_0`, the new coordinates at
    `W8 m c main_v31_1`, and every argument's buffer ends as launched. -/
theorem results (ρ : Dev nD → PrngReg) : θ_run defs (onTc (τ := τ) (main (F := F))) ⟨m, fun _ => 0, ρ⟩ (fun r => ∀ c : Dev nD,
      r.2.mem ((c.tc : Thread nD τ).loc main_v31_0) = W8 m c (Proc.devRef .tc main_v31_0)
      ∧ r.2.mem ((c.tc : Thread nD τ).loc main_v31_1) = W8 m c (Proc.devRef .tc main_v31_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v31_0 (by decide)),
     h c _ (mem_uc main_v31_1 (by decide)),
     (h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c),
     (h c _ (mem_uc main_arg9 (by decide))).trans (W8_main_arg9 m c),
     (h c _ (mem_uc main_arg10 (by decide))).trans (W8_main_arg10 m c),
     (h c _ (mem_uc main_arg11 (by decide))).trans (W8_main_arg11 m c),
     (h c _ (mem_uc main_arg12 (by decide))).trans (W8_main_arg12 m c),
     (h c _ (mem_uc main_arg13 (by decide))).trans (W8_main_arg13 m c),
     (h c _ (mem_uc main_arg14 (by decide))).trans (W8_main_arg14 m c),
     (h c _ (mem_uc main_arg15 (by decide))).trans (W8_main_arg15 m c)⟩) (run m ρ)

end Cert.KernelIdeal.Run

end
-- ==== Proof.PreDecode.lean ====
import proofs.«405486_j56169582297514_2_alg».proof.Pre_finite_inputs
import Idealize.ShloMosaic.Lib.ValueIdx
import Idealize.ShloMosaic.Lib.StableHlo.Predicate
import Idealize.ShloMosaic.Lib.ReduceAll

/-!
# The source-index range, read out of the precondition

The precondition is one scalar bit: a chain of ANDs whose conjuncts are, for each of the fourteen float inputs, "every
entry is finite", and LAST two conjuncts over the `3200000` source-index words `src`: the AND over all entries of
`src ≥ -100000` and the AND over all entries of `src < 100000` (signed compares against a constant word laid over the
vector; the word for `-100000` is `2³² - 100000 = 4294867296`).

The mathematics: if the whole chain is 1 then each of its conjuncts is 1 (an AND of bits is 1 only when both are); an
AND-reduction over all entries that is 1 had a 1 at every entry; and a signed compare of words that is 1 states the
inequality of their signed values. So every source-index word, read as a signed integer, lies in `[-100000, 100000)`.
Only the last two conjuncts are opened; the fourteen finiteness conjuncts stay closed.
-/

noncomputable section

namespace Cert.PreDecode

open Idealize.ShloMosaic Idealize.ShloMosaic.ValueIdx
open Cert.Pre_finite_inputs Cert.Pre_finite_inputs.Facts

/-! ## Words -/

/-- A signed compare `a ≥ -100000` of 32-bit words that is 1 states it of the signed values. -/
theorem sge_word (a : BitVec 32) (h : IntOp.cmpi .sge a 4294867296#32 = 1#1) : (-100000 : Int) ≤ a.toInt := by
  have hc : (4294867296#32 : BitVec 32).toInt = -100000 := by decide
  unfold IntOp.cmpi at h
  simp only [BitVec.sle, hc, StableHlo.Predicate.ofBool_eq_one_iff, decide_eq_true_eq] at h
  exact h

/-- A signed compare `a < 100000` of 32-bit words that is 1 states it of the signed values. -/
theorem slt_word (a : BitVec 32) (h : IntOp.cmpi .slt a 100000#32 = 1#1) : a.toInt < 100000 := by
  have hc : (100000#32 : BitVec 32).toInt = 100000 := by decide
  unfold IntOp.cmpi at h
  simp only [BitVec.slt, hc, StableHlo.Predicate.ofBool_eq_one_iff, decide_eq_true_eq] at h
  exact h

/-! ## The last link of the chain -/

/-- The chain's last part ANDs, onto whatever bit `x ∧ y` it is handed, the two conjuncts over the source-index words.
    If it is 1 then so is each of the two. -/
theorem part4_decode {F : FTy → Type} [FloatOps F] [Facts] (a3 : IVec S3200000 32) (x y : IVec S_ 1)
    (h : fn_part4 (F := F) a3 x y ix0 = 1#1) :
    (Host.reduce IntOp.andi
        (cmpi .sge a3 (broadcastInDim S3200000 ![] bcast_S_S3200000 (constantI S_ 32 4294867296#32)))
        (constantI S_ 1 1#1) reducesTo_S3200000_S_d0 h_S_) ix0 = 1#1 ∧
    (Host.reduce IntOp.andi
        (cmpi .slt a3 (broadcastInDim S3200000 ![] bcast_S_S3200000 (constantI S_ 32 100000#32)))
        (constantI S_ 1 1#1) reducesTo_S3200000_S_d0 h_S_) ix0 = 1#1 := by
  have h1 := IntOp.andi_eq_one.1 (show IntOp.andi
      (IntOp.andi (IntOp.andi (x ix0) (y ix0))
        ((Host.reduce IntOp.andi
        (cmpi .sge a3 (broadcastInDim S3200000 ![] bcast_S_S3200000 (constantI S_ 32 4294867296#32)))
        (constantI S_ 1 1#1) reducesTo_S3200000_S_d0 h_S_) ix0))
      ((Host.reduce IntOp.andi
        (cmpi .slt a3 (broadcastInDim S3200000 ![] bcast_S_S3200000 (constantI S_ 32 100000#32)))
        (constantI S_ 1 1#1) reducesTo_S3200000_S_d0 h_S_) ix0) = 1#1 from h)
  exact ⟨(IntOp.andi_eq_one.1 h1.1).2, h1.2⟩

/-! ## The range -/

/-- The scalar shape has one index. -/
theorem scalar_idx_subsingleton : Subsingleton S_.Idx := ⟨fun _ _ => funext fun d => d.elim0⟩

/-- THE RANGE. If the precondition is the all-ones scalar then every source-index word, read as a signed integer, lies
    in `[-100000, 100000)`: the chain's last part is reached by unfolding the parts in order, its last two conjuncts are
    1, each is an AND over all entries, and each entry is a signed compare of the word against the constant. -/
theorem src_range {F : FTy → Type} [FloatOps F] [Facts]
    (a0 : FVec F S100000x32 .f32) (a1 : FVec F S100000x3 .f32) (a2 : FVec F S3200000x8 .f32)
    (a3 a4 : IVec S3200000 32) (a5 : FVec F S73x32 .f32) (a6 : FVec F S32 .f32) (a7 : FVec F S32x32 .f32)
    (a8 : FVec F S32 .f32) (a9 : FVec F S64x32 .f32) (a10 : FVec F S32 .f32) (a11 : FVec F S32x32 .f32)
    (a12 : FVec F S32 .f32) (a13 : FVec F S32x32 .f32) (a14 : FVec F S32 .f32) (a15 : FVec F S32x1 .f32)
    (h : fn (F := F) a0 a1 a2 a3 a4 a5 a6 a7 a8 a9 a10 a11 a12 a13 a14 a15 = fun _ => 1#1) (e : Fin 3200000) :
    (-100000 : Int) ≤ (a3 (ix1 e)).toInt ∧ (a3 (ix1 e)).toInt < 100000 := by
  have h0 : fn (F := F) a0 a1 a2 a3 a4 a5 a6 a7 a8 a9 a10 a11 a12 a13 a14 a15 ix0 = 1#1 := congrFun h ix0
  obtain ⟨hge, hlt⟩ := part4_decode (F := F) a3 _ _ h0
  haveI := scalar_idx_subsingleton
  have hge' := Host.reduce_andi_all _ _ _ _ _ hge (ix1 e)
  have hlt' := Host.reduce_andi_all _ _ _ _ _ hlt (ix1 e)
  exact ⟨sge_word _ hge', slt_word _ hlt'⟩

/-- info: 'Cert.PreDecode.src_range' depends on axioms: [propext, Classical.choice, Quot.sound] -/
#guard_msgs (whitespace := lax) in #print axioms src_range

end Cert.PreDecode

end
-- ==== Proof.Spec.lean ====
/-
  One layer of equivariant message passing on a graph, written one edge and one node at a time over the extended
  reals. Every float operation is the exact one; a float literal is the exact value of its 32-bit word.

  An edge e = (s → d) carries: the feature rows of its two end nodes (32 numbers each), their coordinates (3 numbers
  each) and 8 edge features. From them:
    * the squared length r of the coordinate difference, and the difference divided by (√r + tiny);
    * a first dense layer over the 73 numbers [source row, target row, r, edge features], written as the sum of its four
      partial products — source row · W[0:32], target row · W[32:64], r · W[64], edge features · W[65:73] — plus a bias,
      followed by x ↦ x · σ(x) (σ the logistic function);
    * a second dense layer 32 → 32 with the same activation: the edge's message;
    * a gate: a third dense layer 32 → 32 with the activation, then the inner product with a weight vector; the
      coordinate message is the gate times the normalised difference.
  A node n then takes the sum of the messages of the edges that point at it, the sum of their coordinate messages
  divided by max(number of such edges, 1), and updates: features by a dense layer over [own row, message sum] (two
  partial products plus a bias), the activation, and a last dense layer; coordinates by adding the averaged coordinate
  message.
-/
import Idealize.ShloMosaic.PureOps.Ideal
import Idealize.ShloMosaic.Lib.ValueIdx

noncomputable section

namespace Cert.Egnn

open Idealize.ShloMosaic

/-- x · σ(x). -/
def silu (x : EReal) : EReal := x * Ideal.logistic x

/-- The guard added to an edge's length before dividing by it: the 32-bit float nearest 1e-30. -/
def tiny : EReal := Ideal.ofBits .f32 0x0DA24260#32

/-- The 32-bit float 1. -/
def one : EReal := Ideal.ofBits .f32 0x3F800000#32

/-- The squared length of p − q. -/
def sqDist (p q : Fin 3 → EReal) : EReal := ∑ a : Fin 3, (p a - q a) * (p a - q a)

/-- Coordinate a of (p − q) / (|p − q| + tiny). -/
def unitDiff (p q : Fin 3 → EReal) (a : Fin 3) : EReal := Ideal.div (p a - q a) (Ideal.sqrt (sqDist p q) + tiny)

/-- A dense layer 32 → 32 at output j: h · W[:, j] + b j. -/
def dense (h : Fin 32 → EReal) (W : Fin 32 → Fin 32 → EReal) (b : Fin 32 → EReal) (j : Fin 32) : EReal :=
  (∑ k : Fin 32, h k * W k j) + b j

/-- The edge network's first layer at output j, as the sum of its four partial products, a bias and the activation. -/
def edgeHidden (sh dh : Fin 32 → EReal) (r : EReal) (ef : Fin 8 → EReal) (Wa Wb : Fin 32 → Fin 32 → EReal) (wr : Fin 32 → EReal)
    (We : Fin 8 → Fin 32 → EReal) (b : Fin 32 → EReal) (j : Fin 32) : EReal :=
  silu (((((∑ k : Fin 32, sh k * Wa k j) + (∑ k : Fin 32, dh k * Wb k j)) + r * wr j) + (∑ k : Fin 8, ef k * We k j)) + b j)

/-- The edge's message at output j. -/
def edgeMsg (h1 : Fin 32 → EReal) (W2 : Fin 32 → Fin 32 → EReal) (b2 : Fin 32 → EReal) (j : Fin 32) : EReal :=
  silu (dense h1 W2 b2 j)

/-- The scalar gate of the coordinate message. -/
def gate (mh : Fin 32 → EReal) (Wc1 : Fin 32 → Fin 32 → EReal) (bc1 wc2 : Fin 32 → EReal) : EReal :=
  ∑ k : Fin 32, silu (dense mh Wc1 bc1 k) * wc2 k

/-- The node network's first layer at output j: two partial products, a bias, the activation. -/
def nodeHidden (nf hn : Fin 32 → EReal) (Wa Wb : Fin 32 → Fin 32 → EReal) (b : Fin 32 → EReal) (j : Fin 32) : EReal :=
  silu (((∑ k : Fin 32, nf k * Wa k j) + (∑ k : Fin 32, hn k * Wb k j)) + b j)

/-- A node's new coordinate: its own plus the summed coordinate messages over max(in-degree, 1). -/
def coordOut (cf sx deg : EReal) : EReal := cf + Ideal.div sx (max deg one)

/-! ## The same, over the packed rows the two kernels read

An edge's narrow inputs arrive as one row of 14 numbers — source coordinates (3), target coordinates (3), edge
features (8) —, a node's as one row of 7 — own coordinates (3), summed coordinate messages (3), in-degree (1). -/

def narSrc (nar : Fin 14 → EReal) : Fin 3 → EReal := fun a => nar ⟨a.val, by omega⟩
def narDst (nar : Fin 14 → EReal) : Fin 3 → EReal := fun a => nar ⟨a.val + 3, by omega⟩
def narEf (nar : Fin 14 → EReal) : Fin 8 → EReal := fun k => nar ⟨k.val + 6, by omega⟩

/-- An edge's message at output j, from its two feature rows, its packed row and the edge network's weights. -/
def edgeRowMsg (sh dh : Fin 32 → EReal) (nar : Fin 14 → EReal) (Wa Wb : Fin 32 → Fin 32 → EReal) (wr : Fin 32 → EReal)
    (We : Fin 8 → Fin 32 → EReal) (b1 : Fin 32 → EReal) (W2 : Fin 32 → Fin 32 → EReal) (b2 : Fin 32 → EReal) (j : Fin 32) : EReal :=
  edgeMsg (edgeHidden sh dh (sqDist (narSrc nar) (narDst nar)) (narEf nar) Wa Wb wr We b1) W2 b2 j

/-- An edge's coordinate message at coordinate a. -/
def edgeRowCoord (sh dh : Fin 32 → EReal) (nar : Fin 14 → EReal) (Wa Wb : Fin 32 → Fin 32 → EReal) (wr : Fin 32 → EReal)
    (We : Fin 8 → Fin 32 → EReal) (b1 : Fin 32 → EReal) (W2 : Fin 32 → Fin 32 → EReal) (b2 : Fin 32 → EReal)
    (Wc1 : Fin 32 → Fin 32 → EReal) (bc1 wc2 : Fin 32 → EReal) (a : Fin 3) : EReal :=
  gate (edgeRowMsg sh dh nar Wa Wb wr We b1 W2 b2) Wc1 bc1 wc2 * unitDiff (narSrc nar) (narDst nar) a

/-- A node's new feature j, from its own row, its summed messages and the node network's weights. -/
def nodeRowFeat (nf hn : Fin 32 → EReal) (Wa Wb : Fin 32 → Fin 32 → EReal) (b1 : Fin 32 → EReal) (W2 : Fin 32 → Fin 32 → EReal)
    (b2 : Fin 32 → EReal) (j : Fin 32) : EReal :=
  dense (nodeHidden nf hn Wa Wb b1) W2 b2 j

/-- A node's new coordinate a, from its packed row. -/
def nodeRowCoord (row : Fin 7 → EReal) (a : Fin 3) : EReal :=
  coordOut (row ⟨a.val, by omega⟩) (row ⟨a.val + 3, by omega⟩) (row ⟨6, by omega⟩)

end Cert.Egnn

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.NodePayload.lean ====
/-
  The node kernel's two stored values, read at one row.

  The node kernel holds a block of 5000 nodes: their feature rows, the rows of their summed messages, and a packed row
  of 7 numbers per node — own coordinates (3), summed coordinate messages (3), in-degree (1). It stores
    * new features  =  act (features · Wa + messages · Wb + bias row) · W2 + bias row,   act x = x · σ(x),
    * new coordinates  =  columns 0–2  +  columns 3–5 / max (column 6, 1).
  Every operation is a matrix product, a broadcast of one row or one column, a slice of columns, or pointwise; read at
  entry (r, ·) each uses row r of the node blocks only. So entry (r, j) of the features is the specification's
  per-node feature function of row r of the two input blocks, and entry (r, a) of the coordinates is its per-node
  coordinate function of row r of the packed block.
-/
import proofs.«405486_j56169582297514_2_alg».proof.Proof.Gen.KernelIdeal.Skeleton
import proofs.«405486_j56169582297514_2_alg».proof.Proof.Spec
import proofs.«405486_j56169582297514_2_alg».proof.Proof.LibPlainDot
import Idealize.ShloMosaic.Lib.ValueLayout
import Idealize.ShloMosaic.PureOps.Ideal.Laws

noncomputable section

open scoped BigOperators

namespace Cert.KernelIdeal.NodePayload

open Cert.KernelIdeal Cert.KernelIdeal.Gen Cert.Egnn Idealize.ShloMosaic Idealize.ShloMosaic.ValueIdx

/-! ## Three readings at an index -/

/-- The logistic function of a vector, read at an index, is the logistic function of the element. -/
theorem logistic_apply {s : Shape} {φ : FTy} (x : FVec Ideal s φ) (i : s.Idx) :
    logistic x i = Ideal.logistic (x i) := rfl

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The node kernel's matrix product (5000 × 32 by 32 × 32, into the zero accumulator) at entry `(r, j)`: the sum over
    `k` of `l (r, k) · w (k, j)`. -/
theorem mm_apply (l : FVec Ideal S5000x32 .f32) (w : FVec Ideal S32x32 .f32) (r : Fin 5000) (j : Fin 32) :
    matmul dot_S5000x32_S32x32_S5000x32_1_0_0_1_n_n none l w (constant S5000x32 .f32 0x00000000#32) (ix2 r j)
      = ∑ k : Fin 32, l (ix2 r k) * w (ix2 k j) :=
  Cert.LibPlainDot.matmul_zero_apply dot_S5000x32_S32x32_S5000x32_1_0_0_1_n_n rfl rfl rfl rfl rfl rfl none l w r j

/-! ## The two stored values at a row -/

/-- THE NEW FEATURES AT `(r, j)`: the second dense layer, at output `j`, of the hidden row of node `r` — the activation
    of the two partial products of row `r` of the two input blocks with the first layer's two weight blocks, plus its
    bias row. -/
theorem node_feat_at (v0 v1 : Vec Ideal S5000x32 .f32) (v12 v15 : Vec Ideal S32x32 .f32) (v19 : Vec Ideal S1x32 .f32)
    (v25 : Vec Ideal S32x32 .f32) (v27 : Vec Ideal S1x32 .f32) (r : Fin 5000) (j : Fin 32) :
    k1_pay1 (F := Ideal) v0 v1 v12 v15 v19 v25 v27 (ix2 r j)
      = nodeRowFeat (fun k => v0 (ix2 r k)) (fun k => v1 (ix2 r k)) (fun k j => v12 (ix2 k j)) (fun k j => v15 (ix2 k j))
          (fun j => v19 (ix2 0 j)) (fun k j => v25 (ix2 k j)) (fun j => v27 (ix2 0 j)) j := by
  unfold k1_pay1
  rw [addf_apply, mm_apply, broadcastTo_1b_ab_apply]
  simp only [shapeCast_self]
  unfold nodeRowFeat dense
  congr 1
  refine Finset.sum_congr rfl fun k _ => ?_
  congr 1
  rw [mulf_apply, logistic_apply, addf_apply, addf_apply, mm_apply, mm_apply, broadcastTo_1b_ab_apply]
  rfl

/-- THE NEW COORDINATES AT `(r, a)`: column `a` of row `r` of the packed block, plus column `a + 3` divided by the
    larger of column 6 and one. -/
theorem node_coord_at (v3 : Vec Ideal S5000x7 .f32) (r : Fin 5000) (a : Fin 3) :
    k1_pay2 (F := Ideal) v3 (ix2 r a) = nodeRowCoord (fun k => v3 (ix2 r k)) a := by
  unfold k1_pay2
  rw [addf_apply, divf_apply, shapeCast_self,
    slice2_axis1_apply 0 v3 slices_S5000x7_o0_0_S5000x3 r a ⟨a.val, by omega⟩ (Nat.zero_add _).symm,
    slice2_axis1_apply 3 v3 slices_S5000x7_o0_3_S5000x3 r a ⟨a.val + 3, by omega⟩ (Nat.add_comm _ _),
    broadcastTo_a1_ab_apply, maximumf_apply,
    slice2_axis1_apply 6 v3 slices_S5000x7_o0_6_S5000x1 r (0 : Fin 1) ⟨6, by omega⟩ rfl, broadcast_apply]
  rfl

end Cert.KernelIdeal.NodePayload

end
-- ==== Proof.NodeValueI.lean ====
/-
  From blocks to the arrays, for the node kernel's region.

  The region walks the 100000 nodes in twenty blocks of 5000 rows. At point t it stages rows 5000·t … 5000·t + 4999 of
  the node features, of the summed messages and of the packed coordinate table, stages the five weight arrays whole,
  and writes back rows 5000·t … 5000·t + 4999 of the two results. What it writes back is the body's result on the
  staged blocks; read at row r of the block, that is the specification's per-node function of row 5000·t + r of the
  three data arrays and of the weight arrays (the body's two stored values read at a row). So point t writes block t of
  ONE function of the argument arrays, index by index; every row n lies in the block of point n / 5000, so the twenty
  blocks tile the array, and the array the pipeline leaves holds that function at every index: at (n, j) the new
  feature j of node n, at (n, a) its new coordinate a.
-/
import proofs.«405486_j56169582297514_2_alg».proof.Proof.NodeRegionI
import proofs.«405486_j56169582297514_2_alg».proof.Proof.NodePayload
import Idealize.ShloMosaic.Lib.Pipeline.Value

set_option maxRecDepth 16384

noncomputable section

namespace Cert.KernelIdeal.NodeValue

open Cert.KernelIdeal Cert.KernelIdeal.Gen Cert.Egnn Cert.KernelIdeal.NodePayload
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The arrays as the region finds them -/

/-- The node features, [100000, 32]. -/
abbrev aNF (c : Dev nD) : S100000x32.Idx → EReal := V c main_arg0
/-- The summed messages, [100000, 32]. -/
abbrev aHN (c : Dev nD) : S100000x32.Idx → EReal := V c main_v17
/-- The packed rows, [100000, 7]: own coordinates, summed coordinate messages, in-degree. -/
abbrev aRow (c : Dev nD) : S100000x7.Idx → EReal := V c main_v26
/-- The first layer's weights on the node's own row. -/
abbrev aWa (c : Dev nD) : S32x32.Idx → EReal := V c main_v27
/-- The first layer's weights on the summed messages. -/
abbrev aWb (c : Dev nD) : S32x32.Idx → EReal := V c main_v28
/-- The first layer's bias row. -/
abbrev aB1 (c : Dev nD) : S1x32.Idx → EReal := V c main_v29
/-- The second layer's weights. -/
abbrev aW2 (c : Dev nD) : S32x32.Idx → EReal := V c main_arg11
/-- The second layer's bias row. -/
abbrev aB2 (c : Dev nD) : S1x32.Idx → EReal := V c main_v30

/-- The zero offsets of a whole-buffer access. -/
theorem hz : (![0, 0] : Fin 2 → Nat) = fun _ => 0 := funext fun a => by fin_cases a <;> rfl

/-! ## The block index of each window at each point -/

/-- At point `t` the three data windows and the two result windows are at block `(t, 0)`; the five weight windows are
    at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- The grid has twenty points. -/
theorem N1 : cfg1.N = 20 := by decide +kernel

/-! ## The input blocks, as rows of the arrays -/

/-- Row `r` of the node features' block at point `t` is row `5000·t + r` of the array. -/
theorem iblk0_apply (c : Dev nD) (t : Fin cfg1.N) (r : Fin 5000) (k : Fin 32) (n : Fin 100000)
    (hn : n.val = 5000 * t.val + r.val) :
    (NodeRegion.iblk V c 0 t : Vec Ideal S5000x32 .f32) (ix2 r k) = aNF V c (ix2 n k) := by
  show V c main_arg0 (((cfg1.win 0).blk t).view.emb (ix2 r k)) = V c main_arg0 (ix2 n k)
  congr 1
  funext a
  apply Fin.ext
  obtain ⟨e0, e1, -⟩ := idx_facts t
  match a with
  | ⟨0, _⟩ => show win1_0.index t (0 : Fin 2) * 5000 + 1 * r.val = n.val; rw [e0, hn]; omega
  | ⟨1, _⟩ => show win1_0.index t (1 : Fin 2) * 32 + 1 * k.val = k.val; rw [e1]; omega

/-- Row `r` of the summed messages' block at point `t` is row `5000·t + r` of the array. -/
theorem iblk1_apply (c : Dev nD) (t : Fin cfg1.N) (r : Fin 5000) (k : Fin 32) (n : Fin 100000)
    (hn : n.val = 5000 * t.val + r.val) :
    (NodeRegion.iblk V c 1 t : Vec Ideal S5000x32 .f32) (ix2 r k) = aHN V c (ix2 n k) := by
  show V c main_v17 (((cfg1.win 1).blk t).view.emb (ix2 r k)) = V c main_v17 (ix2 n k)
  congr 1
  funext a
  apply Fin.ext
  obtain ⟨-, -, e0, e1, -⟩ := idx_facts t
  match a with
  | ⟨0, _⟩ => show win1_1.index t (0 : Fin 2) * 5000 + 1 * r.val = n.val; rw [e0, hn]; omega
  | ⟨1, _⟩ => show win1_1.index t (1 : Fin 2) * 32 + 1 * k.val = k.val; rw [e1]; omega

/-- Row `r` of the packed rows' block at point `t` is row `5000·t + r` of the array. -/
theorem iblk2_apply (c : Dev nD) (t : Fin cfg1.N) (r : Fin 5000) (k : Fin 7) (n : Fin 100000)
    (hn : n.val = 5000 * t.val + r.val) :
    (NodeRegion.iblk V c 2 t : Vec Ideal S5000x7 .f32) (ix2 r k) = aRow V c (ix2 n k) := by
  show V c main_v26 (((cfg1.win 2).blk t).view.emb (ix2 r k)) = V c main_v26 (ix2 n k)
  congr 1
  funext a
  apply Fin.ext
  obtain ⟨-, -, -, -, e0, e1, -⟩ := idx_facts t
  match a with
  | ⟨0, _⟩ => show win1_2.index t (0 : Fin 2) * 5000 + 1 * r.val = n.val; rw [e0, hn]; omega
  | ⟨1, _⟩ => show win1_2.index t (1 : Fin 2) * 7 + 1 * k.val = k.val; rw [e1]; omega

/-- A weight window's block is the whole array, at every point: the five of them. -/
theorem iblk3_apply (c : Dev nD) (t : Fin cfg1.N) (k : Fin 32) (j : Fin 32) :
    (NodeRegion.iblk V c 3 t : Vec Ideal S32x32 .f32) (ix2 k j) = aWa V c (ix2 k j) := by
  show V c main_v27 (((cfg1.win 3).blk t).view.emb (ix2 k j)) = V c main_v27 (ix2 k j)
  congr 1
  funext a
  apply Fin.ext
  obtain ⟨-, -, -, -, -, -, e0, e1, -⟩ := idx_facts t
  match a with
  | ⟨0, _⟩ => show win1_3.index t (0 : Fin 2) * 32 + 1 * k.val = k.val; rw [e0]; omega
  | ⟨1, _⟩ => show win1_3.index t (1 : Fin 2) * 32 + 1 * j.val = j.val; rw [e1]; omega

theorem iblk4_apply (c : Dev nD) (t : Fin cfg1.N) (k : Fin 32) (j : Fin 32) :
    (NodeRegion.iblk V c 4 t : Vec Ideal S32x32 .f32) (ix2 k j) = aWb V c (ix2 k j) := by
  show V c main_v28 (((cfg1.win 4).blk t).view.emb (ix2 k j)) = V c main_v28 (ix2 k j)
  congr 1
  funext a
  apply Fin.ext
  obtain ⟨-, -, -, -, -, -, -, -, e0, e1, -⟩ := idx_facts t
  match a with
  | ⟨0, _⟩ => show win1_4.index t (0 : Fin 2) * 32 + 1 * k.val = k.val; rw [e0]; omega
  | ⟨1, _⟩ => show win1_4.index t (1 : Fin 2) * 32 + 1 * j.val = j.val; rw [e1]; omega

theorem iblk5_apply (c : Dev nD) (t : Fin cfg1.N) (j : Fin 32) :
    (NodeRegion.iblk V c 5 t : Vec Ideal S1x32 .f32) (ix2 0 j) = aB1 V c (ix2 0 j) := by
  show V c main_v29 (((cfg1.win 5).blk t).view.emb (ix2 0 j)) = V c main_v29 (ix2 0 j)
  congr 1
  funext a
  apply Fin.ext
  obtain ⟨-, -, -, -, -, -, -, -, -, -, e0, e1, -⟩ := idx_facts t
  match a with
  | ⟨0, _⟩ => show win1_5.index t (0 : Fin 2) * 1 + 1 * 0 = 0; rw [e0]
  | ⟨1, _⟩ => show win1_5.index t (1 : Fin 2) * 32 + 1 * j.val = j.val; rw [e1]; omega

theorem iblk6_apply (c : Dev nD) (t : Fin cfg1.N) (k : Fin 32) (j : Fin 32) :
    (NodeRegion.iblk V c 6 t : Vec Ideal S32x32 .f32) (ix2 k j) = aW2 V c (ix2 k j) := by
  show V c main_arg11 (((cfg1.win 6).blk t).view.emb (ix2 k j)) = V c main_arg11 (ix2 k j)
  congr 1
  funext a
  apply Fin.ext
  obtain ⟨-, -, -, -, -, -, -, -, -, -, -, -, e0, e1, -⟩ := idx_facts t
  match a with
  | ⟨0, _⟩ => show win1_6.index t (0 : Fin 2) * 32 + 1 * k.val = k.val; rw [e0]; omega
  | ⟨1, _⟩ => show win1_6.index t (1 : Fin 2) * 32 + 1 * j.val = j.val; rw [e1]; omega

theorem iblk7_apply (c : Dev nD) (t : Fin cfg1.N) (j : Fin 32) :
    (NodeRegion.iblk V c 7 t : Vec Ideal S1x32 .f32) (ix2 0 j) = aB2 V c (ix2 0 j) := by
  show V c main_v30 (((cfg1.win 7).blk t).view.emb (ix2 0 j)) = V c main_v30 (ix2 0 j)
  congr 1
  funext a
  apply Fin.ext
  obtain ⟨-, -, -, -, -, -, -, -, -, -, -, -, -, -, e0, e1, -⟩ := idx_facts t
  match a with
  | ⟨0, _⟩ => show win1_7.index t (0 : Fin 2) * 1 + 1 * 0 = 0; rw [e0]
  | ⟨1, _⟩ => show win1_7.index t (1 : Fin 2) * 32 + 1 * j.val = j.val; rw [e1]; omega

/-! ## The two result arrays as functions of the argument arrays -/

/-- The new features: at `(n, j)` the per-node feature function of row `n` of the data arrays. -/
def GH (c : Dev nD) : S100000x32.Idx → EReal := fun i =>
  nodeRowFeat (fun k => aNF V c (ix2 ⟨(i 0).val, idx2_lt0 i⟩ k)) (fun k => aHN V c (ix2 ⟨(i 0).val, idx2_lt0 i⟩ k))
    (fun k j' => aWa V c (ix2 k j')) (fun k j' => aWb V c (ix2 k j')) (fun j' => aB1 V c (ix2 0 j'))
    (fun k j' => aW2 V c (ix2 k j')) (fun j' => aB2 V c (ix2 0 j')) ⟨(i 1).val, idx2_lt1 i⟩

/-- The new coordinates: at `(n, a)` the per-node coordinate function of row `n` of the packed rows. -/
def GX (c : Dev nD) : S100000x3.Idx → EReal := fun i =>
  nodeRowCoord (fun k => aRow V c (ix2 ⟨(i 0).val, idx2_lt0 i⟩ k)) ⟨(i 1).val, idx2_lt1 i⟩

/-- Entry `(r, q)` of the features' result block at point `t` is entry `(5000·t + r, q)` of the array. -/
theorem embH (t : Fin cfg1.N) (r : Fin 5000) (q : Fin 32) (n : Fin 100000) (hn : n.val = 5000 * t.val + r.val) :
    ((cfg1.win 8).blk t).view.emb (ix2 r q) = (ix2 n q : S100000x32.Idx) := by
  funext a
  apply Fin.ext
  obtain ⟨-, -, -, -, -, -, -, -, -, -, -, -, -, -, -, -, e0, e1, -⟩ := idx_facts t
  match a with
  | ⟨0, _⟩ => show win1_8.index t (0 : Fin 2) * 5000 + 1 * r.val = n.val; rw [e0, hn]; omega
  | ⟨1, _⟩ => show win1_8.index t (1 : Fin 2) * 32 + 1 * q.val = q.val; rw [e1]; omega

/-- Entry `(r, q)` of the coordinates' result block at point `t` is entry `(5000·t + r, q)` of the array. -/
theorem embX (t : Fin cfg1.N) (r : Fin 5000) (q : Fin 3) (n : Fin 100000) (hn : n.val = 5000 * t.val + r.val) :
    ((cfg1.win 9).blk t).view.emb (ix2 r q) = (ix2 n q : S100000x3.Idx) := by
  funext a
  apply Fin.ext
  obtain ⟨-, -, -, -, -, -, -, -, -, -, -, -, -, -, -, -, -, -, e0, e1⟩ := idx_facts t
  match a with
  | ⟨0, _⟩ => show win1_9.index t (0 : Fin 2) * 5000 + 1 * r.val = n.val; rw [e0, hn]; omega
  | ⟨1, _⟩ => show win1_9.index t (1 : Fin 2) * 3 + 1 * q.val = q.val; rw [e1]; omega

/-- WHAT POINT `t` WRITES BACK to the features' array is block `t` of `GH`: the body's stored value at row `r` is the
    per-node function of row `r` of the staged blocks, which are rows `5000·t + r` of the arrays and the weights whole. -/
theorem flushedH_eq (c : Dev nD) (t : Fin cfg1.N) :
    (NodeRegion.dat V c).flushed 8 t = ((cfg1.win 8).blk t).view.read (Elt Ideal) (GH V c) := by
  show (cfg1.win 8).cut (grid1.coords t) ((NodeRegion.dat V c).after 8 t) = _
  rw [NodeRegion.after_8]
  unfold NodeRegion.outH
  rw [View.canon_unit_zero hz]
  simp only [View.ld_unit_zero (S := S5000x32) hz, View.ld_unit_zero (S := S32x32) hz, View.ld_unit_zero (S := S1x32) hz]
  funext j
  obtain ⟨r, q, rfl⟩ : ∃ (r : Fin 5000) (q : Fin 32), j = ix2 r q := ⟨j 0, j 1, eq_ix2 j⟩
  have ht : t.val < 20 := lt_of_lt_of_eq t.isLt N1
  obtain ⟨n, hn⟩ : ∃ n : Fin 100000, n.val = 5000 * t.val + r.val := ⟨⟨5000 * t.val + r.val, by have := r.isLt; omega⟩, rfl⟩
  show k1_pay1 (F := Ideal) (NodeRegion.iblk V c 0 t) (NodeRegion.iblk V c 1 t) (NodeRegion.iblk V c 3 t) (NodeRegion.iblk V c 4 t)
        (NodeRegion.iblk V c 5 t) (NodeRegion.iblk V c 6 t) (NodeRegion.iblk V c 7 t) (ix2 r q)
      = GH V c (((cfg1.win 8).blk t).view.emb (ix2 r q))
  rw [embH t r q n hn]
  refine (node_feat_at (NodeRegion.iblk V c 0 t) (NodeRegion.iblk V c 1 t) (NodeRegion.iblk V c 3 t) (NodeRegion.iblk V c 4 t)
        (NodeRegion.iblk V c 5 t) (NodeRegion.iblk V c 6 t) (NodeRegion.iblk V c 7 t) r q).trans ?_
  have e0 : (fun k => (NodeRegion.iblk V c 0 t : Vec Ideal S5000x32 .f32) (ix2 r k)) = fun k => aNF V c (ix2 n k) :=
    funext fun k => iblk0_apply V c t r k n hn
  have e1 : (fun k => (NodeRegion.iblk V c 1 t : Vec Ideal S5000x32 .f32) (ix2 r k)) = fun k => aHN V c (ix2 n k) :=
    funext fun k => iblk1_apply V c t r k n hn
  have e3 : (fun k j' => (NodeRegion.iblk V c 3 t : Vec Ideal S32x32 .f32) (ix2 k j')) = fun k j' => aWa V c (ix2 k j') :=
    funext fun k => funext fun j' => iblk3_apply V c t k j'
  have e4 : (fun k j' => (NodeRegion.iblk V c 4 t : Vec Ideal S32x32 .f32) (ix2 k j')) = fun k j' => aWb V c (ix2 k j') :=
    funext fun k => funext fun j' => iblk4_apply V c t k j'
  have e5 : (fun j' => (NodeRegion.iblk V c 5 t : Vec Ideal S1x32 .f32) (ix2 0 j')) = fun j' => aB1 V c (ix2 0 j') :=
    funext fun j' => iblk5_apply V c t j'
  have e6 : (fun k j' => (NodeRegion.iblk V c 6 t : Vec Ideal S32x32 .f32) (ix2 k j')) = fun k j' => aW2 V c (ix2 k j') :=
    funext fun k => funext fun j' => iblk6_apply V c t k j'
  have e7 : (fun j' => (NodeRegion.iblk V c 7 t : Vec Ideal S1x32 .f32) (ix2 0 j')) = fun j' => aB2 V c (ix2 0 j') :=
    funext fun j' => iblk7_apply V c t j'
  rw [e0, e1, e3, e4, e5, e6, e7]
  rfl

/-- WHAT POINT `t` WRITES BACK to the coordinates' array is block `t` of `GX`. -/
theorem flushedX_eq (c : Dev nD) (t : Fin cfg1.N) :
    (NodeRegion.dat V c).flushed 9 t = ((cfg1.win 9).blk t).view.read (Elt Ideal) (GX V c) := by
  show (cfg1.win 9).cut (grid1.coords t) ((NodeRegion.dat V c).after 9 t) = _
  rw [NodeRegion.after_9]
  unfold NodeRegion.outX
  rw [View.canon_unit_zero hz]
  simp only [View.ld_unit_zero (S := S5000x7) hz]
  funext j
  obtain ⟨r, q, rfl⟩ : ∃ (r : Fin 5000) (q : Fin 3), j = ix2 r q := ⟨j 0, j 1, eq_ix2 j⟩
  have ht : t.val < 20 := lt_of_lt_of_eq t.isLt N1
  obtain ⟨n, hn⟩ : ∃ n : Fin 100000, n.val = 5000 * t.val + r.val := ⟨⟨5000 * t.val + r.val, by have := r.isLt; omega⟩, rfl⟩
  show k1_pay2 (F := Ideal) (NodeRegion.iblk V c 2 t) (ix2 r q) = GX V c (((cfg1.win 9).blk t).view.emb (ix2 r q))
  rw [embX t r q n hn]
  refine (node_coord_at (NodeRegion.iblk V c 2 t) r q).trans ?_
  have e2 : (fun k => (NodeRegion.iblk V c 2 t : Vec Ideal S5000x7 .f32) (ix2 r k)) = fun k => aRow V c (ix2 n k) :=
    funext fun k => iblk2_apply V c t r k n hn
  rw [e2]
  rfl

/-! ## Every row is in exactly the block of the point that holds it -/

/-- An index is in point `t`'s block of the features' array iff each coordinate is in the block's range. -/
theorem mem_blkH (t : Fin cfg1.N) (i : S100000x32.Idx) :
    i ∈ ((cfg1.win 8).blk t).view.set ↔ ∀ a : Fin 2, win1_8.index t a * S5000x32.size a ≤ (i a).val
      ∧ (i a).val < win1_8.index t a * S5000x32.size a + S5000x32.size a := by
  show i ∈ ((View.whole main_v31_0).slice (win1_8.rect t)).set ↔ _
  rw [View.set_slice_whole, Rect.mem_set_unit]
  exact Iff.rfl

/-- The same for the coordinates' array. -/
theorem mem_blkX (t : Fin cfg1.N) (i : S100000x3.Idx) :
    i ∈ ((cfg1.win 9).blk t).view.set ↔ ∀ a : Fin 2, win1_9.index t a * S5000x3.size a ≤ (i a).val
      ∧ (i a).val < win1_9.index t a * S5000x3.size a + S5000x3.size a := by
  show i ∈ ((View.whole main_v31_1).slice (win1_9.rect t)).set ↔ _
  rw [View.set_slice_whole, Rect.mem_set_unit]
  exact Iff.rfl

/-- Row `n` is in the block of point `n / 5000`: the twenty blocks cover the features' array. -/
theorem coverH (i : S100000x32.Idx) :
    ∃ t : Fin cfg1.N, (cfg1.win 8).flush t = true ∧ i ∈ ((cfg1.win 8).blk t).view.set := by
  have hi0 : (i 0).val < 100000 := (i 0).isLt
  have hi1 : (i 1).val < 32 := (i 1).isLt
  obtain ⟨t, ht⟩ : ∃ t : Fin cfg1.N, t.val = (i 0).val / 5000 :=
    ⟨⟨(i 0).val / 5000, lt_of_lt_of_eq (by omega : (i 0).val / 5000 < 20) N1.symm⟩, rfl⟩
  refine ⟨t, flush1_8 t, ?_⟩
  rw [mem_blkH]
  obtain ⟨-, -, -, -, -, -, -, -, -, -, -, -, -, -, -, -, e0, e1, -⟩ := idx_facts t
  intro a
  match a with
  | ⟨0, _⟩ =>
    show win1_8.index t (0 : Fin 2) * 5000 ≤ (i 0).val ∧ (i 0).val < win1_8.index t (0 : Fin 2) * 5000 + 5000
    rw [e0, ht]; omega
  | ⟨1, _⟩ =>
    show win1_8.index t (1 : Fin 2) * 32 ≤ (i 1).val ∧ (i 1).val < win1_8.index t (1 : Fin 2) * 32 + 32
    rw [e1]; omega

/-- The twenty blocks cover the coordinates' array. -/
theorem coverX (i : S100000x3.Idx) :
    ∃ t : Fin cfg1.N, (cfg1.win 9).flush t = true ∧ i ∈ ((cfg1.win 9).blk t).view.set := by
  have hi0 : (i 0).val < 100000 := (i 0).isLt
  have hi1 : (i 1).val < 3 := (i 1).isLt
  obtain ⟨t, ht⟩ : ∃ t : Fin cfg1.N, t.val = (i 0).val / 5000 :=
    ⟨⟨(i 0).val / 5000, lt_of_lt_of_eq (by omega : (i 0).val / 5000 < 20) N1.symm⟩, rfl⟩
  refine ⟨t, flush1_9 t, ?_⟩
  rw [mem_blkX]
  obtain ⟨-, -, -, -, -, -, -, -, -, -, -, -, -, -, -, -, -, -, e0, e1⟩ := idx_facts t
  intro a
  match a with
  | ⟨0, _⟩ =>
    show win1_9.index t (0 : Fin 2) * 5000 ≤ (i 0).val ∧ (i 0).val < win1_9.index t (0 : Fin 2) * 5000 + 5000
    rw [e0, ht]; omega
  | ⟨1, _⟩ =>
    show win1_9.index t (1 : Fin 2) * 3 ≤ (i 1).val ∧ (i 1).val < win1_9.index t (1 : Fin 2) * 3 + 3
    rw [e1]; omega

/-! ## The arrays the pipeline leaves -/

/-- The features' array after the last point is `GH`. -/
theorem finalH (c : Dev nD) : (NodeRegion.dat V c).arrAt 8 cfg1.N = GH V c :=
  (NodeRegion.dat V c).arrAt_eq_of_cover 8 (GH V c) (fun t _ => flushedH_eq V c t) coverH

/-- The coordinates' array after the last point is `GX`. -/
theorem finalX (c : Dev nD) : (NodeRegion.dat V c).arrAt 9 cfg1.N = GX V c :=
  (NodeRegion.dat V c).arrAt_eq_of_cover 9 (GX V c) (fun t _ => flushedX_eq V c t) coverX

/-- THE NEW FEATURES, at every `(n, j)`: the per-node feature function of row `n`. -/
theorem final_feat (c : Dev nD) (n : Fin 100000) (j : Fin 32) :
    ((NodeRegion.dat V c).arrAt 8 cfg1.N : S100000x32.Idx → EReal) (ix2 n j)
      = nodeRowFeat (fun k => aNF V c (ix2 n k)) (fun k => aHN V c (ix2 n k)) (fun k j' => aWa V c (ix2 k j'))
          (fun k j' => aWb V c (ix2 k j')) (fun j' => aB1 V c (ix2 0 j')) (fun k j' => aW2 V c (ix2 k j'))
          (fun j' => aB2 V c (ix2 0 j')) j := by
  rw [finalH]
  rfl

/-- THE NEW COORDINATES, at every `(n, a)`: the per-node coordinate function of row `n` of the packed rows. -/
theorem final_coord (c : Dev nD) (n : Fin 100000) (a : Fin 3) :
    ((NodeRegion.dat V c).arrAt 9 cfg1.N : S100000x3.Idx → EReal) (ix2 n a)
      = nodeRowCoord (fun k => aRow V c (ix2 n k)) a := by
  rw [finalX]
  rfl

end Cert.KernelIdeal.NodeValue

end
-- ==== Proof.KernelHost1I.lean ====
/-
  What the program computes between the edge kernel's region and the node kernel's region, at any float instance.

  Between the two regions the program turns the edge region's two per-edge results into the per-node arrays the node
  region stages. The per-edge messages, stored in the narrow float format, are widened; their rows are summed into a
  zero table of one row per node, each edge's row added at the row of the edge's target node; the per-edge coordinate
  messages are summed into a zero table the same way; a vector of ones is summed the same way, which counts for every
  node the edges that end there, and that count is laid out as a column. The coordinates, the summed coordinate
  messages and the count column are then concatenated along the columns into one table of seven columns. Last, a
  weight matrix of 64 rows is cut into its upper and its lower 32 rows, and two bias vectors are laid out as one-row
  matrices. Two arguments are staged as they are.

  This module states each of these arrays as one pure term of the arguments' launch contents and of the edge region's
  two results, the three sums kept folded as the sums they are, and reads the rearrangements (the column layout, the
  concatenation, the two row slices, the two row layouts) at an index.

  The road: the stretch of operations is a fold over the buffers' contents, each operation replacing the contents of
  the one buffer it writes by its function of the contents of the buffers it reads; so the contents of a buffer after
  the stretch are the composition of the functions on the path from the buffers the stretch does not write. A buffer
  that no operation of the stretch writes, and that is not one of the edge region's arrays, holds what it held when the
  program was launched.
-/
import proofs.«405486_j56169582297514_2_alg».proof.Proof.KernelRunI
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Host1

open Cert.KernelIdeal Cert.KernelIdeal.Gen Cert.KernelIdeal.Run
open Idealize.ShloMosaic Idealize.ShloMosaic.TcCoe Idealize.ShloMosaic.StableHlo Idealize.ShloMosaic.ValueIdx Idealize.SL.Sem

variable {F : FTy → Type} [FloatOps F]

/-! ## A vector laid out as a column -/

/-- An `[a]` array cast to `[a, 1]` reads, at `(i, u)`, the operand at `i`, whatever the unit coordinate `u`: both
    indices have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The stretch from any entry contents

Each result is stated from arbitrary entry contents `V`, the contents the stretch only reads being named by
hypotheses: the entry contents stay a variable, so the sums are never opened. -/

/-- A three-operand operation's result, each operand's contents read at its own reference. -/
theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (StableHlo.nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

section Stretch

variable (V : Valuation τ sig (Elt F))

/-- The per-edge messages widened and summed by target node into a zero table. -/
theorem sum32_raw (s : IVec S3200000 32) (u : FVec F S3200000x32 .bf16)
    (hs : V (Proc.devRef .tc main_arg4) = s) (hu : V (Proc.devRef .tc main_v13_0) = u) :
    (StableHlo.after hostOps1 V (Proc.devRef .tc main_v17) : FVec F S100000x32 .f32)
      = Host.scatterAdd scatter_S100000x32_S3200000x1_S3200000x32_1_0_0_1
          (broadcastInDim S100000x32 ![] bcast_S_S100000x32 (constant (F := F) S_ .f32 0x00000000#32))
          (broadcastInDim S3200000x1 ![0] bcast_S3200000_S3200000x1_0 s)
          (extf .f32 u bitsLt_bf16_f32) := by
  subst hs hu
  after_results

/-- The per-edge coordinate messages summed by target node into a zero table. -/
theorem sum3_raw (s : IVec S3200000 32) (u : FVec F S3200000x3 .f32)
    (hs : V (Proc.devRef .tc main_arg4) = s) (hu : V (Proc.devRef .tc main_v13_1) = u) :
    (StableHlo.after hostOps1 V (Proc.devRef .tc main_v20) : FVec F S100000x3 .f32)
      = Host.scatterAdd scatter_S100000x3_S3200000x1_S3200000x3_1_0_0_1
          (broadcastInDim S100000x3 ![] bcast_S_S100000x3 (constant (F := F) S_ .f32 0x00000000#32))
          (broadcastInDim S3200000x1 ![0] bcast_S3200000_S3200000x1_0 s) u := by
  subst hs hu
  after_results

/-- Ones summed by target node into a zero vector: every node's number of incoming edges. -/
theorem count_raw (s : IVec S3200000 32) (hs : V (Proc.devRef .tc main_arg4) = s) :
    (StableHlo.after hostOps1 V (Proc.devRef .tc main_v24) : FVec F S100000 .f32)
      = Host.scatterAdd scatter_S100000_S3200000x1_S3200000_n_0_0_1
          (broadcastInDim S100000 ![] bcast_S_S100000 (constant (F := F) S_ .f32 0x00000000#32))
          (broadcastInDim S3200000x1 ![0] bcast_S3200000_S3200000x1_0 s)
          (broadcastInDim S3200000 ![] bcast_S_S3200000 (constant (F := F) S_ .f32 0x3F800000#32)) := by
  subst hs
  after_results

/-- The count as a column is the count vector cast to one column. -/
theorem column_raw :
    (StableHlo.after hostOps1 V (Proc.devRef .tc main_v25) : FVec F S100000x1 .f32)
      = shapeCast S100000x1 (StableHlo.after hostOps1 V (Proc.devRef .tc main_v24) : FVec F S100000 .f32)
          shapeCasts_S100000_S100000x1 := by
  simp (disch := decide) only [StableHlo.after_cons, StableHlo.after_nil,
    StableHlo.nullary_result', StableHlo.unary_result', StableHlo.ternary_result', StableHlo.reshape_result',
    StableHlo.nullary_result_ne', StableHlo.unary_result_ne', StableHlo.ternary_result_ne', StableHlo.reshape_result_ne',
    StableHlo.nary_result_ne']
  rfl

/-- The packed per-node table is the concatenation, along the columns, of the coordinates, the summed coordinate
    messages and the count column. The three pieces sit inside dependent pairs of a shape and an array, where no
    rewriting reaches: each is first named, its contents found beside the goal, and then put back. -/
theorem concat_raw (x1 x20 : FVec F S100000x3 .f32) (x25 : FVec F S100000x1 .f32)
    (h1 : V (Proc.devRef .tc main_arg1) = x1)
    (h20 : StableHlo.after hostOps1 V (Proc.devRef .tc main_v20) = x20)
    (h25 : StableHlo.after hostOps1 V (Proc.devRef .tc main_v25) = x25) :
    (StableHlo.after hostOps1 V (Proc.devRef .tc main_v26) : FVec F S100000x7 .f32)
      = concatenate S100000x7 1 [⟨S100000x3, x1⟩, ⟨S100000x3, x20⟩, ⟨S100000x1, x25⟩]
          concatenates_S100000x3_S100000x3_S100000x1_S100000x7_d1 := by
  simp (disch := decide) only [StableHlo.after_cons, StableHlo.after_nil,
    StableHlo.nullary_result', StableHlo.unary_result', StableHlo.ternary_result', StableHlo.reshape_result', nary3_result,
    StableHlo.nullary_result_ne', StableHlo.unary_result_ne', StableHlo.ternary_result_ne', StableHlo.reshape_result_ne',
    StableHlo.nary_result_ne'] at h20 h25 ⊢
  generalize hA : HloOp.result _ _ (Proc.devRef .tc main_arg1) = a
  generalize hB : HloOp.result _ _ (Proc.devRef .tc main_v20) = b
  generalize hC : HloOp.result _ _ (Proc.devRef .tc main_v25) = c
  simp (disch := decide) only [
    StableHlo.nullary_result', StableHlo.unary_result', StableHlo.ternary_result', StableHlo.reshape_result',
    StableHlo.nullary_result_ne', StableHlo.unary_result_ne', StableHlo.ternary_result_ne', StableHlo.reshape_result_ne',
    StableHlo.nary_result_ne'] at hA hB hC
  obtain rfl : a = x1 := hA.symm.trans h1
  obtain rfl : b = x20 := hB.symm.trans h20
  obtain rfl : c = x25 := hC.symm.trans h25
  rfl

end Stretch

section Stretch2

variable (V : Valuation τ sig (Elt F))

/-- The upper 32 rows of the 64-row weight matrix. -/
theorem upper_raw (x : FVec F S64x32 .f32) (hx : V (Proc.devRef .tc main_arg9) = x) :
    (StableHlo.after hostOps1 V (Proc.devRef .tc main_v27) : FVec F S32x32 .f32)
      = extractStridedSlice S32x32 ![0, 0] x slices_S64x32_S32x32_0_0 := by
  subst hx
  after_results
  all_goals rfl

/-- The lower 32 rows of the 64-row weight matrix. -/
theorem lower_raw (x : FVec F S64x32 .f32) (hx : V (Proc.devRef .tc main_arg9) = x) :
    (StableHlo.after hostOps1 V (Proc.devRef .tc main_v28) : FVec F S32x32 .f32)
      = extractStridedSlice S32x32 ![32, 0] x slices_S64x32_S32x32_32_0 := by
  subst hx
  after_results
  all_goals rfl

/-- The first bias vector as a one-row matrix. -/
theorem row29_raw (x : FVec F S32 .f32) (hx : V (Proc.devRef .tc main_arg10) = x) :
    (StableHlo.after hostOps1 V (Proc.devRef .tc main_v29) : FVec F S1x32 .f32)
      = shapeCast S1x32 x shapeCasts_S32_S1x32 := by
  subst hx
  after_results
  all_goals rfl

/-- The second bias vector as a one-row matrix. -/
theorem row30_raw (x : FVec F S32 .f32) (hx : V (Proc.devRef .tc main_arg12) = x) :
    (StableHlo.after hostOps1 V (Proc.devRef .tc main_v30) : FVec F S1x32 .f32)
      = shapeCast S1x32 x shapeCasts_S32_S1x32 := by
  subst hx
  after_results
  all_goals rfl

end Stretch2

/-! ## The concatenation of three pieces read at an index

Row `n` of the seven-column table: columns 0 to 2 come from the first piece, columns 3 to 5 from the second, column 6
from the one-column third piece. -/

theorem concat_at (x1 x20 : FVec F S100000x3 .f32) (x25 : FVec F S100000x1 .f32) (n : Fin 100000) (k : Fin 7) :
    concatenate S100000x7 1 [⟨S100000x3, x1⟩, ⟨S100000x3, x20⟩, ⟨S100000x1, x25⟩]
        concatenates_S100000x3_S100000x3_S100000x1_S100000x7_d1 (ix2 n k)
      = if h : k.val < 3 then x1 (ix2 n ⟨k.val, h⟩)
        else if h2 : k.val < 6 then x20 (ix2 n ⟨k.val - 3, by omega⟩)
        else x25 (ix2 n (0 : Fin 1)) := by
  by_cases h : k.val < 3
  · rw [dif_pos h]
    exact concatenate_apply_piece (1 : Fin 2) _ _ (ix2 n k) 0 (by show 0 < 3; omega) S100000x3 _ rfl rfl 0 rfl
      (ix2 n ⟨k.val, h⟩) (fun b hb => match b with | ⟨0, _⟩ => rfl | ⟨1, _⟩ => absurd rfl hb)
      (by show 0 + k.val = k.val; omega)
  · rw [dif_neg h]
    by_cases h2 : k.val < 6
    · rw [dif_pos h2]
      exact concatenate_apply_piece (1 : Fin 2) _ _ (ix2 n k) 1 (by show 1 < 3; omega) S100000x3 _ rfl rfl 3 rfl
        (ix2 n ⟨k.val - 3, by omega⟩) (fun b hb => match b with | ⟨0, _⟩ => rfl | ⟨1, _⟩ => absurd rfl hb)
        (by show 3 + (k.val - 3) = k.val; omega)
    · rw [dif_neg h2]
      exact concatenate_apply_piece (1 : Fin 2) _ _ (ix2 n k) 2 (by show 2 < 3; omega) S100000x1 _ rfl rfl 6 rfl
        (ix2 n (0 : Fin 1)) (fun b hb => match b with | ⟨0, _⟩ => rfl | ⟨1, _⟩ => absurd rfl hb)
        (by show 6 + 0 = k.val; omega)

/-! ## The arguments' launch contents and the edge region's two results -/

variable (m : (ℓ : Loc nD τ sig) → Buf (Elt F) ℓ) (c : Dev nD)

/-- The node features. -/
abbrev A0 : FVec F S100000x32 .f32 := m ((c : Thread nD τ).loc main_arg0)
/-- The node coordinates. -/
abbrev A1 : FVec F S100000x3 .f32 := m ((c : Thread nD τ).loc main_arg1)
/-- The edges' target nodes. -/
abbrev A4 : IVec S3200000 32 := m ((c : Thread nD τ).loc main_arg4)
/-- The 64-row weight matrix. -/
abbrev A9 : FVec F S64x32 .f32 := m ((c : Thread nD τ).loc main_arg9)
/-- The first bias vector. -/
abbrev A10 : FVec F S32 .f32 := m ((c : Thread nD τ).loc main_arg10)
/-- The square weight matrix staged as it is. -/
abbrev A11 : FVec F S32x32 .f32 := m ((c : Thread nD τ).loc main_arg11)
/-- The second bias vector. -/
abbrev A12 : FVec F S32 .f32 := m ((c : Thread nD τ).loc main_arg12)
/-- The edge region's per-edge messages, in the narrow float format. -/
abbrev MsgB : FVec F S3200000x32 .bf16 := W6 m c main_v13_0
/-- The edge region's per-edge coordinate messages. -/
abbrev MsgX : FVec F S3200000x3 .f32 := W6 m c main_v13_1

/-- A buffer that is none of the edge region's arrays and that none of the five leading stretches writes holds, when
    the stretch between the regions is entered, its launch contents. -/
theorem W6_arg (r : Ref sig .tc) (hE : ∀ w, Pipeline.arrRef spec0 w ≠ r) (h4 : r ∉ hostOps0_4_W)
    (h3 : r ∉ hostOps0_3_W) (h2 : r ∉ hostOps0_2_W) (h1 : r ∉ hostOps0_1_W) (h0 : r ∉ hostOps0_W) :
    W6 m c (Proc.devRef .tc r) = m ((c : Thread nD τ).loc r) :=
  (W6_of_ne m c r hE).trans <| (V5_of m c r h4).trans <| (V4_of m c r h3).trans <| (V3_of m c r h2).trans <|
    (V2_of m c r h1).trans <| (V1_of m c r h0).trans rfl

theorem W6_arg0 : (W6 m c main_arg0 : FVec F S100000x32 .f32) = A0 m c :=
  W6_arg m c main_arg0 (by decide) (by decide) (by decide) (by decide) (by decide) (by decide)
theorem W6_arg1 : (W6 m c main_arg1 : FVec F S100000x3 .f32) = A1 m c :=
  W6_arg m c main_arg1 (by decide) (by decide) (by decide) (by decide) (by decide) (by decide)
/-- The target indices read where the stretch between the regions reads them are the argument. -/
theorem W6_arg4 : (W6 m c main_arg4 : IVec S3200000 32) = A4 m c :=
  W6_arg m c main_arg4 (by decide) (by decide) (by decide) (by decide) (by decide) (by decide)
theorem W6_arg9 : (W6 m c main_arg9 : FVec F S64x32 .f32) = A9 m c :=
  W6_arg m c main_arg9 (by decide) (by decide) (by decide) (by decide) (by decide) (by decide)
theorem W6_arg10 : (W6 m c main_arg10 : FVec F S32 .f32) = A10 m c :=
  W6_arg m c main_arg10 (by decide) (by decide) (by decide) (by decide) (by decide) (by decide)
theorem W6_arg11 : (W6 m c main_arg11 : FVec F S32x32 .f32) = A11 m c :=
  W6_arg m c main_arg11 (by decide) (by decide) (by decide) (by decide) (by decide) (by decide)
theorem W6_arg12 : (W6 m c main_arg12 : FVec F S32 .f32) = A12 m c :=
  W6_arg m c main_arg12 (by decide) (by decide) (by decide) (by decide) (by decide) (by decide)

/-! ## What the node region finds -/

/-- The summed messages: the widened per-edge messages added, row by row, at their edges' target nodes. -/
theorem v17_eq : (W7 m c main_v17 : FVec F S100000x32 .f32)
    = Host.scatterAdd scatter_S100000x32_S3200000x1_S3200000x32_1_0_0_1
        (broadcastInDim S100000x32 ![] bcast_S_S100000x32 (constant (F := F) S_ .f32 0x00000000#32))
        (broadcastInDim S3200000x1 ![0] bcast_S3200000_S3200000x1_0 (A4 m c))
        (extf .f32 (MsgB m c) bitsLt_bf16_f32) :=
  sum32_raw (W6 m c) (A4 m c) (MsgB m c) (W6_arg4 m c) rfl

/-- The summed coordinate messages. -/
theorem v20_eq : (W7 m c main_v20 : FVec F S100000x3 .f32)
    = Host.scatterAdd scatter_S100000x3_S3200000x1_S3200000x3_1_0_0_1
        (broadcastInDim S100000x3 ![] bcast_S_S100000x3 (constant (F := F) S_ .f32 0x00000000#32))
        (broadcastInDim S3200000x1 ![0] bcast_S3200000_S3200000x1_0 (A4 m c))
        (MsgX m c) :=
  sum3_raw (W6 m c) (A4 m c) (MsgX m c) (W6_arg4 m c) rfl

/-- Every node's number of incoming edges. -/
theorem v24_eq : (W7 m c main_v24 : FVec F S100000 .f32)
    = Host.scatterAdd scatter_S100000_S3200000x1_S3200000_n_0_0_1
        (broadcastInDim S100000 ![] bcast_S_S100000 (constant (F := F) S_ .f32 0x00000000#32))
        (broadcastInDim S3200000x1 ![0] bcast_S3200000_S3200000x1_0 (A4 m c))
        (broadcastInDim S3200000 ![] bcast_S_S3200000 (constant (F := F) S_ .f32 0x3F800000#32)) :=
  count_raw (W6 m c) (A4 m c) (W6_arg4 m c)

/-- The count column at row `n` is the count of node `n`. -/
theorem v25_at (n : Fin 100000) :
    (W7 m c main_v25 : FVec F S100000x1 .f32) (ix2 n (0 : Fin 1)) = (W7 m c main_v24 : FVec F S100000 .f32) (ix1 n) :=
  (congrFun (column_raw (W6 m c)) (ix2 n (0 : Fin 1))).trans (shapeCast_a_a1_apply _ _ n 0)

/-- The packed per-node table: the coordinates, the summed coordinate messages, the count column, side by side. -/
theorem v26_eq : (W7 m c main_v26 : FVec F S100000x7 .f32)
    = concatenate S100000x7 1 [⟨S100000x3, A1 m c⟩, ⟨S100000x3, (W7 m c main_v20 : FVec F S100000x3 .f32)⟩,
        ⟨S100000x1, (W7 m c main_v25 : FVec F S100000x1 .f32)⟩]
        concatenates_S100000x3_S100000x3_S100000x1_S100000x7_d1 :=
  concat_raw (W6 m c) (A1 m c) _ _ (W6_arg1 m c) rfl rfl

/-- The packed per-node table at row `n`, column `k`: columns 0 to 2 are the node's coordinates, columns 3 to 5 its
    summed coordinate messages, column 6 its count. -/
theorem v26_at (n : Fin 100000) (k : Fin 7) :
    (W7 m c main_v26 : FVec F S100000x7 .f32) (ix2 n k)
      = if h : k.val < 3 then A1 m c (ix2 n ⟨k.val, h⟩)
        else if h2 : k.val < 6 then (W7 m c main_v20 : FVec F S100000x3 .f32) (ix2 n ⟨k.val - 3, by omega⟩)
        else (W7 m c main_v25 : FVec F S100000x1 .f32) (ix2 n (0 : Fin 1)) :=
  (congrFun (v26_eq m c) (ix2 n k)).trans (concat_at _ _ _ n k)

/-- The upper half of the weight matrix: row `k` is row `k` of the argument. -/
theorem v27_at (k j : Fin 32) :
    (W7 m c main_v27 : FVec F S32x32 .f32) (ix2 k j) = A9 m c (ix2 ⟨k.val, by omega⟩ j) :=
  (congrFun (upper_raw (W6 m c) (A9 m c) (W6_arg9 m c)) (ix2 k j)).trans
    (slice2_axis0_apply 0 _ _ k j _ (by show k.val = 0 + k.val; omega))

/-- The lower half of the weight matrix: row `k` is row `k + 32` of the argument. -/
theorem v28_at (k j : Fin 32) :
    (W7 m c main_v28 : FVec F S32x32 .f32) (ix2 k j) = A9 m c (ix2 ⟨k.val + 32, by omega⟩ j) :=
  (congrFun (lower_raw (W6 m c) (A9 m c) (W6_arg9 m c)) (ix2 k j)).trans
    (slice2_axis0_apply 32 _ _ k j _ (by show k.val + 32 = 32 + k.val; omega))

/-- The first bias row at column `j` is the bias vector at `j`. -/
theorem v29_at (j : Fin 32) : (W7 m c main_v29 : FVec F S1x32 .f32) (ix2 0 j) = A10 m c (ix1 j) :=
  (congrFun (row29_raw (W6 m c) (A10 m c) (W6_arg10 m c)) (ix2 0 j)).trans (shapeCast_a_1a_apply _ _ 0 j)

/-- The second bias row at column `j` is the bias vector at `j`. -/
theorem v30_at (j : Fin 32) : (W7 m c main_v30 : FVec F S1x32 .f32) (ix2 0 j) = A12 m c (ix1 j) :=
  (congrFun (row30_raw (W6 m c) (A12 m c) (W6_arg12 m c)) (ix2 0 j)).trans (shapeCast_a_1a_apply _ _ 0 j)

/-- The node features are staged as launched: the stretch does not write them. -/
theorem arg0_eq : (W7 m c main_arg0 : FVec F S100000x32 .f32) = A0 m c :=
  (StableHlo.after_of_writes_sub hostOps1 _ hostOps1_writes (by decide)).trans (W6_arg0 m c)

/-- The square weight matrix is staged as launched: the stretch does not write it. -/
theorem arg11_eq : (W7 m c main_arg11 : FVec F S32x32 .f32) = A11 m c :=
  (StableHlo.after_of_writes_sub hostOps1 _ hostOps1_writes (by decide)).trans (W6_arg11 m c)

end Cert.KernelIdeal.Host1

end
-- ==== Proof.ScatterRows.lean ====
/-
  The accumulating scatter of ROWS, read at one element.

  At the ideal values an accumulating scatter is, at operand index i,
      x i + ∑ { upd j : the update index j lands on i },
  where update index j lands on  start(j) + window(j)  when that is inside the operand on every axis,
  and lands nowhere otherwise. For an operand [N, C], one index word per edge (scatter indices [E, 1]) and
  updates [E, C], with the updates' axis 1 the window axis, the operand's axis 0 the inserted one and the
  index word naming operand axis 0:
      start (e, c') = (idx (e, 0) read signed, 0),   window (e, c') = (0, c'),
  so update (e, c') lands on (n, c) exactly when c' = c and the index word of edge e, read signed, is n.
  A negative word, or one that is N or more, equals no n < N: that update is dropped. Hence
      result (n, c) = x (n, c) + ∑ { upd (e, c) : e an edge whose index word is n }.
  The rank-1 form (operand [N], updates [E], no window axis) is the same statement without the column.
-/
import Idealize.ShloMosaic.PureOps.Ideal.Laws
import Idealize.ShloMosaic.Lib.ValueIdx

noncomputable section

open scoped BigOperators

namespace Cert.ScatterRows

open Idealize.ShloMosaic Idealize.ShloMosaic.ValueIdx

/-! ## Where an update lands, for any dimension numbers -/

/-- Update index `j` lands on operand index `i` exactly when, on every operand axis, the signed start plus the
    window coordinate IS `i`'s coordinate: being inside the operand on every axis is then automatic, a coordinate
    of `i` being one. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hc
      have h' := Option.some.inj h
      intro a
      have h2 := congrFun h' a
      have hv : (i a).val = (d.start j idx a + (d.window j a : Int)).toNat := by rw [← h2]
      have := hc a
      omega
    · exact absurd h (by simp)
  · intro h
    have hc : ∀ a, 0 ≤ d.start j idx a + (d.window j a : Int) ∧ d.start j idx a + (d.window j a : Int) < s.size a := by
      intro a; have := h a; have := (i a).isLt; omega
    rw [dif_pos hc]
    congr 1
    funext a
    apply Fin.ext
    show (d.start j idx a + (d.window j a : Int)).toNat = (i a).val
    have := h a; omega

/-! ## Rows: operand [N, C], scatter indices [E, 1], updates [E, C] -/

/-- The start and the window coordinate of update `(e, c')` on the operand's two axes: the start is the index word
    of edge `e` read signed on axis 0 and `0` on axis 1 (the map names axis 0 only); the window coordinate is `0` on
    axis 0 (the inserted axis) and `c'` on axis 1 (the one kept axis, fed by the updates' one window axis). -/
theorem start_rows {N E C w : Nat} (d : ScatterDims ⟨2, ![N, C]⟩ ⟨2, ![E, 1]⟩ ⟨2, ![E, C]⟩)
    (hw : d.updateWindowDims = [1]) (hi : d.insertedWindowDims = [0]) (hs : d.scatterDimsToOperandDims = [0])
    (hv : d.indexVectorDim = 1) (idx : IVec ⟨2, ![E, 1]⟩ w) (e : Fin E) (c' : Fin C) :
    d.start (ix2 e c') idx 0 = (idx (ix2 e (0 : Fin 1))).toInt ∧ d.start (ix2 e c') idx 1 = 0
    ∧ d.window (ix2 e c') 0 = 0 ∧ d.window (ix2 e c') 1 = c'.val := by
  obtain ⟨uw, iw, sd, iv, wf⟩ := d
  simp only at hw hi hs hv
  subst hw hi hs hv
  refine ⟨?_, ?_, ?_, ?_⟩
  · -- axis 0 is named by the map, at position 0: the word is read at (e, 0)
    unfold ScatterDims.start
    rw [dif_pos (List.mem_singleton.mpr rfl)]
    congr 2
    funext b
    refine Fin.ext ?_
    match b with
    | ⟨0, _⟩ => rfl
    | ⟨1, _⟩ => rfl
  · -- axis 1 is not named by the map
    unfold ScatterDims.start
    rw [dif_neg (show (1 : Fin 2) ∉ [(0 : Fin 2)] by decide)]
  · -- axis 0 is inserted: not among the kept axes [1]
    unfold ScatterDims.window
    rw [dif_neg]
    show (0 : Fin 2) ∉ [(1 : Fin 2)]
    decide
  · -- axis 1 is the first kept axis: it takes the updates' first window axis, axis 1
    unfold ScatterDims.window
    rw [dif_pos]
    · rfl
    · show (1 : Fin 2) ∈ [(1 : Fin 2)]
      decide

/-- Update `(e, c')` lands on `(n, c)` exactly when the columns agree and the index word of edge `e`, read signed,
    is `n`. -/
theorem resultIdx?_rows {N E C w : Nat} (d : ScatterDims ⟨2, ![N, C]⟩ ⟨2, ![E, 1]⟩ ⟨2, ![E, C]⟩)
    (hw : d.updateWindowDims = [1]) (hi : d.insertedWindowDims = [0]) (hs : d.scatterDimsToOperandDims = [0])
    (hv : d.indexVectorDim = 1) (idx : IVec ⟨2, ![E, 1]⟩ w) (e : Fin E) (c' : Fin C) (n : Fin N) (c : Fin C) :
    d.resultIdx? (ix2 e c') idx = some (ix2 n c) ↔ c' = c ∧ (idx (ix2 e (0 : Fin 1))).toInt = (n.val : Int) := by
  obtain ⟨h0, h1, h2, h3⟩ := start_rows d hw hi hs hv idx e c'
  rw [resultIdx?_eq_some_iff, Fin.forall_fin_two, h0, h1, h2, h3]
  show (idx (ix2 e 0)).toInt + ((0 : Nat) : Int) = (n.val : Int) ∧ (0 : Int) + (c'.val : Int) = (c.val : Int) ↔ _
  constructor
  · rintro ⟨ha, hb⟩
    exact ⟨Fin.ext (by omega), by omega⟩
  · rintro ⟨rfl, hb⟩
    exact ⟨by omega, by omega⟩

/-- THE SCATTER OF ROWS AT `(n, c)`: the operand's element plus the updates `(e, c)` of the edges `e` whose index
    word, read signed, is `n`. The sum over update indices `(e, c')` that land on `(n, c)` is split into the sum
    over `e` of the sum over `c'`; the inner sum has the one term `c' = c` when edge `e`'s word is `n`, none
    otherwise. -/
theorem scatterAdd_rows_apply {N E C w : Nat} (d : ScatterDims ⟨2, ![N, C]⟩ ⟨2, ![E, 1]⟩ ⟨2, ![E, C]⟩)
    (hw : d.updateWindowDims = [1]) (hi : d.insertedWindowDims = [0]) (hs : d.scatterDimsToOperandDims = [0])
    (hv : d.indexVectorDim = 1)
    {φ : FTy} (x : FVec Ideal ⟨2, ![N, C]⟩ φ) (idx : IVec ⟨2, ![E, 1]⟩ w) (upd : FVec Ideal ⟨2, ![E, C]⟩ φ)
    (n : Fin N) (c : Fin C) :
    Host.scatterAdd d x idx upd (ix2 n c) = x (ix2 n c)
      + ∑ e ∈ Finset.univ.filter (fun e : Fin E => (idx (ix2 e (0 : Fin 1))).toInt = (n.val : Int)), upd (ix2 e c) := by
  unfold Host.scatterAdd
  rw [Ideal.hostScatterAdd_def]
  unfold Ideal.hostScatterAdd
  congr 1
  rw [Finset.sum_filter, Finset.sum_filter, sum_idx2]
  refine Finset.sum_congr rfl fun e _ => ?_
  simp only [resultIdx?_rows d hw hi hs hv idx]
  by_cases hq : (idx (ix2 e (0 : Fin 1))).toInt = (n.val : Int)
  · simp only [hq, and_true, if_true]
    exact (Finset.sum_ite_eq' Finset.univ c _).trans (if_pos (Finset.mem_univ c))
  · simp only [hq, and_false, if_false]
    exact Finset.sum_const_zero

/-! ## Rank 1: operand [N], scatter indices [E, 1], updates [E] -/

/-- The start and the window coordinate of update `e` on the operand's one axis: the index word of edge `e` read
    signed, and `0` (the axis is inserted; there is no window axis). -/
theorem start_vec {N E w : Nat} (d : ScatterDims ⟨1, ![N]⟩ ⟨2, ![E, 1]⟩ ⟨1, ![E]⟩)
    (hw : d.updateWindowDims = []) (hi : d.insertedWindowDims = [0]) (hs : d.scatterDimsToOperandDims = [0])
    (hv : d.indexVectorDim = 1) (idx : IVec ⟨2, ![E, 1]⟩ w) (e : Fin E) :
    d.start (ix1 e) idx 0 = (idx (ix2 e (0 : Fin 1))).toInt ∧ d.window (ix1 e) 0 = 0 := by
  obtain ⟨uw, iw, sd, iv, wf⟩ := d
  simp only at hw hi hs hv
  subst hw hi hs hv
  refine ⟨?_, ?_⟩
  · unfold ScatterDims.start
    rw [dif_pos (List.mem_singleton.mpr rfl)]
    congr 2
    funext b
    refine Fin.ext ?_
    match b with
    | ⟨0, _⟩ => rfl
    | ⟨1, _⟩ => rfl
  · unfold ScatterDims.window
    rw [dif_neg]
    show (0 : Fin 1) ∉ ([] : List (Fin 1))
    exact List.not_mem_nil

/-- Update `e` lands on `n` exactly when the index word of edge `e`, read signed, is `n`. -/
theorem resultIdx?_vec {N E w : Nat} (d : ScatterDims ⟨1, ![N]⟩ ⟨2, ![E, 1]⟩ ⟨1, ![E]⟩)
    (hw : d.updateWindowDims = []) (hi : d.insertedWindowDims = [0]) (hs : d.scatterDimsToOperandDims = [0])
    (hv : d.indexVectorDim = 1) (idx : IVec ⟨2, ![E, 1]⟩ w) (e : Fin E) (n : Fin N) :
    d.resultIdx? (ix1 e) idx = some (ix1 n) ↔ (idx (ix2 e (0 : Fin 1))).toInt = (n.val : Int) := by
  obtain ⟨h0, h1⟩ := start_vec d hw hi hs hv idx e
  rw [resultIdx?_eq_some_iff, Fin.forall_fin_one, h0, h1]
  show (idx (ix2 e 0)).toInt + ((0 : Nat) : Int) = (n.val : Int) ↔ _
  constructor
  · intro ha; omega
  · intro ha; omega

/-- A rank-1 index set is its one coordinate range … -/
def idxEquivOne {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idxOne {M : Type*} [AddCommMonoid M] {n : Nat} (f : (⟨1, ![n]⟩ : Shape).Idx → M) :
    ∑ i, f i = ∑ a : Fin n, f (ix1 a) := by
  rw [← Equiv.sum_comp (idxEquivOne (n := n)).symm f]
  rfl

/-- THE RANK-1 SCATTER AT `n`: the operand's element plus the updates of the edges whose index word, read signed,
    is `n`. -/
theorem scatterAdd_vec_apply {N E w : Nat} (d : ScatterDims ⟨1, ![N]⟩ ⟨2, ![E, 1]⟩ ⟨1, ![E]⟩)
    (hw : d.updateWindowDims = []) (hi : d.insertedWindowDims = [0]) (hs : d.scatterDimsToOperandDims = [0])
    (hv : d.indexVectorDim = 1)
    {φ : FTy} (x : FVec Ideal ⟨1, ![N]⟩ φ) (idx : IVec ⟨2, ![E, 1]⟩ w) (upd : FVec Ideal ⟨1, ![E]⟩ φ) (n : Fin N) :
    Host.scatterAdd d x idx upd (ix1 n) = x (ix1 n)
      + ∑ e ∈ Finset.univ.filter (fun e : Fin E => (idx (ix2 e (0 : Fin 1))).toInt = (n.val : Int)), upd (ix1 e) := by
  unfold Host.scatterAdd
  rw [Ideal.hostScatterAdd_def]
  unfold Ideal.hostScatterAdd
  congr 1
  rw [Finset.sum_filter, Finset.sum_filter, sum_idxOne]
  refine Finset.sum_congr rfl fun e _ => ?_
  simp only [resultIdx?_vec d hw hi hs hv idx]

/-! ## Two sums over the edges that land on one row -/

/-- Two sums over the edges whose key, read signed, is `n` agree when their terms agree on those edges. -/
theorem sum_filter_congr_of_land {E : Nat} {w : Nat} (key : Fin E → BitVec w) (n : Int) (f g : Fin E → EReal)
    (h : ∀ e, (key e).toInt = n → f e = g e) :
    ∑ e ∈ Finset.univ.filter (fun e => (key e).toInt = n), f e
      = ∑ e ∈ Finset.univ.filter (fun e => (key e).toInt = n), g e :=
  Finset.sum_congr rfl fun e he => h e (Finset.mem_filter.mp he).2

end Cert.ScatterRows

end
-- ==== Proof.TakeRows.lean ====
import Idealize.ShloMosaic.Lib.ValueIdx
import Idealize.ShloMosaic.Lib.StableHlo.Predicate
import Idealize.ShloMosaic.Lib.ReduceAll

/-!
# Rows of a take with in-range indices

Taking rows of a table `x` of `N = 100000` rows at a vector `s` of `E = 3200000` signed 32-bit index words, with
out-of-range rows replaced by a fill value, is printed as five steps:

* a negative index is wrapped ONCE: `s' e = if s e < 0 then s e + N else s e` (signed compare, wrapping word addition);
* `s'` is laid out as an `[E, 1]` column `idx`;
* a row mask `m e` is the AND over the one column of `(0 ≤ idx) ∧ (idx ≤ N - 1)` (signed compares), started from 1;
* the rows are gathered at `idx` into `g : [E, C]`;
* the result is `g` where the mask (laid along the rows of `[E, C]`) is 1, and a fill value elsewhere.

The mathematics proved here: if `-N ≤ s e < N` as a signed integer then the wrapped index `s' e` lies in `[0, N - 1]`
(for `s e < 0` the sum `s e + N` lies in `[0, N - 1]`, far from the signed range's ends, so the word addition does not
wrap; for `s e ≥ 0` nothing changes), hence both compares are 1 at `(e, 0)`, hence the AND over row `e`'s single column
is 1, hence row `e` of the result is row `e` of `g`. Nothing is used of `g` or of the fill value: they are arbitrary arrays.

The shape-relation evidence each operation takes is a variable of the statement, so the left side is the printed chain
of operations itself.
-/

noncomputable section

namespace Cert.TakeRows

open Idealize.ShloMosaic Idealize.ShloMosaic.ValueIdx

/-- The index vector's shape, `[E]`. -/
abbrev SE : Shape := ⟨1, ![3200000]⟩
/-- The index column's shape, `[E, 1]`. -/
abbrev SE1 : Shape := ⟨2, ![3200000, 1]⟩
/-- The scalar shape. -/
abbrev S0 : Shape := ⟨0, ![]⟩
/-- The shape `[1]`. -/
abbrev S1 : Shape := ⟨1, ![1]⟩
/-- The shape `[1, 1]`. -/
abbrev S11 : Shape := ⟨2, ![1, 1]⟩
/-- The gathered rows' shape, `[E, C]`. -/
abbrev SEC (C : Nat) : Shape := ⟨2, ![3200000, C]⟩

/-! ## Words -/

/-- A one-bit word made from a truth value is 1 exactly when the truth value holds. -/
theorem ofBool_one (b : Bool) : BitVec.ofBool b = 1#1 ↔ b = true := by cases b <;> decide

/-- THE WRAP. A signed 32-bit word `a` with `-100000 ≤ a < 100000`, wrapped once (`a + 100000` when `a < 0`, else `a`),
    passes both bound checks `0 ≤ ·` and `· ≤ 99999`: for negative `a` the sum is `a + 100000 ∈ [0, 99999]` as an
    integer, and that is also its value as a word since it is nowhere near ±2³¹. -/
theorem wrap_word (a : BitVec 32) (hlo : (-100000 : Int) ≤ a.toInt) (hhi : a.toInt < 100000) :
    IntOp.cmpi .sge (Scalar.select (IntOp.cmpi .slt a 0#32) (IntOp.addi a 100000#32) a) 0#32 = 1#1 ∧
    IntOp.cmpi .sle (Scalar.select (IntOp.cmpi .slt a 0#32) (IntOp.addi a 100000#32) a) 99999#32 = 1#1 := by
  have h0 : (0#32 : BitVec 32).toInt = 0 := by decide
  have h9 : (99999#32 : BitVec 32).toInt = 99999 := by decide
  have h1 : (100000#32 : BitVec 32).toInt = 100000 := by decide
  by_cases hneg : a.toInt < 0
  · have hc : IntOp.cmpi .slt a 0#32 = 1#1 := by
      unfold IntOp.cmpi
      simp only [BitVec.slt, h0, ofBool_one, decide_eq_true_eq]; exact hneg
    rw [hc, select_one]
    have hs : (IntOp.addi a 100000#32).toInt = a.toInt + 100000 := by
      show (a + 100000#32).toInt = _
      rw [BitVec.toInt_add, h1]
      exact Int.bmod_eq_of_le_mul_two (by omega) (by omega)
    unfold IntOp.cmpi
    simp only [BitVec.sle, h0, h9, hs, ofBool_one, decide_eq_true_eq]
    omega
  · have hc : IntOp.cmpi .slt a 0#32 = 0#1 := by
      apply eq_zero_of_ne_one
      unfold IntOp.cmpi
      simp only [BitVec.slt, h0, ofBool_one, decide_eq_true_eq]; exact hneg
    rw [hc, select_zero]
    unfold IntOp.cmpi
    simp only [BitVec.sle, h0, h9, ofBool_one, decide_eq_true_eq]
    omega

/-! ## An AND-reduction of ones is one -/

/-- A left fold by `and` from 1 over one-bit words that are all 1 is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    exact foldl_andi_one f l _ (IntOp.andi_eq_one.2 ⟨h, hl a List.mem_cons_self⟩)
      (fun n hn => hl n (List.mem_cons_of_mem _ hn))

/-- A reduction by `and` started from 1 is 1 at `j` when every operand element that reduces into `j` is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl]
  refine foldl_andi_one x _ _ hinit ?_
  intro i hi
  rw [List.mem_filter] at hi
  exact hx i (by simpa using hi.2)

/-! ## Reading a vector laid along the rows -/

/-- A vector of `E` entries laid along the FIRST axis of an `[E, C]` rectangle (constant along each row) reads, at
    `(e, c)`, the vector at `e`. -/
theorem bcast_rows_read {α : Type} {C : Nat} (hb : SE.BroadcastsInDim (SEC C) ![0]) (v : SE.Idx → α)
    (e : Fin 3200000) (c : Fin C) : broadcastInDim (SEC C) ![0] hb v (ix2 e c) = v (ix1 e) := by
  simp only [broadcastInDim]
  congr 1
  funext a
  have ha : a = 0 := Subsingleton.elim _ _
  subst ha
  apply Fin.ext
  split
  · next h1 => exact absurd h1 (by decide)
  · rfl

/-! ## The printed pieces read at one element -/

/-- The wrapped index vector at `j`: the word `s j`, plus 100000 when it is negative. -/
theorem wrapped_read (hb1 : S0.BroadcastsInDim SE ![]) (s : IVec SE 32) (j : SE.Idx) :
    (select (cmpi .slt s (broadcastInDim SE ![] hb1 (constantI S0 32 0#32)))
              (addi s (broadcastInDim SE ![] hb1 (constantI S0 32 100000#32))) s) j
      = Scalar.select (IntOp.cmpi .slt (s j) 0#32) (IntOp.addi (s j) 100000#32) (s j) := rfl

/-- The two bound checks on an index column, ANDed, at `(p, q)`: the checks `0 ≤ ·` and `· ≤ 99999` of the vector's
    entry `p` (the column reads the vector at its row; the two constants read 0 and 99999 everywhere). -/
theorem checks_read (hb5 : SE.BroadcastsInDim SE1 ![0])
    (hb6 : S0.BroadcastsInDim SE1 ![]) (hb8 : S1.BroadcastsInDim S11 ![1]) (hb9 : S11.BroadcastsInDim SE1 ![0, 1])
    (w : IVec SE 32) (p : Fin 3200000) (q : Fin 1) :
    andi
      (cmpi .sge (broadcastInDim SE1 ![0] hb5 w) (broadcastInDim SE1 ![] hb6 (constantI S0 32 0#32)))
      (cmpi .sle (broadcastInDim SE1 ![0] hb5 w)
        (broadcastInDim SE1 ![0, 1] hb9 (broadcastInDim S11 ![1] hb8 (constantI S1 32 99999#32)))) (ix2 p q)
      = IntOp.andi (IntOp.cmpi .sge (w (ix1 p)) 0#32) (IntOp.cmpi .sle (w (ix1 p)) 99999#32) := by
  have h5 := bcast_rows_read (C := 1) hb5 w p q
  show IntOp.andi (IntOp.cmpi .sge (broadcastInDim SE1 ![0] hb5 w (ix2 p q)) 0#32)
      (IntOp.cmpi .sle (broadcastInDim SE1 ![0] hb5 w (ix2 p q)) 99999#32) = _
  rw [h5]

/-! ## The mask, then the rows -/

/-- Row `e` of the mask over ANY index vector `w` — the AND over the one column of the two bound checks — is 1 when
    `w e` passes both checks: the only element reducing into `e` is `(e, 0)`. -/
theorem mask_row_of_word (hb5 : SE.BroadcastsInDim SE1 ![0])
    (hb6 : S0.BroadcastsInDim SE1 ![]) (hb8 : S1.BroadcastsInDim S11 ![1]) (hb9 : S11.BroadcastsInDim SE1 ![0, 1])
    (hred : SE1.ReducesTo [1] SE) (hS0 : 0 < S0.numel) (w : IVec SE 32) (e : Fin 3200000)
    (hw : IntOp.cmpi .sge (w (ix1 e)) 0#32 = 1#1 ∧ IntOp.cmpi .sle (w (ix1 e)) 99999#32 = 1#1) :
    (Host.reduce IntOp.andi
        (andi
          (cmpi .sge
          (broadcastInDim SE1 ![0] hb5
            w)
            (broadcastInDim SE1 ![] hb6 (constantI S0 32 0#32)))
          (cmpi .sle
          (broadcastInDim SE1 ![0] hb5
            w)
            (broadcastInDim SE1 ![0, 1] hb9 (broadcastInDim S11 ![1] hb8 (constantI S1 32 99999#32)))))
        (constantI S0 1 1#1) hred hS0) (ix1 e) = 1#1 := by
  apply reduce_andi_one
  · rfl
  · intro i hi
    obtain ⟨p, q, rfl⟩ : ∃ (p : Fin 3200000) (q : Fin 1), i = ix2 p q := ⟨i 0, i 1, eq_ix2 i⟩
    have hp : p = e := by
      have hv : (hred.drop (ix2 p q) 0 : Nat) = (ix2 p q : SE1.Idx) 0 := Shape.ReducesTo.drop_apply_val hred _ 0
      rw [hi] at hv
      exact Fin.ext hv.symm
    subst hp
    rw [checks_read]
    exact IntOp.andi_eq_one.2 hw

/-- THE MASK. Row `e` of the printed mask is 1 when `-100000 ≤ s e < 100000`: the index column holds the wrapped index,
    which `wrap_word` places in `[0, 99999]`. -/
theorem take_mask_row (hb1 : S0.BroadcastsInDim SE ![]) (hb5 : SE.BroadcastsInDim SE1 ![0])
    (hb6 : S0.BroadcastsInDim SE1 ![]) (hb8 : S1.BroadcastsInDim S11 ![1]) (hb9 : S11.BroadcastsInDim SE1 ![0, 1])
    (hred : SE1.ReducesTo [1] SE) (hS0 : 0 < S0.numel)
    (s : IVec SE 32) (e : Fin 3200000)
    (hlo : (-100000 : Int) ≤ (s (ix1 e)).toInt) (hhi : (s (ix1 e)).toInt < 100000) :
    (Host.reduce IntOp.andi
        (andi
          (cmpi .sge
          (broadcastInDim SE1 ![0] hb5
            (select (cmpi .slt s (broadcastInDim SE ![] hb1 (constantI S0 32 0#32)))
              (addi s (broadcastInDim SE ![] hb1 (constantI S0 32 100000#32))) s))
            (broadcastInDim SE1 ![] hb6 (constantI S0 32 0#32)))
          (cmpi .sle
          (broadcastInDim SE1 ![0] hb5
            (select (cmpi .slt s (broadcastInDim SE ![] hb1 (constantI S0 32 0#32)))
              (addi s (broadcastInDim SE ![] hb1 (constantI S0 32 100000#32))) s))
            (broadcastInDim SE1 ![0, 1] hb9 (broadcastInDim S11 ![1] hb8 (constantI S1 32 99999#32)))))
        (constantI S0 1 1#1) hred hS0) (ix1 e) = 1#1 := by
  apply mask_row_of_word
  rw [wrapped_read]
  exact wrap_word _ hlo hhi

/-- THE ROW. Where `-100000 ≤ s e < 100000`, row `e` of the take-with-fill is row `e` of the gathered array `g`, whatever
    `g` and the fill array are: the mask laid along the rows reads, at `(e, c)`, the mask at `e`, which is 1. -/
theorem take_fill_row {α : Type} {C : Nat} (hb1 : S0.BroadcastsInDim SE ![]) (hb5 : SE.BroadcastsInDim SE1 ![0])
    (hb6 : S0.BroadcastsInDim SE1 ![]) (hb8 : S1.BroadcastsInDim S11 ![1]) (hb9 : S11.BroadcastsInDim SE1 ![0, 1])
    (hred : SE1.ReducesTo [1] SE) (hS0 : 0 < S0.numel)
    (hb14 : SE.BroadcastsInDim (SEC C) ![0])
    (s : IVec SE 32) (g fill : (SEC C).Idx → α) (e : Fin 3200000) (c : Fin C)
    (hlo : (-100000 : Int) ≤ (s (ix1 e)).toInt) (hhi : (s (ix1 e)).toInt < 100000) :
    select (broadcastInDim (SEC C) ![0] hb14
      (Host.reduce IntOp.andi
        (andi
          (cmpi .sge
          (broadcastInDim SE1 ![0] hb5
            (select (cmpi .slt s (broadcastInDim SE ![] hb1 (constantI S0 32 0#32)))
              (addi s (broadcastInDim SE ![] hb1 (constantI S0 32 100000#32))) s))
            (broadcastInDim SE1 ![] hb6 (constantI S0 32 0#32)))
          (cmpi .sle
          (broadcastInDim SE1 ![0] hb5
            (select (cmpi .slt s (broadcastInDim SE ![] hb1 (constantI S0 32 0#32)))
              (addi s (broadcastInDim SE ![] hb1 (constantI S0 32 100000#32))) s))
            (broadcastInDim SE1 ![0, 1] hb9 (broadcastInDim S11 ![1] hb8 (constantI S1 32 99999#32)))))
        (constantI S0 1 1#1) hred hS0)) g fill (ix2 e c) = g (ix2 e c) := by
  rw [select_apply, bcast_rows_read, take_mask_row hb1 hb5 hb6 hb8 hb9 hred hS0 s e hlo hhi, select_one]

/-- THE ARRAY. When every index is in `[-100000, 100000)` the take-with-fill IS the gathered array. -/
theorem take_fill_all {α : Type} {C : Nat} (hb1 : S0.BroadcastsInDim SE ![]) (hb5 : SE.BroadcastsInDim SE1 ![0])
    (hb6 : S0.BroadcastsInDim SE1 ![]) (hb8 : S1.BroadcastsInDim S11 ![1]) (hb9 : S11.BroadcastsInDim SE1 ![0, 1])
    (hred : SE1.ReducesTo [1] SE) (hS0 : 0 < S0.numel)
    (hb14 : SE.BroadcastsInDim (SEC C) ![0])
    (s : IVec SE 32) (g fill : (SEC C).Idx → α)
    (hall : ∀ e : Fin 3200000, (-100000 : Int) ≤ (s (ix1 e)).toInt ∧ (s (ix1 e)).toInt < 100000) :
    select (broadcastInDim (SEC C) ![0] hb14
      (Host.reduce IntOp.andi
        (andi
          (cmpi .sge
          (broadcastInDim SE1 ![0] hb5
            (select (cmpi .slt s (broadcastInDim SE ![] hb1 (constantI S0 32 0#32)))
              (addi s (broadcastInDim SE ![] hb1 (constantI S0 32 100000#32))) s))
            (broadcastInDim SE1 ![] hb6 (constantI S0 32 0#32)))
          (cmpi .sle
          (broadcastInDim SE1 ![0] hb5
            (select (cmpi .slt s (broadcastInDim SE ![] hb1 (constantI S0 32 0#32)))
              (addi s (broadcastInDim SE ![] hb1 (constantI S0 32 100000#32))) s))
            (broadcastInDim SE1 ![0, 1] hb9 (broadcastInDim S11 ![1] hb8 (constantI S1 32 99999#32)))))
        (constantI S0 1 1#1) hred hS0)) g fill = g := by
  funext j
  obtain ⟨e, c, rfl⟩ : ∃ (e : Fin 3200000) (c : Fin C), j = ix2 e c := ⟨j 0, j 1, eq_ix2 j⟩
  exact take_fill_row hb1 hb5 hb6 hb8 hb9 hred hS0 hb14 s g fill e c (hall e).1 (hall e).2

/-- The same at a float instance `F`, in the form the printed program has it: `g` and the fill are `f32` arrays. -/
theorem take_fill_row_f32 {F : FTy → Type} {C : Nat} (hb1 : S0.BroadcastsInDim SE ![]) (hb5 : SE.BroadcastsInDim SE1 ![0])
    (hb6 : S0.BroadcastsInDim SE1 ![]) (hb8 : S1.BroadcastsInDim S11 ![1]) (hb9 : S11.BroadcastsInDim SE1 ![0, 1])
    (hred : SE1.ReducesTo [1] SE) (hS0 : 0 < S0.numel)
    (hb14 : SE.BroadcastsInDim (SEC C) ![0])
    (s : IVec SE 32) (g fill : FVec F (SEC C) .f32) (e : Fin 3200000) (c : Fin C)
    (hlo : (-100000 : Int) ≤ (s (ix1 e)).toInt) (hhi : (s (ix1 e)).toInt < 100000) :
    select (broadcastInDim (SEC C) ![0] hb14
      (Host.reduce IntOp.andi
        (andi
          (cmpi .sge
          (broadcastInDim SE1 ![0] hb5
            (select (cmpi .slt s (broadcastInDim SE ![] hb1 (constantI S0 32 0#32)))
              (addi s (broadcastInDim SE ![] hb1 (constantI S0 32 100000#32))) s))
            (broadcastInDim SE1 ![] hb6 (constantI S0 32 0#32)))
          (cmpi .sle
          (broadcastInDim SE1 ![0] hb5
            (select (cmpi .slt s (broadcastInDim SE ![] hb1 (constantI S0 32 0#32)))
              (addi s (broadcastInDim SE ![] hb1 (constantI S0 32 100000#32))) s))
            (broadcastInDim SE1 ![0, 1] hb9 (broadcastInDim S11 ![1] hb8 (constantI S1 32 99999#32)))))
        (constantI S0 1 1#1) hred hS0)) g fill (ix2 e c) = g (ix2 e c) :=
  take_fill_row hb1 hb5 hb6 hb8 hb9 hred hS0 hb14 s g fill e c hlo hhi

theorem take_fill_all_f32 {F : FTy → Type} {C : Nat} (hb1 : S0.BroadcastsInDim SE ![]) (hb5 : SE.BroadcastsInDim SE1 ![0])
    (hb6 : S0.BroadcastsInDim SE1 ![]) (hb8 : S1.BroadcastsInDim S11 ![1]) (hb9 : S11.BroadcastsInDim SE1 ![0, 1])
    (hred : SE1.ReducesTo [1] SE) (hS0 : 0 < S0.numel)
    (hb14 : SE.BroadcastsInDim (SEC C) ![0])
    (s : IVec SE 32) (g fill : FVec F (SEC C) .f32)
    (hall : ∀ e : Fin 3200000, (-100000 : Int) ≤ (s (ix1 e)).toInt ∧ (s (ix1 e)).toInt < 100000) :
    select (broadcastInDim (SEC C) ![0] hb14
      (Host.reduce IntOp.andi
        (andi
          (cmpi .sge
          (broadcastInDim SE1 ![0] hb5
            (select (cmpi .slt s (broadcastInDim SE ![] hb1 (constantI S0 32 0#32)))
              (addi s (broadcastInDim SE ![] hb1 (constantI S0 32 100000#32))) s))
            (broadcastInDim SE1 ![] hb6 (constantI S0 32 0#32)))
          (cmpi .sle
          (broadcastInDim SE1 ![0] hb5
            (select (cmpi .slt s (broadcastInDim SE ![] hb1 (constantI S0 32 0#32)))
              (addi s (broadcastInDim SE ![] hb1 (constantI S0 32 100000#32))) s))
            (broadcastInDim SE1 ![0, 1] hb9 (broadcastInDim S11 ![1] hb8 (constantI S1 32 99999#32)))))
        (constantI S0 1 1#1) hred hS0)) g fill = g :=
  take_fill_all hb1 hb5 hb6 hb8 hb9 hred hS0 hb14 s g fill hall

/-- info: 'Cert.TakeRows.take_fill_all' depends on axioms: [propext, Classical.choice, Quot.sound] -/
#guard_msgs (whitespace := lax) in #print axioms take_fill_all

end Cert.TakeRows

end
-- ==== Proof.KernelAggI.lean ====
/-
  The program's three per-node aggregates, read at a node, at the ideal values.

  Between the two kernels the program sums per-edge values at the edges' target nodes, three times: the 32-wide
  messages (widened from the narrower float format, which changes nothing at the ideal values), the 3-wide coordinate
  messages, and the constant one (the number of edges into a node). Each is an accumulating scatter into an all-zero
  table, the scatter's index column being the edges' target-index vector laid out as a column. An accumulating scatter
  of rows, read at row `n`, is the table's element plus the updates of the edges whose index word, read signed, is `n`;
  the table's element is the zero word; the index column at edge `e` is the index vector at `e`. Hence each aggregate
  at node `n` is the zero word plus the sum, over the edges whose target index is `n`, of that edge's value.
-/
import proofs.«405486_j56169582297514_2_alg».proof.Proof.KernelHost1I
import proofs.«405486_j56169582297514_2_alg».proof.Proof.ScatterRows
import proofs.«405486_j56169582297514_2_alg».proof.Proof.TakeRows
import Idealize.ShloMosaic.Lib.IdealHost

set_option maxRecDepth 16384

noncomputable section

open scoped BigOperators

namespace Cert.KernelIdeal.Agg

open Cert.KernelIdeal Cert.KernelIdeal.Gen Cert.KernelIdeal.Run Cert.KernelIdeal.Host1
open Idealize.ShloMosaic Idealize.ShloMosaic.TcCoe Idealize.ShloMosaic.ValueIdx Idealize.SL.Sem

/-! ## The three sums at the printed shapes, for any index vector and any updates -/

/-- The index column laid out from the index vector reads, at edge `e`, the vector's word at `e`. -/
theorem idx_col (A : IVec S3200000 32) (e : Fin 3200000) :
    broadcastInDim S3200000x1 ![0] bcast_S3200000_S3200000x1_0 A (ix2 e (0 : Fin 1)) = A (ix1 e) :=
  Cert.TakeRows.bcast_rows_read (C := 1) bcast_S3200000_S3200000x1_0 A e 0

/-- The sum of 32-wide rows into an all-zero table: at node `n`, column `k`, the zero word plus column `k` of the rows
    of the edges whose target word, read signed, is `n`. -/
theorem rows32_at (A : IVec S3200000 32) (upd : FVec Ideal S3200000x32 .f32) (n : Fin 100000) (k : Fin 32) :
    Host.scatterAdd scatter_S100000x32_S3200000x1_S3200000x32_1_0_0_1
        (broadcastInDim S100000x32 ![] bcast_S_S100000x32 (constant S_ .f32 0x00000000#32))
        (broadcastInDim S3200000x1 ![0] bcast_S3200000_S3200000x1_0 A) upd (ix2 n k)
      = Ideal.ofBits .f32 0x00000000#32
        + ∑ e ∈ Finset.univ.filter (fun e : Fin 3200000 => (A (ix1 e)).toInt = (n.val : Int)), upd (ix2 e k) := by
  refine (Cert.ScatterRows.scatterAdd_rows_apply (N := 100000) (E := 3200000) (C := 32)
    scatter_S100000x32_S3200000x1_S3200000x32_1_0_0_1 rfl rfl rfl rfl _ _ upd n k).trans ?_
  refine congrArg₂ (· + ·) ?_ ?_
  · exact (broadcastInDim_scalar_apply _ _ _).trans (constant_apply _ _)
  · exact Finset.sum_congr (Finset.filter_congr fun e _ => by rw [idx_col]) fun _ _ => rfl

/-- The same for 3-wide rows. -/
theorem rows3_at (A : IVec S3200000 32) (upd : FVec Ideal S3200000x3 .f32) (n : Fin 100000) (a : Fin 3) :
    Host.scatterAdd scatter_S100000x3_S3200000x1_S3200000x3_1_0_0_1
        (broadcastInDim S100000x3 ![] bcast_S_S100000x3 (constant S_ .f32 0x00000000#32))
        (broadcastInDim S3200000x1 ![0] bcast_S3200000_S3200000x1_0 A) upd (ix2 n a)
      = Ideal.ofBits .f32 0x00000000#32
        + ∑ e ∈ Finset.univ.filter (fun e : Fin 3200000 => (A (ix1 e)).toInt = (n.val : Int)), upd (ix2 e a) := by
  refine (Cert.ScatterRows.scatterAdd_rows_apply (N := 100000) (E := 3200000) (C := 3)
    scatter_S100000x3_S3200000x1_S3200000x3_1_0_0_1 rfl rfl rfl rfl _ _ upd n a).trans ?_
  refine congrArg₂ (· + ·) ?_ ?_
  · exact (broadcastInDim_scalar_apply _ _ _).trans (constant_apply _ _)
  · exact Finset.sum_congr (Finset.filter_congr fun e _ => by rw [idx_col]) fun _ _ => rfl

/-- The count: at node `n`, the zero word plus one unit word per edge whose target word, read signed, is `n`. -/
theorem ones_at (A : IVec S3200000 32) (n : Fin 100000) :
    Host.scatterAdd scatter_S100000_S3200000x1_S3200000_n_0_0_1
        (broadcastInDim S100000 ![] bcast_S_S100000 (constant S_ .f32 0x00000000#32))
        (broadcastInDim S3200000x1 ![0] bcast_S3200000_S3200000x1_0 A)
        (broadcastInDim S3200000 ![] bcast_S_S3200000 (constant S_ .f32 0x3F800000#32)) (ix1 n)
      = Ideal.ofBits .f32 0x00000000#32
        + ∑ e ∈ Finset.univ.filter (fun e : Fin 3200000 => (A (ix1 e)).toInt = (n.val : Int)), Ideal.ofBits .f32 0x3F800000#32 := by
  refine (Cert.ScatterRows.scatterAdd_vec_apply (N := 100000) (E := 3200000)
    scatter_S100000_S3200000x1_S3200000_n_0_0_1 rfl rfl rfl rfl _ _ _ n).trans ?_
  refine congrArg₂ (· + ·) ?_ ?_
  · exact (broadcastInDim_scalar_apply _ _ _).trans (constant_apply _ _)
  · exact Finset.sum_congr (Finset.filter_congr fun e _ => by rw [idx_col])
      fun e _ => (broadcastInDim_scalar_apply _ _ _).trans (constant_apply _ _)

/-! ## The program's three per-node aggregates -/

variable (m : (ℓ : Loc nD τ sig) → Buf (Elt Ideal) ℓ) (c : Dev nD)

/-- The aggregated messages at node `n`, column `k`: the zero word plus column `k` of the messages of the edges whose
    target index is `n`. Widening a message to the wider format changes nothing at the ideal values. -/
theorem ker_agg_at (n : Fin 100000) (k : Fin 32) :
    (W7 m c (Proc.devRef .tc main_v17) : S100000x32.Idx → EReal) (ix2 n k)
      = Ideal.ofBits .f32 0x00000000#32
        + ∑ e ∈ Finset.univ.filter (fun e : Fin 3200000 => (A4 m c (ix1 e)).toInt = (n.val : Int)),
            MsgB m c (ix2 e k) := by
  refine (congrFun (v17_eq m c) (ix2 n k)).trans ?_
  refine (rows32_at (A4 m c) _ n k).trans ?_
  exact congrArg (Ideal.ofBits .f32 0x00000000#32 + ·) (Finset.sum_congr rfl fun e _ => extf_apply _ _ _)

/-- The summed coordinate messages at node `n`, axis `a`. -/
theorem ker_sumx_at (n : Fin 100000) (a : Fin 3) :
    (W7 m c (Proc.devRef .tc main_v20) : S100000x3.Idx → EReal) (ix2 n a)
      = Ideal.ofBits .f32 0x00000000#32
        + ∑ e ∈ Finset.univ.filter (fun e : Fin 3200000 => (A4 m c (ix1 e)).toInt = (n.val : Int)),
            MsgX m c (ix2 e a) := by
  refine (congrFun (v20_eq m c) (ix2 n a)).trans ?_
  exact rows3_at (A4 m c) _ n a

/-- The number of edges into node `n`, as a sum of unit words. -/
theorem ker_deg_at (n : Fin 100000) :
    (W7 m c (Proc.devRef .tc main_v24) : S100000.Idx → EReal) (ix1 n)
      = Ideal.ofBits .f32 0x00000000#32
        + ∑ e ∈ Finset.univ.filter (fun e : Fin 3200000 => (A4 m c (ix1 e)).toInt = (n.val : Int)),
            Ideal.ofBits .f32 0x3F800000#32 := by
  refine (congrFun (v24_eq m c) (ix1 n)).trans ?_
  exact ones_at (A4 m c) n

end Cert.KernelIdeal.Agg

end
-- ==== Proof.SplitSums.lean ====
import Mathlib.Algebra.BigOperators.Fin
import Mathlib.Data.EReal.Basic

/-!
# Sums over a concatenated row split into the sums over its pieces

A dense layer applied to a row that is the concatenation of several pieces is the
sum of the partial products over the pieces.  The values live in the extended
reals, where addition is commutative and associative, so no finiteness
assumption is needed: everything here is re-indexing of finite sums plus
re-association.

The right-hand sides are bracketed to the left,
`((piece₀ + piece₁) + piece₂) + piece₃`, which is the order in which the partial
products are accumulated.
-/

noncomputable section

namespace Cert.SplitSums

open BigOperators

/-- A sum over `Fin N` with `N = m + n` is the sum over the first `m` indices plus
the sum over the last `n` indices, the latter re-indexed from zero. -/
theorem sum_split {N : ℕ} (m n : ℕ) (hN : N = m + n) (f : Fin N → EReal) :
    ∑ k : Fin N, f k
      = (∑ i : Fin m, f ⟨i.val, by omega⟩) + ∑ j : Fin n, f ⟨j.val + m, by omega⟩ := by
  subst hN
  rw [Fin.sum_univ_add]
  have h1 : ∀ i : Fin m, f (Fin.castAdd n i) = f ⟨i.val, by omega⟩ := fun _ => rfl
  have h2 : ∀ j : Fin n, f (Fin.natAdd m j) = f ⟨j.val + m, by omega⟩ := fun j =>
    congrArg f (Fin.ext (by show m + j.val = j.val + m; exact Nat.add_comm _ _))
  exact congrArg₂ (· + ·) (Finset.sum_congr rfl (fun i _ => h1 i))
    (Finset.sum_congr rfl (fun j _ => h2 j))

/-! ## Two pieces of length 32 -/

/-- Concatenation of two rows of length 32. -/
def cat64 (a b : Fin 32 → EReal) : Fin 64 → EReal := fun k =>
  if h : k.val < 32 then a ⟨k.val, h⟩ else b ⟨k.val - 32, by omega⟩

/-- Reading the concatenation in its first half gives the first row. -/
theorem cat64_lo (a b : Fin 32 → EReal) (i : Fin 32) (hi : i.val < 64) :
    cat64 a b ⟨i.val, hi⟩ = a i := by
  unfold cat64
  rw [dif_pos (show (⟨i.val, hi⟩ : Fin 64).val < 32 from i.isLt)]

/-- Reading the concatenation in its second half gives the second row. -/
theorem cat64_hi (a b : Fin 32 → EReal) (j : Fin 32) (hj : j.val + 32 < 64) :
    cat64 a b ⟨j.val + 32, hj⟩ = b j := by
  unfold cat64
  rw [dif_neg (show ¬ (⟨j.val + 32, hj⟩ : Fin 64).val < 32 from by
    show ¬ j.val + 32 < 32; omega)]
  exact congrArg b (Fin.ext (by show j.val + 32 - 32 = j.val; omega))

/-- A dense layer over the concatenation of two rows of length 32 is the sum of
the two partial products. -/
theorem sum_cat64 (a b : Fin 32 → EReal) (W : Fin 64 → EReal) :
    ∑ k : Fin 64, cat64 a b k * W k
      = (∑ k : Fin 32, a k * W ⟨k.val, by omega⟩)
        + ∑ k : Fin 32, b k * W ⟨k.val + 32, by omega⟩ := by
  rw [sum_split 32 32 (by norm_num) (fun k : Fin 64 => cat64 a b k * W k)]
  refine congrArg₂ (· + ·) (Finset.sum_congr rfl (fun i _ => ?_))
    (Finset.sum_congr rfl (fun j _ => ?_))
  · show cat64 a b ⟨i.val, _⟩ * W ⟨i.val, _⟩ = a i * W ⟨i.val, _⟩
    rw [cat64_lo]
  · show cat64 a b ⟨j.val + 32, _⟩ * W ⟨j.val + 32, _⟩ = b j * W ⟨j.val + 32, _⟩
    rw [cat64_hi]

/-! ## Four pieces of lengths 32, 32, 1 and 8 -/

/-- A sum over `Fin 73` cut at positions 32, 64 and 65, bracketed to the left. -/
theorem sum73 (f : Fin 73 → EReal) :
    ∑ k : Fin 73, f k
      = (((∑ i : Fin 32, f ⟨i.val, by omega⟩) + ∑ i : Fin 32, f ⟨i.val + 32, by omega⟩)
          + f ⟨64, by omega⟩) + ∑ i : Fin 8, f ⟨i.val + 65, by omega⟩ := by
  have e1 : ∑ k : Fin 73, f k
      = (∑ i : Fin 32, f ⟨i.val, by omega⟩) + ∑ j : Fin 41, f ⟨j.val + 32, by omega⟩ :=
    sum_split 32 41 (by norm_num) f
  have e2 : ∑ j : Fin 41, f ⟨j.val + 32, by omega⟩
      = (∑ i : Fin 32, f ⟨i.val + 32, by omega⟩) + ∑ j : Fin 9, f ⟨j.val + 64, by omega⟩ := by
    refine (sum_split 32 9 (by norm_num) (fun j : Fin 41 => f ⟨j.val + 32, by omega⟩)).trans ?_
    refine congrArg₂ (· + ·) rfl
      (Finset.sum_congr rfl (fun j _ => congrArg f (Fin.ext ?_)))
    show j.val + 32 + 32 = j.val + 64
    omega
  have e3 : ∑ j : Fin 9, f ⟨j.val + 64, by omega⟩
      = f ⟨64, by omega⟩ + ∑ i : Fin 8, f ⟨i.val + 65, by omega⟩ := by
    refine (sum_split 1 8 (by norm_num) (fun j : Fin 9 => f ⟨j.val + 64, by omega⟩)).trans ?_
    rw [Fin.sum_univ_one]
    refine congrArg₂ (· + ·) (congrArg f (Fin.ext ?_))
      (Finset.sum_congr rfl (fun j _ => congrArg f (Fin.ext ?_)))
    · show (0 : Fin 1).val + 64 = 64
      simp
    · show j.val + 1 + 64 = j.val + 65
      omega
  rw [e1, e2, e3, ← add_assoc, ← add_assoc]

/-- Concatenation of two rows of length 32, one scalar, and a row of length 8. -/
def cat73 (sh dh : Fin 32 → EReal) (r : EReal) (ef : Fin 8 → EReal) : Fin 73 → EReal := fun k =>
  if h : k.val < 32 then sh ⟨k.val, h⟩
  else if h2 : k.val < 64 then dh ⟨k.val - 32, by omega⟩
  else if h3 : k.val < 65 then r
  else ef ⟨k.val - 65, by omega⟩

/-- Positions `0 … 31` of the concatenation hold the first row. -/
theorem cat73_sh (sh dh : Fin 32 → EReal) (r : EReal) (ef : Fin 8 → EReal)
    (i : Fin 32) (hi : i.val < 73) : cat73 sh dh r ef ⟨i.val, hi⟩ = sh i := by
  unfold cat73
  rw [dif_pos (show (⟨i.val, hi⟩ : Fin 73).val < 32 from i.isLt)]

/-- Positions `32 … 63` of the concatenation hold the second row. -/
theorem cat73_dh (sh dh : Fin 32 → EReal) (r : EReal) (ef : Fin 8 → EReal)
    (j : Fin 32) (hj : j.val + 32 < 73) : cat73 sh dh r ef ⟨j.val + 32, hj⟩ = dh j := by
  unfold cat73
  rw [dif_neg (show ¬ (⟨j.val + 32, hj⟩ : Fin 73).val < 32 from by
        show ¬ j.val + 32 < 32; omega),
    dif_pos (show (⟨j.val + 32, hj⟩ : Fin 73).val < 64 from by
        show j.val + 32 < 64; omega)]
  exact congrArg dh (Fin.ext (by show j.val + 32 - 32 = j.val; omega))

/-- Position `64` of the concatenation holds the scalar. -/
theorem cat73_r (sh dh : Fin 32 → EReal) (r : EReal) (ef : Fin 8 → EReal)
    (h : 64 < 73) : cat73 sh dh r ef ⟨64, h⟩ = r := by
  unfold cat73
  rw [dif_neg (show ¬ (⟨64, h⟩ : Fin 73).val < 32 from by show ¬ 64 < 32; omega),
    dif_neg (show ¬ (⟨64, h⟩ : Fin 73).val < 64 from by show ¬ 64 < 64; omega),
    dif_pos (show (⟨64, h⟩ : Fin 73).val < 65 from by show 64 < 65; omega)]

/-- Positions `65 … 72` of the concatenation hold the last row. -/
theorem cat73_ef (sh dh : Fin 32 → EReal) (r : EReal) (ef : Fin 8 → EReal)
    (j : Fin 8) (hj : j.val + 65 < 73) : cat73 sh dh r ef ⟨j.val + 65, hj⟩ = ef j := by
  unfold cat73
  rw [dif_neg (show ¬ (⟨j.val + 65, hj⟩ : Fin 73).val < 32 from by
        show ¬ j.val + 65 < 32; omega),
    dif_neg (show ¬ (⟨j.val + 65, hj⟩ : Fin 73).val < 64 from by
        show ¬ j.val + 65 < 64; omega),
    dif_neg (show ¬ (⟨j.val + 65, hj⟩ : Fin 73).val < 65 from by
        show ¬ j.val + 65 < 65; omega)]
  exact congrArg ef (Fin.ext (by show j.val + 65 - 65 = j.val; omega))

/-- A dense layer over the four-piece concatenation is the sum of the four partial
products, accumulated from the left. -/
theorem sum_cat73 (sh dh : Fin 32 → EReal) (r : EReal) (ef : Fin 8 → EReal)
    (W : Fin 73 → EReal) :
    ∑ k : Fin 73, cat73 sh dh r ef k * W k
      = (((∑ k : Fin 32, sh k * W ⟨k.val, by omega⟩)
            + (∑ k : Fin 32, dh k * W ⟨k.val + 32, by omega⟩))
          + r * W ⟨64, by omega⟩)
        + ∑ k : Fin 8, ef k * W ⟨k.val + 65, by omega⟩ := by
  rw [sum73 (fun k : Fin 73 => cat73 sh dh r ef k * W k)]
  refine congrArg₂ (· + ·) (congrArg₂ (· + ·) (congrArg₂ (· + ·)
      (Finset.sum_congr rfl (fun i _ => ?_)) (Finset.sum_congr rfl (fun j _ => ?_))) ?_)
    (Finset.sum_congr rfl (fun j _ => ?_))
  · show cat73 sh dh r ef ⟨i.val, _⟩ * W ⟨i.val, _⟩ = sh i * W ⟨i.val, _⟩
    rw [cat73_sh]
  · show cat73 sh dh r ef ⟨j.val + 32, _⟩ * W ⟨j.val + 32, _⟩ = dh j * W ⟨j.val + 32, _⟩
    rw [cat73_dh]
  · show cat73 sh dh r ef ⟨64, _⟩ * W ⟨64, _⟩ = r * W ⟨64, _⟩
    rw [cat73_r]
  · show cat73 sh dh r ef ⟨j.val + 65, _⟩ * W ⟨j.val + 65, _⟩ = ef j * W ⟨j.val + 65, _⟩
    rw [cat73_ef]

/-- Zero is a left unit for addition on the extended reals. -/
theorem zero_add_sum (s : EReal) : (0 : EReal) + s = s := zero_add s

end Cert.SplitSums

end
-- ==== Proof.RefNode.lean ====
/-
  The reference program's node stages, each read at one index, over the extended reals.

  After the edge stages the reference holds, for every edge e, a message row m(e) of 32 numbers and a coordinate
  message c(e) of 3. A node n then gets three sums over the edges that point at it, each an accumulation into an array
  of zeros at the row the edge's target word names (an edge whose word is no node's number adds nowhere):
      agg(n, j)  = 0 + ∑ { m(e, j) : target(e) = n },
      deg(n)     = 0 + ∑ { 1       : target(e) = n },
      sumx(n, a) = 0 + ∑ { c(e, a) : target(e) = n }.
  The new features are two dense layers over the row [h(n), agg(n)] of 64 numbers. A contraction over a row made of
  two halves is the sum of the two contractions, one with the first 32 rows of the weight matrix and one with the last
  32, so at output k the first layer is
      ∑_c h(n, c) · W1(c, k) + ∑_c agg(n, c) · W1(c + 32, k) + b1(k),
  followed by x ↦ x · σ(x); the reference spells σ(x) as 1 / (1 + exp (−x)), which is what the logistic function is.
  The second layer is ∑_k (·) · W2(k, j) + b2(j). The new coordinate a is
      x(n, a) + sumx(n, a) / max(deg(n), 1),
  where the in-degree, one number per node, is repeated along the three coordinates, so every coordinate reads column 0
  of it. A bias, a vector of 32 numbers repeated along the rows, reads its entry at the column alone.
-/
import proofs.«405486_j56169582297514_2_alg».proof.Proof.Gen.ReferenceIdeal.Read
import proofs.«405486_j56169582297514_2_alg».proof.Proof.Spec
import proofs.«405486_j56169582297514_2_alg».proof.Proof.SplitSums
import proofs.«405486_j56169582297514_2_alg».proof.Proof.ScatterRows
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefNode

open Cert.ReferenceIdeal Cert.ReferenceIdeal.Gen Cert.ReferenceIdeal.Read Idealize.ShloMosaic Idealize.ShloMosaic.ValueIdx
open Cert.Egnn (silu dense nodeHidden nodeRowFeat coordOut)

variable (x0 : (⟨S100000x32, .f32⟩ : BufTy).Contents (Elt Ideal)) (x1 : (⟨S100000x3, .f32⟩ : BufTy).Contents (Elt Ideal))
  (x2 : (⟨S3200000x8, .f32⟩ : BufTy).Contents (Elt Ideal)) (x3 x4 : (⟨S3200000, .i32⟩ : BufTy).Contents (Elt Ideal))
  (x5 : (⟨S73x32, .f32⟩ : BufTy).Contents (Elt Ideal)) (x6 : (⟨S32, .f32⟩ : BufTy).Contents (Elt Ideal))
  (x7 : (⟨S32x32, .f32⟩ : BufTy).Contents (Elt Ideal)) (x8 : (⟨S32, .f32⟩ : BufTy).Contents (Elt Ideal))
  (x9 : (⟨S64x32, .f32⟩ : BufTy).Contents (Elt Ideal)) (x10 : (⟨S32, .f32⟩ : BufTy).Contents (Elt Ideal))
  (x11 : (⟨S32x32, .f32⟩ : BufTy).Contents (Elt Ideal)) (x12 : (⟨S32, .f32⟩ : BufTy).Contents (Elt Ideal))
  (x13 : (⟨S32x32, .f32⟩ : BufTy).Contents (Elt Ideal)) (x14 : (⟨S32, .f32⟩ : BufTy).Contents (Elt Ideal))
  (x15 : (⟨S32x1, .f32⟩ : BufTy).Contents (Elt Ideal))

/-! ## The three sums over the edges that point at a node -/

/-- The aggregated message of node n at feature j: zero plus the messages, at j, of the edges whose target word is n. -/
theorem ref_agg_at (n : Fin 100000) (j : Fin 32) :
    val_main_v58 (F := Ideal) x0 x1 x2 x3 x4 x5 x6 x7 x8 (ix2 n j)
      = Ideal.ofBits .f32 0x00000000#32
        + ∑ e ∈ Finset.univ.filter (fun e : Fin 3200000 => (x4 (ix1 e)).toInt = (n.val : Int)),
            val_main_v47 (F := Ideal) x0 x1 x2 x3 x4 x5 x6 x7 x8 (ix2 e j) := by
  have hidx : ∀ e : Fin 3200000, val_main_v57 (F := Ideal) x4 (ix2 e (0 : Fin 1)) = x4 (ix1 e) := fun e => by
    rw [val_main_v57_apply]
    exact congrArg x4 (funext fun a => Fin.ext (by match a with | ⟨0, _⟩ => rfl))
  unfold val_main_v58
  rw [ScatterRows.scatterAdd_rows_apply scatter_S100000x32_S3200000x1_S3200000x32_1_0_0_1 rfl rfl rfl rfl,
    val_main_v56_apply, val_main_cst_8_apply, Ideal.ofBits_def]
  simp only [hidx]

/-- The in-degree of node n: zero plus a one for every edge whose target word is n. -/
theorem ref_deg_at (n : Fin 100000) :
    val_main_v62 (F := Ideal) x4 (ix2 n (0 : Fin 1))
      = Ideal.ofBits .f32 0x00000000#32
        + ∑ e ∈ Finset.univ.filter (fun e : Fin 3200000 => (x4 (ix1 e)).toInt = (n.val : Int)),
            Ideal.ofBits .f32 0x3F800000#32 := by
  have hidx : ∀ e : Fin 3200000, val_main_v61 (F := Ideal) x4 (ix2 e (0 : Fin 1)) = x4 (ix1 e) := fun e => by
    rw [val_main_v61_apply]
    exact congrArg x4 (funext fun a => Fin.ext (by match a with | ⟨0, _⟩ => rfl))
  unfold val_main_v62
  rw [ScatterRows.scatterAdd_rows_apply scatter_S100000x1_S3200000x1_S3200000x1_1_0_0_1 rfl rfl rfl rfl,
    val_main_v60_apply, val_main_cst_10_apply, Ideal.ofBits_def]
  simp only [hidx, val_main_v59_apply, val_main_cst_9_apply, Ideal.ofBits_def]

/-- The summed coordinate message of node n at coordinate a: zero plus the coordinate messages, at a, of the edges
    whose target word is n. -/
theorem ref_sumx_at (n : Fin 100000) (a : Fin 3) :
    val_main_v65 (F := Ideal) x0 x1 x2 x3 x4 x5 x6 x7 x8 x13 x14 x15 (ix2 n a)
      = Ideal.ofBits .f32 0x00000000#32
        + ∑ e ∈ Finset.univ.filter (fun e : Fin 3200000 => (x4 (ix1 e)).toInt = (n.val : Int)),
            val_main_v55 (F := Ideal) x0 x1 x2 x3 x4 x5 x6 x7 x8 x13 x14 x15 (ix2 e a) := by
  have hidx : ∀ e : Fin 3200000, val_main_v64 (F := Ideal) x4 (ix2 e (0 : Fin 1)) = x4 (ix1 e) := fun e => by
    rw [val_main_v64_apply]
    exact congrArg x4 (funext fun a => Fin.ext (by match a with | ⟨0, _⟩ => rfl))
  unfold val_main_v65
  rw [ScatterRows.scatterAdd_rows_apply scatter_S100000x3_S3200000x1_S3200000x3_1_0_0_1 rfl rfl rfl rfl,
    val_main_v63_apply, val_main_cst_11_apply, Ideal.ofBits_def]
  simp only [hidx]

/-! ## The node's new coordinates -/

/-- Node n's new coordinate a: its own coordinate plus the summed coordinate message over max(in-degree, 1); the
    in-degree, one number per node, is read at column 0 for every coordinate. -/
theorem ref_coordout_at (n : Fin 100000) (a : Fin 3) :
    val_main_v80 (F := Ideal) x0 x1 x2 x3 x4 x5 x6 x7 x8 x13 x14 x15 (ix2 n a)
      = coordOut (x1 (ix2 n a)) (val_main_v65 (F := Ideal) x0 x1 x2 x3 x4 x5 x6 x7 x8 x13 x14 x15 (ix2 n a))
          (val_main_v62 (F := Ideal) x4 (ix2 n (0 : Fin 1))) := by
  have h68 : idx_main_v68 (ix2 n a) = ix2 n (0 : Fin 1) :=
    funext fun b => Fin.ext (by match b with | ⟨0, _⟩ => rfl | ⟨1, _⟩ => rfl)
  rw [val_main_v80_apply, val_main_v69_apply, val_main_v68_apply, h68, val_main_v67_apply, val_main_v66_apply,
    val_main_cst_12_apply]
  simp only [Ideal.addf_def, Ideal.hostDivf_def, Ideal.maximumf_def, Ideal.ofBits_def]
  rfl

/-! ## The node's new features -/

/-- The row the node network reads, [own features, aggregated message], at position c of its 64. -/
theorem ref_cat_at (n : Fin 100000) (c : Fin 64) :
    val_main_v70 (F := Ideal) x0 x1 x2 x3 x4 x5 x6 x7 x8 (ix2 n c)
      = SplitSums.cat64 (fun k => x0 (ix2 n k))
          (fun k => val_main_v58 (F := Ideal) x0 x1 x2 x3 x4 x5 x6 x7 x8 (ix2 n k)) c := by
  unfold val_main_v70
  generalize val_main_v58 (F := Ideal) x0 x1 x2 x3 x4 x5 x6 x7 x8 = y
  by_cases h : c.val < 32
  · have hc : SplitSums.cat64 (fun k => x0 (ix2 n k)) (fun k => y (ix2 n k)) c = x0 (ix2 n ⟨c.val, h⟩) := by
      unfold SplitSums.cat64; exact dif_pos h
    rw [hc]
    exact concatenate_pair_apply_left _ x0 y concatenates_S100000x32_S100000x32_S100000x64_d1 (ix2 n c) rfl
      (ix2 n ⟨c.val, h⟩) (fun b => by match b with | ⟨0, _⟩ => rfl | ⟨1, _⟩ => rfl)
  · have hc : SplitSums.cat64 (fun k => x0 (ix2 n k)) (fun k => y (ix2 n k)) c
        = y (ix2 n ⟨c.val - 32, by omega⟩) := by
      unfold SplitSums.cat64; exact dif_neg h
    rw [hc]
    exact concatenate_pair_apply_right _ x0 y concatenates_S100000x32_S100000x32_S100000x64_d1 (ix2 n c) rfl rfl
      (ix2 n ⟨c.val - 32, by omega⟩)
      (fun b hb => by
        match b, hb with
        | ⟨0, _⟩, _ => rfl
        | ⟨1, _⟩, hb => exact absurd rfl hb)
      (by show (c.val - 32) + 32 = c.val; omega)

/-- The node network's first layer before its activation, at output k: the 64-wide contraction over the row above,
    split into the product with the own features and the product with the aggregated message, plus the bias. -/
theorem ref_pre_at (n : Fin 100000) (k : Fin 32) :
    val_main_v74 (F := Ideal) x0 x1 x2 x3 x4 x5 x6 x7 x8 x9 x10 (ix2 n k)
      = ((∑ c : Fin 32, x0 (ix2 n c) * x9 (ix2 ⟨c.val, by omega⟩ k))
          + ∑ c : Fin 32, val_main_v58 (F := Ideal) x0 x1 x2 x3 x4 x5 x6 x7 x8 (ix2 n c)
              * x9 (ix2 ⟨c.val + 32, by omega⟩ k))
        + x10 (ix1 k) := by
  have hl : ∀ c : Fin 64, lidx_main_v71 (ix2 n k) c = ix2 n c := fun c =>
    funext fun a => Fin.ext (by match a with | ⟨0, _⟩ => rfl | ⟨1, _⟩ => rfl)
  have hr : ∀ c : Fin 64, ridx_main_v71 (ix2 n k) c = ix2 c k := fun c =>
    funext fun a => Fin.ext (by match a with | ⟨0, _⟩ => rfl | ⟨1, _⟩ => rfl)
  have hb : idx_main_v72 (idx_main_v73 (ix2 n k)) = ix1 k :=
    funext fun a => Fin.ext (by match a with | ⟨0, _⟩ => rfl)
  rw [val_main_v74_apply, val_main_v71_apply, val_main_v73_apply, val_main_v72_apply, hb]
  simp only [hl, hr, ref_cat_at, Ideal.addf_def]
  exact congrArg (· + x10 (ix1 k))
    (SplitSums.sum_cat64 (fun c => x0 (ix2 n c))
      (fun c => val_main_v58 (F := Ideal) x0 x1 x2 x3 x4 x5 x6 x7 x8 (ix2 n c)) (fun c => x9 (ix2 c k)))

/-- The node network's first layer at output k: the activation x · σ(x), which the reference spells
    x · (1 / (1 + exp (−x))), of the sum above. -/
theorem ref_hidden_at (n : Fin 100000) (k : Fin 32) :
    val_main_v75 (F := Ideal) x0 x1 x2 x3 x4 x5 x6 x7 x8 x9 x10 (ix2 n k)
      = nodeHidden (fun c => x0 (ix2 n c))
          (fun c => val_main_v58 (F := Ideal) x0 x1 x2 x3 x4 x5 x6 x7 x8 (ix2 n c))
          (fun c j => x9 (ix2 ⟨c.val, by omega⟩ j)) (fun c j => x9 (ix2 ⟨c.val + 32, by omega⟩ j))
          (fun j => x10 (ix1 j)) k := by
  rw [val_main_v75_apply, val_main_call3_v5_apply, val_main_call3_v4_apply, val_main_call3_cst_0_apply,
    val_main_call3_v3_apply, val_main_call3_v2_apply, val_main_call3_cst_apply, val_main_call3_v1_apply,
    val_main_call3_v0_apply, ref_pre_at]
  simp only [Ideal.mulf_def, Ideal.hostDivf_def, Ideal.addf_def, Ideal.hostUnary_exp_def, Ideal.hostNegf_def,
    Ideal.negf_def, Ideal.ofBits_def, Ideal.ofBits_one_f32]
  rfl

/-- Node n's new feature j: the second dense layer over the 32 activations above, plus its bias. -/
theorem ref_feat_at (n : Fin 100000) (j : Fin 32) :
    val_main_v79 (F := Ideal) x0 x1 x2 x3 x4 x5 x6 x7 x8 x9 x10 x11 x12 (ix2 n j)
      = nodeRowFeat (fun k => x0 (ix2 n k))
          (fun k => val_main_v58 (F := Ideal) x0 x1 x2 x3 x4 x5 x6 x7 x8 (ix2 n k))
          (fun k j => x9 (ix2 ⟨k.val, by omega⟩ j)) (fun k j => x9 (ix2 ⟨k.val + 32, by omega⟩ j))
          (fun j => x10 (ix1 j)) (fun k j => x11 (ix2 k j)) (fun j => x12 (ix1 j)) j := by
  have hl : ∀ k : Fin 32, lidx_main_v76 (ix2 n j) k = ix2 n k := fun k =>
    funext fun a => Fin.ext (by match a with | ⟨0, _⟩ => rfl | ⟨1, _⟩ => rfl)
  have hr : ∀ k : Fin 32, ridx_main_v76 (ix2 n j) k = ix2 k j := fun k =>
    funext fun a => Fin.ext (by match a with | ⟨0, _⟩ => rfl | ⟨1, _⟩ => rfl)
  have hb : idx_main_v77 (idx_main_v78 (ix2 n j)) = ix1 j :=
    funext fun a => Fin.ext (by match a with | ⟨0, _⟩ => rfl)
  rw [val_main_v79_apply, val_main_v76_apply, val_main_v78_apply, val_main_v77_apply, hb]
  simp only [hl, hr, ref_hidden_at, Ideal.addf_def]
  rfl

end Cert.ReferenceIdeal.RefNode

end
-- ==== Proof.EdgePayload.lean ====
/-
  The edge kernel's two stored values, one row at a time.

  The kernel works on a block of 6400 edges at once: two 6400 × 32 blocks of node features (source rows and target
  rows), one 6400 × 14 block of packed narrow data (source coordinates, target coordinates, edge features) and the
  weight matrices and bias rows of the edge network. Every operation it performs is either entry by entry, or acts
  within a row (a sum along the lanes of a row, a product of a row with a weight matrix, a column or a row repeated
  across the block, a run of columns cut out of the packed row). So row r of each stored block is a function of row r
  of the three data blocks and of the weights alone, and this module identifies that function: it is the
  specification's per-edge message (for the 6400 × 32 block stored after a change of float format, which is the
  identity on the exact values) and the specification's per-edge coordinate message (for the 6400 × 3 block).

  The proof follows the kernel's order of computation. First each kind of operation is read at a row and a column,
  once, over arbitrary blocks of the shapes involved. Then the first stage's values: the coordinate difference, its
  squared length, the normalised difference, the first dense layer's four partial products added in the kernel's own
  order (which is the bracketing the specification writes), and the bias row. Then the second stage: the activation
  x ↦ x · σ(x), the second dense layer, the gate's dense layer and inner product with a weight row. Last, these row
  values are matched with the specification's functions of the row. The two float literals of the kernel (the guard
  added to a length, and the accumulators' zero) stay as the exact values of their 32-bit words throughout.
-/
import proofs.«405486_j56169582297514_2_alg».proof.Proof.Gen.KernelIdeal.Skeleton
import proofs.«405486_j56169582297514_2_alg».proof.Proof.Spec
import proofs.«405486_j56169582297514_2_alg».proof.Proof.LibPlainDot
import Idealize.ShloMosaic.Lib.ValueIdx
import Idealize.ShloMosaic.Lib.Pipeline.Value
import Idealize.ShloMosaic.PureOps.Ideal.Laws

noncomputable section

namespace Cert.KernelIdeal.EdgePayload

open Cert.KernelIdeal Cert.KernelIdeal.Gen Cert.Egnn Idealize.ShloMosaic Idealize.ShloMosaic.ValueIdx

/-! ## One operation at a time, read at a row and a column -/

/-- A block of columns cut out of the packed 14-wide row: column a of the cut is column a + o of the row. -/
theorem slice_cols {w o : Nat} (x : FVec Ideal S6400x14 .f32) (h : S6400x14.Slices ![0, o] ⟨2, ![6400, w]⟩)
    (r : Fin 6400) (a : Fin w) (ho : a.val + o < 14) :
    extractStridedSlice ⟨2, ![6400, w]⟩ ![0, o] x h (ix2 r a) = x (ix2 r ⟨a.val + o, ho⟩) := by
  refine extractStridedSlice_apply _ x h (ix2 r a) (ix2 r ⟨a.val + o, ho⟩) fun c => ?_
  match c with
  | ⟨0, _⟩ => show r.val = 0 + r.val; omega
  | ⟨1, _⟩ => show a.val + o = o + a.val; omega

/-- A column vector repeated along the columns reads its own row. -/
theorem bcast_col {m : Nat} (x : FVec Ideal S6400x1 .f32) (h : S6400x1.Broadcasts ⟨2, ![6400, m]⟩) (r : Fin 6400) (j : Fin m) :
    broadcastTo ⟨2, ![6400, m]⟩ x h (ix2 r j) = x (ix2 r 0) := by
  refine broadcastTo_apply x h (ix2 r j) (ix2 r 0) fun c => ?_
  match c with
  | ⟨0, _⟩ => rfl
  | ⟨1, _⟩ => rfl

/-- A row vector repeated along the rows reads its own column. -/
theorem bcast_row (x : FVec Ideal S1x32 .f32) (h : S1x32.Broadcasts S6400x32) (r : Fin 6400) (j : Fin 32) :
    broadcastTo S6400x32 x h (ix2 r j) = x (ix2 0 j) := by
  refine broadcastTo_apply x h (ix2 r j) (ix2 0 j) fun c => ?_
  match c with
  | ⟨0, _⟩ => rfl
  | ⟨1, _⟩ => rfl

/-- A vector of 6400 numbers viewed as a 6400 × 1 column keeps each number in its row. -/
theorem cast_col (x : FVec Ideal S6400 .f32) (h : S6400.ShapeCasts S6400x1) (r : Fin 6400) :
    shapeCast S6400x1 x h (ix2 r 0) = x (ix1 r) := by
  refine shapeCast_apply x h (ix2 r 0) (ix1 r) ?_
  rw [Shape.rowMajor_val_one, Shape.rowMajor_val_two]
  show r.val = r.val * 1 + 0
  omega

/-- A sum along the lanes of a 6400 × m block, at row r, is the sum of that row. -/
theorem lane_sum {m : Nat} (src : FVec Ideal ⟨2, ![6400, m]⟩ .f32) (h : (⟨2, ![6400, m]⟩ : Shape).Reduces [1] S6400)
    (hφ : FKind.Formats .f32) (hacc : (0x00000000#32 : BitVec 32) = FKind.add.neutral .f32 hφ) (r : Fin 6400) :
    multiReduction .add [1] S6400 src 0x00000000#32 h hφ hacc (ix1 r) = ∑ k : Fin m, src (ix2 r k) := by
  refine (Ideal.multiReduction_add_single src _ h hφ hacc (ix1 r)).trans ?_
  refine Finset.sum_congr rfl fun k _ => congrArg src (funext fun c => Fin.ext ?_)
  match c with
  | ⟨0, _⟩ => rfl
  | ⟨1, _⟩ => rfl

/-- The logistic function on a block acts entry by entry. -/
theorem logistic_at {s : Shape} (v : FVec Ideal s .f32) (i : s.Idx) : logistic v i = Ideal.logistic (v i) := rfl

/-- The square root on a block acts entry by entry. -/
theorem sqrt_at {s : Shape} (v : FVec Ideal s .f32) (i : s.Idx) : sqrt v i = Ideal.sqrt (v i) := rfl

/-! ## The first stage's values: differences, squared length, normalised difference, first layer without its bias -/

/-- The packed block passes through its identity cast unchanged. -/
theorem pay4_eq (v4 : Vec Ideal S6400x14 .f32) : k0_pay4 (F := Ideal) v4 = v4 := shapeCast_self v4 _

/-- Coordinate a of (source − target): lane a minus lane a + 3 of the packed row. -/
theorem pay5_at (v4 : Vec Ideal S6400x14 .f32) (r : Fin 6400) (a : Fin 3) :
    k0_pay5 (F := Ideal) v4 (ix2 r a) = v4 (ix2 r ⟨a.val, by omega⟩) - v4 (ix2 r ⟨a.val + 3, by omega⟩) := by
  unfold k0_pay5
  rw [pay4_eq]
  exact congrArg₂ (· - ·) (slice_cols v4 _ r a (by omega)) (slice_cols v4 _ r a (by omega))

/-- The squared length at row r: the sum over the three coordinates of the squared difference. -/
theorem pay6_at (v4 : Vec Ideal S6400x14 .f32) (r : Fin 6400) :
    k0_pay6 (F := Ideal) v4 (ix2 r 0)
      = ∑ a : Fin 3, k0_pay5 (F := Ideal) v4 (ix2 r a) * k0_pay5 (F := Ideal) v4 (ix2 r a) := by
  unfold k0_pay6
  refine (cast_col _ _ r).trans ?_
  exact lane_sum _ _ _ _ r

/-- The normalised difference at row r, coordinate a. -/
theorem pay7_at (v4 : Vec Ideal S6400x14 .f32) (r : Fin 6400) (a : Fin 3) :
    k0_pay7 (F := Ideal) v4 (ix2 r a)
      = Ideal.div (k0_pay5 (F := Ideal) v4 (ix2 r a))
          (Ideal.sqrt (k0_pay6 (F := Ideal) v4 (ix2 r 0)) + Ideal.ofBits .f32 0x0DA24260#32) := by
  unfold k0_pay7
  refine (divf_apply _ _ _).trans ?_
  refine congrArg (Ideal.div _) ?_
  exact bcast_col _ _ r a

/-- The first layer before its bias at row r, output j: the four partial products in the order they are added. -/
theorem pay8_at (v0 v2 : Vec Ideal S6400x32 .f32) (v4 : Vec Ideal S6400x14 .f32) (v18 v21 : Vec Ideal S32x32 .f32)
    (v25 : Vec Ideal S1x32 .f32) (v31 : Vec Ideal S8x32 .f32) (r : Fin 6400) (j : Fin 32) :
    k0_pay8 (F := Ideal) v0 v2 v4 v18 v21 v25 v31 (ix2 r j)
      = (((∑ k : Fin 32, v0 (ix2 r k) * v18 (ix2 k j)) + (∑ k : Fin 32, v2 (ix2 r k) * v21 (ix2 k j)))
          + k0_pay6 (F := Ideal) v4 (ix2 r 0) * v25 (ix2 0 j))
        + ∑ k : Fin 8, v4 (ix2 r ⟨k.val + 6, by omega⟩) * v31 (ix2 k j) := by
  unfold k0_pay8
  rw [pay4_eq]
  simp only [shapeCast_self]
  refine (addf_apply _ _ _).trans ?_
  refine congrArg₂ (· + ·) ?_ ?_
  · refine (addf_apply _ _ _).trans ?_
    refine congrArg₂ (· + ·) ?_ ?_
    · refine (addf_apply _ _ _).trans ?_
      exact congrArg₂ (· + ·)
        (LibPlainDot.matmul_zero_apply _ rfl rfl rfl rfl rfl rfl none v0 v18 r j)
        (LibPlainDot.matmul_zero_apply _ rfl rfl rfl rfl rfl rfl none v2 v21 r j)
    · refine (mulf_apply _ _ _).trans ?_
      exact congrArg₂ (· * ·) (bcast_col _ _ r j) (bcast_row _ _ r j)
  · refine (LibPlainDot.matmul_zero_apply _ rfl rfl rfl rfl rfl rfl none _ v31 r j).trans ?_
    exact Finset.sum_congr rfl fun k _ => congrArg (· * v31 (ix2 k j)) (slice_cols v4 _ r k (by omega))

/-- The first bias row repeated down the block. -/
theorem pay9_at (v35 : Vec Ideal S1x32 .f32) (r : Fin 6400) (j : Fin 32) :
    k0_pay9 (F := Ideal) v35 (ix2 r j) = v35 (ix2 0 j) := by
  unfold k0_pay9
  simp only [shapeCast_self]
  exact bcast_row _ _ r j

/-! ## A dense layer and the activation, read at a row -/

/-- x · σ(x) on a block acts entry by entry. -/
theorem silu_at {s : Shape} (x : FVec Ideal s .f32) (i : s.Idx) : mulf x (logistic x) i = silu (x i) := rfl

/-- A 32 → 32 dense layer over a 6400-row block, at row r and output j: the row times the weight matrix's column j,
    plus the bias row's entry j. -/
theorem dense_at (h : FVec Ideal S6400x32 .f32) (W : FVec Ideal S32x32 .f32) (b : FVec Ideal S1x32 .f32)
    (hb : S1x32.Broadcasts S6400x32) (r : Fin 6400) (j : Fin 32) :
    addf (matmul dot_S6400x32_S32x32_S6400x32_1_0_0_1_n_n none h W (constant (F := Ideal) S6400x32 .f32 0x00000000#32))
        (broadcastTo S6400x32 b hb) (ix2 r j)
      = dense (fun k => h (ix2 r k)) (fun k j => W (ix2 k j)) (fun j => b (ix2 0 j)) j := by
  refine (addf_apply _ _ _).trans ?_
  exact congrArg₂ (· + ·)
    (LibPlainDot.matmul_zero_apply _ rfl rfl rfl rfl rfl rfl none h W r j)
    (bcast_row b hb r j)

/-! ## The second stage: the message, its stored form, and the gated coordinate message -/

/-- The message at row r, output j, from the first layer's pre-bias and bias blocks: activation, second dense layer,
    activation. -/
theorem pay1_at (v34 v37 : FVec Ideal S6400x32 .f32) (v41 : Vec Ideal S32x32 .f32) (v43 : Vec Ideal S1x32 .f32)
    (r : Fin 6400) (j : Fin 32) :
    k0_pay1 (F := Ideal) v34 v37 v41 v43 (ix2 r j)
      = edgeMsg (fun k => silu (v34 (ix2 r k) + v37 (ix2 r k))) (fun k j => v41 (ix2 k j)) (fun j => v43 (ix2 0 j)) j := by
  unfold k0_pay1
  simp only [shapeCast_self]
  refine (silu_at _ _).trans ?_
  refine congrArg silu ?_
  exact dense_at _ v41 v43 _ r j

/-- The stored message is the message: the change of format is the identity on the values. -/
theorem pay3_at (v34 v37 : FVec Ideal S6400x32 .f32) (v41 : Vec Ideal S32x32 .f32) (v43 : Vec Ideal S1x32 .f32)
    (i : S6400x32.Idx) :
    k0_pay3 (F := Ideal) v34 v37 v41 v43 i = k0_pay1 (F := Ideal) v34 v37 v41 v43 i := rfl

/-- The coordinate message at row r, coordinate a: the gate computed from the row's message, times the given
    normalised difference. -/
theorem pay2_at (v17 : FVec Ideal S6400x3 .f32) (v34 v37 : FVec Ideal S6400x32 .f32) (v41 : Vec Ideal S32x32 .f32)
    (v43 : Vec Ideal S1x32 .f32) (v49 : Vec Ideal S32x32 .f32) (v51 v57 : Vec Ideal S1x32 .f32) (r : Fin 6400) (a : Fin 3) :
    k0_pay2 (F := Ideal) v17 v34 v37 v41 v43 v49 v51 v57 (ix2 r a)
      = gate (fun k => k0_pay1 (F := Ideal) v34 v37 v41 v43 (ix2 r k)) (fun k j => v49 (ix2 k j))
          (fun j => v51 (ix2 0 j)) (fun j => v57 (ix2 0 j)) * v17 (ix2 r a) := by
  unfold k0_pay2
  simp only [shapeCast_self]
  refine (mulf_apply _ _ _).trans ?_
  refine congrArg (· * v17 (ix2 r a)) ?_
  refine (bcast_col _ _ r a).trans ?_
  refine (cast_col _ _ r).trans ?_
  refine (lane_sum _ _ _ _ r).trans ?_
  unfold gate
  refine Finset.sum_congr rfl fun k _ => ?_
  refine (mulf_apply _ _ _).trans ?_
  refine congrArg₂ (· * ·) ?_ (bcast_row _ _ r k)
  refine (silu_at _ _).trans ?_
  exact congrArg silu (dense_at _ v49 v51 _ r k)

/-! ## The row values as the specification's per-edge functions -/

/-- The squared length at row r is the specification's, of the packed row's source and target coordinates. -/
theorem pay6_sqDist (v4 : Vec Ideal S6400x14 .f32) (r : Fin 6400) :
    k0_pay6 (F := Ideal) v4 (ix2 r 0)
      = sqDist (narSrc fun k => v4 (ix2 r k)) (narDst fun k => v4 (ix2 r k)) := by
  refine (pay6_at v4 r).trans ?_
  unfold sqDist
  refine Finset.sum_congr rfl fun a _ => ?_
  rw [pay5_at]
  rfl

/-- The normalised difference at row r is the specification's. -/
theorem pay7_unitDiff (v4 : Vec Ideal S6400x14 .f32) (r : Fin 6400) (a : Fin 3) :
    k0_pay7 (F := Ideal) v4 (ix2 r a)
      = unitDiff (narSrc fun k => v4 (ix2 r k)) (narDst fun k => v4 (ix2 r k)) a := by
  refine (pay7_at v4 r a).trans ?_
  rw [pay5_at, pay6_sqDist]
  rfl

/-- The first layer at row r, output k: pre-bias value plus bias, then the activation, is the specification's. -/
theorem hidden_at (v0 v2 : Vec Ideal S6400x32 .f32) (v4 : Vec Ideal S6400x14 .f32) (v18 v21 : Vec Ideal S32x32 .f32)
    (v25 : Vec Ideal S1x32 .f32) (v31 : Vec Ideal S8x32 .f32) (v35 : Vec Ideal S1x32 .f32) (r : Fin 6400) (k : Fin 32) :
    silu (k0_pay8 (F := Ideal) v0 v2 v4 v18 v21 v25 v31 (ix2 r k) + k0_pay9 (F := Ideal) v35 (ix2 r k))
      = edgeHidden (fun k => v0 (ix2 r k)) (fun k => v2 (ix2 r k))
          (sqDist (narSrc fun k => v4 (ix2 r k)) (narDst fun k => v4 (ix2 r k))) (narEf fun k => v4 (ix2 r k))
          (fun k j => v18 (ix2 k j)) (fun k j => v21 (ix2 k j)) (fun j => v25 (ix2 0 j)) (fun k j => v31 (ix2 k j))
          (fun j => v35 (ix2 0 j)) k := by
  rw [pay8_at, pay9_at, pay6_sqDist]
  rfl

/-- The message before its change of format, at row r and output j, is the specification's message of that edge. -/
theorem msg_at (v0 v2 : Vec Ideal S6400x32 .f32) (v4 : Vec Ideal S6400x14 .f32) (v18 v21 : Vec Ideal S32x32 .f32)
    (v25 : Vec Ideal S1x32 .f32) (v31 : Vec Ideal S8x32 .f32) (v35 : Vec Ideal S1x32 .f32) (v41 : Vec Ideal S32x32 .f32)
    (v43 : Vec Ideal S1x32 .f32) (r : Fin 6400) (j : Fin 32) :
    k0_pay1 (F := Ideal) (k0_pay8 v0 v2 v4 v18 v21 v25 v31) (k0_pay9 v35) v41 v43 (ix2 r j)
      = edgeRowMsg (fun k => v0 (ix2 r k)) (fun k => v2 (ix2 r k)) (fun k => v4 (ix2 r k)) (fun k j => v18 (ix2 k j))
          (fun k j => v21 (ix2 k j)) (fun j => v25 (ix2 0 j)) (fun k j => v31 (ix2 k j)) (fun j => v35 (ix2 0 j))
          (fun k j => v41 (ix2 k j)) (fun j => v43 (ix2 0 j)) j := by
  refine (pay1_at _ _ v41 v43 r j).trans ?_
  unfold edgeRowMsg
  exact congrArg (fun h => edgeMsg h (fun k j => v41 (ix2 k j)) (fun j => v43 (ix2 0 j)) j)
    (funext fun k => hidden_at v0 v2 v4 v18 v21 v25 v31 v35 r k)

/-- THE STORED MESSAGE at row r, output j, is the specification's message of the edge in that row. -/
theorem edge_msg_at (v0 v2 : Vec Ideal S6400x32 .f32) (v4 : Vec Ideal S6400x14 .f32) (v18 v21 : Vec Ideal S32x32 .f32)
    (v25 : Vec Ideal S1x32 .f32) (v31 : Vec Ideal S8x32 .f32) (v35 : Vec Ideal S1x32 .f32) (v41 : Vec Ideal S32x32 .f32)
    (v43 : Vec Ideal S1x32 .f32) (r : Fin 6400) (j : Fin 32) :
    k0_pay3 (F := Ideal) (k0_pay8 v0 v2 v4 v18 v21 v25 v31) (k0_pay9 v35) v41 v43 (ix2 r j)
      = edgeRowMsg (fun k => v0 (ix2 r k)) (fun k => v2 (ix2 r k)) (fun k => v4 (ix2 r k)) (fun k j => v18 (ix2 k j))
          (fun k j => v21 (ix2 k j)) (fun j => v25 (ix2 0 j)) (fun k j => v31 (ix2 k j)) (fun j => v35 (ix2 0 j))
          (fun k j => v41 (ix2 k j)) (fun j => v43 (ix2 0 j)) j :=
  (pay3_at _ _ v41 v43 (ix2 r j)).trans (msg_at v0 v2 v4 v18 v21 v25 v31 v35 v41 v43 r j)

/-- THE STORED COORDINATE MESSAGE at row r, coordinate a, is the specification's coordinate message of that edge. -/
theorem edge_coord_at (v0 v2 : Vec Ideal S6400x32 .f32) (v4 : Vec Ideal S6400x14 .f32) (v18 v21 : Vec Ideal S32x32 .f32)
    (v25 : Vec Ideal S1x32 .f32) (v31 : Vec Ideal S8x32 .f32) (v35 : Vec Ideal S1x32 .f32) (v41 : Vec Ideal S32x32 .f32)
    (v43 : Vec Ideal S1x32 .f32) (v49 : Vec Ideal S32x32 .f32) (v51 v57 : Vec Ideal S1x32 .f32) (r : Fin 6400) (a : Fin 3) :
    k0_pay2 (F := Ideal) (k0_pay7 v4) (k0_pay8 v0 v2 v4 v18 v21 v25 v31) (k0_pay9 v35) v41 v43 v49 v51 v57 (ix2 r a)
      = edgeRowCoord (fun k => v0 (ix2 r k)) (fun k => v2 (ix2 r k)) (fun k => v4 (ix2 r k)) (fun k j => v18 (ix2 k j))
          (fun k j => v21 (ix2 k j)) (fun j => v25 (ix2 0 j)) (fun k j => v31 (ix2 k j)) (fun j => v35 (ix2 0 j))
          (fun k j => v41 (ix2 k j)) (fun j => v43 (ix2 0 j)) (fun k j => v49 (ix2 k j)) (fun j => v51 (ix2 0 j))
          (fun j => v57 (ix2 0 j)) a := by
  refine (pay2_at _ _ _ v41 v43 v49 v51 v57 r a).trans ?_
  unfold edgeRowCoord
  exact congrArg₂ (· * ·)
    (congrArg (fun m => gate m (fun k j => v49 (ix2 k j)) (fun j => v51 (ix2 0 j)) (fun j => v57 (ix2 0 j)))
      (funext fun k => msg_at v0 v2 v4 v18 v21 v25 v31 v35 v41 v43 r k))
    (pay7_unitDiff v4 r a)

end Cert.KernelIdeal.EdgePayload

end
-- ==== Proof.EdgeValueI.lean ====
import proofs.«405486_j56169582297514_2_alg».proof.Proof.EdgeRegionI
import proofs.«405486_j56169582297514_2_alg».proof.Proof.EdgePayload
import Idealize.ShloMosaic.Lib.Pipeline.Value
import Idealize.ShloMosaic.Lib.ValueIdx

/-!
  From blocks to the arrays, for the edge kernel's region, over the extended reals.

  The region walks a grid of 500 points. At point t the three data windows (source features, target features, the
  packed narrow rows) hold rows 6400·t … 6400·t + 6399 of their arrays; the ten weight windows hold their whole arrays
  at every point; and the two result windows write back rows 6400·t … 6400·t + 6399 of the messages' array and of the
  coordinate messages' array. What point t writes back is a pure function of the input blocks whose entry (r, ·) is,
  by the payload's row lemmas, the specification's message (coordinate message) of the edge whose data sit in row r of
  the blocks: edge 6400·t + r. The 500 blocks tile each result array (the block covering row e is e / 6400), every
  point writes back, and so after the region each result array holds at EVERY row e the specification's value for
  edge e, as a function of row e of the three data arrays and of the weight arrays as the region found them.

  The steps: the block indices of the fifteen windows as functions of the point, decided once over the grid; each
  input block's entry as an entry of its array (a block's coordinate on an axis is the block index times the block's
  size plus the coordinate inside the block); the specification's row functions read from the blocks equal those read
  from the arrays; what a point writes back is its block of the array-level function; membership in a block by
  coordinate ranges; the cover by division; the final arrays.
-/

noncomputable section

namespace Cert.KernelIdeal.EdgeValue

open Cert.KernelIdeal Cert.KernelIdeal.Gen Cert.Egnn Cert.KernelIdeal.EdgePayload
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access, as a function. -/
theorem hz : (![0, 0] : Fin 2 → Nat) = fun _ => 0 := funext fun a => by fin_cases a <;> rfl

/-! ## The arrays as the region finds them, by their literal types

Source features, target features, packed narrow rows; the first layer's two weight halves, its row for the squared
length, its edge-feature weights and its bias; the second layer's weights and bias; the gate's weights, bias and
weight row. -/

abbrev aSH (c : Dev nD) : S3200000x32.Idx → EReal := V c main_v0
abbrev aDH (c : Dev nD) : S3200000x32.Idx → EReal := V c main_v1
abbrev aRow (c : Dev nD) : S3200000x14.Idx → EReal := V c main_v4
abbrev aWa (c : Dev nD) : S32x32.Idx → EReal := V c main_v5
abbrev aWb (c : Dev nD) : S32x32.Idx → EReal := V c main_v6
abbrev aWr (c : Dev nD) : S1x32.Idx → EReal := V c main_v7
abbrev aWe (c : Dev nD) : S8x32.Idx → EReal := V c main_v8
abbrev aB1 (c : Dev nD) : S1x32.Idx → EReal := V c main_v9
abbrev aW2 (c : Dev nD) : S32x32.Idx → EReal := V c main_arg7
abbrev aB2 (c : Dev nD) : S1x32.Idx → EReal := V c main_v10
abbrev aWc (c : Dev nD) : S32x32.Idx → EReal := V c main_arg13
abbrev aBc (c : Dev nD) : S1x32.Idx → EReal := V c main_v11
abbrev aWg (c : Dev nD) : S1x32.Idx → EReal := V c main_v12

/-! ## The block indices, decided once over the grid -/

/-- The row-walking windows (0, 1, 2 in; 13, 14 out): the block index at point `t` is `t` on the row axis, 0 on the
    column axis. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-- The weight windows (3 to 12): the block index is 0 on both axes at every point. -/
theorem idx_weights : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-! ## The input blocks at a point, by their literal types, and their entries as entries of the arrays -/

abbrev bSH (c : Dev nD) (t : Fin cfg0.N) : Vec Ideal S6400x32 .f32 := EdgeRegion.iblk V c 0 t
abbrev bDH (c : Dev nD) (t : Fin cfg0.N) : Vec Ideal S6400x32 .f32 := EdgeRegion.iblk V c 1 t
abbrev bRow (c : Dev nD) (t : Fin cfg0.N) : Vec Ideal S6400x14 .f32 := EdgeRegion.iblk V c 2 t
abbrev bWa (c : Dev nD) (t : Fin cfg0.N) : Vec Ideal S32x32 .f32 := EdgeRegion.iblk V c 3 t
abbrev bWb (c : Dev nD) (t : Fin cfg0.N) : Vec Ideal S32x32 .f32 := EdgeRegion.iblk V c 4 t
abbrev bWr (c : Dev nD) (t : Fin cfg0.N) : Vec Ideal S1x32 .f32 := EdgeRegion.iblk V c 5 t
abbrev bWe (c : Dev nD) (t : Fin cfg0.N) : Vec Ideal S8x32 .f32 := EdgeRegion.iblk V c 6 t
abbrev bB1 (c : Dev nD) (t : Fin cfg0.N) : Vec Ideal S1x32 .f32 := EdgeRegion.iblk V c 7 t
abbrev bW2 (c : Dev nD) (t : Fin cfg0.N) : Vec Ideal S32x32 .f32 := EdgeRegion.iblk V c 8 t
abbrev bB2 (c : Dev nD) (t : Fin cfg0.N) : Vec Ideal S1x32 .f32 := EdgeRegion.iblk V c 9 t
abbrev bWc (c : Dev nD) (t : Fin cfg0.N) : Vec Ideal S32x32 .f32 := EdgeRegion.iblk V c 10 t
abbrev bBc (c : Dev nD) (t : Fin cfg0.N) : Vec Ideal S1x32 .f32 := EdgeRegion.iblk V c 11 t
abbrev bWg (c : Dev nD) (t : Fin cfg0.N) : Vec Ideal S1x32 .f32 := EdgeRegion.iblk V c 12 t

/-- Row `r` of window 0's block at point `t` is row `6400·t + r` of its array. -/
theorem bSH_at (c : Dev nD) (t : Fin cfg0.N) (r : Fin 6400) (k : Fin 32) (e : Fin 3200000) (he : e.val = 6400 * t.val + r.val) :
    bSH V c t (ix2 r k) = aSH V c (ix2 e k) := by
  obtain ⟨h0, h1, -, -, -, -, -, -, -, -⟩ := idx_rows t
  unfold bSH EdgeRegion.iblk
  rw [View.read_apply]
  show V c main_v0 _ = V c main_v0 _
  congr 1
  funext a
  apply Fin.ext
  match a with
  | ⟨0, _⟩ => show win0_0.index t (0 : Fin 2) * 6400 + 1 * r.val = e.val; rw [h0, he]; omega
  | ⟨1, _⟩ => show win0_0.index t (1 : Fin 2) * 32 + 1 * k.val = k.val; rw [h1]; omega

/-- Row `r` of window 1's block at point `t` is row `6400·t + r` of its array. -/
theorem bDH_at (c : Dev nD) (t : Fin cfg0.N) (r : Fin 6400) (k : Fin 32) (e : Fin 3200000) (he : e.val = 6400 * t.val + r.val) :
    bDH V c t (ix2 r k) = aDH V c (ix2 e k) := by
  obtain ⟨-, -, h0, h1, -, -, -, -, -, -⟩ := idx_rows t
  unfold bDH EdgeRegion.iblk
  rw [View.read_apply]
  show V c main_v1 _ = V c main_v1 _
  congr 1
  funext a
  apply Fin.ext
  match a with
  | ⟨0, _⟩ => show win0_1.index t (0 : Fin 2) * 6400 + 1 * r.val = e.val; rw [h0, he]; omega
  | ⟨1, _⟩ => show win0_1.index t (1 : Fin 2) * 32 + 1 * k.val = k.val; rw [h1]; omega

/-- Row `r` of window 2's block at point `t` is row `6400·t + r` of its array. -/
theorem bRow_at (c : Dev nD) (t : Fin cfg0.N) (r : Fin 6400) (k : Fin 14) (e : Fin 3200000) (he : e.val = 6400 * t.val + r.val) :
    bRow V c t (ix2 r k) = aRow V c (ix2 e k) := by
  obtain ⟨-, -, -, -, h0, h1, -, -, -, -⟩ := idx_rows t
  unfold bRow EdgeRegion.iblk
  rw [View.read_apply]
  show V c main_v4 _ = V c main_v4 _
  congr 1
  funext a
  apply Fin.ext
  match a with
  | ⟨0, _⟩ => show win0_2.index t (0 : Fin 2) * 6400 + 1 * r.val = e.val; rw [h0, he]; omega
  | ⟨1, _⟩ => show win0_2.index t (1 : Fin 2) * 14 + 1 * k.val = k.val; rw [h1]; omega

/-- Window 3's block is its whole array at every point. -/
theorem bWa_at (c : Dev nD) (t : Fin cfg0.N) (k : Fin 32) (j : Fin 32) : bWa V c t (ix2 k j) = aWa V c (ix2 k j) := by
  obtain ⟨h0, h1, -, -, -, -, -, -, -, -, -, -, -, -, -, -, -, -, -, -⟩ := idx_weights t
  unfold bWa EdgeRegion.iblk
  rw [View.read_apply]
  show V c main_v5 _ = V c main_v5 _
  congr 1
  funext a
  apply Fin.ext
  match a with
  | ⟨0, _⟩ => show win0_3.index t (0 : Fin 2) * 32 + 1 * k.val = k.val; rw [h0]; omega
  | ⟨1, _⟩ => show win0_3.index t (1 : Fin 2) * 32 + 1 * j.val = j.val; rw [h1]; omega

/-- Window 4's block is its whole array at every point. -/
theorem bWb_at (c : Dev nD) (t : Fin cfg0.N) (k : Fin 32) (j : Fin 32) : bWb V c t (ix2 k j) = aWb V c (ix2 k j) := by
  obtain ⟨-, -, h0, h1, -, -, -, -, -, -, -, -, -, -, -, -, -, -, -, -⟩ := idx_weights t
  unfold bWb EdgeRegion.iblk
  rw [View.read_apply]
  show V c main_v6 _ = V c main_v6 _
  congr 1
  funext a
  apply Fin.ext
  match a with
  | ⟨0, _⟩ => show win0_4.index t (0 : Fin 2) * 32 + 1 * k.val = k.val; rw [h0]; omega
  | ⟨1, _⟩ => show win0_4.index t (1 : Fin 2) * 32 + 1 * j.val = j.val; rw [h1]; omega

/-- Window 5's block is its whole array at every point. -/
theorem bWr_at (c : Dev nD) (t : Fin cfg0.N) (k : Fin 1) (j : Fin 32) : bWr V c t (ix2 k j) = aWr V c (ix2 k j) := by
  obtain ⟨-, -, -, -, h0, h1, -, -, -, -, -, -, -, -, -, -, -, -, -, -⟩ := idx_weights t
  unfold bWr EdgeRegion.iblk
  rw [View.read_apply]
  show V c main_v7 _ = V c main_v7 _
  congr 1
  funext a
  apply Fin.ext
  match a with
  | ⟨0, _⟩ => show win0_5.index t (0 : Fin 2) * 1 + 1 * k.val = k.val; rw [h0]; omega
  | ⟨1, _⟩ => show win0_5.index t (1 : Fin 2) * 32 + 1 * j.val = j.val; rw [h1]; omega

/-- Window 6's block is its whole array at every point. -/
theorem bWe_at (c : Dev nD) (t : Fin cfg0.N) (k : Fin 8) (j : Fin 32) : bWe V c t (ix2 k j) = aWe V c (ix2 k j) := by
  obtain ⟨-, -, -, -, -, -, h0, h1, -, -, -, -, -, -, -, -, -, -, -, -⟩ := idx_weights t
  unfold bWe EdgeRegion.iblk
  rw [View.read_apply]
  show V c main_v8 _ = V c main_v8 _
  congr 1
  funext a
  apply Fin.ext
  match a with
  | ⟨0, _⟩ => show win0_6.index t (0 : Fin 2) * 8 + 1 * k.val = k.val; rw [h0]; omega
  | ⟨1, _⟩ => show win0_6.index t (1 : Fin 2) * 32 + 1 * j.val = j.val; rw [h1]; omega

/-- Window 7's block is its whole array at every point. -/
theorem bB1_at (c : Dev nD) (t : Fin cfg0.N) (k : Fin 1) (j : Fin 32) : bB1 V c t (ix2 k j) = aB1 V c (ix2 k j) := by
  obtain ⟨-, -, -, -, -, -, -, -, h0, h1, -, -, -, -, -, -, -, -, -, -⟩ := idx_weights t
  unfold bB1 EdgeRegion.iblk
  rw [View.read_apply]
  show V c main_v9 _ = V c main_v9 _
  congr 1
  funext a
  apply Fin.ext
  match a with
  | ⟨0, _⟩ => show win0_7.index t (0 : Fin 2) * 1 + 1 * k.val = k.val; rw [h0]; omega
  | ⟨1, _⟩ => show win0_7.index t (1 : Fin 2) * 32 + 1 * j.val = j.val; rw [h1]; omega

/-- Window 8's block is its whole array at every point. -/
theorem bW2_at (c : Dev nD) (t : Fin cfg0.N) (k : Fin 32) (j : Fin 32) : bW2 V c t (ix2 k j) = aW2 V c (ix2 k j) := by
  obtain ⟨-, -, -, -, -, -, -, -, -, -, h0, h1, -, -, -, -, -, -, -, -⟩ := idx_weights t
  unfold bW2 EdgeRegion.iblk
  rw [View.read_apply]
  show V c main_arg7 _ = V c main_arg7 _
  congr 1
  funext a
  apply Fin.ext
  match a with
  | ⟨0, _⟩ => show win0_8.index t (0 : Fin 2) * 32 + 1 * k.val = k.val; rw [h0]; omega
  | ⟨1, _⟩ => show win0_8.index t (1 : Fin 2) * 32 + 1 * j.val = j.val; rw [h1]; omega

/-- Window 9's block is its whole array at every point. -/
theorem bB2_at (c : Dev nD) (t : Fin cfg0.N) (k : Fin 1) (j : Fin 32) : bB2 V c t (ix2 k j) = aB2 V c (ix2 k j) := by
  obtain ⟨-, -, -, -, -, -, -, -, -, -, -, -, h0, h1, -, -, -, -, -, -⟩ := idx_weights t
  unfold bB2 EdgeRegion.iblk
  rw [View.read_apply]
  show V c main_v10 _ = V c main_v10 _
  congr 1
  funext a
  apply Fin.ext
  match a with
  | ⟨0, _⟩ => show win0_9.index t (0 : Fin 2) * 1 + 1 * k.val = k.val; rw [h0]; omega
  | ⟨1, _⟩ => show win0_9.index t (1 : Fin 2) * 32 + 1 * j.val = j.val; rw [h1]; omega

/-- Window 10's block is its whole array at every point. -/
theorem bWc_at (c : Dev nD) (t : Fin cfg0.N) (k : Fin 32) (j : Fin 32) : bWc V c t (ix2 k j) = aWc V c (ix2 k j) := by
  obtain ⟨-, -, -, -, -, -, -, -, -, -, -, -, -, -, h0, h1, -, -, -, -⟩ := idx_weights t
  unfold bWc EdgeRegion.iblk
  rw [View.read_apply]
  show V c main_arg13 _ = V c main_arg13 _
  congr 1
  funext a
  apply Fin.ext
  match a with
  | ⟨0, _⟩ => show win0_10.index t (0 : Fin 2) * 32 + 1 * k.val = k.val; rw [h0]; omega
  | ⟨1, _⟩ => show win0_10.index t (1 : Fin 2) * 32 + 1 * j.val = j.val; rw [h1]; omega

/-- Window 11's block is its whole array at every point. -/
theorem bBc_at (c : Dev nD) (t : Fin cfg0.N) (k : Fin 1) (j : Fin 32) : bBc V c t (ix2 k j) = aBc V c (ix2 k j) := by
  obtain ⟨-, -, -, -, -, -, -, -, -, -, -, -, -, -, -, -, h0, h1, -, -⟩ := idx_weights t
  unfold bBc EdgeRegion.iblk
  rw [View.read_apply]
  show V c main_v11 _ = V c main_v11 _
  congr 1
  funext a
  apply Fin.ext
  match a with
  | ⟨0, _⟩ => show win0_11.index t (0 : Fin 2) * 1 + 1 * k.val = k.val; rw [h0]; omega
  | ⟨1, _⟩ => show win0_11.index t (1 : Fin 2) * 32 + 1 * j.val = j.val; rw [h1]; omega

/-- Window 12's block is its whole array at every point. -/
theorem bWg_at (c : Dev nD) (t : Fin cfg0.N) (k : Fin 1) (j : Fin 32) : bWg V c t (ix2 k j) = aWg V c (ix2 k j) := by
  obtain ⟨-, -, -, -, -, -, -, -, -, -, -, -, -, -, -, -, -, -, h0, h1⟩ := idx_weights t
  unfold bWg EdgeRegion.iblk
  rw [View.read_apply]
  show V c main_v12 _ = V c main_v12 _
  congr 1
  funext a
  apply Fin.ext
  match a with
  | ⟨0, _⟩ => show win0_12.index t (0 : Fin 2) * 1 + 1 * k.val = k.val; rw [h0]; omega
  | ⟨1, _⟩ => show win0_12.index t (1 : Fin 2) * 32 + 1 * j.val = j.val; rw [h1]; omega

/-! ## The specification's rows, from the arrays -/

/-- The specification's message of edge `e` at output `j`, from the arrays as the region finds them. -/
def msgRow (c : Dev nD) (e : Fin 3200000) (j : Fin 32) : EReal :=
  edgeRowMsg (fun k => aSH V c (ix2 e k)) (fun k => aDH V c (ix2 e k)) (fun k => aRow V c (ix2 e k)) (fun k j' => aWa V c (ix2 k j'))
    (fun k j' => aWb V c (ix2 k j')) (fun j' => aWr V c (ix2 0 j')) (fun k j' => aWe V c (ix2 k j')) (fun j' => aB1 V c (ix2 0 j'))
    (fun k j' => aW2 V c (ix2 k j')) (fun j' => aB2 V c (ix2 0 j')) j

/-- The specification's coordinate message of edge `e` at coordinate `a`. -/
def coordRow (c : Dev nD) (e : Fin 3200000) (a : Fin 3) : EReal :=
  edgeRowCoord (fun k => aSH V c (ix2 e k)) (fun k => aDH V c (ix2 e k)) (fun k => aRow V c (ix2 e k)) (fun k j' => aWa V c (ix2 k j'))
    (fun k j' => aWb V c (ix2 k j')) (fun j' => aWr V c (ix2 0 j')) (fun k j' => aWe V c (ix2 k j')) (fun j' => aB1 V c (ix2 0 j'))
    (fun k j' => aW2 V c (ix2 k j')) (fun j' => aB2 V c (ix2 0 j'))
    (fun k j' => aWc V c (ix2 k j')) (fun j' => aBc V c (ix2 0 j')) (fun j' => aWg V c (ix2 0 j')) a

/-- The same rows from the blocks at point `t`: row `r` of the blocks is edge `6400·t + r`. -/
theorem msgRow_of_blocks (c : Dev nD) (t : Fin cfg0.N) (r : Fin 6400) (j : Fin 32) (e : Fin 3200000) (he : e.val = 6400 * t.val + r.val) :
    edgeRowMsg (fun k => bSH V c t (ix2 r k)) (fun k => bDH V c t (ix2 r k)) (fun k => bRow V c t (ix2 r k)) (fun k j' => bWa V c t (ix2 k j'))
    (fun k j' => bWb V c t (ix2 k j')) (fun j' => bWr V c t (ix2 0 j')) (fun k j' => bWe V c t (ix2 k j')) (fun j' => bB1 V c t (ix2 0 j'))
    (fun k j' => bW2 V c t (ix2 k j')) (fun j' => bB2 V c t (ix2 0 j')) j = msgRow V c e j := by
  have e0 : (fun k => bSH V c t (ix2 r k)) = fun k => aSH V c (ix2 e k) := funext fun k => bSH_at V c t r k e he
  have e1 : (fun k => bDH V c t (ix2 r k)) = fun k => aDH V c (ix2 e k) := funext fun k => bDH_at V c t r k e he
  have e2 : (fun k => bRow V c t (ix2 r k)) = fun k => aRow V c (ix2 e k) := funext fun k => bRow_at V c t r k e he
  have e3 : (fun k j' => bWa V c t (ix2 k j')) = fun k j' => aWa V c (ix2 k j') := funext fun k => funext fun j' => bWa_at V c t k j'
  have e4 : (fun k j' => bWb V c t (ix2 k j')) = fun k j' => aWb V c (ix2 k j') := funext fun k => funext fun j' => bWb_at V c t k j'
  have e5 : (fun j' => bWr V c t (ix2 0 j')) = fun j' => aWr V c (ix2 0 j') := funext fun j' => bWr_at V c t 0 j'
  have e6 : (fun k j' => bWe V c t (ix2 k j')) = fun k j' => aWe V c (ix2 k j') := funext fun k => funext fun j' => bWe_at V c t k j'
  have e7 : (fun j' => bB1 V c t (ix2 0 j')) = fun j' => aB1 V c (ix2 0 j') := funext fun j' => bB1_at V c t 0 j'
  have e8 : (fun k j' => bW2 V c t (ix2 k j')) = fun k j' => aW2 V c (ix2 k j') := funext fun k => funext fun j' => bW2_at V c t k j'
  have e9 : (fun j' => bB2 V c t (ix2 0 j')) = fun j' => aB2 V c (ix2 0 j') := funext fun j' => bB2_at V c t 0 j'
  unfold msgRow
  rw [e0, e1, e2, e3, e4, e5, e6, e7, e8, e9]

/-- Likewise for the coordinate message. -/
theorem coordRow_of_blocks (c : Dev nD) (t : Fin cfg0.N) (r : Fin 6400) (a : Fin 3) (e : Fin 3200000) (he : e.val = 6400 * t.val + r.val) :
    edgeRowCoord (fun k => bSH V c t (ix2 r k)) (fun k => bDH V c t (ix2 r k)) (fun k => bRow V c t (ix2 r k)) (fun k j' => bWa V c t (ix2 k j'))
    (fun k j' => bWb V c t (ix2 k j')) (fun j' => bWr V c t (ix2 0 j')) (fun k j' => bWe V c t (ix2 k j')) (fun j' => bB1 V c t (ix2 0 j'))
    (fun k j' => bW2 V c t (ix2 k j')) (fun j' => bB2 V c t (ix2 0 j'))
    (fun k j' => bWc V c t (ix2 k j')) (fun j' => bBc V c t (ix2 0 j')) (fun j' => bWg V c t (ix2 0 j')) a = coordRow V c e a := by
  have e0 : (fun k => bSH V c t (ix2 r k)) = fun k => aSH V c (ix2 e k) := funext fun k => bSH_at V c t r k e he
  have e1 : (fun k => bDH V c t (ix2 r k)) = fun k => aDH V c (ix2 e k) := funext fun k => bDH_at V c t r k e he
  have e2 : (fun k => bRow V c t (ix2 r k)) = fun k => aRow V c (ix2 e k) := funext fun k => bRow_at V c t r k e he
  have e3 : (fun k j' => bWa V c t (ix2 k j')) = fun k j' => aWa V c (ix2 k j') := funext fun k => funext fun j' => bWa_at V c t k j'
  have e4 : (fun k j' => bWb V c t (ix2 k j')) = fun k j' => aWb V c (ix2 k j') := funext fun k => funext fun j' => bWb_at V c t k j'
  have e5 : (fun j' => bWr V c t (ix2 0 j')) = fun j' => aWr V c (ix2 0 j') := funext fun j' => bWr_at V c t 0 j'
  have e6 : (fun k j' => bWe V c t (ix2 k j')) = fun k j' => aWe V c (ix2 k j') := funext fun k => funext fun j' => bWe_at V c t k j'
  have e7 : (fun j' => bB1 V c t (ix2 0 j')) = fun j' => aB1 V c (ix2 0 j') := funext fun j' => bB1_at V c t 0 j'
  have e8 : (fun k j' => bW2 V c t (ix2 k j')) = fun k j' => aW2 V c (ix2 k j') := funext fun k => funext fun j' => bW2_at V c t k j'
  have e9 : (fun j' => bB2 V c t (ix2 0 j')) = fun j' => aB2 V c (ix2 0 j') := funext fun j' => bB2_at V c t 0 j'
  have e10 : (fun k j' => bWc V c t (ix2 k j')) = fun k j' => aWc V c (ix2 k j') := funext fun k => funext fun j' => bWc_at V c t k j'
  have e11 : (fun j' => bBc V c t (ix2 0 j')) = fun j' => aBc V c (ix2 0 j') := funext fun j' => bBc_at V c t 0 j'
  have e12 : (fun j' => bWg V c t (ix2 0 j')) = fun j' => aWg V c (ix2 0 j') := funext fun j' => bWg_at V c t 0 j'
  unfold coordRow
  rw [e0, e1, e2, e3, e4, e5, e6, e7, e8, e9, e10, e11, e12]

/-- What the messages' array ends holding: at `(e, j)` the specification's message of edge `e`. -/
def G13 (c : Dev nD) : S3200000x32.Idx → EReal := fun i => msgRow V c (i 0) (i 1)
/-- What the coordinate messages' array ends holding. -/
def G14 (c : Dev nD) : S3200000x3.Idx → EReal := fun i => coordRow V c (i 0) (i 1)

/-! ## What a point writes back -/

/-- WHAT POINT `t` WRITES BACK into the messages' array is block `t` of `G13`: the stored block's entry `(r, j)` is the
    specification's message of the edge in row `r` of the input blocks, and that edge is `6400·t + r`. -/
theorem flushed13_eq (c : Dev nD) (t : Fin cfg0.N) :
    (EdgeRegion.dat V c).flushed 13 t = ((cfg0.win 13).blk t).view.read (Elt Ideal) (G13 V c) := by
  show (cfg0.win 13).cut (grid0.coords t) ((EdgeRegion.dat V c).after 13 t) = _
  rw [EdgeRegion.after_13]
  unfold EdgeRegion.outMsg
  rw [View.canon_unit_zero hz]
  simp only [View.ld_unit_zero (S := S6400x32) hz, View.ld_unit_zero (S := S6400x14) hz, View.ld_unit_zero (S := S32x32) hz,
    View.ld_unit_zero (S := S1x32) hz, View.ld_unit_zero (S := S8x32) hz]
  funext y
  obtain ⟨r, j, rfl⟩ : ∃ (r : Fin 6400) (j : Fin 32), y = ix2 r j := ⟨y 0, y 1, eq_ix2 y⟩
  have ht : t.val < 500 := lt_of_lt_of_eq t.isLt N_0
  have hr : 6400 * t.val + r.val < 3200000 := by have := r.isLt; omega
  obtain ⟨-, -, -, -, -, -, h0, h1, -⟩ := idx_rows t
  have hemb : ((cfg0.win 13).blk t).view.emb (ix2 r j) = (ix2 (⟨6400 * t.val + r.val, hr⟩ : Fin 3200000) j : S3200000x32.Idx) := by
    funext a; apply Fin.ext
    match a with
    | ⟨0, _⟩ => show win0_13.index t (0 : Fin 2) * 6400 + 1 * r.val = 6400 * t.val + r.val; rw [h0]; omega
    | ⟨1, _⟩ => show win0_13.index t (1 : Fin 2) * 32 + 1 * j.val = j.val; rw [h1]; omega
  show k0_pay3 (F := Ideal) (k0_pay8 (bSH V c t) (bDH V c t) (bRow V c t) (bWa V c t) (bWb V c t) (bWr V c t) (bWe V c t))
      (k0_pay9 (bB1 V c t)) (bW2 V c t) (bB2 V c t) (ix2 r j) = G13 V c (((cfg0.win 13).blk t).view.emb (ix2 r j))
  rw [hemb]
  refine (edge_msg_at (bSH V c t) (bDH V c t) (bRow V c t) (bWa V c t) (bWb V c t) (bWr V c t) (bWe V c t) (bB1 V c t) (bW2 V c t) (bB2 V c t) r j).trans ?_
  exact msgRow_of_blocks V c t r j ⟨6400 * t.val + r.val, hr⟩ rfl

/-- WHAT POINT `t` WRITES BACK into the coordinate messages' array is block `t` of `G14`. -/
theorem flushed14_eq (c : Dev nD) (t : Fin cfg0.N) :
    (EdgeRegion.dat V c).flushed 14 t = ((cfg0.win 14).blk t).view.read (Elt Ideal) (G14 V c) := by
  show (cfg0.win 14).cut (grid0.coords t) ((EdgeRegion.dat V c).after 14 t) = _
  rw [EdgeRegion.after_14]
  unfold EdgeRegion.outCoord
  rw [View.canon_unit_zero hz]
  simp only [View.ld_unit_zero (S := S6400x32) hz, View.ld_unit_zero (S := S6400x14) hz, View.ld_unit_zero (S := S32x32) hz,
    View.ld_unit_zero (S := S1x32) hz, View.ld_unit_zero (S := S8x32) hz]
  funext y
  obtain ⟨r, a, rfl⟩ : ∃ (r : Fin 6400) (a : Fin 3), y = ix2 r a := ⟨y 0, y 1, eq_ix2 y⟩
  have ht : t.val < 500 := lt_of_lt_of_eq t.isLt N_0
  have hr : 6400 * t.val + r.val < 3200000 := by have := r.isLt; omega
  obtain ⟨-, -, -, -, -, -, -, -, h0, h1⟩ := idx_rows t
  have hemb : ((cfg0.win 14).blk t).view.emb (ix2 r a) = (ix2 (⟨6400 * t.val + r.val, hr⟩ : Fin 3200000) a : S3200000x3.Idx) := by
    funext b; apply Fin.ext
    match b with
    | ⟨0, _⟩ => show win0_14.index t (0 : Fin 2) * 6400 + 1 * r.val = 6400 * t.val + r.val; rw [h0]; omega
    | ⟨1, _⟩ => show win0_14.index t (1 : Fin 2) * 3 + 1 * a.val = a.val; rw [h1]; omega
  show k0_pay2 (F := Ideal) (k0_pay7 (bRow V c t))
      (k0_pay8 (bSH V c t) (bDH V c t) (bRow V c t) (bWa V c t) (bWb V c t) (bWr V c t) (bWe V c t))
      (k0_pay9 (bB1 V c t)) (bW2 V c t) (bB2 V c t) (bWc V c t) (bBc V c t) (bWg V c t) (ix2 r a)
    = G14 V c (((cfg0.win 14).blk t).view.emb (ix2 r a))
  rw [hemb]
  refine (edge_coord_at (bSH V c t) (bDH V c t) (bRow V c t) (bWa V c t) (bWb V c t) (bWr V c t) (bWe V c t) (bB1 V c t) (bW2 V c t) (bB2 V c t) (bWc V c t) (bBc V c t) (bWg V c t) r a).trans ?_
  exact coordRow_of_blocks V c t r a ⟨6400 * t.val + r.val, hr⟩ rfl

/-! ## The blocks tile the arrays -/

/-- An index of the messages' array is in point `t`'s block iff each coordinate is in the block's range on its axis. -/
theorem mem_blk13 (t : Fin cfg0.N) (i : S3200000x32.Idx) :
    i ∈ ((cfg0.win 13).blk t).view.set ↔ ∀ a : Fin 2, win0_13.index t a * S6400x32.size a ≤ (i a).val
      ∧ (i a).val < win0_13.index t a * S6400x32.size a + S6400x32.size a := by
  show i ∈ ((View.whole main_v13_0).slice (win0_13.rect t)).set ↔ _
  rw [View.set_slice_whole, Rect.mem_set_unit]
  exact Iff.rfl

/-- The same for the coordinate messages' array. -/
theorem mem_blk14 (t : Fin cfg0.N) (i : S3200000x3.Idx) :
    i ∈ ((cfg0.win 14).blk t).view.set ↔ ∀ a : Fin 2, win0_14.index t a * S6400x3.size a ≤ (i a).val
      ∧ (i a).val < win0_14.index t a * S6400x3.size a + S6400x3.size a := by
  show i ∈ ((View.whole main_v13_1).slice (win0_14.rect t)).set ↔ _
  rw [View.set_slice_whole, Rect.mem_set_unit]
  exact Iff.rfl

/-- Every index of the messages' array is in the block of the point `(row) / 6400`, which writes back. -/
theorem cover13 (i : S3200000x32.Idx) :
    ∃ t : Fin cfg0.N, (cfg0.win 13).flush t = true ∧ i ∈ ((cfg0.win 13).blk t).view.set := by
  have hi0 : (i 0).val < 3200000 := (i 0).isLt
  have hi1 : (i 1).val < 32 := (i 1).isLt
  have hN : cfg0.N = 500 := N_0
  obtain ⟨t, htv⟩ : ∃ t : Fin cfg0.N, t.val = (i 0).val / 6400 := ⟨⟨(i 0).val / 6400, by rw [hN]; omega⟩, rfl⟩
  refine ⟨t, flush0_13 t, ?_⟩
  obtain ⟨-, -, -, -, -, -, h0, h1, -⟩ := idx_rows t
  rw [mem_blk13]
  intro a
  match a with
  | ⟨0, _⟩ =>
    show win0_13.index t (0 : Fin 2) * 6400 ≤ (i 0).val ∧ (i 0).val < win0_13.index t (0 : Fin 2) * 6400 + 6400
    rw [h0, htv]; omega
  | ⟨1, _⟩ =>
    show win0_13.index t (1 : Fin 2) * 32 ≤ (i 1).val ∧ (i 1).val < win0_13.index t (1 : Fin 2) * 32 + 32
    rw [h1]; omega

/-- The same for the coordinate messages' array. -/
theorem cover14 (i : S3200000x3.Idx) :
    ∃ t : Fin cfg0.N, (cfg0.win 14).flush t = true ∧ i ∈ ((cfg0.win 14).blk t).view.set := by
  have hi0 : (i 0).val < 3200000 := (i 0).isLt
  have hi1 : (i 1).val < 3 := (i 1).isLt
  have hN : cfg0.N = 500 := N_0
  obtain ⟨t, htv⟩ : ∃ t : Fin cfg0.N, t.val = (i 0).val / 6400 := ⟨⟨(i 0).val / 6400, by rw [hN]; omega⟩, rfl⟩
  refine ⟨t, flush0_14 t, ?_⟩
  obtain ⟨-, -, -, -, -, -, -, -, h0, h1⟩ := idx_rows t
  rw [mem_blk14]
  intro a
  match a with
  | ⟨0, _⟩ =>
    show win0_14.index t (0 : Fin 2) * 6400 ≤ (i 0).val ∧ (i 0).val < win0_14.index t (0 : Fin 2) * 6400 + 6400
    rw [h0, htv]; omega
  | ⟨1, _⟩ =>
    show win0_14.index t (1 : Fin 2) * 3 ≤ (i 1).val ∧ (i 1).val < win0_14.index t (1 : Fin 2) * 3 + 3
    rw [h1]; omega

/-! ## The arrays after the region -/

/-- The messages' array after the last point is `G13`: every block was written back as its block of `G13`, and the
    blocks cover the array. -/
theorem final13 (c : Dev nD) : (EdgeRegion.dat V c).arrAt 13 cfg0.N = G13 V c :=
  (EdgeRegion.dat V c).arrAt_eq_of_cover 13 (G13 V c) (fun t _ => flushed13_eq V c t) cover13

/-- The coordinate messages' array after the last point is `G14`. -/
theorem final14 (c : Dev nD) : (EdgeRegion.dat V c).arrAt 14 cfg0.N = G14 V c :=
  (EdgeRegion.dat V c).arrAt_eq_of_cover 14 (G14 V c) (fun t _ => flushed14_eq V c t) cover14

/-- THE MESSAGES. After the region the messages' array holds, at EVERY `(e, j)`, the specification's message of edge `e`
    at output `j`, computed from row `e` of the three data arrays and from the weight arrays as the region found them. -/
theorem final_msg (c : Dev nD) (e : Fin 3200000) (j : Fin 32) :
    ((EdgeRegion.dat V c).arrAt 13 cfg0.N : S3200000x32.Idx → EReal) (ix2 e j)
      = edgeRowMsg (fun k => aSH V c (ix2 e k)) (fun k => aDH V c (ix2 e k)) (fun k => aRow V c (ix2 e k)) (fun k j' => aWa V c (ix2 k j'))
    (fun k j' => aWb V c (ix2 k j')) (fun j' => aWr V c (ix2 0 j')) (fun k j' => aWe V c (ix2 k j')) (fun j' => aB1 V c (ix2 0 j'))
    (fun k j' => aW2 V c (ix2 k j')) (fun j' => aB2 V c (ix2 0 j')) j :=
  congrFun (final13 V c) (ix2 e j)

/-- THE COORDINATE MESSAGES. Likewise the coordinate messages' array holds, at every `(e, a)`, the specification's
    coordinate message of edge `e` at coordinate `a`. -/
theorem final_coord (c : Dev nD) (e : Fin 3200000) (a : Fin 3) :
    ((EdgeRegion.dat V c).arrAt 14 cfg0.N : S3200000x3.Idx → EReal) (ix2 e a)
      = edgeRowCoord (fun k => aSH V c (ix2 e k)) (fun k => aDH V c (ix2 e k)) (fun k => aRow V c (ix2 e k)) (fun k j' => aWa V c (ix2 k j'))
    (fun k j' => aWb V c (ix2 k j')) (fun j' => aWr V c (ix2 0 j')) (fun k j' => aWe V c (ix2 k j')) (fun j' => aB1 V c (ix2 0 j'))
    (fun k j' => aW2 V c (ix2 k j')) (fun j' => aB2 V c (ix2 0 j'))
    (fun k j' => aWc V c (ix2 k j')) (fun j' => aBc V c (ix2 0 j')) (fun j' => aWg V c (ix2 0 j')) a :=
  congrFun (final14 V c) (ix2 e a)

/-- info: 'Cert.KernelIdeal.EdgeValue.final_msg' depends on axioms: [propext, Classical.choice, Quot.sound] -/
#guard_msgs (whitespace := lax) in #print axioms final_msg
/-- info: 'Cert.KernelIdeal.EdgeValue.final_coord' depends on axioms: [propext, Classical.choice, Quot.sound] -/
#guard_msgs (whitespace := lax) in #print axioms final_coord

end Cert.KernelIdeal.EdgeValue

end
-- ==== Proof.KernelHost0I.lean ====
/-
  What the program computes before the edge kernel's region, at any float instance.

  Before the region the program computes, from its arguments alone, the thirteen arrays the region stages besides two
  arguments it stages as they are: the node features' rows taken at the source and at the target indices, the
  coordinates' rows taken at the source and at the target indices, the concatenation along the columns of those two
  coordinate takes with the edge features, four row slices of the first weight matrix, three bias vectors reshaped to
  one-row matrices, and the last weight column transposed to a row. None of these steps rounds or adds: each is a
  selection or a rearrangement of entries. This module states, for each of the thirteen, the contents the region finds
  as one pure term of the arguments' launch contents, and reads the rearrangements at an index.

  The road is the same for all: a stretch of operations that does not write a buffer leaves its contents as they were,
  so the contents the region finds in a buffer are what the one stretch that writes it left there; and that stretch's
  result is its operations' functions composed, each intermediate value read where the operation before wrote it.
-/
import proofs.«405486_j56169582297514_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Host0

open Cert.KernelIdeal Cert.KernelIdeal.Gen
open Idealize.ShloMosaic Idealize.ShloMosaic.TcCoe Idealize.ShloMosaic.StableHlo Idealize.ShloMosaic.ValueIdx Idealize.SL.Sem

variable {F : FTy → Type} [FloatOps F]

/-! ## The take of rows, as one pure term of the table and the index vector

A take of rows of a table at a vector of signed index words is five steps: a negative index is wrapped once by
adding the number of rows; the wrapped vector is laid out as a column; a row mask is the conjunction, over the one
column, of the two bound checks `0 ≤ ·` and `· ≤ 99999`; the rows are gathered at the column; the result is the
gathered row where the mask holds and the fill word `0x7FC00000` elsewhere. The terms below are these steps
composed, over the table `x` and the index vector `s`, with the shape relations the steps take as evidence. -/

/-- The index column: each index word wrapped once (the row count added when it is negative), laid out as a column. -/
def wrapIdx (s : IVec S3200000 32) : IVec S3200000x1 32 :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- The rows of a 32-column table gathered at the index column. -/
def gather32 (x : FVec F S100000x32 .f32) (s : IVec S3200000 32) : FVec F S3200000x32 .f32 :=
  Host.gather gather_S100000x32_S3200000x1_S3200000x32_1_0_n_n_0_1_132 x (wrapIdx s)

/-- The rows of a 3-column table gathered at the index column. -/
def gather3 (x : FVec F S100000x3 .f32) (s : IVec S3200000 32) : FVec F S3200000x3 .f32 :=
  Host.gather gather_S100000x3_S3200000x1_S3200000x3_1_0_n_n_0_1_13 x (wrapIdx s)

/-- The take of rows of a 32-column table: the gathered row where the wrapped index is in range, the fill word
    elsewhere. -/
def take32 (x : FVec F S100000x32 .f32) (s : IVec S3200000 32) : FVec F S3200000x32 .f32 :=
  select (broadcastInDim S3200000x32 ![0] bcast_S3200000_S3200000x32_0
    (Host.reduce IntOp.andi
      (andi (cmpi .sge (broadcastInDim S3200000x1 ![0] bcast_S3200000_S3200000x1_0
      (select (cmpi .slt s (broadcastInDim S3200000 ![] bcast_S_S3200000 (constantI S_ 32 0#32)))
        (addi s (broadcastInDim S3200000 ![] bcast_S_S3200000 (constantI S_ 32 100000#32))) s)) (broadcastInDim S3200000x1 ![] bcast_S_S3200000x1 (constantI S_ 32 0#32)))
        (cmpi .sle (broadcastInDim S3200000x1 ![0] bcast_S3200000_S3200000x1_0
      (select (cmpi .slt s (broadcastInDim S3200000 ![] bcast_S_S3200000 (constantI S_ 32 0#32)))
        (addi s (broadcastInDim S3200000 ![] bcast_S_S3200000 (constantI S_ 32 100000#32))) s)) (broadcastInDim S3200000x1 ![0, 1] bcast_S1x1_S3200000x1_0_1
          (broadcastInDim S1x1 ![1] bcast_S1_S1x1_1 (constantI S1 32 99999#32)))))
      (constantI S_ 1 1#1) reducesTo_S3200000x1_S3200000_d1 h_S_))
    (Host.gather gather_S100000x32_S3200000x1_S3200000x32_1_0_n_n_0_1_132 x
    (broadcastInDim S3200000x1 ![0] bcast_S3200000_S3200000x1_0
      (select (cmpi .slt s (broadcastInDim S3200000 ![] bcast_S_S3200000 (constantI S_ 32 0#32)))
        (addi s (broadcastInDim S3200000 ![] bcast_S_S3200000 (constantI S_ 32 100000#32))) s)))
    (broadcastInDim S3200000x32 ![] bcast_S_S3200000x32 (constant (F := F) S_ .f32 0x7FC00000#32))

/-- The take of rows of a 3-column table. -/
def take3 (x : FVec F S100000x3 .f32) (s : IVec S3200000 32) : FVec F S3200000x3 .f32 :=
  select (broadcastInDim S3200000x3 ![0] bcast_S3200000_S3200000x3_0
    (Host.reduce IntOp.andi
      (andi (cmpi .sge (broadcastInDim S3200000x1 ![0] bcast_S3200000_S3200000x1_0
      (select (cmpi .slt s (broadcastInDim S3200000 ![] bcast_S_S3200000 (constantI S_ 32 0#32)))
        (addi s (broadcastInDim S3200000 ![] bcast_S_S3200000 (constantI S_ 32 100000#32))) s)) (broadcastInDim S3200000x1 ![] bcast_S_S3200000x1 (constantI S_ 32 0#32)))
        (cmpi .sle (broadcastInDim S3200000x1 ![0] bcast_S3200000_S3200000x1_0
      (select (cmpi .slt s (broadcastInDim S3200000 ![] bcast_S_S3200000 (constantI S_ 32 0#32)))
        (addi s (broadcastInDim S3200000 ![] bcast_S_S3200000 (constantI S_ 32 100000#32))) s)) (broadcastInDim S3200000x1 ![0, 1] bcast_S1x1_S3200000x1_0_1
          (broadcastInDim S1x1 ![1] bcast_S1_S1x1_1 (constantI S1 32 99999#32)))))
      (constantI S_ 1 1#1) reducesTo_S3200000x1_S3200000_d1 h_S_))
    (Host.gather gather_S100000x3_S3200000x1_S3200000x3_1_0_n_n_0_1_13 x
    (broadcastInDim S3200000x1 ![0] bcast_S3200000_S3200000x1_0
      (select (cmpi .slt s (broadcastInDim S3200000 ![] bcast_S_S3200000 (constantI S_ 32 0#32)))
        (addi s (broadcastInDim S3200000 ![] bcast_S_S3200000 (constantI S_ 32 100000#32))) s)))
    (broadcastInDim S3200000x3 ![] bcast_S_S3200000x3 (constant (F := F) S_ .f32 0x7FC00000#32))

/-- The take, with the index column and the gathered rows named. -/
theorem take32_eq (x : FVec F S100000x32 .f32) (s : IVec S3200000 32) :
    take32 x s = select (broadcastInDim S3200000x32 ![0] bcast_S3200000_S3200000x32_0
    (Host.reduce IntOp.andi
      (andi (cmpi .sge (wrapIdx s) (broadcastInDim S3200000x1 ![] bcast_S_S3200000x1 (constantI S_ 32 0#32)))
        (cmpi .sle (wrapIdx s) (broadcastInDim S3200000x1 ![0, 1] bcast_S1x1_S3200000x1_0_1
          (broadcastInDim S1x1 ![1] bcast_S1_S1x1_1 (constantI S1 32 99999#32)))))
      (constantI S_ 1 1#1) reducesTo_S3200000x1_S3200000_d1 h_S_))
      (gather32 x s)
      (broadcastInDim S3200000x32 ![] bcast_S_S3200000x32 (constant (F := F) S_ .f32 0x7FC00000#32)) := rfl

theorem take3_eq (x : FVec F S100000x3 .f32) (s : IVec S3200000 32) :
    take3 x s = select (broadcastInDim S3200000x3 ![0] bcast_S3200000_S3200000x3_0
    (Host.reduce IntOp.andi
      (andi (cmpi .sge (wrapIdx s) (broadcastInDim S3200000x1 ![] bcast_S_S3200000x1 (constantI S_ 32 0#32)))
        (cmpi .sle (wrapIdx s) (broadcastInDim S3200000x1 ![0, 1] bcast_S1x1_S3200000x1_0_1
          (broadcastInDim S1x1 ![1] bcast_S1_S1x1_1 (constantI S1 32 99999#32)))))
      (constantI S_ 1 1#1) reducesTo_S3200000x1_S3200000_d1 h_S_))
      (gather3 x s)
      (broadcastInDim S3200000x3 ![] bcast_S_S3200000x3 (constant (F := F) S_ .f32 0x7FC00000#32)) := rfl

/-! ## The arguments' launch contents -/

variable (m : (ℓ : Loc nD τ sig) → Buf (Elt F) ℓ) (c : Dev nD)

abbrev A0 : FVec F S100000x32 .f32 := m ((c : Thread nD τ).loc main_arg0)
abbrev A1 : FVec F S100000x3 .f32 := m ((c : Thread nD τ).loc main_arg1)
abbrev A2 : FVec F S3200000x8 .f32 := m ((c : Thread nD τ).loc main_arg2)
abbrev A3 : IVec S3200000 32 := m ((c : Thread nD τ).loc main_arg3)
abbrev A4 : IVec S3200000 32 := m ((c : Thread nD τ).loc main_arg4)
abbrev A5 : FVec F S73x32 .f32 := m ((c : Thread nD τ).loc main_arg5)
abbrev A6 : FVec F S32 .f32 := m ((c : Thread nD τ).loc main_arg6)
abbrev A7 : FVec F S32x32 .f32 := m ((c : Thread nD τ).loc main_arg7)
abbrev A8 : FVec F S32 .f32 := m ((c : Thread nD τ).loc main_arg8)
abbrev A13 : FVec F S32x32 .f32 := m ((c : Thread nD τ).loc main_arg13)
abbrev A14 : FVec F S32 .f32 := m ((c : Thread nD τ).loc main_arg14)
abbrev A15 : FVec F S32x1 .f32 := m ((c : Thread nD τ).loc main_arg15)

/-! ## The four takes -/

/-- Moving contents to a typed reference's buffer type and back is the identity. -/
theorem ofBuf_toBuf {Val : EltTy → Type} {T : BufTy} (x : TRef sig T) (v : T.Contents Val) :
    x.ofBuf (x.toBuf v) = v := by
  simp only [TRef.ofBuf, TRef.toBuf, cast_cast, cast_eq]

set_option maxHeartbeats 4000000 in
/-- The stretch `hostOps0`, from any contents `W`, leaves in `main_v0` the take of `main_arg0` at `main_arg3` (each read
    through its typed reference). -/
theorem take_raw0 (W : Valuation τ sig (Elt F)) :
    StableHlo.after hostOps0 W (Proc.devRef .tc main_v0)
      = (TRef.of main_v0 : TRef sig ⟨S3200000x32, .f32⟩).toBuf
          (take32 ((TRef.of main_arg0 : TRef sig ⟨S100000x32, .f32⟩).ofBuf (W (Proc.devRef .tc main_arg0)))
            ((TRef.of main_arg3 : TRef sig ⟨S3200000, .i32⟩).ofBuf (W (Proc.devRef .tc main_arg3)))) := by
  after_results
  simp only [ofBuf_toBuf]
  rfl

set_option maxHeartbeats 4000000 in
/-- The stretch `hostOps0_1`, from any contents `W`, leaves in `main_v1` the take of `main_arg0` at `main_arg4` (each read
    through its typed reference). -/
theorem take_raw1 (W : Valuation τ sig (Elt F)) :
    StableHlo.after hostOps0_1 W (Proc.devRef .tc main_v1)
      = (TRef.of main_v1 : TRef sig ⟨S3200000x32, .f32⟩).toBuf
          (take32 ((TRef.of main_arg0 : TRef sig ⟨S100000x32, .f32⟩).ofBuf (W (Proc.devRef .tc main_arg0)))
            ((TRef.of main_arg4 : TRef sig ⟨S3200000, .i32⟩).ofBuf (W (Proc.devRef .tc main_arg4)))) := by
  after_results
  simp only [ofBuf_toBuf]
  rfl

set_option maxHeartbeats 4000000 in
/-- The stretch `hostOps0_2`, from any contents `W`, leaves in `main_v2` the take of `main_arg1` at `main_arg3` (each read
    through its typed reference). -/
theorem take_raw2 (W : Valuation τ sig (Elt F)) :
    StableHlo.after hostOps0_2 W (Proc.devRef .tc main_v2)
      = (TRef.of main_v2 : TRef sig ⟨S3200000x3, .f32⟩).toBuf
          (take3 ((TRef.of main_arg1 : TRef sig ⟨S100000x3, .f32⟩).ofBuf (W (Proc.devRef .tc main_arg1)))
            ((TRef.of main_arg3 : TRef sig ⟨S3200000, .i32⟩).ofBuf (W (Proc.devRef .tc main_arg3)))) := by
  after_results
  simp only [ofBuf_toBuf]
  rfl

set_option maxHeartbeats 4000000 in
/-- The stretch `hostOps0_3`, from any contents `W`, leaves in `main_v3` the take of `main_arg1` at `main_arg4` (each read
    through its typed reference). -/
theorem take_raw3 (W : Valuation τ sig (Elt F)) :
    StableHlo.after hostOps0_3 W (Proc.devRef .tc main_v3)
      = (TRef.of main_v3 : TRef sig ⟨S3200000x3, .f32⟩).toBuf
          (take3 ((TRef.of main_arg1 : TRef sig ⟨S100000x3, .f32⟩).ofBuf (W (Proc.devRef .tc main_arg1)))
            ((TRef.of main_arg4 : TRef sig ⟨S3200000, .i32⟩).ofBuf (W (Proc.devRef .tc main_arg4)))) := by
  after_results
  simp only [ofBuf_toBuf]
  rfl

/-- The node features' rows at the source indices. -/
theorem v0_eq : (Gen.V5 m c main_v0 : FVec F S3200000x32 .f32) = take32 (A0 m c) (A3 m c) := by
  have h : Gen.V5 m c main_v0 = Gen.V1 m c main_v0 :=
    (V5_of m c main_v0 (by decide)).trans <| (V4_of m c main_v0 (by decide)).trans <|
      (V3_of m c main_v0 (by decide)).trans (V2_of m c main_v0 (by decide))
  rw [h]
  show StableHlo.after hostOps0 (V0 m c) (Proc.devRef .tc main_v0) = _
  rw [take_raw0]
  have e0 : (TRef.of main_arg0 : TRef sig ⟨S100000x32, .f32⟩).ofBuf (V0 m c (Proc.devRef .tc main_arg0)) = A0 m c := rfl
  have e3 : (TRef.of main_arg3 : TRef sig ⟨S3200000, .i32⟩).ofBuf (V0 m c (Proc.devRef .tc main_arg3)) = A3 m c := rfl
  rw [e0, e3]
  generalize take32 (A0 m c) (A3 m c) = y
  rfl

/-- The node features' rows at the target indices. -/
theorem v1_eq : (Gen.V5 m c main_v1 : FVec F S3200000x32 .f32) = take32 (A0 m c) (A4 m c) := by
  have h : Gen.V5 m c main_v1 = Gen.V2 m c main_v1 :=
    (V5_of m c main_v1 (by decide)).trans <| (V4_of m c main_v1 (by decide)).trans (V3_of m c main_v1 (by decide))
  rw [h]
  show StableHlo.after hostOps0_1 (V1 m c) (Proc.devRef .tc main_v1) = _
  rw [take_raw1, V1_of m c main_arg0 (by decide), V1_of m c main_arg4 (by decide)]
  have e0 : (TRef.of main_arg0 : TRef sig ⟨S100000x32, .f32⟩).ofBuf (V0 m c (Proc.devRef .tc main_arg0)) = A0 m c := rfl
  have e4 : (TRef.of main_arg4 : TRef sig ⟨S3200000, .i32⟩).ofBuf (V0 m c (Proc.devRef .tc main_arg4)) = A4 m c := rfl
  rw [e0, e4]
  generalize take32 (A0 m c) (A4 m c) = y
  rfl

/-- The coordinates' rows at the source indices. -/
theorem v2_eq : (Gen.V5 m c main_v2 : FVec F S3200000x3 .f32) = take3 (A1 m c) (A3 m c) := by
  have h : Gen.V5 m c main_v2 = Gen.V3 m c main_v2 :=
    (V5_of m c main_v2 (by decide)).trans (V4_of m c main_v2 (by decide))
  rw [h]
  show StableHlo.after hostOps0_2 (V2 m c) (Proc.devRef .tc main_v2) = _
  rw [take_raw2, V2_of m c main_arg1 (by decide), V1_of m c main_arg1 (by decide),
    V2_of m c main_arg3 (by decide), V1_of m c main_arg3 (by decide)]
  have e1 : (TRef.of main_arg1 : TRef sig ⟨S100000x3, .f32⟩).ofBuf (V0 m c (Proc.devRef .tc main_arg1)) = A1 m c := rfl
  have e3 : (TRef.of main_arg3 : TRef sig ⟨S3200000, .i32⟩).ofBuf (V0 m c (Proc.devRef .tc main_arg3)) = A3 m c := rfl
  rw [e1, e3]
  generalize take3 (A1 m c) (A3 m c) = y
  rfl

/-- The coordinates' rows at the target indices. -/
theorem v3_eq : (Gen.V5 m c main_v3 : FVec F S3200000x3 .f32) = take3 (A1 m c) (A4 m c) := by
  have h : Gen.V5 m c main_v3 = Gen.V4 m c main_v3 := V5_of m c main_v3 (by decide)
  rw [h]
  show StableHlo.after hostOps0_3 (V3 m c) (Proc.devRef .tc main_v3) = _
  rw [take_raw3, V3_of m c main_arg1 (by decide), V2_of m c main_arg1 (by decide), V1_of m c main_arg1 (by decide),
    V3_of m c main_arg4 (by decide), V2_of m c main_arg4 (by decide), V1_of m c main_arg4 (by decide)]
  have e1 : (TRef.of main_arg1 : TRef sig ⟨S100000x3, .f32⟩).ofBuf (V0 m c (Proc.devRef .tc main_arg1)) = A1 m c := rfl
  have e4 : (TRef.of main_arg4 : TRef sig ⟨S3200000, .i32⟩).ofBuf (V0 m c (Proc.devRef .tc main_arg4)) = A4 m c := rfl
  rw [e1, e4]
  generalize take3 (A1 m c) (A4 m c) = y
  rfl

/-! ## The last stretch before the region: a concatenation, four row slices, three reshapes, a transpose

Each of the stretch's nine results is one layout operation of contents the stretch does not write; stated from any
contents `W`. -/

theorem concat_raw (W : Valuation τ sig (Elt F)) (x2 x3 : FVec F S3200000x3 .f32) (x8 : FVec F S3200000x8 .f32)
    (h2 : W (Proc.devRef .tc main_v2) = x2) (h3 : W (Proc.devRef .tc main_v3) = x3)
    (h8 : W (Proc.devRef .tc main_arg2) = x8) :
    (StableHlo.after hostOps0_4 W (Proc.devRef .tc main_v4) : FVec F S3200000x14 .f32)
      = concatenate S3200000x14 1 [⟨S3200000x3, x2⟩, ⟨S3200000x3, x3⟩, ⟨S3200000x8, x8⟩]
          concatenates_S3200000x3_S3200000x3_S3200000x8_S3200000x14_d1 := by
  subst h2 h3 h8
  after_results
  all_goals rfl

theorem slice_raw5 (W : Valuation τ sig (Elt F)) (x : FVec F S73x32 .f32) (hx : W (Proc.devRef .tc main_arg5) = x) :
    (StableHlo.after hostOps0_4 W (Proc.devRef .tc main_v5) : FVec F S32x32 .f32)
      = extractStridedSlice S32x32 ![0, 0] x slices_S73x32_S32x32_0_0 := by
  subst hx
  after_results
  all_goals rfl

theorem slice_raw6 (W : Valuation τ sig (Elt F)) (x : FVec F S73x32 .f32) (hx : W (Proc.devRef .tc main_arg5) = x) :
    (StableHlo.after hostOps0_4 W (Proc.devRef .tc main_v6) : FVec F S32x32 .f32)
      = extractStridedSlice S32x32 ![32, 0] x slices_S73x32_S32x32_32_0 := by
  subst hx
  after_results
  all_goals rfl

theorem slice_raw7 (W : Valuation τ sig (Elt F)) (x : FVec F S73x32 .f32) (hx : W (Proc.devRef .tc main_arg5) = x) :
    (StableHlo.after hostOps0_4 W (Proc.devRef .tc main_v7) : FVec F S1x32 .f32)
      = extractStridedSlice S1x32 ![64, 0] x slices_S73x32_S1x32_64_0 := by
  subst hx
  after_results
  all_goals rfl

theorem slice_raw8 (W : Valuation τ sig (Elt F)) (x : FVec F S73x32 .f32) (hx : W (Proc.devRef .tc main_arg5) = x) :
    (StableHlo.after hostOps0_4 W (Proc.devRef .tc main_v8) : FVec F S8x32 .f32)
      = extractStridedSlice S8x32 ![65, 0] x slices_S73x32_S8x32_65_0 := by
  subst hx
  after_results
  all_goals rfl

theorem reshape_raw9 (W : Valuation τ sig (Elt F)) (x : FVec F S32 .f32) (hx : W (Proc.devRef .tc main_arg6) = x) :
    (StableHlo.after hostOps0_4 W (Proc.devRef .tc main_v9) : FVec F S1x32 .f32)
      = shapeCast S1x32 x shapeCasts_S32_S1x32 := by
  subst hx
  after_results
  all_goals rfl

theorem reshape_raw10 (W : Valuation τ sig (Elt F)) (x : FVec F S32 .f32) (hx : W (Proc.devRef .tc main_arg8) = x) :
    (StableHlo.after hostOps0_4 W (Proc.devRef .tc main_v10) : FVec F S1x32 .f32)
      = shapeCast S1x32 x shapeCasts_S32_S1x32 := by
  subst hx
  after_results
  all_goals rfl

theorem reshape_raw11 (W : Valuation τ sig (Elt F)) (x : FVec F S32 .f32) (hx : W (Proc.devRef .tc main_arg14) = x) :
    (StableHlo.after hostOps0_4 W (Proc.devRef .tc main_v11) : FVec F S1x32 .f32)
      = shapeCast S1x32 x shapeCasts_S32_S1x32 := by
  subst hx
  after_results
  all_goals rfl

theorem transpose_raw12 (W : Valuation τ sig (Elt F)) (x : FVec F S32x1 .f32) (hx : W (Proc.devRef .tc main_arg15) = x) :
    (StableHlo.after hostOps0_4 W (Proc.devRef .tc main_v12) : FVec F S1x32 .f32)
      = transpose S1x32 [1, 0] x transposes_S32x1_S1x32_1_0 := by
  subst hx
  after_results
  all_goals rfl

/-- An argument's contents when the last stretch is entered are its launch contents: no earlier stretch writes it. -/
theorem V4_arg (r : Ref sig .tc) (h3 : r ∉ hostOps0_3_W) (h2 : r ∉ hostOps0_2_W) (h1 : r ∉ hostOps0_1_W)
    (h0 : r ∉ hostOps0_W) : Gen.V4 m c r = m ((c : Thread nD τ).loc r) :=
  (V4_of m c r h3).trans <| (V3_of m c r h2).trans <| (V2_of m c r h1).trans <| (V1_of m c r h0).trans rfl

/-! ### The packed narrow table -/

/-- The packed table is the concatenation, along the columns, of the coordinates' rows at the source indices, the
    coordinates' rows at the target indices and the edge features. -/
theorem v4_eq : (Gen.V5 m c main_v4 : FVec F S3200000x14 .f32)
    = concatenate S3200000x14 1 [⟨S3200000x3, take3 (A1 m c) (A3 m c)⟩, ⟨S3200000x3, take3 (A1 m c) (A4 m c)⟩,
        ⟨S3200000x8, A2 m c⟩] concatenates_S3200000x3_S3200000x3_S3200000x8_S3200000x14_d1 :=
  concat_raw (Gen.V4 m c) _ _ _
    ((V5_of m c main_v2 (by decide)).symm.trans (v2_eq m c))
    ((V5_of m c main_v3 (by decide)).symm.trans (v3_eq m c))
    (V4_arg m c main_arg2 (by decide) (by decide) (by decide) (by decide))

/-- The packed table at row `e`, column `k`: columns 0 to 2 are the source coordinates' row, columns 3 to 5 the target
    coordinates' row, columns 6 to 13 the edge features' row. -/
theorem v4_at (e : Fin 3200000) (k : Fin 14) :
    (Gen.V5 m c main_v4 : FVec F S3200000x14 .f32) (ix2 e k)
      = if h : k.val < 3 then take3 (A1 m c) (A3 m c) (ix2 e ⟨k.val, h⟩)
        else if h2 : k.val < 6 then take3 (A1 m c) (A4 m c) (ix2 e ⟨k.val - 3, by omega⟩)
        else A2 m c (ix2 e ⟨k.val - 6, by omega⟩) := by
  rw [v4_eq]
  by_cases h : k.val < 3
  · rw [dif_pos h]
    exact concatenate_apply_piece (1 : Fin 2) _ _ (ix2 e k) 0 (by show 0 < 3; omega) S3200000x3 _ rfl rfl 0 rfl
      (ix2 e ⟨k.val, h⟩) (fun b hb => match b with | ⟨0, _⟩ => rfl | ⟨1, _⟩ => absurd rfl hb)
      (by show 0 + k.val = k.val; omega)
  · rw [dif_neg h]
    by_cases h2 : k.val < 6
    · rw [dif_pos h2]
      exact concatenate_apply_piece (1 : Fin 2) _ _ (ix2 e k) 1 (by show 1 < 3; omega) S3200000x3 _ rfl rfl 3 rfl
        (ix2 e ⟨k.val - 3, by omega⟩) (fun b hb => match b with | ⟨0, _⟩ => rfl | ⟨1, _⟩ => absurd rfl hb)
        (by show 3 + (k.val - 3) = k.val; omega)
    · rw [dif_neg h2]
      exact concatenate_apply_piece (1 : Fin 2) _ _ (ix2 e k) 2 (by show 2 < 3; omega) S3200000x8 _ rfl rfl 6 rfl
        (ix2 e ⟨k.val - 6, by omega⟩) (fun b hb => match b with | ⟨0, _⟩ => rfl | ⟨1, _⟩ => absurd rfl hb)
        (by show 6 + (k.val - 6) = k.val; omega)

/-! ### The first weight matrix's row slices -/

theorem v5_at (k j : Fin 32) :
    (Gen.V5 m c main_v5 : FVec F S32x32 .f32) (ix2 k j) = A5 m c (ix2 ⟨k.val, by omega⟩ j) := by
  rw [show (Gen.V5 m c main_v5 : FVec F S32x32 .f32) = _ from
    slice_raw5 (Gen.V4 m c) _ (V4_arg m c main_arg5 (by decide) (by decide) (by decide) (by decide))]
  exact slice2_axis0_apply 0 _ _ k j _ (by show k.val = 0 + k.val; omega)

theorem v6_at (k j : Fin 32) :
    (Gen.V5 m c main_v6 : FVec F S32x32 .f32) (ix2 k j) = A5 m c (ix2 ⟨k.val + 32, by omega⟩ j) := by
  rw [show (Gen.V5 m c main_v6 : FVec F S32x32 .f32) = _ from
    slice_raw6 (Gen.V4 m c) _ (V4_arg m c main_arg5 (by decide) (by decide) (by decide) (by decide))]
  exact slice2_axis0_apply 32 _ _ k j _ (by show k.val + 32 = 32 + k.val; omega)

theorem v7_at (j : Fin 32) :
    (Gen.V5 m c main_v7 : FVec F S1x32 .f32) (ix2 0 j) = A5 m c (ix2 ⟨64, by omega⟩ j) := by
  rw [show (Gen.V5 m c main_v7 : FVec F S1x32 .f32) = _ from
    slice_raw7 (Gen.V4 m c) _ (V4_arg m c main_arg5 (by decide) (by decide) (by decide) (by decide))]
  exact slice2_axis0_apply 64 _ _ (0 : Fin 1) j _ (by show 64 = 64 + 0; omega)

theorem v8_at (k : Fin 8) (j : Fin 32) :
    (Gen.V5 m c main_v8 : FVec F S8x32 .f32) (ix2 k j) = A5 m c (ix2 ⟨k.val + 65, by omega⟩ j) := by
  rw [show (Gen.V5 m c main_v8 : FVec F S8x32 .f32) = _ from
    slice_raw8 (Gen.V4 m c) _ (V4_arg m c main_arg5 (by decide) (by decide) (by decide) (by decide))]
  exact slice2_axis0_apply 65 _ _ k j _ (by show k.val + 65 = 65 + k.val; omega)

/-! ### The bias rows and the last weight column, as rows -/

theorem v9_at (j : Fin 32) : (Gen.V5 m c main_v9 : FVec F S1x32 .f32) (ix2 0 j) = A6 m c (ix1 j) := by
  rw [show (Gen.V5 m c main_v9 : FVec F S1x32 .f32) = _ from
    reshape_raw9 (Gen.V4 m c) _ (V4_arg m c main_arg6 (by decide) (by decide) (by decide) (by decide))]
  exact shapeCast_a_1a_apply _ _ 0 j

theorem v10_at (j : Fin 32) : (Gen.V5 m c main_v10 : FVec F S1x32 .f32) (ix2 0 j) = A8 m c (ix1 j) := by
  rw [show (Gen.V5 m c main_v10 : FVec F S1x32 .f32) = _ from
    reshape_raw10 (Gen.V4 m c) _ (V4_arg m c main_arg8 (by decide) (by decide) (by decide) (by decide))]
  exact shapeCast_a_1a_apply _ _ 0 j

theorem v11_at (j : Fin 32) : (Gen.V5 m c main_v11 : FVec F S1x32 .f32) (ix2 0 j) = A14 m c (ix1 j) := by
  rw [show (Gen.V5 m c main_v11 : FVec F S1x32 .f32) = _ from
    reshape_raw11 (Gen.V4 m c) _ (V4_arg m c main_arg14 (by decide) (by decide) (by decide) (by decide))]
  exact shapeCast_a_1a_apply _ _ 0 j

theorem v12_at (j : Fin 32) : (Gen.V5 m c main_v12 : FVec F S1x32 .f32) (ix2 0 j) = A15 m c (ix2 j 0) := by
  rw [show (Gen.V5 m c main_v12 : FVec F S1x32 .f32) = _ from
    transpose_raw12 (Gen.V4 m c) _ (V4_arg m c main_arg15 (by decide) (by decide) (by decide) (by decide))]
  exact transpose_ix2_apply _ _ 0 j

/-! ### The two arguments staged as they are -/

theorem arg7_eq : (Gen.V5 m c main_arg7 : FVec F S32x32 .f32) = A7 m c :=
  (V5_of m c main_arg7 (by decide)).trans (V4_arg m c main_arg7 (by decide) (by decide) (by decide) (by decide))

theorem arg13_eq : (Gen.V5 m c main_arg13 : FVec F S32x32 .f32) = A13 m c :=
  (V5_of m c main_arg13 (by decide)).trans (V4_arg m c main_arg13 (by decide) (by decide) (by decide) (by decide))

end Cert.KernelIdeal.Host0

end
-- ==== Proof.RefEdge.lean ====
/-
  The reference program's per-edge stages, read at one row.

  For an edge e the reference gathers the feature rows and the coordinates of e's two end nodes, forms the squared
  length r of the coordinate difference, joins [source row, target row, r, edge features] into one row of 73 numbers,
  and pushes that row through two dense layers, each followed by x ↦ x · σ(x): the result is e's message. A third
  dense layer with the same activation and an inner product with a weight vector give a scalar gate; the gate times
  the coordinate difference divided by (√r + tiny) is e's coordinate message.

  Read at row e, every one of these operations touches row e of its operands only. A contraction over the joined row
  of 73 splits into the four partial products over its pieces, so row e of the message is the specification's
  edgeRowMsg of the two gathered feature rows, the packed row [source coordinates, target coordinates, edge features]
  and the row blocks [0:32], [32:64], [64], [65:73] of the first weight matrix; and row e of the coordinate message is
  the specification's edgeRowCoord of the same data. The activation x · (1 / (1 + e⁻ˣ)) is spelt out in the reference
  as negate, exponential, add one, divide one by it, multiply: that is x · σ(x) by the definition of σ. The sum that
  forms r starts from the float zero, which adds nothing. The four gathers stay opaque: nothing here depends on which
  node an index word selects.
-/
import proofs.«405486_j56169582297514_2_alg».proof.Proof.Gen.ReferenceIdeal.Read
import proofs.«405486_j56169582297514_2_alg».proof.Proof.Spec
import proofs.«405486_j56169582297514_2_alg».proof.Proof.SplitSums
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefEdge

open Cert.ReferenceIdeal Cert.ReferenceIdeal.Gen Cert.ReferenceIdeal.Read Cert.Egnn Cert.SplitSums
open Idealize.ShloMosaic Idealize.ShloMosaic.ValueIdx

/-! ## Which element of an operand an element of a result reads

Each equation names, by its two coordinates, the operand index that a broadcast, a row sum or a contraction reads for
the result index (e, ·). Both sides are functions of the axis, equal axis by axis. -/

/-- Column 0 of row e of the [E,1] squared length is entry e of the [E] one. -/
theorem idx17 (e : Fin 3200000) : idx_main_v17 (ix2 e (0 : Fin 1)) = ix1 e :=
  funext fun a => Fin.ext (by match a with | ⟨0, _⟩ => rfl)

/-- Entry e of the row sum adds the three entries of row e. -/
theorem idx16 (e : Fin 3200000) (k : Fin 3) : idx_main_v16 (ix1 e) k = ix2 e k :=
  funext fun a => Fin.ext (by match a with | ⟨0, _⟩ => rfl | ⟨1, _⟩ => rfl)

/-- Every column of row e of the broadcast length reads column 0 of row e. -/
theorem idx21 (e : Fin 3200000) (a : Fin 3) : idx_main_v21 (ix2 e a) = ix2 e (0 : Fin 1) :=
  funext fun b => Fin.ext (by match b with | ⟨0, _⟩ => rfl | ⟨1, _⟩ => rfl)

/-- The first contraction at (e, j) pairs entry k of row e of the joined rows … -/
theorem lidx38 (e : Fin 3200000) (j : Fin 32) (k : Fin 73) : lidx_main_v38 (ix2 e j) k = ix2 e k :=
  funext fun a => Fin.ext (by match a with | ⟨0, _⟩ => rfl | ⟨1, _⟩ => rfl)

/-- … with entry (k, j) of the weights. -/
theorem ridx38 (e : Fin 3200000) (j : Fin 32) (k : Fin 73) : ridx_main_v38 (ix2 e j) k = ix2 k j :=
  funext fun a => Fin.ext (by match a with | ⟨0, _⟩ => rfl | ⟨1, _⟩ => rfl)

/-- The first bias at (e, j) is entry j of the bias vector. -/
theorem idx40 (e : Fin 3200000) (j : Fin 32) : idx_main_v39 (idx_main_v40 (ix2 e j)) = ix1 j :=
  funext fun a => Fin.ext (by match a with | ⟨0, _⟩ => rfl)

/-- The second contraction at (e, j): entry k of row e … -/
theorem lidx43 (e : Fin 3200000) (j k : Fin 32) : lidx_main_v43 (ix2 e j) k = ix2 e k :=
  funext fun a => Fin.ext (by match a with | ⟨0, _⟩ => rfl | ⟨1, _⟩ => rfl)

/-- … with entry (k, j) of the weights. -/
theorem ridx43 (e : Fin 3200000) (j k : Fin 32) : ridx_main_v43 (ix2 e j) k = ix2 k j :=
  funext fun a => Fin.ext (by match a with | ⟨0, _⟩ => rfl | ⟨1, _⟩ => rfl)

/-- The second bias at (e, j) is entry j of the bias vector. -/
theorem idx45 (e : Fin 3200000) (j : Fin 32) : idx_main_v44 (idx_main_v45 (ix2 e j)) = ix1 j :=
  funext fun a => Fin.ext (by match a with | ⟨0, _⟩ => rfl)

/-- The third contraction at (e, j): entry k of row e … -/
theorem lidx48 (e : Fin 3200000) (j k : Fin 32) : lidx_main_v48 (ix2 e j) k = ix2 e k :=
  funext fun a => Fin.ext (by match a with | ⟨0, _⟩ => rfl | ⟨1, _⟩ => rfl)

/-- … with entry (k, j) of the weights. -/
theorem ridx48 (e : Fin 3200000) (j k : Fin 32) : ridx_main_v48 (ix2 e j) k = ix2 k j :=
  funext fun a => Fin.ext (by match a with | ⟨0, _⟩ => rfl | ⟨1, _⟩ => rfl)

/-- The third bias at (e, j) is entry j of the bias vector. -/
theorem idx50 (e : Fin 3200000) (j : Fin 32) : idx_main_v49 (idx_main_v50 (ix2 e j)) = ix1 j :=
  funext fun a => Fin.ext (by match a with | ⟨0, _⟩ => rfl)

/-- Every column of row e of the broadcast gate reads column 0 of row e. -/
theorem idx54 (e : Fin 3200000) (a : Fin 3) : idx_main_v54 (ix2 e a) = ix2 e (0 : Fin 1) :=
  funext fun b => Fin.ext (by match b with | ⟨0, _⟩ => rfl | ⟨1, _⟩ => rfl)

/-- The gate's inner product at (e, 0): entry k of row e … -/
theorem lidx53 (e : Fin 3200000) (k : Fin 32) : lidx_main_v53 (ix2 e (0 : Fin 1)) k = ix2 e k :=
  funext fun a => Fin.ext (by match a with | ⟨0, _⟩ => rfl | ⟨1, _⟩ => rfl)

/-- … with entry (k, 0) of the weight column. -/
theorem ridx53 (e : Fin 3200000) (k : Fin 32) : ridx_main_v53 (ix2 e (0 : Fin 1)) k = ix2 k (0 : Fin 1) :=
  funext fun a => Fin.ext (by match a with | ⟨0, _⟩ => rfl | ⟨1, _⟩ => rfl)

/-! ## The joined row

Four arrays with 32, 32, 1 and 8 columns joined along the columns: column k of row e of the result is column k,
k − 32, 0 or k − 65 of row e of the piece whose span [0,32), [32,64), [64,65), [65,73) holds k. -/

theorem cat4_at (p0 p1 : S3200000x32.Idx → EReal) (p2 : S3200000x1.Idx → EReal) (p3 : S3200000x8.Idx → EReal)
    (h : Shape.Concatenates [S3200000x32, S3200000x32, S3200000x1, S3200000x8] S3200000x73 1)
    (e : Fin 3200000) (k : Fin 73) :
    concatenate S3200000x73 1 [⟨S3200000x32, p0⟩, ⟨S3200000x32, p1⟩, ⟨S3200000x1, p2⟩, ⟨S3200000x8, p3⟩] h (ix2 e k)
      = cat73 (fun c => p0 (ix2 e c)) (fun c => p1 (ix2 e c)) (p2 (ix2 e (0 : Fin 1))) (fun c => p3 (ix2 e c)) k := by
  have key := concatenate_apply_piece (t := S3200000x73) 1
    [⟨S3200000x32, p0⟩, ⟨S3200000x32, p1⟩, ⟨S3200000x1, p2⟩, ⟨S3200000x8, p3⟩] h (ix2 e k)
  unfold cat73
  by_cases h1 : k.val < 32
  · rw [dif_pos h1]
    exact key 0 (by show (0 : Nat) < 4; omega) S3200000x32 p0 rfl rfl 0 rfl (ix2 e ⟨k.val, h1⟩)
      (fun b hb => by match b with | ⟨0, _⟩ => rfl | ⟨1, _⟩ => exact absurd rfl hb)
      (by show 0 + k.val = k.val; omega)
  · rw [dif_neg h1]
    by_cases h2 : k.val < 64
    · rw [dif_pos h2]
      exact key 1 (by show (1 : Nat) < 4; omega) S3200000x32 p1 rfl rfl 32 rfl (ix2 e ⟨k.val - 32, by omega⟩)
        (fun b hb => by match b with | ⟨0, _⟩ => rfl | ⟨1, _⟩ => exact absurd rfl hb)
        (by show 32 + (k.val - 32) = k.val; omega)
    · rw [dif_neg h2]
      by_cases h3 : k.val < 65
      · rw [dif_pos h3]
        exact key 2 (by show (2 : Nat) < 4; omega) S3200000x1 p2 rfl rfl 64 rfl (ix2 e (0 : Fin 1))
          (fun b hb => by match b with | ⟨0, _⟩ => rfl | ⟨1, _⟩ => exact absurd rfl hb)
          (by show 64 + 0 = k.val; omega)
      · rw [dif_neg h3]
        exact key 3 (by show (3 : Nat) < 4; omega) S3200000x8 p3 rfl rfl 65 rfl (ix2 e ⟨k.val - 65, by have := k.isLt; omega⟩)
          (fun b hb => by match b with | ⟨0, _⟩ => rfl | ⟨1, _⟩ => exact absurd rfl hb)
          (by show 65 + (k.val - 65) = k.val; omega)

/-! ## The activation -/

/-- x times one over (one plus e to the minus x), the ones being the float 1, is x · σ(x). -/
theorem silu_read (x : EReal) :
    x * Ideal.div (Ideal.ofBits .f32 0x3F800000#32) (Ideal.ofBits .f32 0x3F800000#32 + Ideal.exp (-x)) = silu x := by
  rw [Ideal.ofBits_one_f32]; rfl

variable (x0 : (⟨S100000x32, .f32⟩ : BufTy).Contents (Elt Ideal)) (x1 : (⟨S100000x3, .f32⟩ : BufTy).Contents (Elt Ideal))
  (x2 : (⟨S3200000x8, .f32⟩ : BufTy).Contents (Elt Ideal)) (x3 x4 : (⟨S3200000, .i32⟩ : BufTy).Contents (Elt Ideal))
  (x5 : (⟨S73x32, .f32⟩ : BufTy).Contents (Elt Ideal)) (x6 : (⟨S32, .f32⟩ : BufTy).Contents (Elt Ideal))
  (x7 : (⟨S32x32, .f32⟩ : BufTy).Contents (Elt Ideal)) (x8 : (⟨S32, .f32⟩ : BufTy).Contents (Elt Ideal))
  (x13 : (⟨S32x32, .f32⟩ : BufTy).Contents (Elt Ideal)) (x14 : (⟨S32, .f32⟩ : BufTy).Contents (Elt Ideal))
  (x15 : (⟨S32x1, .f32⟩ : BufTy).Contents (Elt Ideal))

/-! ## The packed row of an edge's narrow inputs -/

/-- Edge e's 14 narrow numbers: the gathered source coordinates, the gathered target coordinates, the edge features. -/
def rowR (e : Fin 3200000) : Fin 14 → EReal := fun k =>
  if h : k.val < 3 then val_main_v6 (F := Ideal) x1 x3 (ix2 e ⟨k.val, h⟩)
  else if h2 : k.val < 6 then val_main_v13 (F := Ideal) x1 x4 (ix2 e ⟨k.val - 3, by omega⟩)
  else x2 (ix2 e ⟨k.val - 6, by omega⟩)

/-- Its first three entries are the gathered source coordinates. -/
theorem narSrc_rowR (e : Fin 3200000) :
    narSrc (rowR x1 x2 x3 x4 e) = fun a => val_main_v6 (F := Ideal) x1 x3 (ix2 e a) := by
  funext a
  show rowR x1 x2 x3 x4 e ⟨a.val, _⟩ = _
  unfold rowR
  rw [dif_pos (show a.val < 3 from a.isLt)]

/-- Its next three are the gathered target coordinates. -/
theorem narDst_rowR (e : Fin 3200000) :
    narDst (rowR x1 x2 x3 x4 e) = fun a => val_main_v13 (F := Ideal) x1 x4 (ix2 e a) := by
  funext a
  show rowR x1 x2 x3 x4 e ⟨a.val + 3, _⟩ = _
  unfold rowR
  rw [dif_neg (show ¬ a.val + 3 < 3 by omega), dif_pos (show a.val + 3 < 6 by omega)]
  exact congrArg (fun c => val_main_v13 (F := Ideal) x1 x4 (ix2 e c)) (Fin.ext (by show a.val + 3 - 3 = a.val; omega))

/-- Its last eight are the edge features. -/
theorem narEf_rowR (e : Fin 3200000) :
    narEf (rowR x1 x2 x3 x4 e) = fun k => x2 (ix2 e k) := by
  funext k
  show rowR x1 x2 x3 x4 e ⟨k.val + 6, _⟩ = _
  unfold rowR
  rw [dif_neg (show ¬ k.val + 6 < 3 by omega), dif_neg (show ¬ k.val + 6 < 6 by omega)]
  exact congrArg (fun c => x2 (ix2 e c)) (Fin.ext (by show k.val + 6 - 6 = k.val; omega))

/-! ## The squared length and the normalised difference -/

/-- Row e of the squared length is the squared distance of the two gathered coordinate rows: the sum over the three
    coordinates of the squared difference, the float zero it starts from adding nothing. -/
theorem ref_sq_at (e : Fin 3200000) :
    val_main_v17 (F := Ideal) x1 x3 x4 (ix2 e (0 : Fin 1))
      = sqDist (narSrc (rowR x1 x2 x3 x4 e)) (narDst (rowR x1 x2 x3 x4 e)) := by
  rw [narSrc_rowR, narDst_rowR, val_main_v17_apply, idx17, val_main_v16_apply, val_main_cst_apply, Ideal.ofBits_def,
    Ideal.ofBits_zero_f32, zero_add]
  unfold sqDist
  refine Finset.sum_congr rfl fun k _ => ?_
  rw [idx16, val_main_v15_apply, val_main_v14_apply, Ideal.mulf_def, Ideal.subf_def]

/-- Entry (e, a) of the normalised difference: the coordinate difference over (the square root of the squared
    length, plus the guard). -/
theorem ref_unit_at (e : Fin 3200000) (a : Fin 3) :
    val_main_v22 (F := Ideal) x1 x3 x4 (ix2 e a)
      = unitDiff (narSrc (rowR x1 x2 x3 x4 e)) (narDst (rowR x1 x2 x3 x4 e)) a := by
  rw [val_main_v22_apply, val_main_v14_apply, val_main_v21_apply, idx21, val_main_v20_apply, val_main_v18_apply,
    val_main_v19_apply, val_main_cst_3_apply, ref_sq_at x1 x2 x3 x4 e, Ideal.hostDivf_def, Ideal.subf_def, Ideal.addf_def,
    Ideal.hostUnary_sqrt_def, Ideal.ofBits_def]
  unfold unitDiff
  rw [narSrc_rowR, narDst_rowR]
  rfl

/-! ## The first layer -/

/-- Row e of the joined array is the concatenation of the two gathered feature rows, the squared length and the
    edge features. -/
theorem ref_cat_at (e : Fin 3200000) (k : Fin 73) :
    val_main_v37 (F := Ideal) x0 x1 x2 x3 x4 (ix2 e k)
      = cat73 (fun c => val_main_v29 (F := Ideal) x0 x3 (ix2 e c)) (fun c => val_main_v36 (F := Ideal) x0 x4 (ix2 e c))
          (val_main_v17 (F := Ideal) x1 x3 x4 (ix2 e (0 : Fin 1))) (fun c => x2 (ix2 e c)) k := by
  unfold val_main_v37
  exact cat4_at _ _ _ _ _ e k

/-- Entry (e, j) before the first activation: the four partial products over the pieces of the joined row, plus the
    bias. -/
theorem ref_pre1_at (e : Fin 3200000) (j : Fin 32) :
    val_main_v41 (F := Ideal) x0 x1 x2 x3 x4 x5 x6 (ix2 e j)
      = ((((∑ k : Fin 32, val_main_v29 (F := Ideal) x0 x3 (ix2 e k) * x5 (ix2 ⟨k.val, by omega⟩ j))
              + (∑ k : Fin 32, val_main_v36 (F := Ideal) x0 x4 (ix2 e k) * x5 (ix2 ⟨k.val + 32, by omega⟩ j)))
            + val_main_v17 (F := Ideal) x1 x3 x4 (ix2 e (0 : Fin 1)) * x5 (ix2 ⟨64, by omega⟩ j))
          + (∑ k : Fin 8, x2 (ix2 e k) * x5 (ix2 ⟨k.val + 65, by omega⟩ j)))
        + x6 (ix1 j) := by
  rw [val_main_v41_apply, val_main_v38_apply, val_main_v40_apply, val_main_v39_apply, idx40, Ideal.addf_def]
  have hs : ∀ k : Fin 73,
      val_main_v37 (F := Ideal) x0 x1 x2 x3 x4 (lidx_main_v38 (ix2 e j) k) * x5 (ridx_main_v38 (ix2 e j) k)
        = cat73 (fun c => val_main_v29 (F := Ideal) x0 x3 (ix2 e c)) (fun c => val_main_v36 (F := Ideal) x0 x4 (ix2 e c))
            (val_main_v17 (F := Ideal) x1 x3 x4 (ix2 e (0 : Fin 1))) (fun c => x2 (ix2 e c)) k * x5 (ix2 k j) := fun k => by
    rw [lidx38, ridx38, ref_cat_at]
  rw [Finset.sum_congr rfl fun k _ => hs k, sum_cat73]

/-- The first activation, elementwise. -/
theorem ref_act0_at (i : S3200000x32.Idx) :
    val_main_v42 (F := Ideal) x0 x1 x2 x3 x4 x5 x6 i = silu (val_main_v41 (F := Ideal) x0 x1 x2 x3 x4 x5 x6 i) := by
  rw [val_main_v42_apply, val_main_call0_v5_apply, val_main_call0_v4_apply, val_main_call0_cst_0_apply,
    val_main_call0_v3_apply, val_main_call0_v2_apply, val_main_call0_cst_apply, val_main_call0_v1_apply,
    val_main_call0_v0_apply, Ideal.mulf_def, Ideal.hostDivf_def, Ideal.addf_def, Ideal.hostUnary_exp_def,
    Ideal.hostNegf_def, Ideal.negf_def, Ideal.ofBits_def]
  exact silu_read _

/-- Row e after the first layer is the specification's hidden row. -/
theorem ref_hidden_row (e : Fin 3200000) :
    (fun k => val_main_v42 (F := Ideal) x0 x1 x2 x3 x4 x5 x6 (ix2 e k))
      = edgeHidden (fun k => val_main_v29 (F := Ideal) x0 x3 (ix2 e k)) (fun k => val_main_v36 (F := Ideal) x0 x4 (ix2 e k))
          (sqDist (narSrc (rowR x1 x2 x3 x4 e)) (narDst (rowR x1 x2 x3 x4 e))) (narEf (rowR x1 x2 x3 x4 e))
          (fun k j => x5 (ix2 ⟨k.val, by omega⟩ j)) (fun k j => x5 (ix2 ⟨k.val + 32, by omega⟩ j))
          (fun j => x5 (ix2 ⟨64, by omega⟩ j)) (fun k j => x5 (ix2 ⟨k.val + 65, by omega⟩ j)) (fun j => x6 (ix1 j)) := by
  funext j
  rw [ref_act0_at, ref_pre1_at, ref_sq_at x1 x2 x3 x4 e, narEf_rowR]
  rfl

/-! ## The second layer: the message -/

/-- Entry (e, j) before the second activation: a dense layer over row e of the hidden array. -/
theorem ref_pre2_at (e : Fin 3200000) (j : Fin 32) :
    val_main_v46 (F := Ideal) x0 x1 x2 x3 x4 x5 x6 x7 x8 (ix2 e j)
      = dense (fun k => val_main_v42 (F := Ideal) x0 x1 x2 x3 x4 x5 x6 (ix2 e k)) (fun k j => x7 (ix2 k j))
          (fun j => x8 (ix1 j)) j := by
  rw [val_main_v46_apply, val_main_v43_apply, val_main_v45_apply, val_main_v44_apply, idx45, Ideal.addf_def]
  have hs : ∀ k : Fin 32,
      val_main_v42 (F := Ideal) x0 x1 x2 x3 x4 x5 x6 (lidx_main_v43 (ix2 e j) k) * x7 (ridx_main_v43 (ix2 e j) k)
        = val_main_v42 (F := Ideal) x0 x1 x2 x3 x4 x5 x6 (ix2 e k) * x7 (ix2 k j) := fun k => by
    rw [lidx43, ridx43]
  rw [Finset.sum_congr rfl fun k _ => hs k]
  rfl

/-- The second activation, elementwise. -/
theorem ref_act1_at (i : S3200000x32.Idx) :
    val_main_v47 (F := Ideal) x0 x1 x2 x3 x4 x5 x6 x7 x8 i
      = silu (val_main_v46 (F := Ideal) x0 x1 x2 x3 x4 x5 x6 x7 x8 i) := by
  rw [val_main_v47_apply, val_main_call1_v5_apply, val_main_call1_v4_apply, val_main_call1_cst_0_apply,
    val_main_call1_v3_apply, val_main_call1_v2_apply, val_main_call1_cst_apply, val_main_call1_v1_apply,
    val_main_call1_v0_apply, Ideal.mulf_def, Ideal.hostDivf_def, Ideal.addf_def, Ideal.hostUnary_exp_def,
    Ideal.hostNegf_def, Ideal.negf_def, Ideal.ofBits_def]
  exact silu_read _

/-- **Entry (e, j) of the reference's message is the specification's message of edge e's row data.** -/
theorem ref_msg_at (e : Fin 3200000) (j : Fin 32) :
    val_main_v47 (F := Ideal) x0 x1 x2 x3 x4 x5 x6 x7 x8 (ix2 e j)
      = edgeRowMsg (fun k => val_main_v29 (F := Ideal) x0 x3 (ix2 e k)) (fun k => val_main_v36 (F := Ideal) x0 x4 (ix2 e k))
          (rowR x1 x2 x3 x4 e)
          (fun k j => x5 (ix2 ⟨k.val, by omega⟩ j)) (fun k j => x5 (ix2 ⟨k.val + 32, by omega⟩ j))
          (fun j => x5 (ix2 ⟨64, by omega⟩ j)) (fun k j => x5 (ix2 ⟨k.val + 65, by omega⟩ j)) (fun j => x6 (ix1 j))
          (fun k j => x7 (ix2 k j)) (fun j => x8 (ix1 j)) j := by
  rw [ref_act1_at, ref_pre2_at, ref_hidden_row]
  rfl

/-! ## The gate and the coordinate message -/

/-- Entry (e, j) before the third activation: a dense layer over row e of the message. -/
theorem ref_pre3_at (e : Fin 3200000) (j : Fin 32) :
    val_main_v51 (F := Ideal) x0 x1 x2 x3 x4 x5 x6 x7 x8 x13 x14 (ix2 e j)
      = dense (fun k => val_main_v47 (F := Ideal) x0 x1 x2 x3 x4 x5 x6 x7 x8 (ix2 e k)) (fun k j => x13 (ix2 k j))
          (fun j => x14 (ix1 j)) j := by
  rw [val_main_v51_apply, val_main_v48_apply, val_main_v50_apply, val_main_v49_apply, idx50, Ideal.addf_def]
  have hs : ∀ k : Fin 32,
      val_main_v47 (F := Ideal) x0 x1 x2 x3 x4 x5 x6 x7 x8 (lidx_main_v48 (ix2 e j) k) * x13 (ridx_main_v48 (ix2 e j) k)
        = val_main_v47 (F := Ideal) x0 x1 x2 x3 x4 x5 x6 x7 x8 (ix2 e k) * x13 (ix2 k j) := fun k => by
    rw [lidx48, ridx48]
  rw [Finset.sum_congr rfl fun k _ => hs k]
  rfl

/-- The third activation, elementwise. -/
theorem ref_act2_at (i : S3200000x32.Idx) :
    val_main_v52 (F := Ideal) x0 x1 x2 x3 x4 x5 x6 x7 x8 x13 x14 i
      = silu (val_main_v51 (F := Ideal) x0 x1 x2 x3 x4 x5 x6 x7 x8 x13 x14 i) := by
  rw [val_main_v52_apply, val_main_call2_v5_apply, val_main_call2_v4_apply, val_main_call2_cst_0_apply,
    val_main_call2_v3_apply, val_main_call2_v2_apply, val_main_call2_cst_apply, val_main_call2_v1_apply,
    val_main_call2_v0_apply, Ideal.mulf_def, Ideal.hostDivf_def, Ideal.addf_def, Ideal.hostUnary_exp_def,
    Ideal.hostNegf_def, Ideal.negf_def, Ideal.ofBits_def]
  exact silu_read _

/-- Every column of row e of the broadcast gate is the specification's gate of row e of the message. -/
theorem ref_gate_at (e : Fin 3200000) (a : Fin 3) :
    val_main_v54 (F := Ideal) x0 x1 x2 x3 x4 x5 x6 x7 x8 x13 x14 x15 (ix2 e a)
      = gate (fun k => val_main_v47 (F := Ideal) x0 x1 x2 x3 x4 x5 x6 x7 x8 (ix2 e k)) (fun k j => x13 (ix2 k j))
          (fun j => x14 (ix1 j)) (fun j => x15 (ix2 j (0 : Fin 1))) := by
  rw [val_main_v54_apply, idx54, val_main_v53_apply]
  unfold gate
  refine Finset.sum_congr rfl fun k _ => ?_
  rw [lidx53, ridx53, ref_act2_at, ref_pre3_at]

/-- **Entry (e, a) of the reference's coordinate message is the specification's coordinate message of edge e's row
    data.** -/
theorem ref_coord_at (e : Fin 3200000) (a : Fin 3) :
    val_main_v55 (F := Ideal) x0 x1 x2 x3 x4 x5 x6 x7 x8 x13 x14 x15 (ix2 e a)
      = edgeRowCoord (fun k => val_main_v29 (F := Ideal) x0 x3 (ix2 e k)) (fun k => val_main_v36 (F := Ideal) x0 x4 (ix2 e k))
          (rowR x1 x2 x3 x4 e)
          (fun k j => x5 (ix2 ⟨k.val, by omega⟩ j)) (fun k j => x5 (ix2 ⟨k.val + 32, by omega⟩ j))
          (fun j => x5 (ix2 ⟨64, by omega⟩ j)) (fun k j => x5 (ix2 ⟨k.val + 65, by omega⟩ j)) (fun j => x6 (ix1 j))
          (fun k j => x7 (ix2 k j)) (fun j => x8 (ix1 j))
          (fun k j => x13 (ix2 k j)) (fun j => x14 (ix1 j)) (fun j => x15 (ix2 j (0 : Fin 1))) a := by
  have hm : (fun k => val_main_v47 (F := Ideal) x0 x1 x2 x3 x4 x5 x6 x7 x8 (ix2 e k))
      = edgeRowMsg (fun k => val_main_v29 (F := Ideal) x0 x3 (ix2 e k)) (fun k => val_main_v36 (F := Ideal) x0 x4 (ix2 e k))
          (rowR x1 x2 x3 x4 e)
          (fun k j => x5 (ix2 ⟨k.val, by omega⟩ j)) (fun k j => x5 (ix2 ⟨k.val + 32, by omega⟩ j))
          (fun j => x5 (ix2 ⟨64, by omega⟩ j)) (fun k j => x5 (ix2 ⟨k.val + 65, by omega⟩ j)) (fun j => x6 (ix1 j))
          (fun k j => x7 (ix2 k j)) (fun j => x8 (ix1 j)) :=
    funext fun k => ref_msg_at x0 x1 x2 x3 x4 x5 x6 x7 x8 e k
  rw [val_main_v55_apply, Ideal.mulf_def, ref_gate_at, ref_unit_at x1 x2 x3 x4 e a, hm]
  rfl

end Cert.ReferenceIdeal.RefEdge

end
-- ==== Proof.BridgeEdge.lean ====
/-
  The edge half of the comparison of the two programs.

  Both programs compute, for every edge, a message (32 numbers) and a coordinate message (3 numbers) from the feature
  rows and coordinates of the edge's two end nodes, the edge's own features and the edge network's weights. The
  reference program does it with whole-array operations; the kernel program first takes the end nodes' rows (replacing
  the rows of out-of-range indices by a fill value), packs the narrow per-edge data into one row of 14 numbers, cuts
  the first weight matrix into its four parts, and then runs the edge kernel over blocks of edges.

  For one edge e both sides are already known to be the specification's per-edge functions: of the kernel program's
  prepared arrays at row e on one side, of the reference program's gathered rows at row e on the other. So the
  comparison is a comparison of the arguments, one by one:
    * the source and target feature rows and coordinates: where the index is in range the take-with-fill's mask is 1,
      so the row taken is the row gathered, and the two programs wrap a negative index and gather in the same way
      (their records of the operation have the same content);
    * the packed row: its three parts are the source coordinates, the target coordinates and the edge features,
      which is how the reference side's row is put together;
    * the weights and biases: a part cut out of the first weight matrix is that matrix read at shifted rows; a bias
      vector viewed as one row, or a weight column viewed as a row, reads the same numbers.
  The source indices are in range for every edge by hypothesis; the target index of the one edge considered is a
  valid node by hypothesis.
-/
import proofs.«405486_j56169582297514_2_alg».proof.Proof.KernelRunI
import proofs.«405486_j56169582297514_2_alg».proof.Proof.EdgeValueI
import proofs.«405486_j56169582297514_2_alg».proof.Proof.KernelHost0I
import proofs.«405486_j56169582297514_2_alg».proof.Proof.TakeRows
import proofs.«405486_j56169582297514_2_alg».proof.Proof.RefEdge
import proofs.«405486_j56169582297514_2_alg».proof.Proof.Spec
import proofs.«405486_j56169582297514_2_alg».proof.Proof.Gen.ReferenceIdeal.Read
import Idealize.ShloMosaic.Lib.ValueIdx

noncomputable section

namespace Cert.Bridge

open Cert.KernelIdeal Cert.KernelIdeal.Gen Cert.KernelIdeal.Run Cert.KernelIdeal.EdgeValue Cert.KernelIdeal.Host0
open Cert.ReferenceIdeal.RefEdge Cert.Egnn
open Idealize.ShloMosaic Idealize.ShloMosaic.TcCoe Idealize.ShloMosaic.ValueIdx Idealize.SL.Sem

/-! ## Two records of the same operation

Each program prints its own copy of the shapes, of the gather's dimension numbers and of the evidence its operations
cite. The copies have the same literal content, so a value of one program's array type is a value of the other's, and
a gather through one program's record is the gather through the other's. -/

/-- Rows of a 32-wide table taken at in-range indices: the kernel program's take-with-fill at row e is the reference
    program's gather at the source indices, since the row's mask is 1 and both wrap the index the same way. -/
theorem take32_src (x : FVec Ideal S100000x32 .f32) (s : IVec S3200000 32) (e : Fin 3200000) (k : Fin 32)
    (hlo : (-100000 : Int) ≤ (s (ix1 e)).toInt) (hhi : (s (ix1 e)).toInt < 100000) :
    take32 x s (ix2 e k) = Cert.ReferenceIdeal.Read.val_main_v29 (F := Ideal) x s (ix2 e k) := by
  have h : take32 x s (ix2 e k) = gather32 x s (ix2 e k) := by
    unfold take32
    exact Cert.TakeRows.take_fill_row_f32 bcast_S_S3200000 bcast_S3200000_S3200000x1_0 bcast_S_S3200000x1 bcast_S1_S1x1_1
      bcast_S1x1_S3200000x1_0_1 reducesTo_S3200000x1_S3200000_d1 h_S_ bcast_S3200000_S3200000x32_0 s _ _ e k hlo hhi
  exact h.trans rfl

/-- The same at the target indices. -/
theorem take32_dst (x : FVec Ideal S100000x32 .f32) (s : IVec S3200000 32) (e : Fin 3200000) (k : Fin 32)
    (hlo : (-100000 : Int) ≤ (s (ix1 e)).toInt) (hhi : (s (ix1 e)).toInt < 100000) :
    take32 x s (ix2 e k) = Cert.ReferenceIdeal.Read.val_main_v36 (F := Ideal) x s (ix2 e k) := by
  have h : take32 x s (ix2 e k) = gather32 x s (ix2 e k) := by
    unfold take32
    exact Cert.TakeRows.take_fill_row_f32 bcast_S_S3200000 bcast_S3200000_S3200000x1_0 bcast_S_S3200000x1 bcast_S1_S1x1_1
      bcast_S1x1_S3200000x1_0_1 reducesTo_S3200000x1_S3200000_d1 h_S_ bcast_S3200000_S3200000x32_0 s _ _ e k hlo hhi
  exact h.trans rfl

/-- Rows of the 3-wide coordinate table at the source indices. -/
theorem take3_src (x : FVec Ideal S100000x3 .f32) (s : IVec S3200000 32) (e : Fin 3200000) (a : Fin 3)
    (hlo : (-100000 : Int) ≤ (s (ix1 e)).toInt) (hhi : (s (ix1 e)).toInt < 100000) :
    take3 x s (ix2 e a) = Cert.ReferenceIdeal.Read.val_main_v6 (F := Ideal) x s (ix2 e a) := by
  have h : take3 x s (ix2 e a) = gather3 x s (ix2 e a) := by
    unfold take3
    exact Cert.TakeRows.take_fill_row_f32 bcast_S_S3200000 bcast_S3200000_S3200000x1_0 bcast_S_S3200000x1 bcast_S1_S1x1_1
      bcast_S1x1_S3200000x1_0_1 reducesTo_S3200000x1_S3200000_d1 h_S_ bcast_S3200000_S3200000x3_0 s _ _ e a hlo hhi
  exact h.trans rfl

/-- Rows of the coordinate table at the target indices. -/
theorem take3_dst (x : FVec Ideal S100000x3 .f32) (s : IVec S3200000 32) (e : Fin 3200000) (a : Fin 3)
    (hlo : (-100000 : Int) ≤ (s (ix1 e)).toInt) (hhi : (s (ix1 e)).toInt < 100000) :
    take3 x s (ix2 e a) = Cert.ReferenceIdeal.Read.val_main_v13 (F := Ideal) x s (ix2 e a) := by
  have h : take3 x s (ix2 e a) = gather3 x s (ix2 e a) := by
    unfold take3
    exact Cert.TakeRows.take_fill_row_f32 bcast_S_S3200000 bcast_S3200000_S3200000x1_0 bcast_S_S3200000x1 bcast_S1_S1x1_1
      bcast_S1x1_S3200000x1_0_1 reducesTo_S3200000x1_S3200000_d1 h_S_ bcast_S3200000_S3200000x3_0 s _ _ e a hlo hhi
  exact h.trans rfl

/-! ## The specification's functions depend only on the values of their arguments -/

theorem edgeRowMsg_congr {sh sh' dh dh' : Fin 32 → EReal} {nar nar' : Fin 14 → EReal} {Wa Wa' Wb Wb' : Fin 32 → Fin 32 → EReal}
    {wr wr' : Fin 32 → EReal} {We We' : Fin 8 → Fin 32 → EReal} {b1 b1' : Fin 32 → EReal} {W2 W2' : Fin 32 → Fin 32 → EReal}
    {b2 b2' : Fin 32 → EReal} (h1 : ∀ k, sh k = sh' k) (h2 : ∀ k, dh k = dh' k) (h3 : ∀ k, nar k = nar' k)
    (h4 : ∀ k j, Wa k j = Wa' k j) (h5 : ∀ k j, Wb k j = Wb' k j) (h6 : ∀ j, wr j = wr' j) (h7 : ∀ k j, We k j = We' k j)
    (h8 : ∀ j, b1 j = b1' j) (h9 : ∀ k j, W2 k j = W2' k j) (h10 : ∀ j, b2 j = b2' j) (j : Fin 32) :
    edgeRowMsg sh dh nar Wa Wb wr We b1 W2 b2 j = edgeRowMsg sh' dh' nar' Wa' Wb' wr' We' b1' W2' b2' j := by
  obtain rfl : sh = sh' := funext h1
  obtain rfl : dh = dh' := funext h2
  obtain rfl : nar = nar' := funext h3
  obtain rfl : Wa = Wa' := funext fun k => funext (h4 k)
  obtain rfl : Wb = Wb' := funext fun k => funext (h5 k)
  obtain rfl : wr = wr' := funext h6
  obtain rfl : We = We' := funext fun k => funext (h7 k)
  obtain rfl : b1 = b1' := funext h8
  obtain rfl : W2 = W2' := funext fun k => funext (h9 k)
  obtain rfl : b2 = b2' := funext h10
  rfl

theorem edgeRowCoord_congr {sh sh' dh dh' : Fin 32 → EReal} {nar nar' : Fin 14 → EReal} {Wa Wa' Wb Wb' : Fin 32 → Fin 32 → EReal}
    {wr wr' : Fin 32 → EReal} {We We' : Fin 8 → Fin 32 → EReal} {b1 b1' : Fin 32 → EReal} {W2 W2' : Fin 32 → Fin 32 → EReal}
    {b2 b2' : Fin 32 → EReal} {Wc Wc' : Fin 32 → Fin 32 → EReal} {bc bc' wg wg' : Fin 32 → EReal}
    (h1 : ∀ k, sh k = sh' k) (h2 : ∀ k, dh k = dh' k) (h3 : ∀ k, nar k = nar' k)
    (h4 : ∀ k j, Wa k j = Wa' k j) (h5 : ∀ k j, Wb k j = Wb' k j) (h6 : ∀ j, wr j = wr' j) (h7 : ∀ k j, We k j = We' k j)
    (h8 : ∀ j, b1 j = b1' j) (h9 : ∀ k j, W2 k j = W2' k j) (h10 : ∀ j, b2 j = b2' j)
    (h11 : ∀ k j, Wc k j = Wc' k j) (h12 : ∀ j, bc j = bc' j) (h13 : ∀ j, wg j = wg' j) (a : Fin 3) :
    edgeRowCoord sh dh nar Wa Wb wr We b1 W2 b2 Wc bc wg a
      = edgeRowCoord sh' dh' nar' Wa' Wb' wr' We' b1' W2' b2' Wc' bc' wg' a := by
  obtain rfl : sh = sh' := funext h1
  obtain rfl : dh = dh' := funext h2
  obtain rfl : nar = nar' := funext h3
  obtain rfl : Wa = Wa' := funext fun k => funext (h4 k)
  obtain rfl : Wb = Wb' := funext fun k => funext (h5 k)
  obtain rfl : wr = wr' := funext h6
  obtain rfl : We = We' := funext fun k => funext (h7 k)
  obtain rfl : b1 = b1' := funext h8
  obtain rfl : W2 = W2' := funext fun k => funext (h9 k)
  obtain rfl : b2 = b2' := funext h10
  obtain rfl : Wc = Wc' := funext fun k => funext (h11 k)
  obtain rfl : bc = bc' := funext h12
  obtain rfl : wg = wg' := funext h13
  rfl

/-! ## The edge region's inputs against the reference's, one edge at a time -/

section
variable (m : (ℓ : Loc nD τ sig) → Buf (Elt Ideal) ℓ) (c : Dev nD)

/-- The edge's source feature row. -/
theorem src_row (e : Fin 3200000) (hlo : (-100000 : Int) ≤ (A3 m c (ix1 e)).toInt) (hhi : (A3 m c (ix1 e)).toInt < 100000)
    (k : Fin 32) :
    aSH (E5 m) c (ix2 e k) = Cert.ReferenceIdeal.Read.val_main_v29 (F := Ideal) (A0 m c) (A3 m c) (ix2 e k) := by
  refine (congrFun (v0_eq m c) (ix2 e k)).trans ?_
  exact take32_src (A0 m c) (A3 m c) e k hlo hhi

/-- The edge's target feature row. -/
theorem dst_row (e : Fin 3200000) (hlo : (-100000 : Int) ≤ (A4 m c (ix1 e)).toInt) (hhi : (A4 m c (ix1 e)).toInt < 100000)
    (k : Fin 32) :
    aDH (E5 m) c (ix2 e k) = Cert.ReferenceIdeal.Read.val_main_v36 (F := Ideal) (A0 m c) (A4 m c) (ix2 e k) := by
  refine (congrFun (v1_eq m c) (ix2 e k)).trans ?_
  exact take32_dst (A0 m c) (A4 m c) e k hlo hhi

/-- The edge's packed narrow row: source coordinates, target coordinates, edge features. -/
theorem packed_row (e : Fin 3200000) (hlo3 : (-100000 : Int) ≤ (A3 m c (ix1 e)).toInt) (hhi3 : (A3 m c (ix1 e)).toInt < 100000)
    (hlo4 : (-100000 : Int) ≤ (A4 m c (ix1 e)).toInt) (hhi4 : (A4 m c (ix1 e)).toInt < 100000) (k : Fin 14) :
    aRow (E5 m) c (ix2 e k) = rowR (A1 m c) (A2 m c) (A3 m c) (A4 m c) e k := by
  refine (v4_at m c e k).trans ?_
  unfold rowR
  by_cases h : k.val < 3
  · rw [dif_pos h, dif_pos h]
    exact take3_src (A1 m c) (A3 m c) e _ hlo3 hhi3
  · rw [dif_neg h, dif_neg h]
    by_cases h2 : k.val < 6
    · rw [dif_pos h2, dif_pos h2]
      exact take3_dst (A1 m c) (A4 m c) e _ hlo4 hhi4
    · rw [dif_neg h2, dif_neg h2]

/-! ## The two agreements -/

/-- THE MESSAGE. For an edge whose target index is a valid node, the message the kernel program's edge region leaves
    is the reference program's, entry by entry. -/
theorem msg_agree
    (hsrc : ∀ e : Fin 3200000, (-100000 : Int) ≤ (A3 m c (ix1 e)).toInt ∧ (A3 m c (ix1 e)).toInt < 100000)
    (e : Fin 3200000) (hd0 : (0 : Int) ≤ (A4 m c (ix1 e)).toInt) (hd1 : (A4 m c (ix1 e)).toInt < 100000) (k : Fin 32) :
    (W6 m c (Proc.devRef .tc main_v13_0) : S3200000x32.Idx → EReal) (ix2 e k)
      = Cert.ReferenceIdeal.Read.val_main_v47 (F := Ideal) (A0 m c) (A1 m c) (A2 m c) (A3 m c) (A4 m c) (A5 m c) (A6 m c)
          (A7 m c) (A8 m c) (ix2 e k) := by
  have hlo4 : (-100000 : Int) ≤ (A4 m c (ix1 e)).toInt := by omega
  refine (congrFun (W6_arr m c 13) (ix2 e k)).trans ?_
  refine (final_msg (E5 m) c e k).trans ?_
  refine Eq.trans ?_ (ref_msg_at (A0 m c) (A1 m c) (A2 m c) (A3 m c) (A4 m c) (A5 m c) (A6 m c) (A7 m c) (A8 m c) e k).symm
  exact edgeRowMsg_congr
    (fun i => src_row m c e (hsrc e).1 (hsrc e).2 i)
    (fun i => dst_row m c e hlo4 hd1 i)
    (fun i => packed_row m c e (hsrc e).1 (hsrc e).2 hlo4 hd1 i)
    (fun i j => v5_at m c i j) (fun i j => v6_at m c i j) (fun j => v7_at m c j) (fun i j => v8_at m c i j)
    (fun j => v9_at m c j) (fun i j => congrFun (arg7_eq m c) (ix2 i j)) (fun j => v10_at m c j) k

/-- THE COORDINATE MESSAGE. Likewise for the coordinate message. -/
theorem coord_agree
    (hsrc : ∀ e : Fin 3200000, (-100000 : Int) ≤ (A3 m c (ix1 e)).toInt ∧ (A3 m c (ix1 e)).toInt < 100000)
    (e : Fin 3200000) (hd0 : (0 : Int) ≤ (A4 m c (ix1 e)).toInt) (hd1 : (A4 m c (ix1 e)).toInt < 100000) (a : Fin 3) :
    (W6 m c (Proc.devRef .tc main_v13_1) : S3200000x3.Idx → EReal) (ix2 e a)
      = Cert.ReferenceIdeal.Read.val_main_v55 (F := Ideal) (A0 m c) (A1 m c) (A2 m c) (A3 m c) (A4 m c) (A5 m c) (A6 m c)
          (A7 m c) (A8 m c) (A13 m c) (A14 m c) (A15 m c) (ix2 e a) := by
  have hlo4 : (-100000 : Int) ≤ (A4 m c (ix1 e)).toInt := by omega
  refine (congrFun (W6_arr m c 14) (ix2 e a)).trans ?_
  refine (final_coord (E5 m) c e a).trans ?_
  refine Eq.trans ?_ (ref_coord_at (A0 m c) (A1 m c) (A2 m c) (A3 m c) (A4 m c) (A5 m c) (A6 m c) (A7 m c) (A8 m c)
    (A13 m c) (A14 m c) (A15 m c) e a).symm
  exact edgeRowCoord_congr
    (fun i => src_row m c e (hsrc e).1 (hsrc e).2 i)
    (fun i => dst_row m c e hlo4 hd1 i)
    (fun i => packed_row m c e (hsrc e).1 (hsrc e).2 hlo4 hd1 i)
    (fun i j => v5_at m c i j) (fun i j => v6_at m c i j) (fun j => v7_at m c j) (fun i j => v8_at m c i j)
    (fun j => v9_at m c j) (fun i j => congrFun (arg7_eq m c) (ix2 i j)) (fun j => v10_at m c j)
    (fun i j => congrFun (arg13_eq m c) (ix2 i j)) (fun j => v11_at m c j) (fun j => v12_at m c j) a

end

end Cert.Bridge

end
-- ==== Proof.BridgeNode.lean ====
/-
  The node half of the comparison: what the kernel program's node region leaves is the reference program's result.

  Both programs end, at every node n, with
      new features    = second dense layer ( act ( h(n) · Wa + agg(n) · Wb + b1 ) ) + b2,
      new coordinates = x(n) + sumx(n) / max (deg(n), 1),
  where agg(n), sumx(n), deg(n) are the sums, over the edges whose target word is n, of the edge's message, of its
  coordinate message and of one. The kernel program reads all of it from rows: the node's own row and its aggregated
  row, the first layer's matrix as its two halves Wa, Wb and its bias as a row; and one packed row of seven numbers
  [x(n), sumx(n), deg(n)]. The reference reads the same numbers from its own arrays. So the two results are the SAME
  per-node functions of arguments that agree one by one:
    * own rows and weights are the programs' common arguments;
    * the three sums run over the same set of edges — those whose target word is n, which are edges with a valid
      target — and on such an edge the two programs' messages agree (the edge half of the comparison);
    * the in-degree is the same sum of the same word.
-/
import proofs.«405486_j56169582297514_2_alg».proof.Proof.KernelRunI
import proofs.«405486_j56169582297514_2_alg».proof.Proof.NodeValueI
import proofs.«405486_j56169582297514_2_alg».proof.Proof.KernelHost1I
import proofs.«405486_j56169582297514_2_alg».proof.Proof.KernelAggI
import proofs.«405486_j56169582297514_2_alg».proof.Proof.RefNode
import proofs.«405486_j56169582297514_2_alg».proof.Proof.BridgeEdge
import proofs.«405486_j56169582297514_2_alg».proof.Proof.ScatterRows
import proofs.«405486_j56169582297514_2_alg».proof.Proof.Spec
import Idealize.ShloMosaic.Lib.ValueIdx

set_option maxRecDepth 16384

noncomputable section

open scoped BigOperators

namespace Cert.Bridge

open Cert.KernelIdeal Cert.KernelIdeal.Gen Cert.KernelIdeal.Run Cert.Egnn
open Cert.KernelIdeal.Host0 (A0 A1 A2 A3 A5 A6 A7 A8 A13 A14 A15)
open Cert.KernelIdeal.Host1 (A4 A9 A10 A11 A12 MsgB MsgX)
open Idealize.ShloMosaic Idealize.ShloMosaic.ValueIdx Idealize.ShloMosaic.TcCoe Idealize.SL.Sem

section
variable (m : (ℓ : Loc nD τ sig) → Buf (Elt Ideal) ℓ) (c : Dev nD)

/-! ## The three per-node sums agree -/

/-- The aggregated message of node `n` at column `k`: both programs add, onto zero, column `k` of the messages of the
    edges whose target word is `n`; such an edge's target is a valid node, so its two messages agree. -/
theorem agg_agree
    (hsrc : ∀ e : Fin 3200000, (-100000 : Int) ≤ (A3 m c (ix1 e)).toInt ∧ (A3 m c (ix1 e)).toInt < 100000)
    (n : Fin 100000) (k : Fin 32) :
    (W7 m c (Proc.devRef .tc main_v17) : S100000x32.Idx → EReal) (ix2 n k)
      = Cert.ReferenceIdeal.Read.val_main_v58 (F := Ideal) (A0 m c) (A1 m c) (A2 m c) (A3 m c) (A4 m c) (A5 m c) (A6 m c)
          (A7 m c) (A8 m c) (ix2 n k) := by
  refine (Cert.KernelIdeal.Agg.ker_agg_at m c n k).trans ?_
  refine Eq.trans ?_ (Cert.ReferenceIdeal.RefNode.ref_agg_at (A0 m c) (A1 m c) (A2 m c) (A3 m c) (A4 m c) (A5 m c) (A6 m c)
          (A7 m c) (A8 m c) n k).symm
  refine congrArg (Ideal.ofBits .f32 0x00000000#32 + ·) ?_
  refine Cert.ScatterRows.sum_filter_congr_of_land (fun e : Fin 3200000 => A4 m c (ix1 e)) (n.val : Int) _ _ fun e he => ?_
  have he' : (A4 m c (ix1 e)).toInt = (n.val : Int) := he
  have hn : (n.val : Int) < 100000 := by exact_mod_cast n.isLt
  exact msg_agree m c hsrc e (le_of_le_of_eq (Int.natCast_nonneg n.val) he'.symm) (lt_of_eq_of_lt he' hn) k

/-- The summed coordinate message of node `n` at coordinate `a`, likewise. -/
theorem sumx_agree
    (hsrc : ∀ e : Fin 3200000, (-100000 : Int) ≤ (A3 m c (ix1 e)).toInt ∧ (A3 m c (ix1 e)).toInt < 100000)
    (n : Fin 100000) (a : Fin 3) :
    (W7 m c (Proc.devRef .tc main_v20) : S100000x3.Idx → EReal) (ix2 n a)
      = Cert.ReferenceIdeal.Read.val_main_v65 (F := Ideal) (A0 m c) (A1 m c) (A2 m c) (A3 m c) (A4 m c) (A5 m c) (A6 m c)
          (A7 m c) (A8 m c) (A13 m c) (A14 m c) (A15 m c) (ix2 n a) := by
  refine (Cert.KernelIdeal.Agg.ker_sumx_at m c n a).trans ?_
  refine Eq.trans ?_ (Cert.ReferenceIdeal.RefNode.ref_sumx_at (A0 m c) (A1 m c) (A2 m c) (A3 m c) (A4 m c) (A5 m c) (A6 m c)
          (A7 m c) (A8 m c) (A13 m c) (A14 m c) (A15 m c) n a).symm
  refine congrArg (Ideal.ofBits .f32 0x00000000#32 + ·) ?_
  refine Cert.ScatterRows.sum_filter_congr_of_land (fun e : Fin 3200000 => A4 m c (ix1 e)) (n.val : Int) _ _ fun e he => ?_
  have he' : (A4 m c (ix1 e)).toInt = (n.val : Int) := he
  have hn : (n.val : Int) < 100000 := by exact_mod_cast n.isLt
  exact coord_agree m c hsrc e (le_of_le_of_eq (Int.natCast_nonneg n.val) he'.symm) (lt_of_eq_of_lt he' hn) a

/-- The in-degree of node `n`: the same sum of the same unit word in both programs. -/
theorem deg_agree (n : Fin 100000) :
    (W7 m c (Proc.devRef .tc main_v24) : S100000.Idx → EReal) (ix1 n)
      = Cert.ReferenceIdeal.Read.val_main_v62 (F := Ideal) (A4 m c) (ix2 n (0 : Fin 1)) :=
  (Cert.KernelIdeal.Agg.ker_deg_at m c n).trans (Cert.ReferenceIdeal.RefNode.ref_deg_at (A4 m c) n).symm

/-! ## The two results agree -/

/-- THE NEW FEATURES. At every node and column, what the kernel program's node region leaves is the reference
    program's result: both are the per-node feature function, of the same own row, of aggregated rows that agree,
    and of the same weights — the first layer's matrix read as its two halves, the biases as rows. -/
theorem feat_agree
    (hsrc : ∀ e : Fin 3200000, (-100000 : Int) ≤ (A3 m c (ix1 e)).toInt ∧ (A3 m c (ix1 e)).toInt < 100000)
    (n : Fin 100000) (j : Fin 32) :
    (W8 m c (Proc.devRef .tc main_v31_0) : S100000x32.Idx → EReal) (ix2 n j)
      = Cert.ReferenceIdeal.Read.val_main_v79 (F := Ideal) (A0 m c) (A1 m c) (A2 m c) (A3 m c) (A4 m c) (A5 m c) (A6 m c)
          (A7 m c) (A8 m c) (A9 m c) (A10 m c) (A11 m c) (A12 m c) (ix2 n j) := by
  have hW : W8 m c (Proc.devRef .tc main_v31_0) = (NodeRegion.dat (E7 m) c).arrAt 8 cfg1.N := W8_arr m c 8
  rw [hW]
  refine (Cert.KernelIdeal.NodeValue.final_feat (E7 m) c n j).trans ?_
  refine Eq.trans ?_ (Cert.ReferenceIdeal.RefNode.ref_feat_at (A0 m c) (A1 m c) (A2 m c) (A3 m c) (A4 m c) (A5 m c) (A6 m c)
          (A7 m c) (A8 m c) (A9 m c) (A10 m c) (A11 m c) (A12 m c) n j).symm
  have h1 : (fun k : Fin 32 => Cert.KernelIdeal.NodeValue.aNF (E7 m) c (ix2 n k)) = fun k => A0 m c (ix2 n k) :=
    funext fun k => congrFun (Cert.KernelIdeal.Host1.arg0_eq m c) (ix2 n k)
  have h2 : (fun k : Fin 32 => Cert.KernelIdeal.NodeValue.aHN (E7 m) c (ix2 n k))
      = fun k => Cert.ReferenceIdeal.Read.val_main_v58 (F := Ideal) (A0 m c) (A1 m c) (A2 m c) (A3 m c) (A4 m c) (A5 m c)
          (A6 m c) (A7 m c) (A8 m c) (ix2 n k) :=
    funext fun k => agg_agree m c hsrc n k
  have h3 : (fun k j' : Fin 32 => Cert.KernelIdeal.NodeValue.aWa (E7 m) c (ix2 k j'))
      = fun k j' => A9 m c (ix2 ⟨k.val, by omega⟩ j') :=
    funext fun k => funext fun j' => Cert.KernelIdeal.Host1.v27_at m c k j'
  have h4 : (fun k j' : Fin 32 => Cert.KernelIdeal.NodeValue.aWb (E7 m) c (ix2 k j'))
      = fun k j' => A9 m c (ix2 ⟨k.val + 32, by omega⟩ j') :=
    funext fun k => funext fun j' => Cert.KernelIdeal.Host1.v28_at m c k j'
  have h5 : (fun j' : Fin 32 => Cert.KernelIdeal.NodeValue.aB1 (E7 m) c (ix2 0 j')) = fun j' => A10 m c (ix1 j') :=
    funext fun j' => Cert.KernelIdeal.Host1.v29_at m c j'
  have h6 : (fun k j' : Fin 32 => Cert.KernelIdeal.NodeValue.aW2 (E7 m) c (ix2 k j')) = fun k j' => A11 m c (ix2 k j') :=
    funext fun k => funext fun j' => congrFun (Cert.KernelIdeal.Host1.arg11_eq m c) (ix2 k j')
  have h7 : (fun j' : Fin 32 => Cert.KernelIdeal.NodeValue.aB2 (E7 m) c (ix2 0 j')) = fun j' => A12 m c (ix1 j') :=
    funext fun j' => Cert.KernelIdeal.Host1.v30_at m c j'
  rw [h1, h2, h3, h4, h5, h6, h7]

/-- THE NEW COORDINATES. At every node and coordinate, what the kernel program's node region leaves is the reference
    program's result: both are the node's own coordinate plus its summed coordinate message over the larger of its
    in-degree and one; the kernel reads the three from one packed row — own coordinate at column `a`, summed message
    at column `a + 3`, in-degree at column 6. -/
theorem coordout_agree
    (hsrc : ∀ e : Fin 3200000, (-100000 : Int) ≤ (A3 m c (ix1 e)).toInt ∧ (A3 m c (ix1 e)).toInt < 100000)
    (n : Fin 100000) (a : Fin 3) :
    (W8 m c (Proc.devRef .tc main_v31_1) : S100000x3.Idx → EReal) (ix2 n a)
      = Cert.ReferenceIdeal.Read.val_main_v80 (F := Ideal) (A0 m c) (A1 m c) (A2 m c) (A3 m c) (A4 m c) (A5 m c) (A6 m c)
          (A7 m c) (A8 m c) (A13 m c) (A14 m c) (A15 m c) (ix2 n a) := by
  have hW : W8 m c (Proc.devRef .tc main_v31_1) = (NodeRegion.dat (E7 m) c).arrAt 9 cfg1.N := W8_arr m c 9
  rw [hW]
  refine (Cert.KernelIdeal.NodeValue.final_coord (E7 m) c n a).trans ?_
  refine Eq.trans ?_ (Cert.ReferenceIdeal.RefNode.ref_coordout_at (A0 m c) (A1 m c) (A2 m c) (A3 m c) (A4 m c) (A5 m c) (A6 m c)
          (A7 m c) (A8 m c) (A13 m c) (A14 m c) (A15 m c) n a).symm
  have r0 : Cert.KernelIdeal.NodeValue.aRow (E7 m) c (ix2 n (⟨a.val, by omega⟩ : Fin 7)) = A1 m c (ix2 n a) := by
    refine (Cert.KernelIdeal.Host1.v26_at m c n ⟨a.val, by omega⟩).trans ?_
    rw [dif_pos (show a.val < 3 from a.isLt)]
  have r1 : Cert.KernelIdeal.NodeValue.aRow (E7 m) c (ix2 n (⟨a.val + 3, by omega⟩ : Fin 7))
      = Cert.ReferenceIdeal.Read.val_main_v65 (F := Ideal) (A0 m c) (A1 m c) (A2 m c) (A3 m c) (A4 m c) (A5 m c) (A6 m c)
          (A7 m c) (A8 m c) (A13 m c) (A14 m c) (A15 m c) (ix2 n a) := by
    refine (Cert.KernelIdeal.Host1.v26_at m c n ⟨a.val + 3, by omega⟩).trans ?_
    rw [dif_neg (show ¬ a.val + 3 < 3 from by omega), dif_pos (show a.val + 3 < 6 from by omega)]
    have e : ∀ q : Fin 3, q.val = a.val → (W7 m c (Proc.devRef .tc main_v20) : S100000x3.Idx → EReal) (ix2 n q)
        = Cert.ReferenceIdeal.Read.val_main_v65 (F := Ideal) (A0 m c) (A1 m c) (A2 m c) (A3 m c) (A4 m c) (A5 m c) (A6 m c)
          (A7 m c) (A8 m c) (A13 m c) (A14 m c) (A15 m c) (ix2 n a) := fun q hq => by
      obtain rfl : q = a := Fin.ext hq
      exact sumx_agree m c hsrc n q
    exact e _ (show a.val + 3 - 3 = a.val by omega)
  have r2 : Cert.KernelIdeal.NodeValue.aRow (E7 m) c (ix2 n (⟨6, by omega⟩ : Fin 7))
      = Cert.ReferenceIdeal.Read.val_main_v62 (F := Ideal) (A4 m c) (ix2 n (0 : Fin 1)) := by
    refine (Cert.KernelIdeal.Host1.v26_at m c n ⟨6, by omega⟩).trans ?_
    rw [dif_neg (show ¬ (6 : Nat) < 3 from by omega), dif_neg (show ¬ (6 : Nat) < 6 from by omega)]
    exact (Cert.KernelIdeal.Host1.v25_at m c n).trans (deg_agree m c n)
  unfold nodeRowCoord
  exact congr (congr (congrArg coordOut r0) r1) r2

end

end Cert.Bridge

end
-- ==== Proof.lean ====
/-
  The certificate: the kernel program (word level and idealized) and the idealized reference each run to the end with
  their arguments unchanged, and the idealized kernel and the idealized reference, from memories that agree on the
  arguments, end with the same new node features and the same new coordinates.

  The precondition says every float argument is finite and every source index lies in [−N, N), N the number of nodes:
  the range in which indexing a node table is defined (a negative index counts from the end). Only the index range is
  used. Where a source index is outside it the reference reads a clamped row while the kernel's gather fills the row
  with a not-a-number word, so the two would differ; a target index outside [0, N) needs no assumption, because such an
  edge is dropped by all three sums over incoming edges in both programs.

  The comparison goes node by node. A node's new features are one function of its own feature row, the sum of the
  messages of its incoming edges, and the node network's weights; its new coordinates one function of its own
  coordinates, the sum of the incoming coordinate messages and the number of incoming edges. Both programs compute
  these: the kernel in its second region from packed rows, the reference by a 64-wide product over a concatenated
  row, which is the sum of the two partial products. An incoming edge's message is one function of the feature rows
  and coordinates of its two end nodes, its edge features and the edge network's weights — the kernel in its first
  region from packed rows and a first layer split into four partial products, the reference by a 73-wide product over
  a concatenated row, which is the sum of the four. For an incoming edge the target index is a valid node and the
  source index is in range, so the kernel's filled gathers are the plain gathers the reference makes.
-/
import proofs.«405486_j56169582297514_2_alg».proof.Defs
import proofs.«405486_j56169582297514_2_alg».proof.Proof.Gen.Kernel
import proofs.«405486_j56169582297514_2_alg».proof.Proof.Gen.KernelIdeal
import proofs.«405486_j56169582297514_2_alg».proof.Proof.Gen.ReferenceIdeal
import proofs.«405486_j56169582297514_2_alg».proof.Proof.Gen.Pre_finite_inputs
import proofs.«405486_j56169582297514_2_alg».proof.Proof.Gen.ReferenceIdeal.Run
import proofs.«405486_j56169582297514_2_alg».proof.Proof.Gen.ReferenceIdeal.Read
import proofs.«405486_j56169582297514_2_alg».proof.Proof.KernelFrameB
import proofs.«405486_j56169582297514_2_alg».proof.Proof.KernelFrameI
import proofs.«405486_j56169582297514_2_alg».proof.Proof.PreDecode
import proofs.«405486_j56169582297514_2_alg».proof.Proof.BridgeNode
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level kernel program runs and leaves its arguments unchanged. -/
theorem frame_k : Cert.frame_Kernel := fun m ρ _ => Cert.Kernel.Run.frame (F := Bits) m ρ

/-- So does the idealized kernel program. -/
theorem frame_ki : Cert.frame_KernelIdeal := fun m ρ _ => Cert.KernelIdeal.Run.frame (F := Ideal) m ρ

/-- So does the idealized reference: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both idealized programs end with the same two results. -/
theorem algebraic : Cert.algebraic_KernelIdeal_ReferenceIdeal := by
  intro m ρ m' ρ' hpre hagree
  refine ⟨fun c => Cert.KernelIdeal.Run.W8 m c (Proc.devRef .tc Cert.KernelIdeal.main_v31_0),
    fun c => Cert.KernelIdeal.Run.W8 m c (Proc.devRef .tc Cert.KernelIdeal.main_v31_1),
    Cert.KernelIdeal.Run.results (F := Ideal) m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · -- the new node features
    have hsrc := fun e : Fin 3200000 => Cert.PreDecode.src_range (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (hpre c) e
    obtain ⟨h0, h1, h2, h3, h4, h5, h6, h7, h8, h9, h10, h11, h12, h13, h14, h15⟩ := hagree c
    rw [Cert.ReferenceIdeal.Read.val_main_v79_eq, h0, h1, h2, h3, h4, h5, h6, h7, h8, h9, h10, h11, h12]
    funext i
    obtain ⟨n, j, rfl⟩ : ∃ (n : Fin 100000) (j : Fin 32), i = ix2 n j := ⟨i 0, i 1, eq_ix2 i⟩
    exact (Cert.Bridge.feat_agree m c hsrc n j).symm
  · -- the new coordinates
    have hsrc := fun e : Fin 3200000 => Cert.PreDecode.src_range (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (hpre c) e
    obtain ⟨h0, h1, h2, h3, h4, h5, h6, h7, h8, h9, h10, h11, h12, h13, h14, h15⟩ := hagree c
    rw [Cert.ReferenceIdeal.Read.val_main_v80_eq, h0, h1, h2, h3, h4, h5, h6, h7, h8, h13, h14, h15]
    funext i
    obtain ⟨n, a, rfl⟩ : ∃ (n : Fin 100000) (a : Fin 3), i = ix2 n a := ⟨i 0, i 1, eq_ix2 i⟩
    exact (Cert.Bridge.coordout_agree m c hsrc n a).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
